-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v39)) (v2 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x4096 : Shape := ⟨3, ![8, 512, 4096]⟩
abbrev S8x512 : Shape := ⟨2, ![8, 512]⟩
abbrev S32000x4096 : Shape := ⟨2, ![32000, 4096]⟩
abbrev S_ : Shape := ⟨0, ![]⟩
abbrev S8 : Shape := ⟨1, ![8]⟩

class Facts : Prop where
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S32000x4096 : S_.BroadcastsInDim S32000x4096 (![] : Fin 0 → Fin S32000x4096.rank)
  reducesTo_S32000x4096_S_d0_1 : S32000x4096.ReducesTo [0, 1] S_
  bcast_S_S8x512 : S_.BroadcastsInDim S8x512 (![] : Fin 0 → Fin S8x512.rank)
  reducesTo_S8x512_S_d0_1 : S8x512.ReducesTo [0, 1] S_
  natLt_1_32 : 1 < 32
  reducesTo_S8x512_S8_d1 : S8x512.ReducesTo [1] S8
  bcast_S_S8 : S_.BroadcastsInDim S8 (![] : Fin 0 → Fin S8.rank)
  reducesTo_S8_S_d0 : S8.ReducesTo [0] S_

variable [Facts]

def fn_part2 {F : FTy → Type} [FloatOps F] (main_v28 : IVec S_ 1) (main_v32 : IVec S8 32) (main_c_12 : IVec S_ 32) : IVec S_ 1 :=
  let main_v33 : IVec S8 32 := broadcastInDim S8 ![] bcast_S_S8 main_c_12
  let main_v34 : IVec S8 1 := cmpi .sge main_v32 main_v33
  let main_c_13 : IVec S_ 1 := constantI S_ 1 1#1
  let main_v35 : IVec S_ 1 := (fun x v => Host.reduce IntOp.andi x v reducesTo_S8_S_d0 h_S_) main_v34 main_c_13
  let main_v36 : IVec S_ 1 := andi main_v28 main_v35
  main_v36

def fn_part1 {F : FTy → Type} [FloatOps F] (main_arg2 : IVec S8x512 32) (main_v13 : IVec S_ 1) (main_v16 : IVec S32000x4096 1) : IVec S_ 1 :=
  let main_c_5 : IVec S_ 1 := constantI S_ 1 1#1
  let main_v17 : IVec S_ 1 := (fun x v => Host.reduce IntOp.andi x v reducesTo_S32000x4096_S_d0_1 h_S_) main_v16 main_c_5
  let main_v18 : IVec S_ 1 := andi main_v13 main_v17
  let main_c_6 : IVec S_ 32 := constantI S_ 32 4294967196#32
  let main_v19 : IVec S8x512 32 := broadcastInDim S8x512 ![] bcast_S_S8x512 main_c_6
  let main_v20 : IVec S8x512 1 := cmpi .eq main_arg2 main_v19
  let main_c_7 : IVec S_ 32 := constantI S_ 32 0#32
  let main_v21 : IVec S8x512 32 := broadcastInDim S8x512 ![] bcast_S_S8x512 main_c_7
  let main_v22 : IVec S8x512 1 := cmpi .sge main_arg2 main_v21
  let main_c_8 : IVec S_ 32 := constantI S_ 32 32000#32
  let main_v23 : IVec S8x512 32 := broadcastInDim S8x512 ![] bcast_S_S8x512 main_c_8
  let main_v24 : IVec S8x512 1 := cmpi .slt main_arg2 main_v23
  let main_v25 : IVec S8x512 1 := andi main_v22 main_v24
  let main_v26 : IVec S8x512 1 := ori main_v20 main_v25
  let main_c_9 : IVec S_ 1 := constantI S_ 1 1#1
  let main_v27 : IVec S_ 1 := (fun x v => Host.reduce IntOp.andi x v reducesTo_S8x512_S_d0_1 h_S_) main_v26 main_c_9
  let main_v28 : IVec S_ 1 := andi main_v18 main_v27
  let main_c_10 : IVec S_ 32 := constantI S_ 32 4294967196#32
  let main_v29 : IVec S8x512 32 := broadcastInDim S8x512 ![] bcast_S_S8x512 main_c_10
  let main_v30 : IVec S8x512 1 := cmpi .ne main_arg2 main_v29
  let main_v31 : IVec S8x512 32 := (extui 32 · natLt_1_32) main_v30
  let main_c_11 : IVec S_ 32 := constantI S_ 32 0#32
  let main_v32 : IVec S8 32 := (fun x v => Host.reduce IntOp.addi x v reducesTo_S8x512_S8_d1 h_S_) main_v31 main_c_11
  let main_c_12 : IVec S_ 32 := constantI S_ 32 1#32
  fn_part2 (F := F) main_v28 main_v32 main_c_12

def fn {F : FTy → Type} [FloatOps F] (main_arg0 : FVec F S8x512x4096 .f32) (main_arg1 : FVec F S8x512x4096 .f32) (main_arg2 : IVec S8x512 32) (main_arg3 : FVec F S32000x4096 .f32) (main_arg4 : FVec F S32000x4096 .f32) : IVec S_ 1 :=
  let main_v0 : FVec F S8x512x4096 .f32 := Host.absf main_arg0
  let main_cst : FVec F S_ .f32 := constant S_ .f32 0x7F800000#32
  let main_v1 : FVec F S8x512x4096 .f32 := broadcastInDim S8x512x4096 ![] bcast_S_S8x512x4096 main_cst
  let main_v2 : IVec S8x512x4096 1 := cmpf .olt main_v0 main_v1
  let main_c : IVec S_ 1 := constantI S_ 1 1#1
  let main_v3 : IVec S_ 1 := (fun x v => Host.reduce IntOp.andi x v reducesTo_S8x512x4096_S_d0_1_2 h_S_) main_v2 main_c
  let main_v4 : FVec F S8x512x4096 .f32 := Host.absf main_arg1
  let main_cst_0 : FVec F S_ .f32 := constant S_ .f32 0x7F800000#32
  let main_v5 : FVec F S8x512x4096 .f32 := broadcastInDim S8x512x4096 ![] bcast_S_S8x512x4096 main_cst_0
  let main_v6 : IVec S8x512x4096 1 := cmpf .olt main_v4 main_v5
  let main_c_1 : IVec S_ 1 := constantI S_ 1 1#1
  let main_v7 : IVec S_ 1 := (fun x v => Host.reduce IntOp.andi x v reducesTo_S8x512x4096_S_d0_1_2 h_S_) main_v6 main_c_1
  let main_v8 : IVec S_ 1 := andi main_v3 main_v7
  let main_v9 : FVec F S32000x4096 .f32 := Host.absf main_arg3
  let main_cst_2 : FVec F S_ .f32 := constant S_ .f32 0x7F800000#32
  let main_v10 : FVec F S32000x4096 .f32 := broadcastInDim S32000x4096 ![] bcast_S_S32000x4096 main_cst_2
  let main_v11 : IVec S32000x4096 1 := cmpf .olt main_v9 main_v10
  let main_c_3 : IVec S_ 1 := constantI S_ 1 1#1
  let main_v12 : IVec S_ 1 := (fun x v => Host.reduce IntOp.andi x v reducesTo_S32000x4096_S_d0_1 h_S_) main_v11 main_c_3
  let main_v13 : IVec S_ 1 := andi main_v8 main_v12
  let main_v14 : FVec F S32000x4096 .f32 := Host.absf main_arg4
  let main_cst_4 : FVec F S_ .f32 := constant S_ .f32 0x7F800000#32
  let main_v15 : FVec F S32000x4096 .f32 := broadcastInDim S32000x4096 ![] bcast_S_S32000x4096 main_cst_4
  let main_v16 : IVec S32000x4096 1 := cmpf .olt main_v14 main_v15
  fn_part1 (F := F) main_arg2 main_v13 main_v16
-- ==== Kernel.lean ====
abbrev S8x512x4096 : Shape := ⟨3, ![8, 512, 4096]⟩
abbrev S8x512 : Shape := ⟨2, ![8, 512]⟩
abbrev S32000x4096 : Shape := ⟨2, ![32000, 4096]⟩
abbrev S_ : Shape := ⟨0, ![]⟩
abbrev S4096x4096 : Shape := ⟨2, ![4096, 4096]⟩
abbrev S4096x1 : Shape := ⟨2, ![4096, 1]⟩
abbrev S2048x4096 : Shape := ⟨2, ![2048, 4096]⟩
abbrev S256x4096 : Shape := ⟨2, ![256, 4096]⟩
abbrev S2048x1 : Shape := ⟨2, ![2048, 1]⟩
abbrev S2048x256 : Shape := ⟨2, ![2048, 256]⟩
abbrev S2048 : Shape := ⟨1, ![2048]⟩
abbrev S4096 : Shape := ⟨1, ![4096]⟩
abbrev S8 : Shape := ⟨1, ![8]⟩
abbrev S4 : Shape := ⟨1, ![4]⟩

abbrev nBuf : Space → Nat
  | .hbm => 93
  | .vmem => 20
  | .smem => 0
  | _ => 0

abbrev bufTy : (tb : Table) → Fin (tcTables nBuf tb) → BufTy
  | .hbm, ⟨0, _⟩ => ⟨S8x512x4096, .f32⟩
  | .hbm, ⟨1, _⟩ => ⟨S8x512x4096, .f32⟩
  | .hbm, ⟨2, _⟩ => ⟨S8x512, .i32⟩
  | .hbm, ⟨3, _⟩ => ⟨S32000x4096, .f32⟩
  | .hbm, ⟨4, _⟩ => ⟨S32000x4096, .f32⟩
  | .hbm, ⟨5, _⟩ => ⟨S_, .i32⟩
  | .hbm, ⟨6, _⟩ => ⟨S8x512, .i32⟩
  | .hbm, ⟨7, _⟩ => ⟨S8x512, .i1⟩
  | .hbm, ⟨8, _⟩ => ⟨S_, .i32⟩
  | .hbm, ⟨9, _⟩ => ⟨S_, .i32⟩
  | .hbm, ⟨10, _⟩ => ⟨S8x512, .i32⟩
  | .hbm, ⟨11, _⟩ => ⟨S8x512, .i32⟩
  | .hbm, ⟨12, _⟩ => ⟨S8x512x4096, .bf16⟩
  | .hbm, ⟨13, _⟩ => ⟨S4096x4096, .bf16⟩
  | .hbm, ⟨14, _⟩ => ⟨S4096x1, .i32⟩
  | .hbm, ⟨15, _⟩ => ⟨S4096x1, .f32⟩
  | .hbm, ⟨16, _⟩ => ⟨S4096, .f32⟩
  | .hbm, ⟨17, _⟩ => ⟨S8x512, .f32⟩
  | .hbm, ⟨18, _⟩ => ⟨S8x512, .f32⟩
  | .hbm, ⟨19, _⟩ => ⟨S_, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8x512, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .i32⟩
  | .hbm, ⟨29, _⟩ => ⟨S8x512, .i32⟩
  | .hbm, ⟨30, _⟩ => ⟨S8x512, .i1⟩
  | .hbm, ⟨31, _⟩ => ⟨S_, .i32⟩
  | .hbm, ⟨32, _⟩ => ⟨S_, .i32⟩
  | .hbm, ⟨33, _⟩ => ⟨S8x512, .i32⟩
  | .hbm, ⟨34, _⟩ => ⟨S8x512, .i32⟩
  | .hbm, ⟨35, _⟩ => ⟨S8x512x4096, .bf16⟩
  | .hbm, ⟨36, _⟩ => ⟨S4096x4096, .bf16⟩
  | .hbm, ⟨37, _⟩ => ⟨S4096x1, .i32⟩
  | .hbm, ⟨38, _⟩ => ⟨S4096x1, .f32⟩
  | .hbm, ⟨39, _⟩ => ⟨S4096, .f32⟩
  | .hbm, ⟨40, _⟩ => ⟨S8x512, .f32⟩
  | .hbm, ⟨41, _⟩ => ⟨S8x512, .f32⟩
  | .hbm, ⟨42, _⟩ => ⟨S_, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S8x512, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S4, .f32⟩
  | .hbm, ⟨52, _⟩ => ⟨S4, .f32⟩
  | .hbm, ⟨53, _⟩ => ⟨S4, .f32⟩
  | .hbm, ⟨54, _⟩ => ⟨S4, .f32⟩
  | .hbm, ⟨55, _⟩ => ⟨S4, .f32⟩
  | .hbm, ⟨56, _⟩ => ⟨S4, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S_, .f32⟩
  | .hbm, ⟨61, _⟩ => ⟨S4, .f32⟩
  | .hbm, ⟨62, _⟩ => ⟨S4, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S_, .f32⟩
  | .hbm, ⟨69, _⟩ => ⟨S4, .f32⟩
  | .hbm, ⟨70, _⟩ => ⟨S4, .f32⟩
  | .hbm, ⟨71, _⟩ => ⟨S_, .f32⟩
  | .hbm, ⟨72, _⟩ => ⟨S4, .f32⟩
  | .hbm, ⟨73, _⟩ => ⟨S4, .f32⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S_, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S_, .f32⟩
  | .hbm, ⟨83, _⟩ => ⟨S4, .f32⟩
  | .hbm, ⟨84, _⟩ => ⟨S4, .f32⟩
  | .hbm, ⟨85, _⟩ => ⟨S_, .f32⟩
  | .hbm, ⟨86, _⟩ => ⟨S4, .f32⟩
  | .hbm, ⟨87, _⟩ => ⟨S4, .f32⟩
  | .hbm, ⟨88, _⟩ => ⟨S4, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .local _ .vmem, ⟨0, _⟩ => ⟨S2048x4096, .bf16⟩
  | .local _ .vmem, ⟨1, _⟩ => ⟨S256x4096, .f32⟩
  | .local _ .vmem, ⟨2, _⟩ => ⟨S256x4096, .f32⟩
  | .local _ .vmem, ⟨3, _⟩ => ⟨S2048x1, .i32⟩
  | .local _ .vmem, ⟨4, _⟩ => ⟨S2048x1, .i32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x4096, .bf16⟩
  | .local _ .vmem, ⟨11, _⟩ => ⟨S256x4096, .f32⟩
  | .local _ .vmem, ⟨12, _⟩ => ⟨S256x4096, .f32⟩
  | .local _ .vmem, ⟨13, _⟩ => ⟨S2048x1, .i32⟩
  | .local _ .vmem, ⟨14, _⟩ => ⟨S2048x1, .i32⟩
  | .local _ .vmem, ⟨15, _⟩ => ⟨S2048x1, .f32⟩
  | .local _ .vmem, ⟨16, _⟩ => ⟨S2048x1, .f32⟩
  | .local _ .vmem, ⟨17, _⟩ => ⟨S2048x1, .f32⟩
  | .local _ .vmem, ⟨18, _⟩ => ⟨S2048x1, .f32⟩
  | .local _ .vmem, ⟨19, _⟩ => ⟨S2048x1, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_cst_12 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩
abbrev main_v51 : Ref sig .tc := ⟨.hbm, 76, rfl⟩
abbrev main_cst_14 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_15 : Ref sig .tc := ⟨.hbm, 82, rfl⟩
abbrev main_v56 : Ref sig .tc := ⟨.hbm, 83, rfl⟩
abbrev main_v57 : Ref sig .tc := ⟨.hbm, 84, rfl⟩
abbrev main_cst_16 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_17 : Ref sig .tc := ⟨.hbm, 89, rfl⟩
abbrev main_v61 : Ref sig .tc := ⟨.hbm, 90, rfl⟩
abbrev main_cst_18 : Ref sig .tc := ⟨.hbm, 91, rfl⟩
abbrev main_v62 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v46 : BitVec 1 := Scalar.cmpi .eq arg1 c124_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 125], ![false, false]⟩

def k1_cond2 (i : grid1.Coords) : BitVec 1 :=
  let arg1 : BitVec 32 := BitVec.ofNat 32 (i 1).val
  let c124_i32 : BitVec 32 := 124#32
  let v46 : BitVec 1 := Scalar.cmpi .eq arg1 c124_i32
  let v47 : BitVec 32 := Scalar.extui v46
  let c0_i32_24 : BitVec 32 := 0#32
  let v48 : BitVec 1 := Scalar.cmpi .ne v47 c0_i32_24
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S8x512 : S_.BroadcastsInDim S8x512 (![] : Fin 0 → Fin S8x512.rank)
  bitsLt_bf16_f32 : FTy.bits .bf16 < FTy.bits .f32
  shapeCasts_S8x512x4096_S4096x4096 : S8x512x4096.ShapeCasts S4096x4096
  shapeCasts_S8x512_S4096x1 : S8x512.ShapeCasts S4096x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256x4096_S256x4096_0_0 : ∀ a, (![0, 0] : Fin 2 → Nat) a + S256x4096.size a ≤ S256x4096.size a
  h_S256x4096 : 0 < S256x4096.numel
  reduces_S2048x256_S2048 : S2048x256.Reduces [1] S2048
  shapeCasts_S2048_S2048x1 : S2048.ShapeCasts S2048x1
  broadcasts_S2048x1_S2048x256 : S2048x1.Broadcasts S2048x256
  iota_S2048x256_d1_w32 : S2048x256.Iotas .tc 32 [1]
  shapeCasts_S4096x1_S4096 : S4096x1.ShapeCasts S4096
  shapeCasts_S4096_S8x512 : S4096.ShapeCasts S8x512
  reducesTo_S8x512_S8_d1 : S8x512.ReducesTo [1] S8
  h_S_ : 0 < S_.numel
  bcast_S_S8 : S_.BroadcastsInDim S8 (![] : Fin 0 → Fin S8.rank)
  slices_S8_S4_0 : S8.Slices ![0] S4
  slices_S8_S4_4 : S8.Slices ![4] S4
  bcast_S_S4 : S_.BroadcastsInDim S4 (![] : Fin 0 → Fin S4.rank)
  reducesTo_S4_S_d0 : S4.ReducesTo [0] S_
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S4096x4096.size a
  hwx0_0 : ∀ i : grid0.Coords, EltTy.bits .bf16 = 32 ∨ (Rect.block (s := S4096x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S32000x4096.size a
  hwx0_1 : ∀ i : grid0.Coords, EltTy.bits .f32 = 32 ∨ (Rect.block (s := S32000x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .i32 = 32 ∨ (Rect.block (s := S4096x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .f32 = 32 ∨ (Rect.block (s := S4096x1) S2048x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S4096x4096.size a
  hwx1_0 : ∀ i : grid1.Coords, EltTy.bits .bf16 = 32 ∨ (Rect.block (s := S4096x4096) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S32000x4096.size a
  hwx1_1 : ∀ i : grid1.Coords, EltTy.bits .f32 = 32 ∨ (Rect.block (s := S32000x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S4096x1.size a
  hwx1_2 : ∀ i : grid1.Coords, EltTy.bits .i32 = 32 ∨ (Rect.block (s := S4096x1) S2048x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S4096x1.size a
  hwx1_3 : ∀ i : grid1.Coords, EltTy.bits .f32 = 32 ∨ (Rect.block (s := S4096x1) S2048x1.size (cc1_transform_3 i) (hinb1_3 i)).WholeWords (EltTy.packing .f32)

variable [Facts₀]

def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpec (Memref.whole main_v4) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v20) S2048x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S2048x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x512x4096 : Shape := ⟨3, ![8, 512, 4096]⟩
abbrev S8x512 : Shape := ⟨2, ![8, 512]⟩
abbrev S32000x4096 : Shape := ⟨2, ![32000, 4096]⟩
abbrev S8x512x32000 : Shape := ⟨3, ![8, 512, 32000]⟩
abbrev S_ : Shape := ⟨0, ![]⟩
abbrev S8x512x1 : Shape := ⟨3, ![8, 512, 1]⟩
abbrev S8x512x1x1 : Shape := ⟨4, ![8, 512, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩

abbrev nBuf : Space → Nat
  | .hbm => 159
  | .vmem => 0
  | .smem => 0
  | _ => 0

abbrev hbmTy0_0 (i : Nat) : BufTy := match i % 128 with
  | 0 => ⟨S8x512x4096, .f32⟩
  | 1 => ⟨S8x512x4096, .f32⟩
  | 2 => ⟨S8x512, .i32⟩
  | 3 => ⟨S32000x4096, .f32⟩
  | 4 => ⟨S32000x4096, .f32⟩
  | 5 => ⟨S8x512x32000, .f32⟩
  | 6 => ⟨S_, .f32⟩
  | 7 => ⟨S8x512, .f32⟩
  | 8 => ⟨S_, .f32⟩
  | 9 => ⟨S8x512, .f32⟩
  | 10 => ⟨S8x512, .f32⟩
  | 11 => ⟨S8x512x1, .f32⟩
  | 12 => ⟨S8x512x32000, .f32⟩
  | 13 => ⟨S8x512x32000, .f32⟩
  | 14 => ⟨S8x512x32000, .f32⟩
  | 15 => ⟨S_, .f32⟩
  | 16 => ⟨S8x512, .f32⟩
  | 17 => ⟨S8x512x1, .f32⟩
  | 18 => ⟨S8x512x1, .f32⟩
  | 19 => ⟨S8x512x32000, .f32⟩
  | 20 => ⟨S8x512x32000, .f32⟩
  | 21 => ⟨S_, .i32⟩
  | 22 => ⟨S8x512, .i32⟩
  | 23 => ⟨S8x512, .i1⟩
  | 24 => ⟨S_, .i32⟩
  | 25 => ⟨S_, .i32⟩
  | 26 => ⟨S8x512, .i32⟩
  | 27 => ⟨S8x512, .i32⟩
  | 28 => ⟨S8x512x1, .i32⟩
  | 29 => ⟨S_, .i32⟩
  | 30 => ⟨S8x512x1, .i32⟩
  | 31 => ⟨S8x512x1, .i1⟩
  | 32 => ⟨S_, .i32⟩
  | 33 => ⟨S8x512x1, .i32⟩
  | 34 => ⟨S8x512x1, .i32⟩
  | 35 => ⟨S8x512x1, .i32⟩
  | 36 => ⟨S8x512x1x1, .i32⟩
  | 37 => ⟨S1, .i32⟩
  | 38 => ⟨S_, .i32⟩
  | 39 => ⟨S8x512x1x1, .i32⟩
  | 40 => ⟨S8x512x1x1, .i1⟩
  | 41 => ⟨S1x1x1x1, .i32⟩
  | 42 => ⟨S8x512x1x1, .i32⟩
  | 43 => ⟨S8x512x1x1, .i1⟩
  | 44 => ⟨S8x512x1x1, .i1⟩
  | 45 => ⟨S_, .i1⟩
  | 46 => ⟨S8x512x1, .i1⟩
  | 47 => ⟨S8x512x1, .f32⟩
  | 48 => ⟨S_, .f32⟩
  | 49 => ⟨S8x512x1, .f32⟩
  | 50 => ⟨S8x512x1, .f32⟩
  | 51 => ⟨S8x512, .f32⟩
  | 52 => ⟨S8x512, .f32⟩
  | 53 => ⟨S8x512, .f32⟩
  | 54 => ⟨S_, .f32⟩
  | 55 => ⟨S8, .f32⟩
  | 56 => ⟨S8x512, .i32⟩
  | 57 => ⟨S_, .i32⟩
  | 58 => ⟨S8, .i32⟩
  | 59 => ⟨S8, .f32⟩
  | 60 => ⟨S8, .f32⟩
  | 61 => ⟨S8x512x32000, .f32⟩
  | 62 => ⟨S_, .f32⟩
  | 63 => ⟨S8x512, .f32⟩
  | 64 => ⟨S_, .f32⟩
  | 65 => ⟨S8x512, .f32⟩
  | 66 => ⟨S8x512, .f32⟩
  | 67 => ⟨S8x512x1, .f32⟩
  | 68 => ⟨S8x512x32000, .f32⟩
  | 69 => ⟨S8x512x32000, .f32⟩
  | 70 => ⟨S8x512x32000, .f32⟩
  | 71 => ⟨S_, .f32⟩
  | 72 => ⟨S8x512, .f32⟩
  | 73 => ⟨S8x512x1, .f32⟩
  | 74 => ⟨S8x512x1, .f32⟩
  | 75 => ⟨S8x512x32000, .f32⟩
  | 76 => ⟨S8x512x32000, .f32⟩
  | 77 => ⟨S_, .i32⟩
  | 78 => ⟨S8x512, .i32⟩
  | 79 => ⟨S8x512, .i1⟩
  | 80 => ⟨S_, .i32⟩
  | 81 => ⟨S_, .i32⟩
  | 82 => ⟨S8x512, .i32⟩
  | 83 => ⟨S8x512, .i32⟩
  | 84 => ⟨S8x512x1, .i32⟩
  | 85 => ⟨S_, .i32⟩
  | 86 => ⟨S8x512x1, .i32⟩
  | 87 => ⟨S8x512x1, .i1⟩
  | 88 => ⟨S_, .i32⟩
  | 89 => ⟨S8x512x1, .i32⟩
  | 90 => ⟨S8x512x1, .i32⟩
  | 91 => ⟨S8x512x1, .i32⟩
  | 92 => ⟨S8x512x1x1, .i32⟩
  | 93 => ⟨S1, .i32⟩
  | 94 => ⟨S_, .i32⟩
  | 95 => ⟨S8x512x1x1, .i32⟩
  | 96 => ⟨S8x512x1x1, .i1⟩
  | 97 => ⟨S1x1x1x1, .i32⟩
  | 98 => ⟨S8x512x1x1, .i32⟩
  | 99 => ⟨S8x512x1x1, .i1⟩
  | 100 => ⟨S8x512x1x1, .i1⟩
  | 101 => ⟨S_, .i1⟩
  | 102 => ⟨S8x512x1, .i1⟩
  | 103 => ⟨S8x512x1, .f32⟩
  | 104 => ⟨S_, .f32⟩
  | 105 => ⟨S8x512x1, .f32⟩
  | 106 => ⟨S8x512x1, .f32⟩
  | 107 => ⟨S8x512, .f32⟩
  | 108 => ⟨S8x512, .f32⟩
  | 109 => ⟨S8x512, .f32⟩
  | 110 => ⟨S_, .f32⟩
  | 111 => ⟨S8, .f32⟩
  | 112 => ⟨S8x512, .i32⟩
  | 113 => ⟨S_, .i32⟩
  | 114 => ⟨S8, .i32⟩
  | 115 => ⟨S8, .f32⟩
  | 116 => ⟨S8, .f32⟩
  | 117 => ⟨S4, .f32⟩
  | 118 => ⟨S4, .f32⟩
  | 119 => ⟨S4, .f32⟩
  | 120 => ⟨S4, .f32⟩
  | 121 => ⟨S4, .f32⟩
  | 122 => ⟨S4, .f32⟩
  | 123 => ⟨S_, .f32⟩
  | 124 => ⟨S4, .f32⟩
  | 125 => ⟨S4, .f32⟩
  | 126 => ⟨S_, .f32⟩
  | 127 => ⟨S4, .f32⟩
  | _ => ⟨S8x512x4096, .f32⟩

abbrev hbmTy0_1 (i : Nat) : BufTy := match i % 128 with
  | 0 => ⟨S4, .f32⟩
  | 1 => ⟨S_, .f32⟩
  | 2 => ⟨S4, .f32⟩
  | 3 => ⟨S4, .f32⟩
  | 4 => ⟨S4, .f32⟩
  | 5 => ⟨S4, .f32⟩
  | 6 => ⟨S_, .f32⟩
  | 7 => ⟨S4, .f32⟩
  | 8 => ⟨S4, .f32⟩
  | 9 => ⟨S_, .f32⟩
  | 10 => ⟨S4, .f32⟩
  | 11 => ⟨S4, .f32⟩
  | 12 => ⟨S_, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S4, .f32⟩
  | 20 => ⟨S_, .f32⟩
  | 21 => ⟨S4, .f32⟩
  | 22 => ⟨S4, .f32⟩
  | 23 => ⟨S_, .f32⟩
  | 24 => ⟨S4, .f32⟩
  | 25 => ⟨S4, .f32⟩
  | 26 => ⟨S4, .f32⟩
  | 27 => ⟨S_, .f32⟩
  | 28 => ⟨S_, .f32⟩
  | 29 => ⟨S_, .f32⟩
  | 30 => ⟨S_, .f32⟩
  | _ => ⟨S8x512x4096, .f32⟩

abbrev hbmTy (i : Nat) : BufTy := match i / 128 with
  | 0 => hbmTy0_0 i
  | 1 => hbmTy0_1 i
  | _ => ⟨S8x512x4096, .f32⟩

abbrev bufTy : (tb : Table) → Fin (tcTables nBuf tb) → BufTy
  | .hbm, ⟨i, _⟩ => hbmTy i
  | _, _ => ⟨S8x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_v4 : Ref sig .tc := ⟨.hbm, 27, rfl⟩
abbrev main_v5 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_cst : Ref sig .tc := ⟨.hbm, 54, rfl⟩
abbrev main_v10 : Ref sig .tc := ⟨.hbm, 55, rfl⟩
abbrev main_v11 : Ref sig .tc := ⟨.hbm, 56, rfl⟩
abbrev main_c_1 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_call3_cst : Ref sig .tc := ⟨.hbm, 62, rfl⟩
abbrev main_call3_v0 : Ref sig .tc := ⟨.hbm, 63, rfl⟩
abbrev main_call3_cst_0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_cst_1 : Ref sig .tc := ⟨.hbm, 71, rfl⟩
abbrev main_call3_v7 : Ref sig .tc := ⟨.hbm, 72, rfl⟩
abbrev main_call3_v8 : Ref sig .tc := ⟨.hbm, 73, rfl⟩
abbrev main_call3_v9 : Ref sig .tc := ⟨.hbm, 74, rfl⟩
abbrev main_call3_v10 : Ref sig .tc := ⟨.hbm, 75, rfl⟩
abbrev main_v16 : Ref sig .tc := ⟨.hbm, 76, rfl⟩
abbrev main_c_2 : Ref sig .tc := ⟨.hbm, 77, rfl⟩
abbrev main_v17 : Ref sig .tc := ⟨.hbm, 78, rfl⟩
abbrev main_v18 : Ref sig .tc := ⟨.hbm, 79, rfl⟩
abbrev main_c_3 : Ref sig .tc := ⟨.hbm, 80, rfl⟩
abbrev main_call4_v0 : Ref sig .tc := ⟨.hbm, 81, rfl⟩
abbrev main_call4_v1 : Ref sig .tc := ⟨.hbm, 82, rfl⟩
abbrev main_v19 : Ref sig .tc := ⟨.hbm, 83, rfl⟩
abbrev main_v20 : Ref sig .tc := ⟨.hbm, 84, rfl⟩
abbrev main_call5_c : Ref sig .tc := ⟨.hbm, 85, rfl⟩
abbrev main_call5_v0 : Ref sig .tc := ⟨.hbm, 86, rfl⟩
abbrev main_call5_v1 : Ref sig .tc := ⟨.hbm, 87, rfl⟩
abbrev main_call5_c_0 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_v5 : Ref sig .tc := ⟨.hbm, 92, rfl⟩
abbrev main_call5_c_1 : Ref sig .tc := ⟨.hbm, 93, rfl⟩
abbrev main_call5_c_2 : Ref sig .tc := ⟨.hbm, 94, rfl⟩
abbrev main_call5_v6 : Ref sig .tc := ⟨.hbm, 95, rfl⟩
abbrev main_call5_v7 : Ref sig .tc := ⟨.hbm, 96, rfl⟩
abbrev main_call5_v8 : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_call5_c_3 : Ref sig .tc := ⟨.hbm, 101, rfl⟩
abbrev main_call5_v12 : Ref sig .tc := ⟨.hbm, 102, rfl⟩
abbrev main_call5_v13 : Ref sig .tc := ⟨.hbm, 103, rfl⟩
abbrev main_call5_cst : Ref sig .tc := ⟨.hbm, 104, rfl⟩
abbrev main_call5_v14 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_cst_4 : Ref sig .tc := ⟨.hbm, 110, rfl⟩
abbrev main_v25 : Ref sig .tc := ⟨.hbm, 111, rfl⟩
abbrev main_v26 : Ref sig .tc := ⟨.hbm, 112, rfl⟩
abbrev main_c_5 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_cst_6 : Ref sig .tc := ⟨.hbm, 123, rfl⟩
abbrev main_v36 : Ref sig .tc := ⟨.hbm, 124, rfl⟩
abbrev main_v37 : Ref sig .tc := ⟨.hbm, 125, rfl⟩
abbrev main_cst_7 : Ref sig .tc := ⟨.hbm, 126, rfl⟩
abbrev main_v38 : Ref sig .tc := ⟨.hbm, 127, rfl⟩
abbrev main_v39 : Ref sig .tc := ⟨.hbm, 128, rfl⟩
abbrev main_cst_8 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_cst_9 : Ref sig .tc := ⟨.hbm, 134, rfl⟩
abbrev main_v44 : Ref sig .tc := ⟨.hbm, 135, rfl⟩
abbrev main_v45 : Ref sig .tc := ⟨.hbm, 136, rfl⟩
abbrev main_cst_10 : Ref sig .tc := ⟨.hbm, 137, rfl⟩
abbrev main_v46 : Ref sig .tc := ⟨.hbm, 138, rfl⟩
abbrev main_v47 : Ref sig .tc := ⟨.hbm, 139, rfl⟩
abbrev main_cst_11 : Ref sig .tc := ⟨.hbm, 140, rfl⟩
abbrev main_v48 : Ref sig .tc := ⟨.hbm, 141, rfl⟩
abbrev main_v49 : Ref sig .tc := ⟨.hbm, 142, rfl⟩
abbrev main_cst_12 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_v53 : Ref sig .tc := ⟨.hbm, 147, rfl⟩
abbrev main_cst_13 : Ref sig .tc := ⟨.hbm, 148, rfl⟩
abbrev main_v54 : Ref sig .tc := ⟨.hbm, 149, rfl⟩
abbrev main_v55 : Ref sig .tc := ⟨.hbm, 150, rfl⟩
abbrev main_cst_14 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_cst_15 : Ref sig .tc := ⟨.hbm, 155, rfl⟩
abbrev main_v59 : Ref sig .tc := ⟨.hbm, 156, rfl⟩
abbrev main_cst_16 : Ref sig .tc := ⟨.hbm, 157, rfl⟩
abbrev main_v60 : Ref sig .tc := ⟨.hbm, 158, rfl⟩

abbrev nD : Nat := 1
abbrev τ : Topo := Topo.v7x

variable {F : FTy → Type} [FloatOps F]

class Facts₀ : Prop where
  reducesTo_S8x512x32000_S8x512_d2 : S8x512x32000.ReducesTo [2] S8x512
  h_S_ : 0 < S_.numel
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x32000_0_1_2 : S8x512x1.BroadcastsInDim S8x512x32000 (![0, 1, 2] : Fin 3 → Fin S8x512x32000.rank)
  bcast_S_S8x512x1 : S_.BroadcastsInDim S8x512x1 (![] : Fin 0 → Fin S8x512x1.rank)
  shapeCasts_S8x512x1_S8x512x1x1 : S8x512x1.ShapeCasts S8x512x1x1
  bcast_S_S8x512x1x1 : S_.BroadcastsInDim S8x512x1x1 (![] : Fin 0 → Fin S8x512x1x1.rank)
  bcast_S1_S1x1x1x1_3 : S1.BroadcastsInDim S1x1x1x1 (![3] : Fin 1 → Fin S1x1x1x1.rank)
  bcast_S1x1x1x1_S8x512x1x1_0_1_2_3 : S1x1x1x1.BroadcastsInDim S8x512x1x1 (![0, 1, 2, 3] : Fin 4 → Fin S8x512x1x1.rank)
  reducesTo_S8x512x1x1_S8x512x1_d3 : S8x512x1x1.ReducesTo [3] S8x512x1
  shapeCasts_S8x512x1_S8x512 : S8x512x1.ShapeCasts S8x512
  reducesTo_S8x512_S8_d1 : S8x512.ReducesTo [1] S8
  natLt_1_32 : 1 < 32
  slices_S8_S4_0 : S8.Slices ![0] S4
  slices_S8_S4_4 : S8.Slices ![4] S4
  bcast_S_S4 : S_.BroadcastsInDim S4 (![] : Fin 0 → Fin S4.rank)
  reducesTo_S4_S_d0 : S4.ReducesTo [0] S_
  dot_S8x512x4096_S32000x4096_S8x512x32000_2_1_01_0_n_n_wf : DotDims.WF S8x512x4096 S32000x4096 S8x512x32000 [2] [1] [0, 1] [0] [] []
  gather_S8x512x32000_S8x512x1x1_S8x512x1_n_2_01_01_2_3_111_wf : GatherDims.WF S8x512x32000 S8x512x1x1 S8x512x1 [] [2] [0, 1] [2] [0, 1] 3 ![1, 1, 1]

variable [Facts₀]

def dot_S8x512x4096_S32000x4096_S8x512x32000_2_1_01_0_n_n : DotDims S8x512x4096 S32000x4096 S8x512x32000 where
  lhsContracting := [2]
  rhsContracting := [1]
  lhsNonContracting := [0, 1]
  rhsNonContracting := [0]
  lhsBatch := []
  rhsBatch := []
  wf := dot_S8x512x4096_S32000x4096_S8x512x32000_2_1_01_0_n_n_wf
def gather_S8x512x32000_S8x512x1x1_S8x512x1_n_2_01_01_2_3_111 : GatherDims S8x512x32000 S8x512x1x1 S8x512x1 where
  offsetDims := []
  collapsedSliceDims := [2]
  operandBatchingDims := [0, 1]
  startIndicesBatchingDims := [0, 1]
  startIndexMap := [2]
  indexVectorDim := 3
  sliceSizes := ![1, 1, 1]
  wf := gather_S8x512x32000_S8x512x1x1_S8x512x1_n_2_01_01_2_3_111_wf

class Facts : Prop extends Facts₀ where

variable [Facts]
-- ==== Proof.KI.RunCond.lean ====
/-
  The conditional run of @main with its results: the conditional frame's statement strengthened by what the final
  memory holds in the three result buffers — the last valuation of the unscoped buffers (the launch contents, then each
  host stretch applied in turn, then what a kernel region leaves at the unknowns outs), read at those buffers exactly as
  it is read at the arguments.
-/
import proofs.«409812_j58909771432349_3_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- THE CONDITIONAL RUN. Under the same hypotheses as the conditional frame (one segment record per kernel region, entered
    from the thread state before it and left at the one after it), every weakly fair execution of @main from memory m
    terminates, and every final memory holds, on every core, the three result buffers at the last valuation's contents
    and each of the five arguments as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      r.2.mem ((c.tc : Thread nD τ).loc main_v62) = V9 m outs c main_v62
      ∧ r.2.mem ((c.tc : Thread nD τ).loc main_v39) = V9 m outs c main_v39
      ∧ r.2.mem ((c.tc : Thread nD τ).loc main_v41) = V9 m outs c main_v41
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, hpre0 c, hpost0 c, .rfl, .rfl, hpre1 c, hpost1 c, sep_mono .rfl (hE2 c)⟩)
    (hinit := ?_) (QY := fun c s => s.mem ((c.tc : Thread nD τ).loc main_v62) = V9 m outs c main_v62 ∧ s.mem ((c.tc : Thread nD τ).loc main_v39) = V9 m outs c main_v39 ∧ s.mem ((c.tc : Thread nD τ).loc main_v41) = V9 m outs c main_v41 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffers and each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v62) (Finset.mem_filter.mpr ⟨StableHlo.devRef_mem_tcRefs main_v62, by decide⟩),
        h (Proc.devRef .tc main_v39) (Finset.mem_filter.mpr ⟨StableHlo.devRef_mem_tcRefs main_v39, by decide⟩),
        h (Proc.devRef .tc main_v41) (Finset.mem_filter.mpr ⟨StableHlo.devRef_mem_tcRefs main_v41, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c)⟩
    · iexact HSI

end Cert.KernelIdeal.Hand

end
-- ==== Proof.KI.Acc0.lean ====
/-
  Pallas call 0, read as a recursion over its grid points. A point (r, v) of the 2 × 125 grid multiplies row tile r of x
  by vocabulary tile v of w and folds the 256 new logits of each row into three running columns kept from point to
  point: the largest logit so far, the sum of exponentials shifted by it, and the logit picked at the row's label. The
  columns start afresh at v = 0; after v = 124 the output column is the picked logit less (maximum + log of the sum).
-/
import proofs.«409812_j58909771432349_3_alg».proof.Proof.Gen.KernelIdeal.Launch
import proofs.«409812_j58909771432349_3_alg».proof.Proof.Gen.KernelIdeal.Skeleton
import proofs.«409812_j58909771432349_3_alg».proof.Proof.Gen.KernelIdeal.Points
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three running columns: (largest logit so far, shifted sum of exponentials so far, picked logit so far). -/
abbrev Cols0 (F : FTy → Type) [FloatOps F] : Type := Vec F S2048x1 .f32 × Vec F S2048x1 .f32 × Vec F S2048x1 .f32

/-- The columns as the first vocabulary tile finds them: −∞, 0, 0. -/
def colsReset0 : Cols0 F := (k0_pay3, k0_pay4, k0_pay5)

/-- One point's update of the columns from the point's blocks of x, w and the labels. -/
def colsStep0 (i : grid0.Coords) (x : Vec F S2048x4096 .bf16) (w : Vec F S256x4096 .f32) (y : Vec F S2048x1 .i32)
    (s : Cols0 F) : Cols0 F :=
  (k0_pay9 x w s.1, k0_pay8 x w s.1 s.1 s.2.1, k0_pay1 (k0_pay6 x w) (k0_pay10 i) y s.2.2)

/-- The columns after point `n`: the update of what the point before left, or of the fresh columns where a row tile begins. -/
def colsAt0 (c : Dev nD) : (n : ℕ) → n < cfg0.N → Cols0 F
  | 0, hn => colsStep0 (grid0.coords ⟨0, hn⟩) (iblk0 V c 0 ⟨0, hn⟩) (iblk0 V c 1 ⟨0, hn⟩) (iblk0 V c 2 ⟨0, hn⟩) colsReset0
  | n + 1, hn => colsStep0 (grid0.coords ⟨n + 1, hn⟩) (iblk0 V c 0 ⟨n + 1, hn⟩) (iblk0 V c 1 ⟨n + 1, hn⟩) (iblk0 V c 2 ⟨n + 1, hn⟩)
      (if (n + 1) % 125 = 0 then colsReset0 else colsAt0 c n (Nat.lt_of_succ_lt hn))

/-- What the columns before point `n`'s update are. -/
def colsBefore0 (c : Dev nD) (n : ℕ) (hn : n < cfg0.N) : Cols0 F :=
  if h : n % 125 = 0 then colsReset0 else colsAt0 V c (n - 1) (by omega)

theorem colsAt0_eq (c : Dev nD) (t : Fin cfg0.N) :
    colsAt0 V c t.val t.isLt = colsStep0 (grid0.coords t) (iblk0 V c 0 t) (iblk0 V c 1 t) (iblk0 V c 2 t) (colsBefore0 V c t.val t.isLt) := by
  obtain ⟨n, hn⟩ := t
  cases n with
  | zero =>
    have h0 : (0 : ℕ) % 125 = 0 := rfl
    unfold colsBefore0; rw [dif_pos h0]; rfl
  | succ n =>
    unfold colsBefore0
    by_cases h : (n + 1) % 125 = 0
    · rw [dif_pos h]; simp only [colsAt0, if_pos h]
    · rw [dif_neg h]; simp only [colsAt0, if_neg h, Nat.add_sub_cancel]

/-- The output column point `n` would store: picked logit − (maximum + log of the sum), of the columns after `n`. -/
def outAt0 (c : Dev nD) (n : ℕ) (hn : n < cfg0.N) : Vec F S2048x1 .f32 :=
  k0_pay2 (colsAt0 V c n hn).2.2 (colsAt0 V c n hn).1 (colsAt0 V c n hn).2.1

end Cert.KernelIdeal.Hand

end
-- ==== Proof.KI.Conds0.lean ====
/-
  Pallas call 0's two branches, from the grid coordinates: the columns are reset where the vocabulary coordinate is 0 and
  the output column is stored where it is 124; and where the pipeline treats the output window as idle.
-/
import proofs.«409812_j58909771432349_3_alg».proof.Proof.Gen.KernelIdeal.Launch
import proofs.«409812_j58909771432349_3_alg».proof.Proof.Gen.KernelIdeal.Skeleton
import proofs.«409812_j58909771432349_3_alg».proof.Proof.Gen.KernelIdeal.Points

noncomputable section

namespace Cert.KernelIdeal.Hand

open Cert.KernelIdeal Cert.KernelIdeal.Gen
open Idealize.ShloMosaic Idealize.ShloMosaic.TcCoe
open Idealize.SL Idealize.SL.Sem

/-- The first branch's condition (reset the columns): the vocabulary coordinate is 0. -/
abbrev cond0_0 (i : grid0.Coords) : Prop :=
  (Scalar.cmpi .ne (Scalar.extui (Scalar.cmpi .eq (BitVec.ofNat 32 (i 1).val) 0#32)) 0#32) = 1#1
/-- It holds at the points ≡ 0 (mod 125). -/
theorem hcond0_0 : ∀ t : Fin cfg0.N, cond0_0 (grid0.coords t) ↔ t.val % 125 = 0 :=
  (by decide +kernel : ∀ t : Fin grid0.N, cond0_0 (grid0.coords t) ↔ t.val % 125 = 0)

/-- The second branch's condition (store the output column): the vocabulary coordinate is 124. -/
abbrev cond0_1 (i : grid0.Coords) : Prop := k0_cond2 i = 1#1
/-- It holds at the points ≡ 124 (mod 125). -/
theorem hcond0_1 : ∀ t : Fin cfg0.N, cond0_1 (grid0.coords t) ↔ t.val % 125 = 124 :=
  (by decide +kernel : ∀ t : Fin grid0.N, cond0_1 (grid0.coords t) ↔ t.val % 125 = 124)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the storing points the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the storing points it is live. -/
theorem liveAt0_3 : ∀ t : Fin cfg0.N, cond0_1 (grid0.coords t) → cfg0.idle 3 (grid0.coords t) = false := by decide +kernel

end Cert.KernelIdeal.Hand

end
-- ==== Proof.KI.Runs0.lean ====
/-
  The body of pallas call 0 run on whole staging buffers, in each of its three control cases: the first vocabulary tile
  (the columns reset, then updated), a middle tile (updated), the last tile (updated, then the output column stored).
  Each case leaves the inputs as they were and the three running columns at the update `colsStep0` of what they held.
-/
import proofs.«409812_j58909771432349_3_alg».proof.Proof.KI.Acc0
import proofs.«409812_j58909771432349_3_alg».proof.Proof.KI.Conds0
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two access, as a function. -/
private theorem hz2 : (![0, 0] : Fin 2 → ℕ) = fun _ => 0 := funext fun a => by fin_cases a <;> rfl

/-- A load of the whole of a whole buffer held at contents `x` reads `x`. -/
private theorem readAt_unread {S : Shape} {e : EltTy} (m : Memref sig .tc .vmem S e) (h : m.IsWhole)
    {off : Fin S.rank → ℕ} (hz : off = fun _ => 0) (inb : ∀ a, off a + S.size a ≤ S.size a) (x : S.Idx → Elt F e) :
    m.view.readAt (Elt F) (Rect.unit off S.size inb).toLoadRect (h.unread x) = x := by
  rw [View.readAt_eq_ld, h.read_unread, View.ld_unit_zero hz inb]

/-- After a store of the whole buffer made last, the buffer reads as that store's payload, whatever came before. -/
private theorem read_writes_whole {S : Shape} {e : EltTy} (m : Memref sig .tc .vmem S e) (f : m.view.ty.Contents (Elt F))
    {off : Fin S.rank → ℕ} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero hz inb y⟩),
    View.canon_cons_unit_zero hz inb]

/-- A load of the whole buffer after one store of the whole buffer reads that store's payload. -/
private theorem readCov_whole {S : Shape} {e : EltTy} (m : Memref sig .tc .vmem S e)
    {off : Fin S.rank → ℕ} (hz : off = fun _ => 0) (inb : ∀ a, off a + S.size a ≤ S.size a) (w : S.Idx → Elt F e) :
    m.view.readCov [(⟨Rect.unit off S.size inb, w⟩ : View.Piece (Elt F) S e)] (Rect.unit off S.size inb).toLoadRect = w :=
  View.readCov_unit_zero m.view hz inb w

set_option maxHeartbeats 1000000 in
/-- A middle vocabulary tile: the columns updated, the output buffer handed back untouched. -/
theorem runB0 (c : Dev nD) (i : grid0.Coords) (arg2 : Memref sig .tc .vmem S2048x4096 .bf16) (harg2 : arg2.IsWhole) (arg3 : Memref sig .tc .vmem S256x4096 .f32) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : ¬cond0_0 i) (hc1 : ¬cond0_1 i)
    (x0 : Vec F S2048x4096 .bf16) (x1 : Vec F S256x4096 .f32) (x2 : Vec F S2048x1 .i32) (xo : Vec F S2048x1 .f32) (s : Cols0 F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare (colsStep0 i x0 x1 x2 s).1 ∗ owns (c : Thread nD τ) arg7 fullShare (colsStep0 i x0 x1 x2 s).2.1 ∗ owns (c : Thread nD τ) arg8 fullShare (colsStep0 i x0 x1 x2 s).2.2) -∗ K ⟨⟩))
      ⊢ wp frame (wpE (defs₀ (F := F)) Variants.none c none) E (cc0__logp_kernel i arg2 harg2 arg3 harg3 arg4 harg4 arg5 harg5 arg6 harg6 arg7 harg7 arg8 harg8) K := by
  simp only [cc0__logp_kernel_eq_skeleton]; unfold cc0__logp_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    rw [read_writes_whole arg6 _ hz2, readAt_unread arg2 harg2 hz2, readAt_unread arg3 harg3 hz2, readAt_unread arg6 harg6 hz2]
    rfl
  isplitl [H7]
  · iexists _; isplitr; swap; · iexact H7
    ipureintro
    rw [read_writes_whole arg7 _ hz2, readAt_unread arg2 harg2 hz2, readAt_unread arg3 harg3 hz2, readAt_unread arg6 harg6 hz2, readAt_unread arg7 harg7 hz2]
    rfl
  iexists _; isplitr; swap; · iexact H8
  ipureintro
  rw [read_writes_whole arg8 _ hz2, readAt_unread arg2 harg2 hz2, readAt_unread arg3 harg3 hz2, readAt_unread arg4 harg4 hz2, readAt_unread arg8 harg8 hz2]
  rfl

set_option maxHeartbeats 1000000 in
/-- The first vocabulary tile: the columns found at anything, reset, then updated. -/
theorem runA0 (c : Dev nD) (i : grid0.Coords) (arg2 : Memref sig .tc .vmem S2048x4096 .bf16) (harg2 : arg2.IsWhole) (arg3 : Memref sig .tc .vmem S256x4096 .f32) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : cond0_0 i) (hc1 : ¬cond0_1 i)
    (x0 : Vec F S2048x4096 .bf16) (x1 : Vec F S256x4096 .f32) (x2 : Vec F S2048x1 .i32) (xo : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare (colsStep0 i x0 x1 x2 colsReset0).1 ∗ owns (c : Thread nD τ) arg7 fullShare (colsStep0 i x0 x1 x2 colsReset0).2.1 ∗ owns (c : Thread nD τ) arg8 fullShare (colsStep0 i x0 x1 x2 colsReset0).2.2) -∗ K ⟨⟩))
      ⊢ wp frame (wpE (defs₀ (F := F)) Variants.none c none) E (cc0__logp_kernel i arg2 harg2 arg3 harg3 arg4 harg4 arg5 harg5 arg6 harg6 arg7 harg7 arg8 harg8) K := by
  simp only [cc0__logp_kernel_eq_skeleton]; unfold cc0__logp_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_run_names
    rw [read_writes_whole arg6 _ hz2, readAt_unread arg2 harg2 hz2, readAt_unread arg3 harg3 hz2, readCov_whole arg6 hz2]
    rfl
  isplitl [H7]
  · iexists _; isplitr; swap; · iexact H7
    ipureintro
    sl_unfold_run_names
    rw [read_writes_whole arg7 _ hz2, readAt_unread arg2 harg2 hz2, readAt_unread arg3 harg3 hz2, readCov_whole arg6 hz2, readCov_whole arg7 hz2]
    rfl
  iexists _; isplitr; swap; · iexact H8
  ipureintro
  sl_unfold_run_names
  rw [read_writes_whole arg8 _ hz2, readAt_unread arg2 harg2 hz2, readAt_unread arg3 harg3 hz2, readAt_unread arg4 harg4 hz2, readCov_whole arg8 hz2]
  rfl

set_option maxHeartbeats 1000000 in
/-- The last vocabulary tile: the columns updated, then the output column stored over whatever the buffer held. -/
theorem runC0 (c : Dev nD) (i : grid0.Coords) (arg2 : Memref sig .tc .vmem S2048x4096 .bf16) (harg2 : arg2.IsWhole) (arg3 : Memref sig .tc .vmem S256x4096 .f32) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : ¬cond0_0 i) (hc1 : cond0_1 i)
    (x0 : Vec F S2048x4096 .bf16) (x1 : Vec F S256x4096 .f32) (x2 : Vec F S2048x1 .i32) (s : Cols0 F)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare (k0_pay2 (colsStep0 i x0 x1 x2 s).2.2 (colsStep0 i x0 x1 x2 s).1 (colsStep0 i x0 x1 x2 s).2.1)
            ∗ owns (c : Thread nD τ) arg6 fullShare (colsStep0 i x0 x1 x2 s).1 ∗ owns (c : Thread nD τ) arg7 fullShare (colsStep0 i x0 x1 x2 s).2.1 ∗ owns (c : Thread nD τ) arg8 fullShare (colsStep0 i x0 x1 x2 s).2.2) -∗ K ⟨⟩))
      ⊢ wp frame (wpE (defs₀ (F := F)) Variants.none c none) E (cc0__logp_kernel i arg2 harg2 arg3 harg3 arg4 harg4 arg5 harg5 arg6 harg6 arg7 harg7 arg8 harg8) K := by
  simp only [cc0__logp_kernel_eq_skeleton]; unfold cc0__logp_kernel_skel
  simp only [k0_part1_eq_skeleton]; unfold k0_part1_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_run_names
    rw [read_writes_whole arg5 _ hz2, readCov_whole arg8 hz2, readCov_whole arg6 hz2, readCov_whole arg7 hz2,
      readAt_unread arg2 harg2 hz2, readAt_unread arg3 harg3 hz2, readAt_unread arg4 harg4 hz2,
      readAt_unread arg6 harg6 hz2, readAt_unread arg7 harg7 hz2, readAt_unread arg8 harg8 hz2]
    rfl
  isplitl [H6]
  · iexists _; isplitr; swap; · iexact H6
    ipureintro
    sl_unfold_run_names
    rw [read_writes_whole arg6 _ hz2, readAt_unread arg2 harg2 hz2, readAt_unread arg3 harg3 hz2, readAt_unread arg6 harg6 hz2]
    rfl
  isplitl [H7]
  · iexists _; isplitr; swap; · iexact H7
    ipureintro
    sl_unfold_run_names
    rw [read_writes_whole arg7 _ hz2, readAt_unread arg2 harg2 hz2, readAt_unread arg3 harg3 hz2, readAt_unread arg6 harg6 hz2, readAt_unread arg7 harg7 hz2]
    rfl
  iexists _; isplitr; swap; · iexact H8
  ipureintro
  sl_unfold_run_names
  rw [read_writes_whole arg8 _ hz2, readAt_unread arg2 harg2 hz2, readAt_unread arg3 harg3 hz2, readAt_unread arg4 harg4 hz2, readAt_unread arg8 harg8 hz2]
  rfl

end Cert.KernelIdeal.Hand

end
-- ==== Proof.KI.Frame0.lean ====
/-
  Pallas call 0 as the pipeline sees it. Between two grid points the kernel's three scratch columns hold what the
  recursion `colsAt0` says (before the first point: anything); each input window's buffer holds its block of the array;
  the output window's buffer is written only at the last vocabulary tile of a row tile and is otherwise handed back as
  found. With that invariant the body's run at every point is one of the three cases of the kernel.
-/
import proofs.«409812_j58909771432349_3_alg».proof.Proof.KI.Runs0
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The memrefs the body is called with -/

abbrev ms0_0 (t : Fin cfg0.N) : Memref sig .tc .vmem S2048x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
/-- The three scratch columns: whole scoped buffers of the kernel's own. -/
abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x1 .f32 := Memref.whole cc0_scratch2

/-- The core's other scoped buffers (the second call's staging buffers and scratch), each at anything: the body never
    touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The class invariant spelled out: the three columns at anything, the other scoped buffers, the generator register. -/
theorem PhiA0_split (c : Dev nD) :
    (Pipeline.ΦA spec0 c : sProp 𝕄)
      ⊢ iprop(iprop((∃ d, owns (c : Thread nD τ) scM0_0 fullShare d) ∗ (∃ d, owns (c : Thread nD τ) scM0_1 fullShare d) ∗ (∃ d, owns (c : Thread nD τ) scM0_2 fullShare d) ∗ others0 c) ∗ (∃ r, prngReg c r)) := by
  unfold Pipeline.ΦA others0; rw [scopedRest0_eq]; simp only [scM0_0, scM0_1, scM0_2, owns_whole]
  exact Idealize.SL.BI.Entails.refl _

theorem PhiA0_join (c : Dev nD) :
    (iprop(iprop((∃ d, owns (c : Thread nD τ) scM0_0 fullShare d) ∗ (∃ d, owns (c : Thread nD τ) scM0_1 fullShare d) ∗ (∃ d, owns (c : Thread nD τ) scM0_2 fullShare d) ∗ others0 c) ∗ (∃ r, prngReg c r)) : sProp 𝕄)
      ⊢ Pipeline.ΦA spec0 c := by
  unfold Pipeline.ΦA others0; rw [scopedRest0_eq]; simp only [scM0_0, scM0_1, scM0_2, owns_whole]
  exact Idealize.SL.BI.Entails.refl _

/-! ## The invariant between points -/

/-- Before point `n`: at the start the class invariant; afterwards the three columns at what the point before left. -/
def PhiS0 (c : Dev nD) : (n : ℕ) → n ≤ cfg0.N → sProp 𝕄
  | 0, _ => Pipeline.ΦA spec0 c
  | n + 1, hn => iprop(iprop(owns (c : Thread nD τ) scM0_0 fullShare (colsAt0 V c n hn).1 ∗ owns (c : Thread nD τ) scM0_1 fullShare (colsAt0 V c n hn).2.1 ∗ owns (c : Thread nD τ) scM0_2 fullShare (colsAt0 V c n hn).2.2 ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (colsAt0 V c n hn).1 ∗ owns (c : Thread nD τ) scM0_1 fullShare (colsAt0 V c n hn).2.1 ∗ owns (c : Thread nD τ) scM0_2 fullShare (colsAt0 V c n hn).2.2 ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (colsAt0 V c (n - 1) (by omega)).1 ∗ owns (c : Thread nD τ) scM0_1 fullShare (colsAt0 V c (n - 1) (by omega)).2.1 ∗ owns (c : Thread nD τ) scM0_2 fullShare (colsAt0 V c (n - 1) (by omega)).2.2 ∗ others0 c) ∗ (∃ r, prngReg c r)) := by
  cases n with
  | zero => exact absurd rfl hz
  | succ n => rfl

/-! ## The pipeline's proof data -/

/-- The proof data of pipeline 0 on core `c`: the arrays as the region finds them; after the body each input's buffer at
    its block and the output's at the column `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t.val t.isLt := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's vocabulary coordinate says which of the
    three cases runs; the invariant hands the body the columns the point before left (anything at the very first point,
    where they are reset) and takes them back at this point's update; the output buffer passes through untouched except
    at a last vocabulary tile, where it receives the output column. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 250 := lt_of_lt_of_eq t.isLt (show cfg0.N = 250 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [colsAt0_eq V c t]
  by_cases h1 : t.val % 125 = 124
  · -- a last vocabulary tile: the output column is stored
    have h0 : ¬ t.val % 125 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    unfold outAt0; rw [colsAt0_eq V c t]
    unfold colsBefore0; rw [dif_neg h0]
    rw [PhiS0_castSucc V c t, PhiS0_pos V c _ _ hz]
    iintro ⟨⟨⟨HS0, HS1, HS2, Hoth⟩, Hg⟩, Ho, ⟨%d0, H0⟩, ⟨%d1, H1⟩, ⟨%d2, H2⟩, ⟨%d3, H3⟩⟩
    iapply (runC0 c (grid0.coords t) _ _ _ _ _ _ _ _ _ _ _ _ _ _ (fun h => h0 ((hcond0_0 t).mp h)) ((hcond0_1 t).mpr h1)
      (iblk0 V c 0 t) (iblk0 V c 1 t) (iblk0 V c 2 t) _ Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hoth Hg]
    · isplitl [HS0 HS1 HS2 Hoth]
      · isplitl [HS0]; · iexact HS0
        isplitl [HS1]; · iexact HS1
        isplitl [HS2]; · iexact HS2
        iexact Hoth
      iexact Hg
    isplitl [Ho]; · iexact Ho
    isplitl [H0]; · iexact H0
    isplitl [H1]; · iexact H1
    isplitl [H2]; · iexact H2
    iexact H3
  · rw [Dat.leavesExact_idle (dat0 V c) 3 t (idleAt0_3 t (fun h => h1 ((hcond0_1 t).mp h))) (noFlush0_3 t (fun h => h1 ((hcond0_1 t).mp h)))]
    by_cases h0 : t.val % 125 = 0
    · -- a first vocabulary tile: the columns are reset, whatever they held
      unfold colsBefore0; rw [dif_pos h0]
      by_cases hz : t.val = 0
      · rw [PhiS0_castSucc V c t, PhiS0_zero V c _ _ hz]
        iintro ⟨HP, Ho, ⟨%d0, H0⟩, ⟨%d1, H1⟩, ⟨%d2, H2⟩, ⟨%d3, H3⟩⟩
        ihave HQ := (PhiA0_split c) $$ HP
        icases HQ with ⟨⟨HS0, HS1, HS2, Hoth⟩, Hg⟩
        iapply (runA0 c (grid0.coords t) _ _ _ _ _ _ _ _ _ _ _ _ _ _ ((hcond0_0 t).mpr h0) (fun h => h1 ((hcond0_1 t).mp h))
          (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hoth Hg]
        · isplitl [HS0 HS1 HS2 Hoth]
          · isplitl [HS0]; · iexact HS0
            isplitl [HS1]; · iexact HS1
            isplitl [HS2]; · iexact HS2
            iexact Hoth
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, HS1, HS2, Hoth⟩, Hg⟩, Ho, ⟨%d0, H0⟩, ⟨%d1, H1⟩, ⟨%d2, H2⟩, ⟨%d3, H3⟩⟩
        iapply (runA0 c (grid0.coords t) _ _ _ _ _ _ _ _ _ _ _ _ _ _ ((hcond0_0 t).mpr h0) (fun h => h1 ((hcond0_1 t).mp h))
          (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, HS0, HS1, HS2⟩
        isplitl [HS0 HS1 HS2 Hoth Hg]
        · isplitl [HS0 HS1 HS2 Hoth]
          · isplitl [HS0]; · iexact HS0
            isplitl [HS1]; · iexact HS1
            isplitl [HS2]; · iexact HS2
            iexact Hoth
          iexact Hg
        isplitl [Ho]; · iexact Ho
        isplitl [H0]; · iexact H0
        isplitl [H1]; · iexact H1
        isplitl [H2]; · iexact H2
        iexists _; iexact H3
    · -- a middle vocabulary tile
      have hz : t.val ≠ 0 := by omega
      unfold colsBefore0; rw [dif_neg h0]
      rw [PhiS0_castSucc V c t, PhiS0_pos V c _ _ hz]
      iintro ⟨⟨⟨HS0, HS1, HS2, Hoth⟩, Hg⟩, Ho, ⟨%d0, H0⟩, ⟨%d1, H1⟩, ⟨%d2, H2⟩, ⟨%d3, H3⟩⟩
      iapply (runB0 c (grid0.coords t) _ _ _ _ _ _ _ _ _ _ _ _ _ _ (fun h => h0 ((hcond0_0 t).mp h)) (fun h => h1 ((hcond0_1 t).mp h))
        (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hoth Hg]
      · isplitl [HS0 HS1 HS2 Hoth]
        · isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class invariant back: the columns' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  have hforget : (iprop(iprop(owns (c : Thread nD τ) scM0_0 fullShare (colsAt0 V c (t.val - 1) (by omega)).1 ∗ owns (c : Thread nD τ) scM0_1 fullShare (colsAt0 V c (t.val - 1) (by omega)).2.1 ∗ owns (c : Thread nD τ) scM0_2 fullShare (colsAt0 V c (t.val - 1) (by omega)).2.2 ∗ others0 c) ∗ (∃ r, prngReg c r)) : sProp 𝕄)
      ⊢ iprop(iprop((∃ d, owns (c : Thread nD τ) scM0_0 fullShare d) ∗ (∃ d, owns (c : Thread nD τ) scM0_1 fullShare d) ∗ (∃ d, owns (c : Thread nD τ) scM0_2 fullShare d) ∗ others0 c) ∗ (∃ r, prngReg c r)) := by
    iintro ⟨⟨HS0, HS1, HS2, Hoth⟩, Hg⟩
    isplitl [HS0 HS1 HS2 Hoth]
    · isplitl [HS0]; · iexists _; iexact HS0
      isplitl [HS1]; · iexists _; iexact HS1
      isplitl [HS2]; · iexists _; iexact HS2
      iexact Hoth
    iexact Hg
  exact hforget.trans (PhiA0_join c)

theorem hout0 (c : Dev nD) : (dat0 V c).Φ (Fin.last cfg0.N) ⊢ Pipeline.ΦA spec0 c :=
  Phi_out0 V c _ (by rw [Fin.val_last]; have : cfg0.N = 250 := N_0; omega)

end Cert.KernelIdeal.Hand

end
-- ==== Proof.KI.Acc1.lean ====
/-
  Pallas call 1, read as a recursion over its grid points. A point (r, v) of the 2 × 125 grid multiplies row tile r of x
  by vocabulary tile v of w and folds the 256 new logits of each row into three running columns kept from point to
  point: the largest logit so far, the sum of exponentials shifted by it, and the logit picked at the row's label. The
  columns start afresh at v = 0; after v = 124 the output column is the picked logit less (maximum + log of the sum).
-/
import proofs.«409812_j58909771432349_3_alg».proof.Proof.Gen.KernelIdeal.Launch
import proofs.«409812_j58909771432349_3_alg».proof.Proof.Gen.KernelIdeal.Skeleton
import proofs.«409812_j58909771432349_3_alg».proof.Proof.Gen.KernelIdeal.Points
import Idealize.ShloMosaic.Lib.Pipeline.FrameBody

noncomputable section

namespace Cert.KernelIdeal.HandB

open Cert.KernelIdeal Cert.KernelIdeal.Gen
open Idealize.ShloMosaic Idealize.ShloMosaic.TcCoe
open Idealize.SL Idealize.SL.Sem
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three running columns: (largest logit so far, shifted sum of exponentials so far, picked logit so far). -/
abbrev Cols1 (F : FTy → Type) [FloatOps F] : Type := Vec F S2048x1 .f32 × Vec F S2048x1 .f32 × Vec F S2048x1 .f32

/-- The columns as the first vocabulary tile finds them: −∞, 0, 0. -/
def colsReset1 : Cols1 F := (k1_pay3, k1_pay4, k1_pay5)

/-- One point's update of the columns from the point's blocks of x, w and the labels. -/
def colsStep1 (i : grid1.Coords) (x : Vec F S2048x4096 .bf16) (w : Vec F S256x4096 .f32) (y : Vec F S2048x1 .i32)
    (s : Cols1 F) : Cols1 F :=
  (k1_pay9 x w s.1, k1_pay8 x w s.1 s.1 s.2.1, k1_pay1 (k1_pay6 x w) (k1_pay10 i) y s.2.2)

/-- The columns after point `n`: the update of what the point before left, or of the fresh columns where a row tile begins. -/
def colsAt1 (c : Dev nD) : (n : ℕ) → n < cfg1.N → Cols1 F
  | 0, hn => colsStep1 (grid1.coords ⟨0, hn⟩) (iblk1 V c 0 ⟨0, hn⟩) (iblk1 V c 1 ⟨0, hn⟩) (iblk1 V c 2 ⟨0, hn⟩) colsReset1
  | n + 1, hn => colsStep1 (grid1.coords ⟨n + 1, hn⟩) (iblk1 V c 0 ⟨n + 1, hn⟩) (iblk1 V c 1 ⟨n + 1, hn⟩) (iblk1 V c 2 ⟨n + 1, hn⟩)
      (if (n + 1) % 125 = 0 then colsReset1 else colsAt1 c n (Nat.lt_of_succ_lt hn))

/-- What the columns before point `n`'s update are. -/
def colsBefore1 (c : Dev nD) (n : ℕ) (hn : n < cfg1.N) : Cols1 F :=
  if h : n % 125 = 0 then colsReset1 else colsAt1 V c (n - 1) (by omega)

theorem colsAt1_eq (c : Dev nD) (t : Fin cfg1.N) :
    colsAt1 V c t.val t.isLt = colsStep1 (grid1.coords t) (iblk1 V c 0 t) (iblk1 V c 1 t) (iblk1 V c 2 t) (colsBefore1 V c t.val t.isLt) := by
  obtain ⟨n, hn⟩ := t
  cases n with
  | zero =>
    have h0 : (0 : ℕ) % 125 = 0 := rfl
    unfold colsBefore1; rw [dif_pos h0]; rfl
  | succ n =>
    unfold colsBefore1
    by_cases h : (n + 1) % 125 = 0
    · rw [dif_pos h]; simp only [colsAt1, if_pos h]
    · rw [dif_neg h]; simp only [colsAt1, if_neg h, Nat.add_sub_cancel]

/-- The output column point `n` would store: picked logit − (maximum + log of the sum), of the columns after `n`. -/
def outAt1 (c : Dev nD) (n : ℕ) (hn : n < cfg1.N) : Vec F S2048x1 .f32 :=
  k1_pay2 (colsAt1 V c n hn).2.2 (colsAt1 V c n hn).1 (colsAt1 V c n hn).2.1

end Cert.KernelIdeal.HandB

end
-- ==== Proof.KI.Conds1.lean ====
/-
  Pallas call 1's two branches, from the grid coordinates: the columns are reset where the vocabulary coordinate is 0 and
  the output column is stored where it is 124; and where the pipeline treats the output window as idle.
-/
import proofs.«409812_j58909771432349_3_alg».proof.Proof.Gen.KernelIdeal.Launch
import proofs.«409812_j58909771432349_3_alg».proof.Proof.Gen.KernelIdeal.Skeleton
import proofs.«409812_j58909771432349_3_alg».proof.Proof.Gen.KernelIdeal.Points

noncomputable section

namespace Cert.KernelIdeal.HandB

open Cert.KernelIdeal Cert.KernelIdeal.Gen
open Idealize.ShloMosaic Idealize.ShloMosaic.TcCoe
open Idealize.SL Idealize.SL.Sem

/-- The first branch's condition (reset the columns): the vocabulary coordinate is 0. -/
abbrev cond1_0 (i : grid1.Coords) : Prop :=
  (Scalar.cmpi .ne (Scalar.extui (Scalar.cmpi .eq (BitVec.ofNat 32 (i 1).val) 0#32)) 0#32) = 1#1
/-- It holds at the points ≡ 0 (mod 125). -/
theorem hcond1_0 : ∀ t : Fin cfg1.N, cond1_0 (grid1.coords t) ↔ t.val % 125 = 0 :=
  (by decide +kernel : ∀ t : Fin grid1.N, cond1_0 (grid1.coords t) ↔ t.val % 125 = 0)

/-- The second branch's condition (store the output column): the vocabulary coordinate is 124. -/
abbrev cond1_1 (i : grid1.Coords) : Prop := k1_cond2 i = 1#1
/-- It holds at the points ≡ 124 (mod 125). -/
theorem hcond1_1 : ∀ t : Fin cfg1.N, cond1_1 (grid1.coords t) ↔ t.val % 125 = 124 :=
  (by decide +kernel : ∀ t : Fin grid1.N, cond1_1 (grid1.coords t) ↔ t.val % 125 = 124)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the storing points the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the storing points it is live. -/
theorem liveAt1_3 : ∀ t : Fin cfg1.N, cond1_1 (grid1.coords t) → cfg1.idle 3 (grid1.coords t) = false := by decide +kernel

end Cert.KernelIdeal.HandB

end
-- ==== Proof.KI.Runs1.lean ====
/-
  The body of pallas call 1 run on whole staging buffers, in each of its three control cases: the first vocabulary tile
  (the columns reset, then updated), a middle tile (updated), the last tile (updated, then the output column stored).
  Each case leaves the inputs as they were and the three running columns at the update `colsStep1` of what they held.
-/
import proofs.«409812_j58909771432349_3_alg».proof.Proof.KI.Acc1
import proofs.«409812_j58909771432349_3_alg».proof.Proof.KI.Conds1
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.KernelIdeal.HandB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two access, as a function. -/
private theorem hz2 : (![0, 0] : Fin 2 → ℕ) = fun _ => 0 := funext fun a => by fin_cases a <;> rfl

/-- A load of the whole of a whole buffer held at contents `x` reads `x`. -/
private theorem readAt_unread {S : Shape} {e : EltTy} (m : Memref sig .tc .vmem S e) (h : m.IsWhole)
    {off : Fin S.rank → ℕ} (hz : off = fun _ => 0) (inb : ∀ a, off a + S.size a ≤ S.size a) (x : S.Idx → Elt F e) :
    m.view.readAt (Elt F) (Rect.unit off S.size inb).toLoadRect (h.unread x) = x := by
  rw [View.readAt_eq_ld, h.read_unread, View.ld_unit_zero hz inb]

/-- After a store of the whole buffer made last, the buffer reads as that store's payload, whatever came before. -/
private theorem read_writes_whole {S : Shape} {e : EltTy} (m : Memref sig .tc .vmem S e) (f : m.view.ty.Contents (Elt F))
    {off : Fin S.rank → ℕ} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero hz inb y⟩),
    View.canon_cons_unit_zero hz inb]

/-- A load of the whole buffer after one store of the whole buffer reads that store's payload. -/
private theorem readCov_whole {S : Shape} {e : EltTy} (m : Memref sig .tc .vmem S e)
    {off : Fin S.rank → ℕ} (hz : off = fun _ => 0) (inb : ∀ a, off a + S.size a ≤ S.size a) (w : S.Idx → Elt F e) :
    m.view.readCov [(⟨Rect.unit off S.size inb, w⟩ : View.Piece (Elt F) S e)] (Rect.unit off S.size inb).toLoadRect = w :=
  View.readCov_unit_zero m.view hz inb w

set_option maxHeartbeats 1000000 in
/-- A middle vocabulary tile: the columns updated, the output buffer handed back untouched. -/
theorem runB1 (c : Dev nD) (i : grid1.Coords) (arg2 : Memref sig .tc .vmem S2048x4096 .bf16) (harg2 : arg2.IsWhole) (arg3 : Memref sig .tc .vmem S256x4096 .f32) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : ¬cond1_0 i) (hc1 : ¬cond1_1 i)
    (x0 : Vec F S2048x4096 .bf16) (x1 : Vec F S256x4096 .f32) (x2 : Vec F S2048x1 .i32) (xo : Vec F S2048x1 .f32) (s : Cols1 F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare (colsStep1 i x0 x1 x2 s).1 ∗ owns (c : Thread nD τ) arg7 fullShare (colsStep1 i x0 x1 x2 s).2.1 ∗ owns (c : Thread nD τ) arg8 fullShare (colsStep1 i x0 x1 x2 s).2.2) -∗ K ⟨⟩))
      ⊢ wp frame (wpE (defs₀ (F := F)) Variants.none c none) E (cc1__logp_kernel i arg2 harg2 arg3 harg3 arg4 harg4 arg5 harg5 arg6 harg6 arg7 harg7 arg8 harg8) K := by
  simp only [cc1__logp_kernel_eq_skeleton]; unfold cc1__logp_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    rw [read_writes_whole arg6 _ hz2, readAt_unread arg2 harg2 hz2, readAt_unread arg3 harg3 hz2, readAt_unread arg6 harg6 hz2]
    rfl
  isplitl [H7]
  · iexists _; isplitr; swap; · iexact H7
    ipureintro
    rw [read_writes_whole arg7 _ hz2, readAt_unread arg2 harg2 hz2, readAt_unread arg3 harg3 hz2, readAt_unread arg6 harg6 hz2, readAt_unread arg7 harg7 hz2]
    rfl
  iexists _; isplitr; swap; · iexact H8
  ipureintro
  rw [read_writes_whole arg8 _ hz2, readAt_unread arg2 harg2 hz2, readAt_unread arg3 harg3 hz2, readAt_unread arg4 harg4 hz2, readAt_unread arg8 harg8 hz2]
  rfl

set_option maxHeartbeats 1000000 in
/-- The first vocabulary tile: the columns found at anything, reset, then updated. -/
theorem runA1 (c : Dev nD) (i : grid1.Coords) (arg2 : Memref sig .tc .vmem S2048x4096 .bf16) (harg2 : arg2.IsWhole) (arg3 : Memref sig .tc .vmem S256x4096 .f32) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : cond1_0 i) (hc1 : ¬cond1_1 i)
    (x0 : Vec F S2048x4096 .bf16) (x1 : Vec F S256x4096 .f32) (x2 : Vec F S2048x1 .i32) (xo : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare (colsStep1 i x0 x1 x2 colsReset1).1 ∗ owns (c : Thread nD τ) arg7 fullShare (colsStep1 i x0 x1 x2 colsReset1).2.1 ∗ owns (c : Thread nD τ) arg8 fullShare (colsStep1 i x0 x1 x2 colsReset1).2.2) -∗ K ⟨⟩))
      ⊢ wp frame (wpE (defs₀ (F := F)) Variants.none c none) E (cc1__logp_kernel i arg2 harg2 arg3 harg3 arg4 harg4 arg5 harg5 arg6 harg6 arg7 harg7 arg8 harg8) K := by
  simp only [cc1__logp_kernel_eq_skeleton]; unfold cc1__logp_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_run_names
    rw [read_writes_whole arg6 _ hz2, readAt_unread arg2 harg2 hz2, readAt_unread arg3 harg3 hz2, readCov_whole arg6 hz2]
    rfl
  isplitl [H7]
  · iexists _; isplitr; swap; · iexact H7
    ipureintro
    sl_unfold_run_names
    rw [read_writes_whole arg7 _ hz2, readAt_unread arg2 harg2 hz2, readAt_unread arg3 harg3 hz2, readCov_whole arg6 hz2, readCov_whole arg7 hz2]
    rfl
  iexists _; isplitr; swap; · iexact H8
  ipureintro
  sl_unfold_run_names
  rw [read_writes_whole arg8 _ hz2, readAt_unread arg2 harg2 hz2, readAt_unread arg3 harg3 hz2, readAt_unread arg4 harg4 hz2, readCov_whole arg8 hz2]
  rfl

set_option maxHeartbeats 1000000 in
/-- The last vocabulary tile: the columns updated, then the output column stored over whatever the buffer held. -/
theorem runC1 (c : Dev nD) (i : grid1.Coords) (arg2 : Memref sig .tc .vmem S2048x4096 .bf16) (harg2 : arg2.IsWhole) (arg3 : Memref sig .tc .vmem S256x4096 .f32) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : ¬cond1_0 i) (hc1 : cond1_1 i)
    (x0 : Vec F S2048x4096 .bf16) (x1 : Vec F S256x4096 .f32) (x2 : Vec F S2048x1 .i32) (s : Cols1 F)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare (k1_pay2 (colsStep1 i x0 x1 x2 s).2.2 (colsStep1 i x0 x1 x2 s).1 (colsStep1 i x0 x1 x2 s).2.1)
            ∗ owns (c : Thread nD τ) arg6 fullShare (colsStep1 i x0 x1 x2 s).1 ∗ owns (c : Thread nD τ) arg7 fullShare (colsStep1 i x0 x1 x2 s).2.1 ∗ owns (c : Thread nD τ) arg8 fullShare (colsStep1 i x0 x1 x2 s).2.2) -∗ K ⟨⟩))
      ⊢ wp frame (wpE (defs₀ (F := F)) Variants.none c none) E (cc1__logp_kernel i arg2 harg2 arg3 harg3 arg4 harg4 arg5 harg5 arg6 harg6 arg7 harg7 arg8 harg8) K := by
  simp only [cc1__logp_kernel_eq_skeleton]; unfold cc1__logp_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_run_names
    rw [read_writes_whole arg5 _ hz2, readCov_whole arg8 hz2, readCov_whole arg6 hz2, readCov_whole arg7 hz2,
      readAt_unread arg2 harg2 hz2, readAt_unread arg3 harg3 hz2, readAt_unread arg4 harg4 hz2,
      readAt_unread arg6 harg6 hz2, readAt_unread arg7 harg7 hz2, readAt_unread arg8 harg8 hz2]
    rfl
  isplitl [H6]
  · iexists _; isplitr; swap; · iexact H6
    ipureintro
    sl_unfold_run_names
    rw [read_writes_whole arg6 _ hz2, readAt_unread arg2 harg2 hz2, readAt_unread arg3 harg3 hz2, readAt_unread arg6 harg6 hz2]
    rfl
  isplitl [H7]
  · iexists _; isplitr; swap; · iexact H7
    ipureintro
    sl_unfold_run_names
    rw [read_writes_whole arg7 _ hz2, readAt_unread arg2 harg2 hz2, readAt_unread arg3 harg3 hz2, readAt_unread arg6 harg6 hz2, readAt_unread arg7 harg7 hz2]
    rfl
  iexists _; isplitr; swap; · iexact H8
  ipureintro
  sl_unfold_run_names
  rw [read_writes_whole arg8 _ hz2, readAt_unread arg2 harg2 hz2, readAt_unread arg3 harg3 hz2, readAt_unread arg4 harg4 hz2, readAt_unread arg8 harg8 hz2]
  rfl

end Cert.KernelIdeal.HandB

end
-- ==== Proof.KI.Frame1.lean ====
/-
  Pallas call 1 as the pipeline sees it. Between two grid points the kernel's three scratch columns hold what the
  recursion `colsAt1` says (before the first point: anything); each input window's buffer holds its block of the array;
  the output window's buffer is written only at the last vocabulary tile of a row tile and is otherwise handed back as
  found. With that invariant the body's run at every point is one of the three cases of the kernel.
-/
import proofs.«409812_j58909771432349_3_alg».proof.Proof.KI.Runs1
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.HandB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The memrefs the body is called with -/

abbrev ms1_0 (t : Fin cfg1.N) : Memref sig .tc .vmem S2048x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
/-- The three scratch columns: whole scoped buffers of the kernel's own. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x1 .f32 := Memref.whole cc1_scratch2

/-- The core's other scoped buffers (the second call's staging buffers and scratch), each at anything: the body never
    touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The class invariant spelled out: the three columns at anything, the other scoped buffers, the generator register. -/
theorem PhiA1_split (c : Dev nD) :
    (Pipeline.ΦA spec1 c : sProp 𝕄)
      ⊢ iprop(iprop((∃ d, owns (c : Thread nD τ) scM1_0 fullShare d) ∗ (∃ d, owns (c : Thread nD τ) scM1_1 fullShare d) ∗ (∃ d, owns (c : Thread nD τ) scM1_2 fullShare d) ∗ others1 c) ∗ (∃ r, prngReg c r)) := by
  unfold Pipeline.ΦA others1; rw [scopedRest1_eq]; simp only [scM1_0, scM1_1, scM1_2, owns_whole]
  iintro ⟨⟨O1, O2, O3, O4, O5, O6, O7, O8, O9, O10, S0, S1, S2⟩, Hg⟩
  isplitl [O1 O2 O3 O4 O5 O6 O7 O8 O9 O10 S0 S1 S2]
  · isplitl [S0]; · iexact S0
    isplitl [S1]; · iexact S1
    isplitl [S2]; · iexact S2
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    iexact O10
  iexact Hg

theorem PhiA1_join (c : Dev nD) :
    (iprop(iprop((∃ d, owns (c : Thread nD τ) scM1_0 fullShare d) ∗ (∃ d, owns (c : Thread nD τ) scM1_1 fullShare d) ∗ (∃ d, owns (c : Thread nD τ) scM1_2 fullShare d) ∗ others1 c) ∗ (∃ r, prngReg c r)) : sProp 𝕄)
      ⊢ Pipeline.ΦA spec1 c := by
  unfold Pipeline.ΦA others1; rw [scopedRest1_eq]; simp only [scM1_0, scM1_1, scM1_2, owns_whole]
  iintro ⟨⟨S0, S1, S2, O1, O2, O3, O4, O5, O6, O7, O8, O9, O10⟩, Hg⟩
  isplitl [O1 O2 O3 O4 O5 O6 O7 O8 O9 O10 S0 S1 S2]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [S0]; · iexact S0
    isplitl [S1]; · iexact S1
    iexact S2
  iexact Hg

/-! ## The invariant between points -/

/-- Before point `n`: at the start the class invariant; afterwards the three columns at what the point before left. -/
def PhiS1 (c : Dev nD) : (n : ℕ) → n ≤ cfg1.N → sProp 𝕄
  | 0, _ => Pipeline.ΦA spec1 c
  | n + 1, hn => iprop(iprop(owns (c : Thread nD τ) scM1_0 fullShare (colsAt1 V c n hn).1 ∗ owns (c : Thread nD τ) scM1_1 fullShare (colsAt1 V c n hn).2.1 ∗ owns (c : Thread nD τ) scM1_2 fullShare (colsAt1 V c n hn).2.2 ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (colsAt1 V c n hn).1 ∗ owns (c : Thread nD τ) scM1_1 fullShare (colsAt1 V c n hn).2.1 ∗ owns (c : Thread nD τ) scM1_2 fullShare (colsAt1 V c n hn).2.2 ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (colsAt1 V c (n - 1) (by omega)).1 ∗ owns (c : Thread nD τ) scM1_1 fullShare (colsAt1 V c (n - 1) (by omega)).2.1 ∗ owns (c : Thread nD τ) scM1_2 fullShare (colsAt1 V c (n - 1) (by omega)).2.2 ∗ others1 c) ∗ (∃ r, prngReg c r)) := by
  cases n with
  | zero => exact absurd rfl hz
  | succ n => rfl

/-! ## The pipeline's proof data -/

/-- The proof data of pipeline 0 on core `c`: the arrays as the region finds them; after the body each input's buffer at
    its block and the output's at the column `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t.val t.isLt := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's vocabulary coordinate says which of the
    three cases runs; the invariant hands the body the columns the point before left (anything at the very first point,
    where they are reset) and takes them back at this point's update; the output buffer passes through untouched except
    at a last vocabulary tile, where it receives the output column. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 250 := lt_of_lt_of_eq t.isLt (show cfg1.N = 250 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [colsAt1_eq V c t]
  by_cases h1 : t.val % 125 = 124
  · -- a last vocabulary tile: the output column is stored
    have h0 : ¬ t.val % 125 = 0 := by omega
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    unfold outAt1; rw [colsAt1_eq V c t]
    unfold colsBefore1; rw [dif_neg h0]
    rw [PhiS1_castSucc V c t, PhiS1_pos V c _ _ hz]
    iintro ⟨⟨⟨HS0, HS1, HS2, Hoth⟩, Hg⟩, Ho, ⟨%d0, H0⟩, ⟨%d1, H1⟩, ⟨%d2, H2⟩, ⟨%d3, H3⟩⟩
    iapply (runC1 c (grid1.coords t) _ _ _ _ _ _ _ _ _ _ _ _ _ _ (fun h => h0 ((hcond1_0 t).mp h)) ((hcond1_1 t).mpr h1)
      (iblk1 V c 0 t) (iblk1 V c 1 t) (iblk1 V c 2 t) _ Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hoth Hg]
    · isplitl [HS0 HS1 HS2 Hoth]
      · isplitl [HS0]; · iexact HS0
        isplitl [HS1]; · iexact HS1
        isplitl [HS2]; · iexact HS2
        iexact Hoth
      iexact Hg
    isplitl [Ho]; · iexact Ho
    isplitl [H0]; · iexact H0
    isplitl [H1]; · iexact H1
    isplitl [H2]; · iexact H2
    iexact H3
  · rw [Dat.leavesExact_idle (dat1 V c) 3 t (idleAt1_3 t (fun h => h1 ((hcond1_1 t).mp h))) (noFlush1_3 t (fun h => h1 ((hcond1_1 t).mp h)))]
    by_cases h0 : t.val % 125 = 0
    · -- a first vocabulary tile: the columns are reset, whatever they held
      unfold colsBefore1; rw [dif_pos h0]
      by_cases hz : t.val = 0
      · rw [PhiS1_castSucc V c t, PhiS1_zero V c _ _ hz]
        iintro ⟨HP, Ho, ⟨%d0, H0⟩, ⟨%d1, H1⟩, ⟨%d2, H2⟩, ⟨%d3, H3⟩⟩
        ihave HQ := (PhiA1_split c) $$ HP
        icases HQ with ⟨⟨HS0, HS1, HS2, Hoth⟩, Hg⟩
        iapply (runA1 c (grid1.coords t) _ _ _ _ _ _ _ _ _ _ _ _ _ _ ((hcond1_0 t).mpr h0) (fun h => h1 ((hcond1_1 t).mp h))
          (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hoth Hg]
        · isplitl [HS0 HS1 HS2 Hoth]
          · isplitl [HS0]; · iexact HS0
            isplitl [HS1]; · iexact HS1
            isplitl [HS2]; · iexact HS2
            iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HS1, HS2, Hoth⟩, Hg⟩, Ho, ⟨%d0, H0⟩, ⟨%d1, H1⟩, ⟨%d2, H2⟩, ⟨%d3, H3⟩⟩
        iapply (runA1 c (grid1.coords t) _ _ _ _ _ _ _ _ _ _ _ _ _ _ ((hcond1_0 t).mpr h0) (fun h => h1 ((hcond1_1 t).mp h))
          (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, HS0, HS1, HS2⟩
        isplitl [HS0 HS1 HS2 Hoth Hg]
        · isplitl [HS0 HS1 HS2 Hoth]
          · isplitl [HS0]; · iexact HS0
            isplitl [HS1]; · iexact HS1
            isplitl [HS2]; · iexact HS2
            iexact Hoth
          iexact Hg
        isplitl [Ho]; · iexact Ho
        isplitl [H0]; · iexact H0
        isplitl [H1]; · iexact H1
        isplitl [H2]; · iexact H2
        iexists _; iexact H3
    · -- a middle vocabulary tile
      have hz : t.val ≠ 0 := by omega
      unfold colsBefore1; rw [dif_neg h0]
      rw [PhiS1_castSucc V c t, PhiS1_pos V c _ _ hz]
      iintro ⟨⟨⟨HS0, HS1, HS2, Hoth⟩, Hg⟩, Ho, ⟨%d0, H0⟩, ⟨%d1, H1⟩, ⟨%d2, H2⟩, ⟨%d3, H3⟩⟩
      iapply (runB1 c (grid1.coords t) _ _ _ _ _ _ _ _ _ _ _ _ _ _ (fun h => h0 ((hcond1_0 t).mp h)) (fun h => h1 ((hcond1_1 t).mp h))
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hoth Hg]
      · isplitl [HS0 HS1 HS2 Hoth]
        · isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: the columns' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  have hforget : (iprop(iprop(owns (c : Thread nD τ) scM1_0 fullShare (colsAt1 V c (t.val - 1) (by omega)).1 ∗ owns (c : Thread nD τ) scM1_1 fullShare (colsAt1 V c (t.val - 1) (by omega)).2.1 ∗ owns (c : Thread nD τ) scM1_2 fullShare (colsAt1 V c (t.val - 1) (by omega)).2.2 ∗ others1 c) ∗ (∃ r, prngReg c r)) : sProp 𝕄)
      ⊢ iprop(iprop((∃ d, owns (c : Thread nD τ) scM1_0 fullShare d) ∗ (∃ d, owns (c : Thread nD τ) scM1_1 fullShare d) ∗ (∃ d, owns (c : Thread nD τ) scM1_2 fullShare d) ∗ others1 c) ∗ (∃ r, prngReg c r)) := by
    iintro ⟨⟨HS0, HS1, HS2, Hoth⟩, Hg⟩
    isplitl [HS0 HS1 HS2 Hoth]
    · isplitl [HS0]; · iexists _; iexact HS0
      isplitl [HS1]; · iexists _; iexact HS1
      isplitl [HS2]; · iexists _; iexact HS2
      iexact Hoth
    iexact Hg
  exact hforget.trans (PhiA1_join c)

theorem hout1 (c : Dev nD) : (dat1 V c).Φ (Fin.last cfg1.N) ⊢ Pipeline.ΦA spec1 c :=
  Phi_out1 V c _ (by rw [Fin.val_last]; have : cfg1.N = 250 := N_1; omega)

end Cert.KernelIdeal.HandB

end
-- ==== Proof.KI.Run.lean ====
/-
  The run of @main with its results, unconditionally. Each kernel region is entered from the contents the items before
  it leave in the unscoped buffers and left at those contents changed in one buffer only, its output array, which then
  holds the fold of the pipeline's write-backs; an input array ends as it began. The unknown contents the conditional
  run is stated over are chosen accordingly: after region 0 its output array at that fold over region 0's entry
  contents, after region 1 likewise over region 1's entry contents, which read the unknowns at region 0's output only,
  so the choice is not circular. Beside the buffers every item carries the generator register at some state and the
  core's dues, none. The conditional run at these choices is the run.
-/
import proofs.«409812_j58909771432349_3_alg».proof.Proof.KI.RunCond
import proofs.«409812_j58909771432349_3_alg».proof.Proof.KI.Frame0
import proofs.«409812_j58909771432349_3_alg».proof.Proof.KI.Frame1
import Idealize.ShloMosaic.Lib.Pipeline.FrameBody
import Idealize.ShloMosaic.Lib.Pipeline.Kit
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.HandB
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## What the two regions leave -/

/-- The buffers' contents when region 0 is entered, read at the TensorCore's references. -/
abbrev U3 : (c : Dev nD) → (b : Ref sig .tc) → Buf (Elt F) ((c : Thread nD τ).loc b) := fun c b => V3 m c b

/-- Region 0's half of the unknowns: at every reference, region 0's entry contents with its four arrays at what the
    pipeline leaves in them (only the entry at the output array is ever read). -/
def outs₀ : Outs (F := F) := fun _ r c =>
  Pipeline.withArrays spec0 c (V3 m c) (fun w => (dat0 (U3 m) c).arrAt w cfg0.N) (Proc.devRef .tc r)

/-- The buffers' contents when region 1 is entered, over region 0's half of the unknowns. -/
abbrev U7₀ : (c : Dev nD) → (b : Ref sig .tc) → Buf (Elt F) ((c : Thread nD τ).loc b) := fun c b => V7 m (outs₀ m) c b

/-- What the regions leave: after item 7 region 1's entry contents with its four arrays at what its pipeline leaves;
    at every other item region 0's half. -/
def outsOf : Outs (F := F) := fun J r c =>
  if J = 8 then Pipeline.withArrays spec1 c (V7 m (outs₀ m) c) (fun w => (dat1 (U7₀ m) c).arrAt w cfg1.N) (Proc.devRef .tc r)
  else outs₀ m J r c

theorem outsOf_of_ne (J : ℕ) (hJ : J ≠ 8) (r : Ref sig .tc) (c : Dev nD) : outsOf m J r c = outs₀ m J r c := if_neg hJ

/-- The valuations up to region 1's entry read the unknowns at region 0's output only. -/
theorem V4_outsOf (c : Dev nD) : V4 m (outsOf m) c = V4 m (outs₀ m) c :=
  congrArg (Function.update (V3 m c) (Proc.devRef .tc main_v6)) (outsOf_of_ne m 4 (by decide) main_v6 c)
theorem V7_outsOf (c : Dev nD) : V7 m (outsOf m) c = V7 m (outs₀ m) c :=
  congrArg (fun v => StableHlo.after hostOps1_2 (StableHlo.after hostOps1_1 (StableHlo.after hostOps1 v))) (V4_outsOf m c)

/-- The buffers' contents when region 1 is entered, read at the TensorCore's references. -/
abbrev U7 : (c : Dev nD) → (b : Ref sig .tc) → Buf (Elt F) ((c : Thread nD τ).loc b) := fun c b => V7 m (outsOf m) c b
theorem U7_eq : U7 m = U7₀ m := by
  funext c b; exact congrFun (V7_outsOf m c) _

/-- Region 0 leaves in its output array what its pipeline's write-backs fold to. -/
theorem outsOf_4 (c : Dev nD) : outsOf m 4 main_v6 c = (dat0 (fun c b => V3 m c b) c).arrAt 3 cfg0.N :=
  (outsOf_of_ne m 4 (by decide) main_v6 c).trans (Pipeline.withArrays_arr spec0 launch0.win.arr_inj c _ _ 3)

/-- Region 1 leaves in its output array what its pipeline's write-backs fold to. -/
theorem outsOf_8 (c : Dev nD) : outsOf m 8 main_v22 c = (dat1 (fun c b => V7 m (outsOf m) c b) c).arrAt 3 cfg1.N := by
  show outsOf m 8 main_v22 c = (dat1 (U7 m) c).arrAt 3 cfg1.N
  rw [U7_eq]
  exact (if_pos rfl).trans (Pipeline.withArrays_arr spec1 launch1.win.arr_inj c _ _ 3)

/-! ## The proof data family and the thread states -/

/-- Every pipeline's proof data, each at its region's entry contents. -/
def pdats : (p : Fin 2) → (c : Dev nD) → Dat τ (Elt F) Unit ℕ (UR sig nD τ) ℕ (cfgs p) c
  | ⟨0, _⟩ => fun c => dat0 (U3 m) c
  | ⟨1, _⟩ => fun c => dat1 (U7 m) c

/-- No core owes another anything: no level is assigned. -/
abbrev L : GSem nD τ sig → Finset Unit := fun _ => ∅
abbrev lv : GSem nD τ sig → Unit → ℕ := fun _ _ => 0

/-- What rides beside the buffers through every item: the core's generator register at some state and its dues, none. -/
abbrev R (c : Dev nD) : sProp 𝕄 := iprop((∃ r, prngReg c r) ∗ ∃ W, owes (c : Thread nD τ) (0 : CellTallies nD τ sig Unit) W)

/-- The buffers' contents when region 0 is left, read at the TensorCore's references. -/
abbrev U4 : (c : Dev nD) → (b : Ref sig .tc) → Buf (Elt F) ((c : Thread nD τ).loc b) := fun c b => V4 m (outsOf m) c b
/-- The buffers' contents when region 1 is left, read at the TensorCore's references. -/
abbrev U8 : (c : Dev nD) → (b : Ref sig .tc) → Buf (Elt F) ((c : Thread nD τ).loc b) := fun c b => V8 m (outsOf m) c b

/-- At region 0's exit each of its arrays holds what the pipeline leaves: an input array what it held, the output
    array the fold of the write-backs. -/
theorem hF0 (c : Dev nD) (w : Fin cfg0.W) : (pdats m 0 c).arrAt w cfg0.N = U4 m c (Pipeline.arrRef spec0 w) := by
  show (dat0 (U3 m) c).arrAt w cfg0.N = V4 m (outsOf m) c (Proc.devRef .tc (Pipeline.arrRef spec0 w))
  match w with
  | ⟨0, _⟩ => exact ((dat0 (U3 m) c).arrAt_in 0 rfl _).trans ((A_eq0 (U3 m) c 0).trans (V4_of m (outsOf m) c _ (by decide)).symm)
  | ⟨1, _⟩ => exact ((dat0 (U3 m) c).arrAt_in 1 rfl _).trans ((A_eq0 (U3 m) c 1).trans (V4_of m (outsOf m) c _ (by decide)).symm)
  | ⟨2, _⟩ => exact ((dat0 (U3 m) c).arrAt_in 2 rfl _).trans ((A_eq0 (U3 m) c 2).trans (V4_of m (outsOf m) c _ (by decide)).symm)
  | ⟨3, _⟩ =>
    have h : V4 m (outsOf m) c (Proc.devRef .tc main_v6) = outsOf m 4 main_v6 c := Function.update_self _ _ _
    exact (outsOf_4 m c).symm.trans h.symm
/-- Every other buffer holds at region 0's exit what it held at its entry. -/
theorem hrest0 (c : Dev nD) : ∀ b, b ∉ Finset.univ.image (Pipeline.arrRef spec0) → U4 m c b = U3 m c b :=
  fun b hb => V4_of m (outsOf m) c b fun h =>
    hb (Finset.mem_image.mpr ⟨3, Finset.mem_univ _, (List.mem_singleton.mp h).symm⟩)

/-- At region 1's exit each of its arrays holds what the pipeline leaves: an input array what it held, the output
    array the fold of the write-backs. -/
theorem hF1 (c : Dev nD) (w : Fin cfg1.W) : (pdats m 1 c).arrAt w cfg1.N = U8 m c (Pipeline.arrRef spec1 w) := by
  show (dat1 (U7 m) c).arrAt w cfg1.N = V8 m (outsOf m) c (Proc.devRef .tc (Pipeline.arrRef spec1 w))
  match w with
  | ⟨0, _⟩ => exact ((dat1 (U7 m) c).arrAt_in 0 rfl _).trans ((A_eq1 (U7 m) c 0).trans (V8_of m (outsOf m) c _ (by decide)).symm)
  | ⟨1, _⟩ => exact ((dat1 (U7 m) c).arrAt_in 1 rfl _).trans ((A_eq1 (U7 m) c 1).trans (V8_of m (outsOf m) c _ (by decide)).symm)
  | ⟨2, _⟩ => exact ((dat1 (U7 m) c).arrAt_in 2 rfl _).trans ((A_eq1 (U7 m) c 2).trans (V8_of m (outsOf m) c _ (by decide)).symm)
  | ⟨3, _⟩ =>
    have h : V8 m (outsOf m) c (Proc.devRef .tc main_v22) = outsOf m 8 main_v22 c := Function.update_self _ _ _
    exact (outsOf_8 m c).symm.trans h.symm
/-- Every other buffer holds at region 1's exit what it held at its entry. -/
theorem hrest1 (c : Dev nD) : ∀ b, b ∉ Finset.univ.image (Pipeline.arrRef spec1) → U8 m c b = U7 m c b :=
  fun b hb => V8_of m (outsOf m) c b fun h =>
    hb (Finset.mem_image.mpr ⟨3, Finset.mem_univ _, (List.mem_singleton.mp h).symm⟩)

/-! ## The regions as segments -/

-- a library lemma stated over the pinned configuration unifies with the printed one only when unification may unfold
-- plain definitions in a metavariable's type
set_option backward.isDefEq.respectTransparency.types false in
/-- REGION 0 over the thread state: entered from every unscoped buffer at its entry contents, left at the exit contents.
    Its arrays are split out of the unscoped buffers and put back at what the pipeline leaves; the generator register
    goes into the class invariant and comes back; nothing is owed; the kernel has no semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outsOf m) c) ∗ R c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U3 m) c)
    unfold Pipeline.ΦA
    iintro ⟨Hp, -, Hr⟩
    isplitl [Hr]; · iexact Hr
    iexact Hp
  hout c := by
    rw [Pipeline.ownSems0_none]
    refine BIBase.Entails.trans (hout0 (U3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at its entry contents, left at the exit contents.
    Its arrays are split out of the unscoped buffers and put back at what the pipeline leaves; the generator register
    goes into the class invariant and comes back; nothing is owed; the kernel has no semaphore of its own. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (U7 m) c).loose
  hwaits := Pipeline.hwaits_of_owed_zero _ _ _ _ L lv 1 fun _ _ => rfl
  pre c := iprop(StableHlo.held (c : Thread nD τ) (Pipeline.ucRefs τ sig) (V7 m (outsOf m) c) ∗ R c)
  post c := iprop(StableHlo.held (c : Thread nD τ) (Pipeline.ucRefs τ sig) (V8 m (outsOf m) c) ∗ R c)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U7 m) c)
    unfold Pipeline.ΦA
    iintro ⟨Hp, -, Hr⟩
    isplitl [Hr]; · iexact Hr
    iexact Hp
  hout c := by
    rw [Pipeline.ownSems0_none]
    refine BIBase.Entails.trans (hout1 (U7 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U7 m c) (U8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- THE RUN WITH ITS RESULTS: from any memory with zero counters, every weakly fair execution of @main terminates, and
    every final memory holds the three result buffers at the last valuation's contents — over the unknowns the two
    lemmas above characterise — and each of the five arguments as launched. -/
theorem run_vals (ρ : Dev nD → PrngReg) :
    θ_run defs (onTc (τ := τ) (main (F := F))) ⟨m, fun _ => 0, ρ⟩ (fun r => ∀ c : Dev nD,
      r.2.mem ((c.tc : Thread nD τ).loc main_v62) = V9 m (outsOf m) c main_v62
      ∧ r.2.mem ((c.tc : Thread nD τ).loc main_v39) = V9 m (outsOf m) c main_v39
      ∧ r.2.mem ((c.tc : Thread nD τ).loc main_v41) = V9 m (outsOf m) c main_v41
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_cond m (Ix := Unit) (U := UR sig nD τ) (Lvl := ℕ) emb₁ () Variants.none L lv (fun _ _ => rfl) ρ (outsOf m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)

end Cert.KernelIdeal.Hand

end
-- ==== Proof.K.RunCond.lean ====
/-
  The conditional run of @main with its results: the conditional frame's statement strengthened by what the final
  memory holds in the three result buffers — the last valuation of the unscoped buffers (the launch contents, then each
  host stretch applied in turn, then what a kernel region leaves at the unknowns outs), read at those buffers exactly as
  it is read at the arguments.
-/
import proofs.«409812_j58909771432349_3_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- THE CONDITIONAL RUN. Under the same hypotheses as the conditional frame (one segment record per kernel region, entered
    from the thread state before it and left at the one after it), every weakly fair execution of @main from memory m
    terminates, and every final memory holds, on every core, the three result buffers at the last valuation's contents
    and each of the five arguments as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      r.2.mem ((c.tc : Thread nD τ).loc main_v62) = V9 m outs c main_v62
      ∧ r.2.mem ((c.tc : Thread nD τ).loc main_v39) = V9 m outs c main_v39
      ∧ r.2.mem ((c.tc : Thread nD τ).loc main_v41) = V9 m outs c main_v41
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, hpre0 c, hpost0 c, .rfl, .rfl, hpre1 c, hpost1 c, sep_mono .rfl (hE2 c)⟩)
    (hinit := ?_) (QY := fun c s => s.mem ((c.tc : Thread nD τ).loc main_v62) = V9 m outs c main_v62 ∧ s.mem ((c.tc : Thread nD τ).loc main_v39) = V9 m outs c main_v39 ∧ s.mem ((c.tc : Thread nD τ).loc main_v41) = V9 m outs c main_v41 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffers and each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v62) (Finset.mem_filter.mpr ⟨StableHlo.devRef_mem_tcRefs main_v62, by decide⟩),
        h (Proc.devRef .tc main_v39) (Finset.mem_filter.mpr ⟨StableHlo.devRef_mem_tcRefs main_v39, by decide⟩),
        h (Proc.devRef .tc main_v41) (Finset.mem_filter.mpr ⟨StableHlo.devRef_mem_tcRefs main_v41, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c)⟩
    · iexact HSI

end Cert.Kernel.Hand

end
-- ==== Proof.K.Acc0.lean ====
/-
  Pallas call 0, read as a recursion over its grid points. A point (r, v) of the 2 × 125 grid multiplies row tile r of x
  by vocabulary tile v of w and folds the 256 new logits of each row into three running columns kept from point to
  point: the largest logit so far, the sum of exponentials shifted by it, and the logit picked at the row's label. The
  columns start afresh at v = 0; after v = 124 the output column is the picked logit less (maximum + log of the sum).
-/
import proofs.«409812_j58909771432349_3_alg».proof.Proof.Gen.Kernel.Launch
import proofs.«409812_j58909771432349_3_alg».proof.Proof.Gen.Kernel.Skeleton
import proofs.«409812_j58909771432349_3_alg».proof.Proof.Gen.Kernel.Points
import Idealize.ShloMosaic.Lib.Pipeline.FrameBody

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three running columns: (largest logit so far, shifted sum of exponentials so far, picked logit so far). -/
abbrev Cols0 (F : FTy → Type) [FloatOps F] : Type := Vec F S2048x1 .f32 × Vec F S2048x1 .f32 × Vec F S2048x1 .f32

/-- The columns as the first vocabulary tile finds them: −∞, 0, 0. -/
def colsReset0 : Cols0 F := (k0_pay3, k0_pay4, k0_pay5)

/-- One point's update of the columns from the point's blocks of x, w and the labels. -/
def colsStep0 (i : grid0.Coords) (x : Vec F S2048x4096 .bf16) (w : Vec F S256x4096 .f32) (y : Vec F S2048x1 .i32)
    (s : Cols0 F) : Cols0 F :=
  (k0_pay9 x w s.1, k0_pay8 x w s.1 s.1 s.2.1, k0_pay1 (k0_pay6 x w) (k0_pay10 i) y s.2.2)

/-- The columns after point `n`: the update of what the point before left, or of the fresh columns where a row tile begins. -/
def colsAt0 (c : Dev nD) : (n : ℕ) → n < cfg0.N → Cols0 F
  | 0, hn => colsStep0 (grid0.coords ⟨0, hn⟩) (iblk0 V c 0 ⟨0, hn⟩) (iblk0 V c 1 ⟨0, hn⟩) (iblk0 V c 2 ⟨0, hn⟩) colsReset0
  | n + 1, hn => colsStep0 (grid0.coords ⟨n + 1, hn⟩) (iblk0 V c 0 ⟨n + 1, hn⟩) (iblk0 V c 1 ⟨n + 1, hn⟩) (iblk0 V c 2 ⟨n + 1, hn⟩)
      (if (n + 1) % 125 = 0 then colsReset0 else colsAt0 c n (Nat.lt_of_succ_lt hn))

/-- What the columns before point `n`'s update are. -/
def colsBefore0 (c : Dev nD) (n : ℕ) (hn : n < cfg0.N) : Cols0 F :=
  if h : n % 125 = 0 then colsReset0 else colsAt0 V c (n - 1) (by omega)

theorem colsAt0_eq (c : Dev nD) (t : Fin cfg0.N) :
    colsAt0 V c t.val t.isLt = colsStep0 (grid0.coords t) (iblk0 V c 0 t) (iblk0 V c 1 t) (iblk0 V c 2 t) (colsBefore0 V c t.val t.isLt) := by
  obtain ⟨n, hn⟩ := t
  cases n with
  | zero =>
    have h0 : (0 : ℕ) % 125 = 0 := rfl
    unfold colsBefore0; rw [dif_pos h0]; rfl
  | succ n =>
    unfold colsBefore0
    by_cases h : (n + 1) % 125 = 0
    · rw [dif_pos h]; simp only [colsAt0, if_pos h]
    · rw [dif_neg h]; simp only [colsAt0, if_neg h, Nat.add_sub_cancel]

/-- The output column point `n` would store: picked logit − (maximum + log of the sum), of the columns after `n`. -/
def outAt0 (c : Dev nD) (n : ℕ) (hn : n < cfg0.N) : Vec F S2048x1 .f32 :=
  k0_pay2 (colsAt0 V c n hn).2.2 (colsAt0 V c n hn).1 (colsAt0 V c n hn).2.1

end Cert.Kernel.Hand

end
-- ==== Proof.K.Conds0.lean ====
/-
  Pallas call 0's two branches, from the grid coordinates: the columns are reset where the vocabulary coordinate is 0 and
  the output column is stored where it is 124; and where the pipeline treats the output window as idle.
-/
import proofs.«409812_j58909771432349_3_alg».proof.Proof.Gen.Kernel.Launch
import proofs.«409812_j58909771432349_3_alg».proof.Proof.Gen.Kernel.Skeleton
import proofs.«409812_j58909771432349_3_alg».proof.Proof.Gen.Kernel.Points

noncomputable section

namespace Cert.Kernel.Hand

open Cert.Kernel Cert.Kernel.Gen
open Idealize.ShloMosaic Idealize.ShloMosaic.TcCoe
open Idealize.SL Idealize.SL.Sem

/-- The first branch's condition (reset the columns): the vocabulary coordinate is 0. -/
abbrev cond0_0 (i : grid0.Coords) : Prop :=
  (Scalar.cmpi .ne (Scalar.extui (Scalar.cmpi .eq (BitVec.ofNat 32 (i 1).val) 0#32)) 0#32) = 1#1
/-- It holds at the points ≡ 0 (mod 125). -/
theorem hcond0_0 : ∀ t : Fin cfg0.N, cond0_0 (grid0.coords t) ↔ t.val % 125 = 0 :=
  (by decide +kernel : ∀ t : Fin grid0.N, cond0_0 (grid0.coords t) ↔ t.val % 125 = 0)

/-- The second branch's condition (store the output column): the vocabulary coordinate is 124. -/
abbrev cond0_1 (i : grid0.Coords) : Prop := k0_cond2 i = 1#1
/-- It holds at the points ≡ 124 (mod 125). -/
theorem hcond0_1 : ∀ t : Fin cfg0.N, cond0_1 (grid0.coords t) ↔ t.val % 125 = 124 :=
  (by decide +kernel : ∀ t : Fin grid0.N, cond0_1 (grid0.coords t) ↔ t.val % 125 = 124)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the storing points the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the storing points it is live. -/
theorem liveAt0_3 : ∀ t : Fin cfg0.N, cond0_1 (grid0.coords t) → cfg0.idle 3 (grid0.coords t) = false := by decide +kernel

end Cert.Kernel.Hand

end
-- ==== Proof.K.Runs0.lean ====
/-
  The body of pallas call 0 run on whole staging buffers, in each of its three control cases: the first vocabulary tile
  (the columns reset, then updated), a middle tile (updated), the last tile (updated, then the output column stored).
  Each case leaves the inputs as they were and the three running columns at the update `colsStep0` of what they held.
-/
import proofs.«409812_j58909771432349_3_alg».proof.Proof.K.Acc0
import proofs.«409812_j58909771432349_3_alg».proof.Proof.K.Conds0
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two access, as a function. -/
private theorem hz2 : (![0, 0] : Fin 2 → ℕ) = fun _ => 0 := funext fun a => by fin_cases a <;> rfl

/-- A load of the whole of a whole buffer held at contents `x` reads `x`. -/
private theorem readAt_unread {S : Shape} {e : EltTy} (m : Memref sig .tc .vmem S e) (h : m.IsWhole)
    {off : Fin S.rank → ℕ} (hz : off = fun _ => 0) (inb : ∀ a, off a + S.size a ≤ S.size a) (x : S.Idx → Elt F e) :
    m.view.readAt (Elt F) (Rect.unit off S.size inb).toLoadRect (h.unread x) = x := by
  rw [View.readAt_eq_ld, h.read_unread, View.ld_unit_zero hz inb]

/-- After a store of the whole buffer made last, the buffer reads as that store's payload, whatever came before. -/
private theorem read_writes_whole {S : Shape} {e : EltTy} (m : Memref sig .tc .vmem S e) (f : m.view.ty.Contents (Elt F))
    {off : Fin S.rank → ℕ} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero hz inb y⟩),
    View.canon_cons_unit_zero hz inb]

/-- A load of the whole buffer after one store of the whole buffer reads that store's payload. -/
private theorem readCov_whole {S : Shape} {e : EltTy} (m : Memref sig .tc .vmem S e)
    {off : Fin S.rank → ℕ} (hz : off = fun _ => 0) (inb : ∀ a, off a + S.size a ≤ S.size a) (w : S.Idx → Elt F e) :
    m.view.readCov [(⟨Rect.unit off S.size inb, w⟩ : View.Piece (Elt F) S e)] (Rect.unit off S.size inb).toLoadRect = w :=
  View.readCov_unit_zero m.view hz inb w

set_option maxHeartbeats 1000000 in
/-- A middle vocabulary tile: the columns updated, the output buffer handed back untouched. -/
theorem runB0 (c : Dev nD) (i : grid0.Coords) (arg2 : Memref sig .tc .vmem S2048x4096 .bf16) (harg2 : arg2.IsWhole) (arg3 : Memref sig .tc .vmem S256x4096 .f32) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : ¬cond0_0 i) (hc1 : ¬cond0_1 i)
    (x0 : Vec F S2048x4096 .bf16) (x1 : Vec F S256x4096 .f32) (x2 : Vec F S2048x1 .i32) (xo : Vec F S2048x1 .f32) (s : Cols0 F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare (colsStep0 i x0 x1 x2 s).1 ∗ owns (c : Thread nD τ) arg7 fullShare (colsStep0 i x0 x1 x2 s).2.1 ∗ owns (c : Thread nD τ) arg8 fullShare (colsStep0 i x0 x1 x2 s).2.2) -∗ K ⟨⟩))
      ⊢ wp frame (wpE (defs₀ (F := F)) Variants.none c none) E (cc0__logp_kernel i arg2 harg2 arg3 harg3 arg4 harg4 arg5 harg5 arg6 harg6 arg7 harg7 arg8 harg8) K := by
  simp only [cc0__logp_kernel_eq_skeleton]; unfold cc0__logp_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    rw [read_writes_whole arg6 _ hz2, readAt_unread arg2 harg2 hz2, readAt_unread arg3 harg3 hz2, readAt_unread arg6 harg6 hz2]
    rfl
  isplitl [H7]
  · iexists _; isplitr; swap; · iexact H7
    ipureintro
    rw [read_writes_whole arg7 _ hz2, readAt_unread arg2 harg2 hz2, readAt_unread arg3 harg3 hz2, readAt_unread arg6 harg6 hz2, readAt_unread arg7 harg7 hz2]
    rfl
  iexists _; isplitr; swap; · iexact H8
  ipureintro
  rw [read_writes_whole arg8 _ hz2, readAt_unread arg2 harg2 hz2, readAt_unread arg3 harg3 hz2, readAt_unread arg4 harg4 hz2, readAt_unread arg8 harg8 hz2]
  rfl

set_option maxHeartbeats 1000000 in
/-- The first vocabulary tile: the columns found at anything, reset, then updated. -/
theorem runA0 (c : Dev nD) (i : grid0.Coords) (arg2 : Memref sig .tc .vmem S2048x4096 .bf16) (harg2 : arg2.IsWhole) (arg3 : Memref sig .tc .vmem S256x4096 .f32) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : cond0_0 i) (hc1 : ¬cond0_1 i)
    (x0 : Vec F S2048x4096 .bf16) (x1 : Vec F S256x4096 .f32) (x2 : Vec F S2048x1 .i32) (xo : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare (colsStep0 i x0 x1 x2 colsReset0).1 ∗ owns (c : Thread nD τ) arg7 fullShare (colsStep0 i x0 x1 x2 colsReset0).2.1 ∗ owns (c : Thread nD τ) arg8 fullShare (colsStep0 i x0 x1 x2 colsReset0).2.2) -∗ K ⟨⟩))
      ⊢ wp frame (wpE (defs₀ (F := F)) Variants.none c none) E (cc0__logp_kernel i arg2 harg2 arg3 harg3 arg4 harg4 arg5 harg5 arg6 harg6 arg7 harg7 arg8 harg8) K := by
  simp only [cc0__logp_kernel_eq_skeleton]; unfold cc0__logp_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_run_names
    rw [read_writes_whole arg6 _ hz2, readAt_unread arg2 harg2 hz2, readAt_unread arg3 harg3 hz2, readCov_whole arg6 hz2]
    rfl
  isplitl [H7]
  · iexists _; isplitr; swap; · iexact H7
    ipureintro
    sl_unfold_run_names
    rw [read_writes_whole arg7 _ hz2, readAt_unread arg2 harg2 hz2, readAt_unread arg3 harg3 hz2, readCov_whole arg6 hz2, readCov_whole arg7 hz2]
    rfl
  iexists _; isplitr; swap; · iexact H8
  ipureintro
  sl_unfold_run_names
  rw [read_writes_whole arg8 _ hz2, readAt_unread arg2 harg2 hz2, readAt_unread arg3 harg3 hz2, readAt_unread arg4 harg4 hz2, readCov_whole arg8 hz2]
  rfl

set_option maxHeartbeats 1000000 in
/-- The last vocabulary tile: the columns updated, then the output column stored over whatever the buffer held. -/
theorem runC0 (c : Dev nD) (i : grid0.Coords) (arg2 : Memref sig .tc .vmem S2048x4096 .bf16) (harg2 : arg2.IsWhole) (arg3 : Memref sig .tc .vmem S256x4096 .f32) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : ¬cond0_0 i) (hc1 : cond0_1 i)
    (x0 : Vec F S2048x4096 .bf16) (x1 : Vec F S256x4096 .f32) (x2 : Vec F S2048x1 .i32) (s : Cols0 F)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare (k0_pay2 (colsStep0 i x0 x1 x2 s).2.2 (colsStep0 i x0 x1 x2 s).1 (colsStep0 i x0 x1 x2 s).2.1)
            ∗ owns (c : Thread nD τ) arg6 fullShare (colsStep0 i x0 x1 x2 s).1 ∗ owns (c : Thread nD τ) arg7 fullShare (colsStep0 i x0 x1 x2 s).2.1 ∗ owns (c : Thread nD τ) arg8 fullShare (colsStep0 i x0 x1 x2 s).2.2) -∗ K ⟨⟩))
      ⊢ wp frame (wpE (defs₀ (F := F)) Variants.none c none) E (cc0__logp_kernel i arg2 harg2 arg3 harg3 arg4 harg4 arg5 harg5 arg6 harg6 arg7 harg7 arg8 harg8) K := by
  simp only [cc0__logp_kernel_eq_skeleton]; unfold cc0__logp_kernel_skel
  simp only [k0_part1_eq_skeleton]; unfold k0_part1_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_run_names
    rw [read_writes_whole arg5 _ hz2, readCov_whole arg8 hz2, readCov_whole arg6 hz2, readCov_whole arg7 hz2,
      readAt_unread arg2 harg2 hz2, readAt_unread arg3 harg3 hz2, readAt_unread arg4 harg4 hz2,
      readAt_unread arg6 harg6 hz2, readAt_unread arg7 harg7 hz2, readAt_unread arg8 harg8 hz2]
    rfl
  isplitl [H6]
  · iexists _; isplitr; swap; · iexact H6
    ipureintro
    sl_unfold_run_names
    rw [read_writes_whole arg6 _ hz2, readAt_unread arg2 harg2 hz2, readAt_unread arg3 harg3 hz2, readAt_unread arg6 harg6 hz2]
    rfl
  isplitl [H7]
  · iexists _; isplitr; swap; · iexact H7
    ipureintro
    sl_unfold_run_names
    rw [read_writes_whole arg7 _ hz2, readAt_unread arg2 harg2 hz2, readAt_unread arg3 harg3 hz2, readAt_unread arg6 harg6 hz2, readAt_unread arg7 harg7 hz2]
    rfl
  iexists _; isplitr; swap; · iexact H8
  ipureintro
  sl_unfold_run_names
  rw [read_writes_whole arg8 _ hz2, readAt_unread arg2 harg2 hz2, readAt_unread arg3 harg3 hz2, readAt_unread arg4 harg4 hz2, readAt_unread arg8 harg8 hz2]
  rfl

end Cert.Kernel.Hand

end
-- ==== Proof.K.Frame0.lean ====
/-
  Pallas call 0 as the pipeline sees it. Between two grid points the kernel's three scratch columns hold what the
  recursion `colsAt0` says (before the first point: anything); each input window's buffer holds its block of the array;
  the output window's buffer is written only at the last vocabulary tile of a row tile and is otherwise handed back as
  found. With that invariant the body's run at every point is one of the three cases of the kernel.
-/
import proofs.«409812_j58909771432349_3_alg».proof.Proof.K.Runs0
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The memrefs the body is called with -/

abbrev ms0_0 (t : Fin cfg0.N) : Memref sig .tc .vmem S2048x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
/-- The three scratch columns: whole scoped buffers of the kernel's own. -/
abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x1 .f32 := Memref.whole cc0_scratch2

/-- The core's other scoped buffers (the second call's staging buffers and scratch), each at anything: the body never
    touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The class invariant spelled out: the three columns at anything, the other scoped buffers, the generator register. -/
theorem PhiA0_split (c : Dev nD) :
    (Pipeline.ΦA spec0 c : sProp 𝕄)
      ⊢ iprop(iprop((∃ d, owns (c : Thread nD τ) scM0_0 fullShare d) ∗ (∃ d, owns (c : Thread nD τ) scM0_1 fullShare d) ∗ (∃ d, owns (c : Thread nD τ) scM0_2 fullShare d) ∗ others0 c) ∗ (∃ r, prngReg c r)) := by
  unfold Pipeline.ΦA others0; rw [scopedRest0_eq]; simp only [scM0_0, scM0_1, scM0_2, owns_whole]
  exact Idealize.SL.BI.Entails.refl _

theorem PhiA0_join (c : Dev nD) :
    (iprop(iprop((∃ d, owns (c : Thread nD τ) scM0_0 fullShare d) ∗ (∃ d, owns (c : Thread nD τ) scM0_1 fullShare d) ∗ (∃ d, owns (c : Thread nD τ) scM0_2 fullShare d) ∗ others0 c) ∗ (∃ r, prngReg c r)) : sProp 𝕄)
      ⊢ Pipeline.ΦA spec0 c := by
  unfold Pipeline.ΦA others0; rw [scopedRest0_eq]; simp only [scM0_0, scM0_1, scM0_2, owns_whole]
  exact Idealize.SL.BI.Entails.refl _

/-! ## The invariant between points -/

/-- Before point `n`: at the start the class invariant; afterwards the three columns at what the point before left. -/
def PhiS0 (c : Dev nD) : (n : ℕ) → n ≤ cfg0.N → sProp 𝕄
  | 0, _ => Pipeline.ΦA spec0 c
  | n + 1, hn => iprop(iprop(owns (c : Thread nD τ) scM0_0 fullShare (colsAt0 V c n hn).1 ∗ owns (c : Thread nD τ) scM0_1 fullShare (colsAt0 V c n hn).2.1 ∗ owns (c : Thread nD τ) scM0_2 fullShare (colsAt0 V c n hn).2.2 ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (colsAt0 V c n hn).1 ∗ owns (c : Thread nD τ) scM0_1 fullShare (colsAt0 V c n hn).2.1 ∗ owns (c : Thread nD τ) scM0_2 fullShare (colsAt0 V c n hn).2.2 ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (colsAt0 V c (n - 1) (by omega)).1 ∗ owns (c : Thread nD τ) scM0_1 fullShare (colsAt0 V c (n - 1) (by omega)).2.1 ∗ owns (c : Thread nD τ) scM0_2 fullShare (colsAt0 V c (n - 1) (by omega)).2.2 ∗ others0 c) ∗ (∃ r, prngReg c r)) := by
  cases n with
  | zero => exact absurd rfl hz
  | succ n => rfl

/-! ## The pipeline's proof data -/

/-- The proof data of pipeline 0 on core `c`: the arrays as the region finds them; after the body each input's buffer at
    its block and the output's at the column `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t.val t.isLt := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's vocabulary coordinate says which of the
    three cases runs; the invariant hands the body the columns the point before left (anything at the very first point,
    where they are reset) and takes them back at this point's update; the output buffer passes through untouched except
    at a last vocabulary tile, where it receives the output column. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 250 := lt_of_lt_of_eq t.isLt (show cfg0.N = 250 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [colsAt0_eq V c t]
  by_cases h1 : t.val % 125 = 124
  · -- a last vocabulary tile: the output column is stored
    have h0 : ¬ t.val % 125 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    unfold outAt0; rw [colsAt0_eq V c t]
    unfold colsBefore0; rw [dif_neg h0]
    rw [PhiS0_castSucc V c t, PhiS0_pos V c _ _ hz]
    iintro ⟨⟨⟨HS0, HS1, HS2, Hoth⟩, Hg⟩, Ho, ⟨%d0, H0⟩, ⟨%d1, H1⟩, ⟨%d2, H2⟩, ⟨%d3, H3⟩⟩
    iapply (runC0 c (grid0.coords t) _ _ _ _ _ _ _ _ _ _ _ _ _ _ (fun h => h0 ((hcond0_0 t).mp h)) ((hcond0_1 t).mpr h1)
      (iblk0 V c 0 t) (iblk0 V c 1 t) (iblk0 V c 2 t) _ Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hoth Hg]
    · isplitl [HS0 HS1 HS2 Hoth]
      · isplitl [HS0]; · iexact HS0
        isplitl [HS1]; · iexact HS1
        isplitl [HS2]; · iexact HS2
        iexact Hoth
      iexact Hg
    isplitl [Ho]; · iexact Ho
    isplitl [H0]; · iexact H0
    isplitl [H1]; · iexact H1
    isplitl [H2]; · iexact H2
    iexact H3
  · rw [Dat.leavesExact_idle (dat0 V c) 3 t (idleAt0_3 t (fun h => h1 ((hcond0_1 t).mp h))) (noFlush0_3 t (fun h => h1 ((hcond0_1 t).mp h)))]
    by_cases h0 : t.val % 125 = 0
    · -- a first vocabulary tile: the columns are reset, whatever they held
      unfold colsBefore0; rw [dif_pos h0]
      by_cases hz : t.val = 0
      · rw [PhiS0_castSucc V c t, PhiS0_zero V c _ _ hz]
        iintro ⟨HP, Ho, ⟨%d0, H0⟩, ⟨%d1, H1⟩, ⟨%d2, H2⟩, ⟨%d3, H3⟩⟩
        ihave HQ := (PhiA0_split c) $$ HP
        icases HQ with ⟨⟨HS0, HS1, HS2, Hoth⟩, Hg⟩
        iapply (runA0 c (grid0.coords t) _ _ _ _ _ _ _ _ _ _ _ _ _ _ ((hcond0_0 t).mpr h0) (fun h => h1 ((hcond0_1 t).mp h))
          (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hoth Hg]
        · isplitl [HS0 HS1 HS2 Hoth]
          · isplitl [HS0]; · iexact HS0
            isplitl [HS1]; · iexact HS1
            isplitl [HS2]; · iexact HS2
            iexact Hoth
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, HS1, HS2, Hoth⟩, Hg⟩, Ho, ⟨%d0, H0⟩, ⟨%d1, H1⟩, ⟨%d2, H2⟩, ⟨%d3, H3⟩⟩
        iapply (runA0 c (grid0.coords t) _ _ _ _ _ _ _ _ _ _ _ _ _ _ ((hcond0_0 t).mpr h0) (fun h => h1 ((hcond0_1 t).mp h))
          (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, HS0, HS1, HS2⟩
        isplitl [HS0 HS1 HS2 Hoth Hg]
        · isplitl [HS0 HS1 HS2 Hoth]
          · isplitl [HS0]; · iexact HS0
            isplitl [HS1]; · iexact HS1
            isplitl [HS2]; · iexact HS2
            iexact Hoth
          iexact Hg
        isplitl [Ho]; · iexact Ho
        isplitl [H0]; · iexact H0
        isplitl [H1]; · iexact H1
        isplitl [H2]; · iexact H2
        iexists _; iexact H3
    · -- a middle vocabulary tile
      have hz : t.val ≠ 0 := by omega
      unfold colsBefore0; rw [dif_neg h0]
      rw [PhiS0_castSucc V c t, PhiS0_pos V c _ _ hz]
      iintro ⟨⟨⟨HS0, HS1, HS2, Hoth⟩, Hg⟩, Ho, ⟨%d0, H0⟩, ⟨%d1, H1⟩, ⟨%d2, H2⟩, ⟨%d3, H3⟩⟩
      iapply (runB0 c (grid0.coords t) _ _ _ _ _ _ _ _ _ _ _ _ _ _ (fun h => h0 ((hcond0_0 t).mp h)) (fun h => h1 ((hcond0_1 t).mp h))
        (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hoth Hg]
      · isplitl [HS0 HS1 HS2 Hoth]
        · isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class invariant back: the columns' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  have hforget : (iprop(iprop(owns (c : Thread nD τ) scM0_0 fullShare (colsAt0 V c (t.val - 1) (by omega)).1 ∗ owns (c : Thread nD τ) scM0_1 fullShare (colsAt0 V c (t.val - 1) (by omega)).2.1 ∗ owns (c : Thread nD τ) scM0_2 fullShare (colsAt0 V c (t.val - 1) (by omega)).2.2 ∗ others0 c) ∗ (∃ r, prngReg c r)) : sProp 𝕄)
      ⊢ iprop(iprop((∃ d, owns (c : Thread nD τ) scM0_0 fullShare d) ∗ (∃ d, owns (c : Thread nD τ) scM0_1 fullShare d) ∗ (∃ d, owns (c : Thread nD τ) scM0_2 fullShare d) ∗ others0 c) ∗ (∃ r, prngReg c r)) := by
    iintro ⟨⟨HS0, HS1, HS2, Hoth⟩, Hg⟩
    isplitl [HS0 HS1 HS2 Hoth]
    · isplitl [HS0]; · iexists _; iexact HS0
      isplitl [HS1]; · iexists _; iexact HS1
      isplitl [HS2]; · iexists _; iexact HS2
      iexact Hoth
    iexact Hg
  exact hforget.trans (PhiA0_join c)

theorem hout0 (c : Dev nD) : (dat0 V c).Φ (Fin.last cfg0.N) ⊢ Pipeline.ΦA spec0 c :=
  Phi_out0 V c _ (by rw [Fin.val_last]; have : cfg0.N = 250 := N_0; omega)

end Cert.Kernel.Hand

end
-- ==== Proof.K.Acc1.lean ====
/-
  Pallas call 1, read as a recursion over its grid points. A point (r, v) of the 2 × 125 grid multiplies row tile r of x
  by vocabulary tile v of w and folds the 256 new logits of each row into three running columns kept from point to
  point: the largest logit so far, the sum of exponentials shifted by it, and the logit picked at the row's label. The
  columns start afresh at v = 0; after v = 124 the output column is the picked logit less (maximum + log of the sum).
-/
import proofs.«409812_j58909771432349_3_alg».proof.Proof.Gen.Kernel.Launch
import proofs.«409812_j58909771432349_3_alg».proof.Proof.Gen.Kernel.Skeleton
import proofs.«409812_j58909771432349_3_alg».proof.Proof.Gen.Kernel.Points
import Idealize.ShloMosaic.Lib.Pipeline.FrameBody

noncomputable section

namespace Cert.Kernel.HandB

open Cert.Kernel Cert.Kernel.Gen
open Idealize.ShloMosaic Idealize.ShloMosaic.TcCoe
open Idealize.SL Idealize.SL.Sem
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three running columns: (largest logit so far, shifted sum of exponentials so far, picked logit so far). -/
abbrev Cols1 (F : FTy → Type) [FloatOps F] : Type := Vec F S2048x1 .f32 × Vec F S2048x1 .f32 × Vec F S2048x1 .f32

/-- The columns as the first vocabulary tile finds them: −∞, 0, 0. -/
def colsReset1 : Cols1 F := (k1_pay3, k1_pay4, k1_pay5)

/-- One point's update of the columns from the point's blocks of x, w and the labels. -/
def colsStep1 (i : grid1.Coords) (x : Vec F S2048x4096 .bf16) (w : Vec F S256x4096 .f32) (y : Vec F S2048x1 .i32)
    (s : Cols1 F) : Cols1 F :=
  (k1_pay9 x w s.1, k1_pay8 x w s.1 s.1 s.2.1, k1_pay1 (k1_pay6 x w) (k1_pay10 i) y s.2.2)

/-- The columns after point `n`: the update of what the point before left, or of the fresh columns where a row tile begins. -/
def colsAt1 (c : Dev nD) : (n : ℕ) → n < cfg1.N → Cols1 F
  | 0, hn => colsStep1 (grid1.coords ⟨0, hn⟩) (iblk1 V c 0 ⟨0, hn⟩) (iblk1 V c 1 ⟨0, hn⟩) (iblk1 V c 2 ⟨0, hn⟩) colsReset1
  | n + 1, hn => colsStep1 (grid1.coords ⟨n + 1, hn⟩) (iblk1 V c 0 ⟨n + 1, hn⟩) (iblk1 V c 1 ⟨n + 1, hn⟩) (iblk1 V c 2 ⟨n + 1, hn⟩)
      (if (n + 1) % 125 = 0 then colsReset1 else colsAt1 c n (Nat.lt_of_succ_lt hn))

/-- What the columns before point `n`'s update are. -/
def colsBefore1 (c : Dev nD) (n : ℕ) (hn : n < cfg1.N) : Cols1 F :=
  if h : n % 125 = 0 then colsReset1 else colsAt1 V c (n - 1) (by omega)

theorem colsAt1_eq (c : Dev nD) (t : Fin cfg1.N) :
    colsAt1 V c t.val t.isLt = colsStep1 (grid1.coords t) (iblk1 V c 0 t) (iblk1 V c 1 t) (iblk1 V c 2 t) (colsBefore1 V c t.val t.isLt) := by
  obtain ⟨n, hn⟩ := t
  cases n with
  | zero =>
    have h0 : (0 : ℕ) % 125 = 0 := rfl
    unfold colsBefore1; rw [dif_pos h0]; rfl
  | succ n =>
    unfold colsBefore1
    by_cases h : (n + 1) % 125 = 0
    · rw [dif_pos h]; simp only [colsAt1, if_pos h]
    · rw [dif_neg h]; simp only [colsAt1, if_neg h, Nat.add_sub_cancel]

/-- The output column point `n` would store: picked logit − (maximum + log of the sum), of the columns after `n`. -/
def outAt1 (c : Dev nD) (n : ℕ) (hn : n < cfg1.N) : Vec F S2048x1 .f32 :=
  k1_pay2 (colsAt1 V c n hn).2.2 (colsAt1 V c n hn).1 (colsAt1 V c n hn).2.1

end Cert.Kernel.HandB

end
-- ==== Proof.K.Conds1.lean ====
/-
  Pallas call 1's two branches, from the grid coordinates: the columns are reset where the vocabulary coordinate is 0 and
  the output column is stored where it is 124; and where the pipeline treats the output window as idle.
-/
import proofs.«409812_j58909771432349_3_alg».proof.Proof.Gen.Kernel.Launch
import proofs.«409812_j58909771432349_3_alg».proof.Proof.Gen.Kernel.Skeleton
import proofs.«409812_j58909771432349_3_alg».proof.Proof.Gen.Kernel.Points

noncomputable section

namespace Cert.Kernel.HandB

open Cert.Kernel Cert.Kernel.Gen
open Idealize.ShloMosaic Idealize.ShloMosaic.TcCoe
open Idealize.SL Idealize.SL.Sem

/-- The first branch's condition (reset the columns): the vocabulary coordinate is 0. -/
abbrev cond1_0 (i : grid1.Coords) : Prop :=
  (Scalar.cmpi .ne (Scalar.extui (Scalar.cmpi .eq (BitVec.ofNat 32 (i 1).val) 0#32)) 0#32) = 1#1
/-- It holds at the points ≡ 0 (mod 125). -/
theorem hcond1_0 : ∀ t : Fin cfg1.N, cond1_0 (grid1.coords t) ↔ t.val % 125 = 0 :=
  (by decide +kernel : ∀ t : Fin grid1.N, cond1_0 (grid1.coords t) ↔ t.val % 125 = 0)

/-- The second branch's condition (store the output column): the vocabulary coordinate is 124. -/
abbrev cond1_1 (i : grid1.Coords) : Prop := k1_cond2 i = 1#1
/-- It holds at the points ≡ 124 (mod 125). -/
theorem hcond1_1 : ∀ t : Fin cfg1.N, cond1_1 (grid1.coords t) ↔ t.val % 125 = 124 :=
  (by decide +kernel : ∀ t : Fin grid1.N, cond1_1 (grid1.coords t) ↔ t.val % 125 = 124)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the storing points the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the storing points it is live. -/
theorem liveAt1_3 : ∀ t : Fin cfg1.N, cond1_1 (grid1.coords t) → cfg1.idle 3 (grid1.coords t) = false := by decide +kernel

end Cert.Kernel.HandB

end
-- ==== Proof.K.Runs1.lean ====
/-
  The body of pallas call 1 run on whole staging buffers, in each of its three control cases: the first vocabulary tile
  (the columns reset, then updated), a middle tile (updated), the last tile (updated, then the output column stored).
  Each case leaves the inputs as they were and the three running columns at the update `colsStep1` of what they held.
-/
import proofs.«409812_j58909771432349_3_alg».proof.Proof.K.Acc1
import proofs.«409812_j58909771432349_3_alg».proof.Proof.K.Conds1
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.Kernel.HandB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two access, as a function. -/
private theorem hz2 : (![0, 0] : Fin 2 → ℕ) = fun _ => 0 := funext fun a => by fin_cases a <;> rfl

/-- A load of the whole of a whole buffer held at contents `x` reads `x`. -/
private theorem readAt_unread {S : Shape} {e : EltTy} (m : Memref sig .tc .vmem S e) (h : m.IsWhole)
    {off : Fin S.rank → ℕ} (hz : off = fun _ => 0) (inb : ∀ a, off a + S.size a ≤ S.size a) (x : S.Idx → Elt F e) :
    m.view.readAt (Elt F) (Rect.unit off S.size inb).toLoadRect (h.unread x) = x := by
  rw [View.readAt_eq_ld, h.read_unread, View.ld_unit_zero hz inb]

/-- After a store of the whole buffer made last, the buffer reads as that store's payload, whatever came before. -/
private theorem read_writes_whole {S : Shape} {e : EltTy} (m : Memref sig .tc .vmem S e) (f : m.view.ty.Contents (Elt F))
    {off : Fin S.rank → ℕ} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero hz inb y⟩),
    View.canon_cons_unit_zero hz inb]

/-- A load of the whole buffer after one store of the whole buffer reads that store's payload. -/
private theorem readCov_whole {S : Shape} {e : EltTy} (m : Memref sig .tc .vmem S e)
    {off : Fin S.rank → ℕ} (hz : off = fun _ => 0) (inb : ∀ a, off a + S.size a ≤ S.size a) (w : S.Idx → Elt F e) :
    m.view.readCov [(⟨Rect.unit off S.size inb, w⟩ : View.Piece (Elt F) S e)] (Rect.unit off S.size inb).toLoadRect = w :=
  View.readCov_unit_zero m.view hz inb w

set_option maxHeartbeats 1000000 in
/-- A middle vocabulary tile: the columns updated, the output buffer handed back untouched. -/
theorem runB1 (c : Dev nD) (i : grid1.Coords) (arg2 : Memref sig .tc .vmem S2048x4096 .bf16) (harg2 : arg2.IsWhole) (arg3 : Memref sig .tc .vmem S256x4096 .f32) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : ¬cond1_0 i) (hc1 : ¬cond1_1 i)
    (x0 : Vec F S2048x4096 .bf16) (x1 : Vec F S256x4096 .f32) (x2 : Vec F S2048x1 .i32) (xo : Vec F S2048x1 .f32) (s : Cols1 F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare (colsStep1 i x0 x1 x2 s).1 ∗ owns (c : Thread nD τ) arg7 fullShare (colsStep1 i x0 x1 x2 s).2.1 ∗ owns (c : Thread nD τ) arg8 fullShare (colsStep1 i x0 x1 x2 s).2.2) -∗ K ⟨⟩))
      ⊢ wp frame (wpE (defs₀ (F := F)) Variants.none c none) E (cc1__logp_kernel i arg2 harg2 arg3 harg3 arg4 harg4 arg5 harg5 arg6 harg6 arg7 harg7 arg8 harg8) K := by
  simp only [cc1__logp_kernel_eq_skeleton]; unfold cc1__logp_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    rw [read_writes_whole arg6 _ hz2, readAt_unread arg2 harg2 hz2, readAt_unread arg3 harg3 hz2, readAt_unread arg6 harg6 hz2]
    rfl
  isplitl [H7]
  · iexists _; isplitr; swap; · iexact H7
    ipureintro
    rw [read_writes_whole arg7 _ hz2, readAt_unread arg2 harg2 hz2, readAt_unread arg3 harg3 hz2, readAt_unread arg6 harg6 hz2, readAt_unread arg7 harg7 hz2]
    rfl
  iexists _; isplitr; swap; · iexact H8
  ipureintro
  rw [read_writes_whole arg8 _ hz2, readAt_unread arg2 harg2 hz2, readAt_unread arg3 harg3 hz2, readAt_unread arg4 harg4 hz2, readAt_unread arg8 harg8 hz2]
  rfl

set_option maxHeartbeats 1000000 in
/-- The first vocabulary tile: the columns found at anything, reset, then updated. -/
theorem runA1 (c : Dev nD) (i : grid1.Coords) (arg2 : Memref sig .tc .vmem S2048x4096 .bf16) (harg2 : arg2.IsWhole) (arg3 : Memref sig .tc .vmem S256x4096 .f32) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : cond1_0 i) (hc1 : ¬cond1_1 i)
    (x0 : Vec F S2048x4096 .bf16) (x1 : Vec F S256x4096 .f32) (x2 : Vec F S2048x1 .i32) (xo : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare (colsStep1 i x0 x1 x2 colsReset1).1 ∗ owns (c : Thread nD τ) arg7 fullShare (colsStep1 i x0 x1 x2 colsReset1).2.1 ∗ owns (c : Thread nD τ) arg8 fullShare (colsStep1 i x0 x1 x2 colsReset1).2.2) -∗ K ⟨⟩))
      ⊢ wp frame (wpE (defs₀ (F := F)) Variants.none c none) E (cc1__logp_kernel i arg2 harg2 arg3 harg3 arg4 harg4 arg5 harg5 arg6 harg6 arg7 harg7 arg8 harg8) K := by
  simp only [cc1__logp_kernel_eq_skeleton]; unfold cc1__logp_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_run_names
    rw [read_writes_whole arg6 _ hz2, readAt_unread arg2 harg2 hz2, readAt_unread arg3 harg3 hz2, readCov_whole arg6 hz2]
    rfl
  isplitl [H7]
  · iexists _; isplitr; swap; · iexact H7
    ipureintro
    sl_unfold_run_names
    rw [read_writes_whole arg7 _ hz2, readAt_unread arg2 harg2 hz2, readAt_unread arg3 harg3 hz2, readCov_whole arg6 hz2, readCov_whole arg7 hz2]
    rfl
  iexists _; isplitr; swap; · iexact H8
  ipureintro
  sl_unfold_run_names
  rw [read_writes_whole arg8 _ hz2, readAt_unread arg2 harg2 hz2, readAt_unread arg3 harg3 hz2, readAt_unread arg4 harg4 hz2, readCov_whole arg8 hz2]
  rfl

set_option maxHeartbeats 1000000 in
/-- The last vocabulary tile: the columns updated, then the output column stored over whatever the buffer held. -/
theorem runC1 (c : Dev nD) (i : grid1.Coords) (arg2 : Memref sig .tc .vmem S2048x4096 .bf16) (harg2 : arg2.IsWhole) (arg3 : Memref sig .tc .vmem S256x4096 .f32) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : ¬cond1_0 i) (hc1 : cond1_1 i)
    (x0 : Vec F S2048x4096 .bf16) (x1 : Vec F S256x4096 .f32) (x2 : Vec F S2048x1 .i32) (s : Cols1 F)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare (k1_pay2 (colsStep1 i x0 x1 x2 s).2.2 (colsStep1 i x0 x1 x2 s).1 (colsStep1 i x0 x1 x2 s).2.1)
            ∗ owns (c : Thread nD τ) arg6 fullShare (colsStep1 i x0 x1 x2 s).1 ∗ owns (c : Thread nD τ) arg7 fullShare (colsStep1 i x0 x1 x2 s).2.1 ∗ owns (c : Thread nD τ) arg8 fullShare (colsStep1 i x0 x1 x2 s).2.2) -∗ K ⟨⟩))
      ⊢ wp frame (wpE (defs₀ (F := F)) Variants.none c none) E (cc1__logp_kernel i arg2 harg2 arg3 harg3 arg4 harg4 arg5 harg5 arg6 harg6 arg7 harg7 arg8 harg8) K := by
  simp only [cc1__logp_kernel_eq_skeleton]; unfold cc1__logp_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_run_names
    rw [read_writes_whole arg5 _ hz2, readCov_whole arg8 hz2, readCov_whole arg6 hz2, readCov_whole arg7 hz2,
      readAt_unread arg2 harg2 hz2, readAt_unread arg3 harg3 hz2, readAt_unread arg4 harg4 hz2,
      readAt_unread arg6 harg6 hz2, readAt_unread arg7 harg7 hz2, readAt_unread arg8 harg8 hz2]
    rfl
  isplitl [H6]
  · iexists _; isplitr; swap; · iexact H6
    ipureintro
    sl_unfold_run_names
    rw [read_writes_whole arg6 _ hz2, readAt_unread arg2 harg2 hz2, readAt_unread arg3 harg3 hz2, readAt_unread arg6 harg6 hz2]
    rfl
  isplitl [H7]
  · iexists _; isplitr; swap; · iexact H7
    ipureintro
    sl_unfold_run_names
    rw [read_writes_whole arg7 _ hz2, readAt_unread arg2 harg2 hz2, readAt_unread arg3 harg3 hz2, readAt_unread arg6 harg6 hz2, readAt_unread arg7 harg7 hz2]
    rfl
  iexists _; isplitr; swap; · iexact H8
  ipureintro
  sl_unfold_run_names
  rw [read_writes_whole arg8 _ hz2, readAt_unread arg2 harg2 hz2, readAt_unread arg3 harg3 hz2, readAt_unread arg4 harg4 hz2, readAt_unread arg8 harg8 hz2]
  rfl

end Cert.Kernel.HandB

end
-- ==== Proof.K.Frame1.lean ====
/-
  Pallas call 1 as the pipeline sees it. Between two grid points the kernel's three scratch columns hold what the
  recursion `colsAt1` says (before the first point: anything); each input window's buffer holds its block of the array;
  the output window's buffer is written only at the last vocabulary tile of a row tile and is otherwise handed back as
  found. With that invariant the body's run at every point is one of the three cases of the kernel.
-/
import proofs.«409812_j58909771432349_3_alg».proof.Proof.K.Runs1
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.HandB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The memrefs the body is called with -/

abbrev ms1_0 (t : Fin cfg1.N) : Memref sig .tc .vmem S2048x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
/-- The three scratch columns: whole scoped buffers of the kernel's own. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x1 .f32 := Memref.whole cc1_scratch2

/-- The core's other scoped buffers (the second call's staging buffers and scratch), each at anything: the body never
    touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The class invariant spelled out: the three columns at anything, the other scoped buffers, the generator register. -/
theorem PhiA1_split (c : Dev nD) :
    (Pipeline.ΦA spec1 c : sProp 𝕄)
      ⊢ iprop(iprop((∃ d, owns (c : Thread nD τ) scM1_0 fullShare d) ∗ (∃ d, owns (c : Thread nD τ) scM1_1 fullShare d) ∗ (∃ d, owns (c : Thread nD τ) scM1_2 fullShare d) ∗ others1 c) ∗ (∃ r, prngReg c r)) := by
  unfold Pipeline.ΦA others1; rw [scopedRest1_eq]; simp only [scM1_0, scM1_1, scM1_2, owns_whole]
  iintro ⟨⟨O1, O2, O3, O4, O5, O6, O7, O8, O9, O10, S0, S1, S2⟩, Hg⟩
  isplitl [O1 O2 O3 O4 O5 O6 O7 O8 O9 O10 S0 S1 S2]
  · isplitl [S0]; · iexact S0
    isplitl [S1]; · iexact S1
    isplitl [S2]; · iexact S2
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    iexact O10
  iexact Hg

theorem PhiA1_join (c : Dev nD) :
    (iprop(iprop((∃ d, owns (c : Thread nD τ) scM1_0 fullShare d) ∗ (∃ d, owns (c : Thread nD τ) scM1_1 fullShare d) ∗ (∃ d, owns (c : Thread nD τ) scM1_2 fullShare d) ∗ others1 c) ∗ (∃ r, prngReg c r)) : sProp 𝕄)
      ⊢ Pipeline.ΦA spec1 c := by
  unfold Pipeline.ΦA others1; rw [scopedRest1_eq]; simp only [scM1_0, scM1_1, scM1_2, owns_whole]
  iintro ⟨⟨S0, S1, S2, O1, O2, O3, O4, O5, O6, O7, O8, O9, O10⟩, Hg⟩
  isplitl [O1 O2 O3 O4 O5 O6 O7 O8 O9 O10 S0 S1 S2]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [S0]; · iexact S0
    isplitl [S1]; · iexact S1
    iexact S2
  iexact Hg

/-! ## The invariant between points -/

/-- Before point `n`: at the start the class invariant; afterwards the three columns at what the point before left. -/
def PhiS1 (c : Dev nD) : (n : ℕ) → n ≤ cfg1.N → sProp 𝕄
  | 0, _ => Pipeline.ΦA spec1 c
  | n + 1, hn => iprop(iprop(owns (c : Thread nD τ) scM1_0 fullShare (colsAt1 V c n hn).1 ∗ owns (c : Thread nD τ) scM1_1 fullShare (colsAt1 V c n hn).2.1 ∗ owns (c : Thread nD τ) scM1_2 fullShare (colsAt1 V c n hn).2.2 ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (colsAt1 V c n hn).1 ∗ owns (c : Thread nD τ) scM1_1 fullShare (colsAt1 V c n hn).2.1 ∗ owns (c : Thread nD τ) scM1_2 fullShare (colsAt1 V c n hn).2.2 ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (colsAt1 V c (n - 1) (by omega)).1 ∗ owns (c : Thread nD τ) scM1_1 fullShare (colsAt1 V c (n - 1) (by omega)).2.1 ∗ owns (c : Thread nD τ) scM1_2 fullShare (colsAt1 V c (n - 1) (by omega)).2.2 ∗ others1 c) ∗ (∃ r, prngReg c r)) := by
  cases n with
  | zero => exact absurd rfl hz
  | succ n => rfl

/-! ## The pipeline's proof data -/

/-- The proof data of pipeline 0 on core `c`: the arrays as the region finds them; after the body each input's buffer at
    its block and the output's at the column `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t.val t.isLt := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's vocabulary coordinate says which of the
    three cases runs; the invariant hands the body the columns the point before left (anything at the very first point,
    where they are reset) and takes them back at this point's update; the output buffer passes through untouched except
    at a last vocabulary tile, where it receives the output column. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 250 := lt_of_lt_of_eq t.isLt (show cfg1.N = 250 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [colsAt1_eq V c t]
  by_cases h1 : t.val % 125 = 124
  · -- a last vocabulary tile: the output column is stored
    have h0 : ¬ t.val % 125 = 0 := by omega
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    unfold outAt1; rw [colsAt1_eq V c t]
    unfold colsBefore1; rw [dif_neg h0]
    rw [PhiS1_castSucc V c t, PhiS1_pos V c _ _ hz]
    iintro ⟨⟨⟨HS0, HS1, HS2, Hoth⟩, Hg⟩, Ho, ⟨%d0, H0⟩, ⟨%d1, H1⟩, ⟨%d2, H2⟩, ⟨%d3, H3⟩⟩
    iapply (runC1 c (grid1.coords t) _ _ _ _ _ _ _ _ _ _ _ _ _ _ (fun h => h0 ((hcond1_0 t).mp h)) ((hcond1_1 t).mpr h1)
      (iblk1 V c 0 t) (iblk1 V c 1 t) (iblk1 V c 2 t) _ Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hoth Hg]
    · isplitl [HS0 HS1 HS2 Hoth]
      · isplitl [HS0]; · iexact HS0
        isplitl [HS1]; · iexact HS1
        isplitl [HS2]; · iexact HS2
        iexact Hoth
      iexact Hg
    isplitl [Ho]; · iexact Ho
    isplitl [H0]; · iexact H0
    isplitl [H1]; · iexact H1
    isplitl [H2]; · iexact H2
    iexact H3
  · rw [Dat.leavesExact_idle (dat1 V c) 3 t (idleAt1_3 t (fun h => h1 ((hcond1_1 t).mp h))) (noFlush1_3 t (fun h => h1 ((hcond1_1 t).mp h)))]
    by_cases h0 : t.val % 125 = 0
    · -- a first vocabulary tile: the columns are reset, whatever they held
      unfold colsBefore1; rw [dif_pos h0]
      by_cases hz : t.val = 0
      · rw [PhiS1_castSucc V c t, PhiS1_zero V c _ _ hz]
        iintro ⟨HP, Ho, ⟨%d0, H0⟩, ⟨%d1, H1⟩, ⟨%d2, H2⟩, ⟨%d3, H3⟩⟩
        ihave HQ := (PhiA1_split c) $$ HP
        icases HQ with ⟨⟨HS0, HS1, HS2, Hoth⟩, Hg⟩
        iapply (runA1 c (grid1.coords t) _ _ _ _ _ _ _ _ _ _ _ _ _ _ ((hcond1_0 t).mpr h0) (fun h => h1 ((hcond1_1 t).mp h))
          (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hoth Hg]
        · isplitl [HS0 HS1 HS2 Hoth]
          · isplitl [HS0]; · iexact HS0
            isplitl [HS1]; · iexact HS1
            isplitl [HS2]; · iexact HS2
            iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HS1, HS2, Hoth⟩, Hg⟩, Ho, ⟨%d0, H0⟩, ⟨%d1, H1⟩, ⟨%d2, H2⟩, ⟨%d3, H3⟩⟩
        iapply (runA1 c (grid1.coords t) _ _ _ _ _ _ _ _ _ _ _ _ _ _ ((hcond1_0 t).mpr h0) (fun h => h1 ((hcond1_1 t).mp h))
          (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, HS0, HS1, HS2⟩
        isplitl [HS0 HS1 HS2 Hoth Hg]
        · isplitl [HS0 HS1 HS2 Hoth]
          · isplitl [HS0]; · iexact HS0
            isplitl [HS1]; · iexact HS1
            isplitl [HS2]; · iexact HS2
            iexact Hoth
          iexact Hg
        isplitl [Ho]; · iexact Ho
        isplitl [H0]; · iexact H0
        isplitl [H1]; · iexact H1
        isplitl [H2]; · iexact H2
        iexists _; iexact H3
    · -- a middle vocabulary tile
      have hz : t.val ≠ 0 := by omega
      unfold colsBefore1; rw [dif_neg h0]
      rw [PhiS1_castSucc V c t, PhiS1_pos V c _ _ hz]
      iintro ⟨⟨⟨HS0, HS1, HS2, Hoth⟩, Hg⟩, Ho, ⟨%d0, H0⟩, ⟨%d1, H1⟩, ⟨%d2, H2⟩, ⟨%d3, H3⟩⟩
      iapply (runB1 c (grid1.coords t) _ _ _ _ _ _ _ _ _ _ _ _ _ _ (fun h => h0 ((hcond1_0 t).mp h)) (fun h => h1 ((hcond1_1 t).mp h))
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hoth Hg]
      · isplitl [HS0 HS1 HS2 Hoth]
        · isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: the columns' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  have hforget : (iprop(iprop(owns (c : Thread nD τ) scM1_0 fullShare (colsAt1 V c (t.val - 1) (by omega)).1 ∗ owns (c : Thread nD τ) scM1_1 fullShare (colsAt1 V c (t.val - 1) (by omega)).2.1 ∗ owns (c : Thread nD τ) scM1_2 fullShare (colsAt1 V c (t.val - 1) (by omega)).2.2 ∗ others1 c) ∗ (∃ r, prngReg c r)) : sProp 𝕄)
      ⊢ iprop(iprop((∃ d, owns (c : Thread nD τ) scM1_0 fullShare d) ∗ (∃ d, owns (c : Thread nD τ) scM1_1 fullShare d) ∗ (∃ d, owns (c : Thread nD τ) scM1_2 fullShare d) ∗ others1 c) ∗ (∃ r, prngReg c r)) := by
    iintro ⟨⟨HS0, HS1, HS2, Hoth⟩, Hg⟩
    isplitl [HS0 HS1 HS2 Hoth]
    · isplitl [HS0]; · iexists _; iexact HS0
      isplitl [HS1]; · iexists _; iexact HS1
      isplitl [HS2]; · iexists _; iexact HS2
      iexact Hoth
    iexact Hg
  exact hforget.trans (PhiA1_join c)

theorem hout1 (c : Dev nD) : (dat1 V c).Φ (Fin.last cfg1.N) ⊢ Pipeline.ΦA spec1 c :=
  Phi_out1 V c _ (by rw [Fin.val_last]; have : cfg1.N = 250 := N_1; omega)

end Cert.Kernel.HandB

end
-- ==== Proof.K.Run.lean ====
/-
  The run of @main with its results, unconditionally. Each kernel region is entered from the contents the items before
  it leave in the unscoped buffers and left at those contents changed in one buffer only, its output array, which then
  holds the fold of the pipeline's write-backs; an input array ends as it began. The unknown contents the conditional
  run is stated over are chosen accordingly: after region 0 its output array at that fold over region 0's entry
  contents, after region 1 likewise over region 1's entry contents, which read the unknowns at region 0's output only,
  so the choice is not circular. Beside the buffers every item carries the generator register at some state and the
  core's dues, none. The conditional run at these choices is the run.
-/
import proofs.«409812_j58909771432349_3_alg».proof.Proof.K.RunCond
import proofs.«409812_j58909771432349_3_alg».proof.Proof.K.Frame0
import proofs.«409812_j58909771432349_3_alg».proof.Proof.K.Frame1
import Idealize.ShloMosaic.Lib.Pipeline.FrameBody
import Idealize.ShloMosaic.Lib.Pipeline.Kit
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.HandB
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## What the two regions leave -/

/-- The buffers' contents when region 0 is entered, read at the TensorCore's references. -/
abbrev U3 : (c : Dev nD) → (b : Ref sig .tc) → Buf (Elt F) ((c : Thread nD τ).loc b) := fun c b => V3 m c b

/-- Region 0's half of the unknowns: at every reference, region 0's entry contents with its four arrays at what the
    pipeline leaves in them (only the entry at the output array is ever read). -/
def outs₀ : Outs (F := F) := fun _ r c =>
  Pipeline.withArrays spec0 c (V3 m c) (fun w => (dat0 (U3 m) c).arrAt w cfg0.N) (Proc.devRef .tc r)

/-- The buffers' contents when region 1 is entered, over region 0's half of the unknowns. -/
abbrev U7₀ : (c : Dev nD) → (b : Ref sig .tc) → Buf (Elt F) ((c : Thread nD τ).loc b) := fun c b => V7 m (outs₀ m) c b

/-- What the regions leave: after item 7 region 1's entry contents with its four arrays at what its pipeline leaves;
    at every other item region 0's half. -/
def outsOf : Outs (F := F) := fun J r c =>
  if J = 8 then Pipeline.withArrays spec1 c (V7 m (outs₀ m) c) (fun w => (dat1 (U7₀ m) c).arrAt w cfg1.N) (Proc.devRef .tc r)
  else outs₀ m J r c

theorem outsOf_of_ne (J : ℕ) (hJ : J ≠ 8) (r : Ref sig .tc) (c : Dev nD) : outsOf m J r c = outs₀ m J r c := if_neg hJ

/-- The valuations up to region 1's entry read the unknowns at region 0's output only. -/
theorem V4_outsOf (c : Dev nD) : V4 m (outsOf m) c = V4 m (outs₀ m) c :=
  congrArg (Function.update (V3 m c) (Proc.devRef .tc main_v6)) (outsOf_of_ne m 4 (by decide) main_v6 c)
theorem V7_outsOf (c : Dev nD) : V7 m (outsOf m) c = V7 m (outs₀ m) c :=
  congrArg (fun v => StableHlo.after hostOps1_2 (StableHlo.after hostOps1_1 (StableHlo.after hostOps1 v))) (V4_outsOf m c)

/-- The buffers' contents when region 1 is entered, read at the TensorCore's references. -/
abbrev U7 : (c : Dev nD) → (b : Ref sig .tc) → Buf (Elt F) ((c : Thread nD τ).loc b) := fun c b => V7 m (outsOf m) c b
theorem U7_eq : U7 m = U7₀ m := by
  funext c b; exact congrFun (V7_outsOf m c) _

/-- Region 0 leaves in its output array what its pipeline's write-backs fold to. -/
theorem outsOf_4 (c : Dev nD) : outsOf m 4 main_v6 c = (dat0 (fun c b => V3 m c b) c).arrAt 3 cfg0.N :=
  (outsOf_of_ne m 4 (by decide) main_v6 c).trans (Pipeline.withArrays_arr spec0 launch0.win.arr_inj c _ _ 3)

/-- Region 1 leaves in its output array what its pipeline's write-backs fold to. -/
theorem outsOf_8 (c : Dev nD) : outsOf m 8 main_v22 c = (dat1 (fun c b => V7 m (outsOf m) c b) c).arrAt 3 cfg1.N := by
  show outsOf m 8 main_v22 c = (dat1 (U7 m) c).arrAt 3 cfg1.N
  rw [U7_eq]
  exact (if_pos rfl).trans (Pipeline.withArrays_arr spec1 launch1.win.arr_inj c _ _ 3)

/-! ## The proof data family and the thread states -/

/-- Every pipeline's proof data, each at its region's entry contents. -/
def pdats : (p : Fin 2) → (c : Dev nD) → Dat τ (Elt F) Unit ℕ (UR sig nD τ) ℕ (cfgs p) c
  | ⟨0, _⟩ => fun c => dat0 (U3 m) c
  | ⟨1, _⟩ => fun c => dat1 (U7 m) c

/-- No core owes another anything: no level is assigned. -/
abbrev L : GSem nD τ sig → Finset Unit := fun _ => ∅
abbrev lv : GSem nD τ sig → Unit → ℕ := fun _ _ => 0

/-- What rides beside the buffers through every item: the core's generator register at some state and its dues, none. -/
abbrev R (c : Dev nD) : sProp 𝕄 := iprop((∃ r, prngReg c r) ∗ ∃ W, owes (c : Thread nD τ) (0 : CellTallies nD τ sig Unit) W)

/-- The buffers' contents when region 0 is left, read at the TensorCore's references. -/
abbrev U4 : (c : Dev nD) → (b : Ref sig .tc) → Buf (Elt F) ((c : Thread nD τ).loc b) := fun c b => V4 m (outsOf m) c b
/-- The buffers' contents when region 1 is left, read at the TensorCore's references. -/
abbrev U8 : (c : Dev nD) → (b : Ref sig .tc) → Buf (Elt F) ((c : Thread nD τ).loc b) := fun c b => V8 m (outsOf m) c b

/-- At region 0's exit each of its arrays holds what the pipeline leaves: an input array what it held, the output
    array the fold of the write-backs. -/
theorem hF0 (c : Dev nD) (w : Fin cfg0.W) : (pdats m 0 c).arrAt w cfg0.N = U4 m c (Pipeline.arrRef spec0 w) := by
  show (dat0 (U3 m) c).arrAt w cfg0.N = V4 m (outsOf m) c (Proc.devRef .tc (Pipeline.arrRef spec0 w))
  match w with
  | ⟨0, _⟩ => exact ((dat0 (U3 m) c).arrAt_in 0 rfl _).trans ((A_eq0 (U3 m) c 0).trans (V4_of m (outsOf m) c _ (by decide)).symm)
  | ⟨1, _⟩ => exact ((dat0 (U3 m) c).arrAt_in 1 rfl _).trans ((A_eq0 (U3 m) c 1).trans (V4_of m (outsOf m) c _ (by decide)).symm)
  | ⟨2, _⟩ => exact ((dat0 (U3 m) c).arrAt_in 2 rfl _).trans ((A_eq0 (U3 m) c 2).trans (V4_of m (outsOf m) c _ (by decide)).symm)
  | ⟨3, _⟩ =>
    have h : V4 m (outsOf m) c (Proc.devRef .tc main_v6) = outsOf m 4 main_v6 c := Function.update_self _ _ _
    exact (outsOf_4 m c).symm.trans h.symm
/-- Every other buffer holds at region 0's exit what it held at its entry. -/
theorem hrest0 (c : Dev nD) : ∀ b, b ∉ Finset.univ.image (Pipeline.arrRef spec0) → U4 m c b = U3 m c b :=
  fun b hb => V4_of m (outsOf m) c b fun h =>
    hb (Finset.mem_image.mpr ⟨3, Finset.mem_univ _, (List.mem_singleton.mp h).symm⟩)

/-- At region 1's exit each of its arrays holds what the pipeline leaves: an input array what it held, the output
    array the fold of the write-backs. -/
theorem hF1 (c : Dev nD) (w : Fin cfg1.W) : (pdats m 1 c).arrAt w cfg1.N = U8 m c (Pipeline.arrRef spec1 w) := by
  show (dat1 (U7 m) c).arrAt w cfg1.N = V8 m (outsOf m) c (Proc.devRef .tc (Pipeline.arrRef spec1 w))
  match w with
  | ⟨0, _⟩ => exact ((dat1 (U7 m) c).arrAt_in 0 rfl _).trans ((A_eq1 (U7 m) c 0).trans (V8_of m (outsOf m) c _ (by decide)).symm)
  | ⟨1, _⟩ => exact ((dat1 (U7 m) c).arrAt_in 1 rfl _).trans ((A_eq1 (U7 m) c 1).trans (V8_of m (outsOf m) c _ (by decide)).symm)
  | ⟨2, _⟩ => exact ((dat1 (U7 m) c).arrAt_in 2 rfl _).trans ((A_eq1 (U7 m) c 2).trans (V8_of m (outsOf m) c _ (by decide)).symm)
  | ⟨3, _⟩ =>
    have h : V8 m (outsOf m) c (Proc.devRef .tc main_v22) = outsOf m 8 main_v22 c := Function.update_self _ _ _
    exact (outsOf_8 m c).symm.trans h.symm
/-- Every other buffer holds at region 1's exit what it held at its entry. -/
theorem hrest1 (c : Dev nD) : ∀ b, b ∉ Finset.univ.image (Pipeline.arrRef spec1) → U8 m c b = U7 m c b :=
  fun b hb => V8_of m (outsOf m) c b fun h =>
    hb (Finset.mem_image.mpr ⟨3, Finset.mem_univ _, (List.mem_singleton.mp h).symm⟩)

/-! ## The regions as segments -/

-- a library lemma stated over the pinned configuration unifies with the printed one only when unification may unfold
-- plain definitions in a metavariable's type
set_option backward.isDefEq.respectTransparency.types false in
/-- REGION 0 over the thread state: entered from every unscoped buffer at its entry contents, left at the exit contents.
    Its arrays are split out of the unscoped buffers and put back at what the pipeline leaves; the generator register
    goes into the class invariant and comes back; nothing is owed; the kernel has no semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outsOf m) c) ∗ R c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U3 m) c)
    unfold Pipeline.ΦA
    iintro ⟨Hp, -, Hr⟩
    isplitl [Hr]; · iexact Hr
    iexact Hp
  hout c := by
    rw [Pipeline.ownSems0_none]
    refine BIBase.Entails.trans (hout0 (U3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at its entry contents, left at the exit contents.
    Its arrays are split out of the unscoped buffers and put back at what the pipeline leaves; the generator register
    goes into the class invariant and comes back; nothing is owed; the kernel has no semaphore of its own. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (U7 m) c).loose
  hwaits := Pipeline.hwaits_of_owed_zero _ _ _ _ L lv 1 fun _ _ => rfl
  pre c := iprop(StableHlo.held (c : Thread nD τ) (Pipeline.ucRefs τ sig) (V7 m (outsOf m) c) ∗ R c)
  post c := iprop(StableHlo.held (c : Thread nD τ) (Pipeline.ucRefs τ sig) (V8 m (outsOf m) c) ∗ R c)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U7 m) c)
    unfold Pipeline.ΦA
    iintro ⟨Hp, -, Hr⟩
    isplitl [Hr]; · iexact Hr
    iexact Hp
  hout c := by
    rw [Pipeline.ownSems0_none]
    refine BIBase.Entails.trans (hout1 (U7 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U7 m c) (U8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- THE RUN WITH ITS RESULTS: from any memory with zero counters, every weakly fair execution of @main terminates, and
    every final memory holds the three result buffers at the last valuation's contents — over the unknowns the two
    lemmas above characterise — and each of the five arguments as launched. -/
theorem run_vals (ρ : Dev nD → PrngReg) :
    θ_run defs (onTc (τ := τ) (main (F := F))) ⟨m, fun _ => 0, ρ⟩ (fun r => ∀ c : Dev nD,
      r.2.mem ((c.tc : Thread nD τ).loc main_v62) = V9 m (outsOf m) c main_v62
      ∧ r.2.mem ((c.tc : Thread nD τ).loc main_v39) = V9 m (outsOf m) c main_v39
      ∧ r.2.mem ((c.tc : Thread nD τ).loc main_v41) = V9 m (outsOf m) c main_v41
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_cond m (Ix := Unit) (U := UR sig nD τ) (Lvl := ℕ) emb₁ () Variants.none L lv (fun _ _ => rfl) ρ (outsOf m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)

end Cert.Kernel.Hand

end
-- ==== Proof.Frames.lean ====
/-
  The frame claims of the two kernel programs: each runs, from every memory (the precondition is not needed), to a final
  memory holding its three results and its five arguments as launched; the frame claim keeps the arguments' half.
-/
import proofs.«409812_j58909771432349_3_alg».proof.Defs
import proofs.«409812_j58909771432349_3_alg».proof.Proof.KI.Run
import proofs.«409812_j58909771432349_3_alg».proof.Proof.K.Run
import proofs.«409812_j58909771432349_3_alg».proof.Proof.Gen.Kernel
import proofs.«409812_j58909771432349_3_alg».proof.Proof.Gen.KernelIdeal
import proofs.«409812_j58909771432349_3_alg».proof.Proof.Gen.Pre_finite_inputs

noncomputable section

namespace Cert.Proof

open Idealize.ShloMosaic Idealize.SL.Sem

/-- The word-level kernel program runs and its argument arrays end unchanged. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2.2.2) (Cert.Kernel.Hand.run_vals (F := Bits) m ρ)

/-- The idealized kernel program runs and its argument arrays end unchanged. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2.2.2) (Cert.KernelIdeal.Hand.run_vals (F := Ideal) m ρ)

end Cert.Proof

end
-- ==== Proof.RefOps.lean ====
/-
  The reference's 154 operations a second time, the called functions' lines (log_softmax, where, take_along_axis) written
  through the plain builders as @main's own lines are. A called function's line moves a value between a buffer's type
  and the stated tensor type along an equation that holds by computation, so the two spellings are one list; the fold of
  the operations' results is read off this one, which carries no such transport.
-/
import proofs.«409812_j58909771432349_3_alg».proof.Proof.RefRunA

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

-- a reduction's definition enumerates every index of its operand: comparing two spellings must match its arguments,
-- never unfold it
attribute [local irreducible] Host.reduce
attribute [local irreducible] Host.gather
attribute [local irreducible] Host.reduceAdd

/-- The same operations, every line through the plain builders. -/
abbrev ops' : List (HloOp τ sig (Elt F)) :=
  [ binary main_arg0 main_arg3 main_v0 ((fun l r => Host.dotGeneral dot_S8x512x4096_S32000x4096_S8x512x32000_2_1_01_0_n_n none l r) : (⟨S8x512x4096, .f32⟩ : BufTy).Contents (Elt F) → (⟨S32000x4096, .f32⟩ : BufTy).Contents (Elt F) → (⟨S8x512x32000, .f32⟩ : BufTy).Contents (Elt F)),
    StableHlo.nullary main_call0_cst ((constant S_ .f32 0xFF800000#32)),
    StableHlo.binary main_v0 main_call0_cst main_call0_v0 ((fun x v => Host.reduce FloatOps.maximumf x v reducesTo_S8x512x32000_S8x512_d2 h_S_) : (⟨S8x512x32000, .f32⟩ : BufTy).Contents (Elt F) → (⟨S_, .f32⟩ : BufTy).Contents (Elt F) → (⟨S8x512, .f32⟩ : BufTy).Contents (Elt F)),
    StableHlo.nullary main_call0_cst_0 ((constant S_ .f32 0xFF800000#32)),
    StableHlo.unary main_call0_cst_0 main_call0_v1 ((broadcastInDim S8x512 ![] bcast_S_S8x512) : (⟨S_, .f32⟩ : BufTy).Contents (Elt F) → (⟨S8x512, .f32⟩ : BufTy).Contents (Elt F)),
    StableHlo.binary main_call0_v1 main_call0_v0 main_call0_v2 ((maximumf) : (⟨S8x512, .f32⟩ : BufTy).Contents (Elt F) → (⟨S8x512, .f32⟩ : BufTy).Contents (Elt F) → (⟨S8x512, .f32⟩ : BufTy).Contents (Elt F)),
    StableHlo.unary main_call0_v2 main_call0_v3 ((broadcastInDim S8x512x1 ![0, 1] bcast_S8x512_S8x512x1_0_1) : (⟨S8x512, .f32⟩ : BufTy).Contents (Elt F) → (⟨S8x512x1, .f32⟩ : BufTy).Contents (Elt F)),
    StableHlo.unary main_call0_v3 main_call0_v4 ((broadcastInDim S8x512x32000 ![0, 1, 2] bcast_S8x512x1_S8x512x32000_0_1_2) : (⟨S8x512x1, .f32⟩ : BufTy).Contents (Elt F) → (⟨S8x512x32000, .f32⟩ : BufTy).Contents (Elt F)),
    StableHlo.binary main_v0 main_call0_v4 main_call0_v5 ((subf) : (⟨S8x512x32000, .f32⟩ : BufTy).Contents (Elt F) → (⟨S8x512x32000, .f32⟩ : BufTy).Contents (Elt F) → (⟨S8x512x32000, .f32⟩ : BufTy).Contents (Elt F)),
    StableHlo.unary main_call0_v5 main_call0_v6 ((Host.exp) : (⟨S8x512x32000, .f32⟩ : BufTy).Contents (Elt F) → (⟨S8x512x32000, .f32⟩ : BufTy).Contents (Elt F)),
    StableHlo.nullary main_call0_cst_1 ((constant S_ .f32 0x00000000#32)),
    StableHlo.binary main_call0_v6 main_call0_cst_1 main_call0_v7 ((fun x v => Host.reduceAdd x v reducesTo_S8x512x32000_S8x512_d2 h_S_) : (⟨S8x512x32000, .f32⟩ : BufTy).Contents (Elt F) → (⟨S_, .f32⟩ : BufTy).Contents (Elt F) → (⟨S8x512, .f32⟩ : BufTy).Contents (Elt F)),
    StableHlo.unary main_call0_v7 main_call0_v8 ((broadcastInDim S8x512x1 ![0, 1] bcast_S8x512_S8x512x1_0_1) : (⟨S8x512, .f32⟩ : BufTy).Contents (Elt F) → (⟨S8x512x1, .f32⟩ : BufTy).Contents (Elt F)),
    StableHlo.unary main_call0_v8 main_call0_v9 ((Host.log) : (⟨S8x512x1, .f32⟩ : BufTy).Contents (Elt F) → (⟨S8x512x1, .f32⟩ : BufTy).Contents (Elt F)),
    StableHlo.unary main_call0_v9 main_call0_v10 ((broadcastInDim S8x512x32000 ![0, 1, 2] bcast_S8x512x1_S8x512x32000_0_1_2) : (⟨S8x512x1, .f32⟩ : BufTy).Contents (Elt F) → (⟨S8x512x32000, .f32⟩ : BufTy).Contents (Elt F)),
    StableHlo.binary main_call0_v5 main_call0_v10 main_v1 ((subf) : (⟨S8x512x32000, .f32⟩ : BufTy).Contents (Elt F) → (⟨S8x512x32000, .f32⟩ : BufTy).Contents (Elt F) → (⟨S8x512x32000, .f32⟩ : BufTy).Contents (Elt F)),
    nullary main_c (constantI S_ 32 4294967196#32),
    unary main_c main_v2 (broadcastInDim S8x512 ![] bcast_S_S8x512 : (⟨S_, .i32⟩ : BufTy).Contents (Elt F) → (⟨S8x512, .i32⟩ : BufTy).Contents (Elt F)),
    binary main_arg2 main_v2 main_v3 (cmpi .ne : (⟨S8x512, .i32⟩ : BufTy).Contents (Elt F) → (⟨S8x512, .i32⟩ : BufTy).Contents (Elt F) → (⟨S8x512, .i1⟩ : BufTy).Contents (Elt F)),
    nullary main_c_0 (constantI S_ 32 0#32),
    StableHlo.unary main_c_0 main_call1_v0 ((id) : (⟨S_, .i32⟩ : BufTy).Contents (Elt F) → (⟨S_, .i32⟩ : BufTy).Contents (Elt F)),
    StableHlo.unary main_call1_v0 main_call1_v1 ((broadcastInDim S8x512 ![] bcast_S_S8x512) : (⟨S_, .i32⟩ : BufTy).Contents (Elt F) → (⟨S8x512, .i32⟩ : BufTy).Contents (Elt F)),
    StableHlo.ternary main_v3 main_arg2 main_call1_v1 main_v4 ((select) : (⟨S8x512, .i1⟩ : BufTy).Contents (Elt F) → (⟨S8x512, .i32⟩ : BufTy).Contents (Elt F) → (⟨S8x512, .i32⟩ : BufTy).Contents (Elt F) → (⟨S8x512, .i32⟩ : BufTy).Contents (Elt F)),
    unary main_v4 main_v5 (broadcastInDim S8x512x1 ![0, 1] bcast_S8x512_S8x512x1_0_1 : (⟨S8x512, .i32⟩ : BufTy).Contents (Elt F) → (⟨S8x512x1, .i32⟩ : BufTy).Contents (Elt F)),
    StableHlo.nullary main_call2_c ((constantI S_ 32 0#32)),
    StableHlo.unary main_call2_c main_call2_v0 ((broadcastInDim S8x512x1 ![] bcast_S_S8x512x1) : (⟨S_, .i32⟩ : BufTy).Contents (Elt F) → (⟨S8x512x1, .i32⟩ : BufTy).Contents (Elt F)),
    StableHlo.binary main_v5 main_call2_v0 main_call2_v1 ((cmpi .slt) : (⟨S8x512x1, .i32⟩ : BufTy).Contents (Elt F) → (⟨S8x512x1, .i32⟩ : BufTy).Contents (Elt F) → (⟨S8x512x1, .i1⟩ : BufTy).Contents (Elt F)),
    StableHlo.nullary main_call2_c_0 ((constantI S_ 32 32000#32)),
    StableHlo.unary main_call2_c_0 main_call2_v2 ((broadcastInDim S8x512x1 ![] bcast_S_S8x512x1) : (⟨S_, .i32⟩ : BufTy).Contents (Elt F) → (⟨S8x512x1, .i32⟩ : BufTy).Contents (Elt F)),
    StableHlo.binary main_v5 main_call2_v2 main_call2_v3 ((addi) : (⟨S8x512x1, .i32⟩ : BufTy).Contents (Elt F) → (⟨S8x512x1, .i32⟩ : BufTy).Contents (Elt F) → (⟨S8x512x1, .i32⟩ : BufTy).Contents (Elt F)),
    StableHlo.ternary main_call2_v1 main_call2_v3 main_v5 main_call2_v4 ((select) : (⟨S8x512x1, .i1⟩ : BufTy).Contents (Elt F) → (⟨S8x512x1, .i32⟩ : BufTy).Contents (Elt F) → (⟨S8x512x1, .i32⟩ : BufTy).Contents (Elt F) → (⟨S8x512x1, .i32⟩ : BufTy).Contents (Elt F)),
    StableHlo.reshape main_call2_v4 main_call2_v5 rfl shapeCasts_S8x512x1_S8x512x1x1,
    StableHlo.nullary main_call2_c_1 ((constantI S1 32 31999#32)),
    StableHlo.nullary main_call2_c_2 ((constantI S_ 32 0#32)),
    StableHlo.unary main_call2_c_2 main_call2_v6 ((broadcastInDim S8x512x1x1 ![] bcast_S_S8x512x1x1) : (⟨S_, .i32⟩ : BufTy).Contents (Elt F) → (⟨S8x512x1x1, .i32⟩ : BufTy).Contents (Elt F)),
    StableHlo.binary main_call2_v5 main_call2_v6 main_call2_v7 ((cmpi .sge) : (⟨S8x512x1x1, .i32⟩ : BufTy).Contents (Elt F) → (⟨S8x512x1x1, .i32⟩ : BufTy).Contents (Elt F) → (⟨S8x512x1x1, .i1⟩ : BufTy).Contents (Elt F)),
    StableHlo.unary main_call2_c_1 main_call2_v8 ((broadcastInDim S1x1x1x1 ![3] bcast_S1_S1x1x1x1_3) : (⟨S1, .i32⟩ : BufTy).Contents (Elt F) → (⟨S1x1x1x1, .i32⟩ : BufTy).Contents (Elt F)),
    StableHlo.unary main_call2_v8 main_call2_v9 ((broadcastInDim S8x512x1x1 ![0, 1, 2, 3] bcast_S1x1x1x1_S8x512x1x1_0_1_2_3) : (⟨S1x1x1x1, .i32⟩ : BufTy).Contents (Elt F) → (⟨S8x512x1x1, .i32⟩ : BufTy).Contents (Elt F)),
    StableHlo.binary main_call2_v5 main_call2_v9 main_call2_v10 ((cmpi .sle) : (⟨S8x512x1x1, .i32⟩ : BufTy).Contents (Elt F) → (⟨S8x512x1x1, .i32⟩ : BufTy).Contents (Elt F) → (⟨S8x512x1x1, .i1⟩ : BufTy).Contents (Elt F)),
    StableHlo.binary main_call2_v7 main_call2_v10 main_call2_v11 ((andi) : (⟨S8x512x1x1, .i1⟩ : BufTy).Contents (Elt F) → (⟨S8x512x1x1, .i1⟩ : BufTy).Contents (Elt F) → (⟨S8x512x1x1, .i1⟩ : BufTy).Contents (Elt F)),
    StableHlo.nullary main_call2_c_3 ((constantI S_ 1 1#1)),
    StableHlo.binary main_call2_v11 main_call2_c_3 main_call2_v12 ((fun x v => Host.reduce IntOp.andi x v reducesTo_S8x512x1x1_S8x512x1_d3 h_S_) : (⟨S8x512x1x1, .i1⟩ : BufTy).Contents (Elt F) → (⟨S_, .i1⟩ : BufTy).Contents (Elt F) → (⟨S8x512x1, .i1⟩ : BufTy).Contents (Elt F)),
    StableHlo.binary main_v1 main_call2_v5 main_call2_v13 ((fun x i => Host.gather gather_S8x512x32000_S8x512x1x1_S8x512x1_n_2_01_01_2_3_111 x i) : (⟨S8x512x32000, .f32⟩ : BufTy).Contents (Elt F) → (⟨S8x512x1x1, .i32⟩ : BufTy).Contents (Elt F) → (⟨S8x512x1, .f32⟩ : BufTy).Contents (Elt F)),
    StableHlo.nullary main_call2_cst ((constant S_ .f32 0x7FC00000#32)),
    StableHlo.unary main_call2_cst main_call2_v14 ((broadcastInDim S8x512x1 ![] bcast_S_S8x512x1) : (⟨S_, .f32⟩ : BufTy).Contents (Elt F) → (⟨S8x512x1, .f32⟩ : BufTy).Contents (Elt F)),
    StableHlo.ternary main_call2_v12 main_call2_v13 main_call2_v14 main_v6 ((select) : (⟨S8x512x1, .i1⟩ : BufTy).Contents (Elt F) → (⟨S8x512x1, .f32⟩ : BufTy).Contents (Elt F) → (⟨S8x512x1, .f32⟩ : BufTy).Contents (Elt F) → (⟨S8x512x1, .f32⟩ : BufTy).Contents (Elt F)),
    reshape main_v6 main_v7 rfl shapeCasts_S8x512x1_S8x512,
    unary main_v3 main_v8 (uitofp .f32 : (⟨S8x512, .i1⟩ : BufTy).Contents (Elt F) → (⟨S8x512, .f32⟩ : BufTy).Contents (Elt F)),
    binary main_v7 main_v8 main_v9 (mulf : (⟨S8x512, .f32⟩ : BufTy).Contents (Elt F) → (⟨S8x512, .f32⟩ : BufTy).Contents (Elt F) → (⟨S8x512, .f32⟩ : BufTy).Contents (Elt F)),
    nullary main_cst (constant S_ .f32 0x00000000#32),
    binary main_v9 main_cst main_v10 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    unary main_v3 main_v11 ((extui 32 · natLt_1_32) : (⟨S8x512, .i1⟩ : BufTy).Contents (Elt F) → (⟨S8x512, .i32⟩ : BufTy).Contents (Elt F)),
    nullary main_c_1 (constantI S_ 32 0#32),
    binary main_v11 main_c_1 main_v12 ((fun x v => Host.reduce IntOp.addi x v reducesTo_S8x512_S8_d1 h_S_) : (⟨S8x512, .i32⟩ : BufTy).Contents (Elt F) → (⟨S_, .i32⟩ : BufTy).Contents (Elt F) → (⟨S8, .i32⟩ : BufTy).Contents (Elt F)),
    unary main_v12 main_v13 (sitofp .f32 : (⟨S8, .i32⟩ : BufTy).Contents (Elt F) → (⟨S8, .f32⟩ : BufTy).Contents (Elt F)),
    binary main_v10 main_v13 main_v14 (Host.divf : (⟨S8, .f32⟩ : BufTy).Contents (Elt F) → (⟨S8, .f32⟩ : BufTy).Contents (Elt F) → (⟨S8, .f32⟩ : BufTy).Contents (Elt F)),
    binary main_arg1 main_arg4 main_v15 ((fun l r => Host.dotGeneral dot_S8x512x4096_S32000x4096_S8x512x32000_2_1_01_0_n_n none l r) : (⟨S8x512x4096, .f32⟩ : BufTy).Contents (Elt F) → (⟨S32000x4096, .f32⟩ : BufTy).Contents (Elt F) → (⟨S8x512x32000, .f32⟩ : BufTy).Contents (Elt F)),
    StableHlo.nullary main_call3_cst ((constant S_ .f32 0xFF800000#32)),
    StableHlo.binary main_v15 main_call3_cst main_call3_v0 ((fun x v => Host.reduce FloatOps.maximumf x v reducesTo_S8x512x32000_S8x512_d2 h_S_) : (⟨S8x512x32000, .f32⟩ : BufTy).Contents (Elt F) → (⟨S_, .f32⟩ : BufTy).Contents (Elt F) → (⟨S8x512, .f32⟩ : BufTy).Contents (Elt F)),
    StableHlo.nullary main_call3_cst_0 ((constant S_ .f32 0xFF800000#32)),
    StableHlo.unary main_call3_cst_0 main_call3_v1 ((broadcastInDim S8x512 ![] bcast_S_S8x512) : (⟨S_, .f32⟩ : BufTy).Contents (Elt F) → (⟨S8x512, .f32⟩ : BufTy).Contents (Elt F)),
    StableHlo.binary main_call3_v1 main_call3_v0 main_call3_v2 ((maximumf) : (⟨S8x512, .f32⟩ : BufTy).Contents (Elt F) → (⟨S8x512, .f32⟩ : BufTy).Contents (Elt F) → (⟨S8x512, .f32⟩ : BufTy).Contents (Elt F)),
    StableHlo.unary main_call3_v2 main_call3_v3 ((broadcastInDim S8x512x1 ![0, 1] bcast_S8x512_S8x512x1_0_1) : (⟨S8x512, .f32⟩ : BufTy).Contents (Elt F) → (⟨S8x512x1, .f32⟩ : BufTy).Contents (Elt F)),
    StableHlo.unary main_call3_v3 main_call3_v4 ((broadcastInDim S8x512x32000 ![0, 1, 2] bcast_S8x512x1_S8x512x32000_0_1_2) : (⟨S8x512x1, .f32⟩ : BufTy).Contents (Elt F) → (⟨S8x512x32000, .f32⟩ : BufTy).Contents (Elt F)),
    StableHlo.binary main_v15 main_call3_v4 main_call3_v5 ((subf) : (⟨S8x512x32000, .f32⟩ : BufTy).Contents (Elt F) → (⟨S8x512x32000, .f32⟩ : BufTy).Contents (Elt F) → (⟨S8x512x32000, .f32⟩ : BufTy).Contents (Elt F)),
    StableHlo.unary main_call3_v5 main_call3_v6 ((Host.exp) : (⟨S8x512x32000, .f32⟩ : BufTy).Contents (Elt F) → (⟨S8x512x32000, .f32⟩ : BufTy).Contents (Elt F)),
    StableHlo.nullary main_call3_cst_1 ((constant S_ .f32 0x00000000#32)),
    StableHlo.binary main_call3_v6 main_call3_cst_1 main_call3_v7 ((fun x v => Host.reduceAdd x v reducesTo_S8x512x32000_S8x512_d2 h_S_) : (⟨S8x512x32000, .f32⟩ : BufTy).Contents (Elt F) → (⟨S_, .f32⟩ : BufTy).Contents (Elt F) → (⟨S8x512, .f32⟩ : BufTy).Contents (Elt F)),
    StableHlo.unary main_call3_v7 main_call3_v8 ((broadcastInDim S8x512x1 ![0, 1] bcast_S8x512_S8x512x1_0_1) : (⟨S8x512, .f32⟩ : BufTy).Contents (Elt F) → (⟨S8x512x1, .f32⟩ : BufTy).Contents (Elt F)),
    StableHlo.unary main_call3_v8 main_call3_v9 ((Host.log) : (⟨S8x512x1, .f32⟩ : BufTy).Contents (Elt F) → (⟨S8x512x1, .f32⟩ : BufTy).Contents (Elt F)),
    StableHlo.unary main_call3_v9 main_call3_v10 ((broadcastInDim S8x512x32000 ![0, 1, 2] bcast_S8x512x1_S8x512x32000_0_1_2) : (⟨S8x512x1, .f32⟩ : BufTy).Contents (Elt F) → (⟨S8x512x32000, .f32⟩ : BufTy).Contents (Elt F)),
    StableHlo.binary main_call3_v5 main_call3_v10 main_v16 ((subf) : (⟨S8x512x32000, .f32⟩ : BufTy).Contents (Elt F) → (⟨S8x512x32000, .f32⟩ : BufTy).Contents (Elt F) → (⟨S8x512x32000, .f32⟩ : BufTy).Contents (Elt F)),
    nullary main_c_2 (constantI S_ 32 4294967196#32),
    unary main_c_2 main_v17 (broadcastInDim S8x512 ![] bcast_S_S8x512 : (⟨S_, .i32⟩ : BufTy).Contents (Elt F) → (⟨S8x512, .i32⟩ : BufTy).Contents (Elt F)),
    binary main_arg2 main_v17 main_v18 (cmpi .ne : (⟨S8x512, .i32⟩ : BufTy).Contents (Elt F) → (⟨S8x512, .i32⟩ : BufTy).Contents (Elt F) → (⟨S8x512, .i1⟩ : BufTy).Contents (Elt F)),
    nullary main_c_3 (constantI S_ 32 0#32),
    StableHlo.unary main_c_3 main_call4_v0 ((id) : (⟨S_, .i32⟩ : BufTy).Contents (Elt F) → (⟨S_, .i32⟩ : BufTy).Contents (Elt F)),
    StableHlo.unary main_call4_v0 main_call4_v1 ((broadcastInDim S8x512 ![] bcast_S_S8x512) : (⟨S_, .i32⟩ : BufTy).Contents (Elt F) → (⟨S8x512, .i32⟩ : BufTy).Contents (Elt F)),
    StableHlo.ternary main_v18 main_arg2 main_call4_v1 main_v19 ((select) : (⟨S8x512, .i1⟩ : BufTy).Contents (Elt F) → (⟨S8x512, .i32⟩ : BufTy).Contents (Elt F) → (⟨S8x512, .i32⟩ : BufTy).Contents (Elt F) → (⟨S8x512, .i32⟩ : BufTy).Contents (Elt F)),
    unary main_v19 main_v20 (broadcastInDim S8x512x1 ![0, 1] bcast_S8x512_S8x512x1_0_1 : (⟨S8x512, .i32⟩ : BufTy).Contents (Elt F) → (⟨S8x512x1, .i32⟩ : BufTy).Contents (Elt F)),
    StableHlo.nullary main_call5_c ((constantI S_ 32 0#32)),
    StableHlo.unary main_call5_c main_call5_v0 ((broadcastInDim S8x512x1 ![] bcast_S_S8x512x1) : (⟨S_, .i32⟩ : BufTy).Contents (Elt F) → (⟨S8x512x1, .i32⟩ : BufTy).Contents (Elt F)),
    StableHlo.binary main_v20 main_call5_v0 main_call5_v1 ((cmpi .slt) : (⟨S8x512x1, .i32⟩ : BufTy).Contents (Elt F) → (⟨S8x512x1, .i32⟩ : BufTy).Contents (Elt F) → (⟨S8x512x1, .i1⟩ : BufTy).Contents (Elt F)),
    StableHlo.nullary main_call5_c_0 ((constantI S_ 32 32000#32)),
    StableHlo.unary main_call5_c_0 main_call5_v2 ((broadcastInDim S8x512x1 ![] bcast_S_S8x512x1) : (⟨S_, .i32⟩ : BufTy).Contents (Elt F) → (⟨S8x512x1, .i32⟩ : BufTy).Contents (Elt F)),
    StableHlo.binary main_v20 main_call5_v2 main_call5_v3 ((addi) : (⟨S8x512x1, .i32⟩ : BufTy).Contents (Elt F) → (⟨S8x512x1, .i32⟩ : BufTy).Contents (Elt F) → (⟨S8x512x1, .i32⟩ : BufTy).Contents (Elt F)),
    StableHlo.ternary main_call5_v1 main_call5_v3 main_v20 main_call5_v4 ((select) : (⟨S8x512x1, .i1⟩ : BufTy).Contents (Elt F) → (⟨S8x512x1, .i32⟩ : BufTy).Contents (Elt F) → (⟨S8x512x1, .i32⟩ : BufTy).Contents (Elt F) → (⟨S8x512x1, .i32⟩ : BufTy).Contents (Elt F)),
    StableHlo.reshape main_call5_v4 main_call5_v5 rfl shapeCasts_S8x512x1_S8x512x1x1,
    StableHlo.nullary main_call5_c_1 ((constantI S1 32 31999#32)),
    StableHlo.nullary main_call5_c_2 ((constantI S_ 32 0#32)),
    StableHlo.unary main_call5_c_2 main_call5_v6 ((broadcastInDim S8x512x1x1 ![] bcast_S_S8x512x1x1) : (⟨S_, .i32⟩ : BufTy).Contents (Elt F) → (⟨S8x512x1x1, .i32⟩ : BufTy).Contents (Elt F)),
    StableHlo.binary main_call5_v5 main_call5_v6 main_call5_v7 ((cmpi .sge) : (⟨S8x512x1x1, .i32⟩ : BufTy).Contents (Elt F) → (⟨S8x512x1x1, .i32⟩ : BufTy).Contents (Elt F) → (⟨S8x512x1x1, .i1⟩ : BufTy).Contents (Elt F)),
    StableHlo.unary main_call5_c_1 main_call5_v8 ((broadcastInDim S1x1x1x1 ![3] bcast_S1_S1x1x1x1_3) : (⟨S1, .i32⟩ : BufTy).Contents (Elt F) → (⟨S1x1x1x1, .i32⟩ : BufTy).Contents (Elt F)),
    StableHlo.unary main_call5_v8 main_call5_v9 ((broadcastInDim S8x512x1x1 ![0, 1, 2, 3] bcast_S1x1x1x1_S8x512x1x1_0_1_2_3) : (⟨S1x1x1x1, .i32⟩ : BufTy).Contents (Elt F) → (⟨S8x512x1x1, .i32⟩ : BufTy).Contents (Elt F)),
    StableHlo.binary main_call5_v5 main_call5_v9 main_call5_v10 ((cmpi .sle) : (⟨S8x512x1x1, .i32⟩ : BufTy).Contents (Elt F) → (⟨S8x512x1x1, .i32⟩ : BufTy).Contents (Elt F) → (⟨S8x512x1x1, .i1⟩ : BufTy).Contents (Elt F)),
    StableHlo.binary main_call5_v7 main_call5_v10 main_call5_v11 ((andi) : (⟨S8x512x1x1, .i1⟩ : BufTy).Contents (Elt F) → (⟨S8x512x1x1, .i1⟩ : BufTy).Contents (Elt F) → (⟨S8x512x1x1, .i1⟩ : BufTy).Contents (Elt F)),
    StableHlo.nullary main_call5_c_3 ((constantI S_ 1 1#1)),
    StableHlo.binary main_call5_v11 main_call5_c_3 main_call5_v12 ((fun x v => Host.reduce IntOp.andi x v reducesTo_S8x512x1x1_S8x512x1_d3 h_S_) : (⟨S8x512x1x1, .i1⟩ : BufTy).Contents (Elt F) → (⟨S_, .i1⟩ : BufTy).Contents (Elt F) → (⟨S8x512x1, .i1⟩ : BufTy).Contents (Elt F)),
    StableHlo.binary main_v16 main_call5_v5 main_call5_v13 ((fun x i => Host.gather gather_S8x512x32000_S8x512x1x1_S8x512x1_n_2_01_01_2_3_111 x i) : (⟨S8x512x32000, .f32⟩ : BufTy).Contents (Elt F) → (⟨S8x512x1x1, .i32⟩ : BufTy).Contents (Elt F) → (⟨S8x512x1, .f32⟩ : BufTy).Contents (Elt F)),
    StableHlo.nullary main_call5_cst ((constant S_ .f32 0x7FC00000#32)),
    StableHlo.unary main_call5_cst main_call5_v14 ((broadcastInDim S8x512x1 ![] bcast_S_S8x512x1) : (⟨S_, .f32⟩ : BufTy).Contents (Elt F) → (⟨S8x512x1, .f32⟩ : BufTy).Contents (Elt F)),
    StableHlo.ternary main_call5_v12 main_call5_v13 main_call5_v14 main_v21 ((select) : (⟨S8x512x1, .i1⟩ : BufTy).Contents (Elt F) → (⟨S8x512x1, .f32⟩ : BufTy).Contents (Elt F) → (⟨S8x512x1, .f32⟩ : BufTy).Contents (Elt F) → (⟨S8x512x1, .f32⟩ : BufTy).Contents (Elt F)),
    reshape main_v21 main_v22 rfl shapeCasts_S8x512x1_S8x512,
    unary main_v18 main_v23 (uitofp .f32 : (⟨S8x512, .i1⟩ : BufTy).Contents (Elt F) → (⟨S8x512, .f32⟩ : BufTy).Contents (Elt F)),
    binary main_v22 main_v23 main_v24 (mulf : (⟨S8x512, .f32⟩ : BufTy).Contents (Elt F) → (⟨S8x512, .f32⟩ : BufTy).Contents (Elt F) → (⟨S8x512, .f32⟩ : BufTy).Contents (Elt F)),
    nullary main_cst_4 (constant S_ .f32 0x00000000#32),
    binary main_v24 main_cst_4 main_v25 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    unary main_v18 main_v26 ((extui 32 · natLt_1_32) : (⟨S8x512, .i1⟩ : BufTy).Contents (Elt F) → (⟨S8x512, .i32⟩ : BufTy).Contents (Elt F)),
    nullary main_c_5 (constantI S_ 32 0#32),
    binary main_v26 main_c_5 main_v27 ((fun x v => Host.reduce IntOp.addi x v reducesTo_S8x512_S8_d1 h_S_) : (⟨S8x512, .i32⟩ : BufTy).Contents (Elt F) → (⟨S_, .i32⟩ : BufTy).Contents (Elt F) → (⟨S8, .i32⟩ : BufTy).Contents (Elt F)),
    unary main_v27 main_v28 (sitofp .f32 : (⟨S8, .i32⟩ : BufTy).Contents (Elt F) → (⟨S8, .f32⟩ : BufTy).Contents (Elt F)),
    binary main_v25 main_v28 main_v29 (Host.divf : (⟨S8, .f32⟩ : BufTy).Contents (Elt F) → (⟨S8, .f32⟩ : BufTy).Contents (Elt F) → (⟨S8, .f32⟩ : BufTy).Contents (Elt F)),
    unary main_v14 main_v30 ((extractStridedSlice S4 ![0] · slices_S8_S4_0) : (⟨S8, .f32⟩ : BufTy).Contents (Elt F) → (⟨S4, .f32⟩ : BufTy).Contents (Elt F)),
    unary main_v14 main_v31 ((extractStridedSlice S4 ![4] · slices_S8_S4_4) : (⟨S8, .f32⟩ : BufTy).Contents (Elt F) → (⟨S4, .f32⟩ : BufTy).Contents (Elt F)),
    unary main_v29 main_v32 ((extractStridedSlice S4 ![0] · slices_S8_S4_0) : (⟨S8, .f32⟩ : BufTy).Contents (Elt F) → (⟨S4, .f32⟩ : BufTy).Contents (Elt F)),
    unary main_v29 main_v33 ((extractStridedSlice S4 ![4] · slices_S8_S4_4) : (⟨S8, .f32⟩ : BufTy).Contents (Elt F) → (⟨S4, .f32⟩ : BufTy).Contents (Elt F)),
    binary main_v30 main_v32 main_v34 (subf : (⟨S4, .f32⟩ : BufTy).Contents (Elt F) → (⟨S4, .f32⟩ : BufTy).Contents (Elt F) → (⟨S4, .f32⟩ : BufTy).Contents (Elt F)),
    binary main_v31 main_v33 main_v35 (subf : (⟨S4, .f32⟩ : BufTy).Contents (Elt F) → (⟨S4, .f32⟩ : BufTy).Contents (Elt F) → (⟨S4, .f32⟩ : BufTy).Contents (Elt F)),
    nullary main_cst_6 (constant S_ .f32 0x3DCCCCCD#32),
    unary main_cst_6 main_v36 (broadcastInDim S4 ![] bcast_S_S4 : (⟨S_, .f32⟩ : BufTy).Contents (Elt F) → (⟨S4, .f32⟩ : BufTy).Contents (Elt F)),
    binary main_v36 main_v34 main_v37 (mulf : (⟨S4, .f32⟩ : BufTy).Contents (Elt F) → (⟨S4, .f32⟩ : BufTy).Contents (Elt F) → (⟨S4, .f32⟩ : BufTy).Contents (Elt F)),
    nullary main_cst_7 (constant S_ .f32 0x3DCCCCCD#32),
    unary main_cst_7 main_v38 (broadcastInDim S4 ![] bcast_S_S4 : (⟨S_, .f32⟩ : BufTy).Contents (Elt F) → (⟨S4, .f32⟩ : BufTy).Contents (Elt F)),
    binary main_v38 main_v35 main_v39 (mulf : (⟨S4, .f32⟩ : BufTy).Contents (Elt F) → (⟨S4, .f32⟩ : BufTy).Contents (Elt F) → (⟨S4, .f32⟩ : BufTy).Contents (Elt F)),
    nullary main_cst_8 (constant S_ .f32 0x3DCCCCCD#32),
    unary main_cst_8 main_v40 (broadcastInDim S4 ![] bcast_S_S4 : (⟨S_, .f32⟩ : BufTy).Contents (Elt F) → (⟨S4, .f32⟩ : BufTy).Contents (Elt F)),
    binary main_v40 main_v34 main_v41 (mulf : (⟨S4, .f32⟩ : BufTy).Contents (Elt F) → (⟨S4, .f32⟩ : BufTy).Contents (Elt F) → (⟨S4, .f32⟩ : BufTy).Contents (Elt F)),
    unary main_v41 main_v42 (Host.negf : (⟨S4, .f32⟩ : BufTy).Contents (Elt F) → (⟨S4, .f32⟩ : BufTy).Contents (Elt F)),
    unary main_v42 main_v43 (Host.exp : (⟨S4, .f32⟩ : BufTy).Contents (Elt F) → (⟨S4, .f32⟩ : BufTy).Contents (Elt F)),
    nullary main_cst_9 (constant S_ .f32 0x3F800000#32),
    unary main_cst_9 main_v44 (broadcastInDim S4 ![] bcast_S_S4 : (⟨S_, .f32⟩ : BufTy).Contents (Elt F) → (⟨S4, .f32⟩ : BufTy).Contents (Elt F)),
    binary main_v44 main_v43 main_v45 (addf : (⟨S4, .f32⟩ : BufTy).Contents (Elt F) → (⟨S4, .f32⟩ : BufTy).Contents (Elt F) → (⟨S4, .f32⟩ : BufTy).Contents (Elt F)),
    nullary main_cst_10 (constant S_ .f32 0x3F800000#32),
    unary main_cst_10 main_v46 (broadcastInDim S4 ![] bcast_S_S4 : (⟨S_, .f32⟩ : BufTy).Contents (Elt F) → (⟨S4, .f32⟩ : BufTy).Contents (Elt F)),
    binary main_v46 main_v45 main_v47 (Host.divf : (⟨S4, .f32⟩ : BufTy).Contents (Elt F) → (⟨S4, .f32⟩ : BufTy).Contents (Elt F) → (⟨S4, .f32⟩ : BufTy).Contents (Elt F)),
    nullary main_cst_11 (constant S_ .f32 0x3F800000#32),
    unary main_cst_11 main_v48 (broadcastInDim S4 ![] bcast_S_S4 : (⟨S_, .f32⟩ : BufTy).Contents (Elt F) → (⟨S4, .f32⟩ : BufTy).Contents (Elt F)),
    binary main_v48 main_v47 main_v49 (subf : (⟨S4, .f32⟩ : BufTy).Contents (Elt F) → (⟨S4, .f32⟩ : BufTy).Contents (Elt F) → (⟨S4, .f32⟩ : BufTy).Contents (Elt F)),
    nullary main_cst_12 (constant S_ .f32 0x3DCCCCCD#32),
    unary main_cst_12 main_v50 (broadcastInDim S4 ![] bcast_S_S4 : (⟨S_, .f32⟩ : BufTy).Contents (Elt F) → (⟨S4, .f32⟩ : BufTy).Contents (Elt F)),
    binary main_v50 main_v35 main_v51 (mulf : (⟨S4, .f32⟩ : BufTy).Contents (Elt F) → (⟨S4, .f32⟩ : BufTy).Contents (Elt F) → (⟨S4, .f32⟩ : BufTy).Contents (Elt F)),
    unary main_v51 main_v52 (Host.negf : (⟨S4, .f32⟩ : BufTy).Contents (Elt F) → (⟨S4, .f32⟩ : BufTy).Contents (Elt F)),
    unary main_v52 main_v53 (Host.exp : (⟨S4, .f32⟩ : BufTy).Contents (Elt F) → (⟨S4, .f32⟩ : BufTy).Contents (Elt F)),
    nullary main_cst_13 (constant S_ .f32 0x3F800000#32),
    unary main_cst_13 main_v54 (broadcastInDim S4 ![] bcast_S_S4 : (⟨S_, .f32⟩ : BufTy).Contents (Elt F) → (⟨S4, .f32⟩ : BufTy).Contents (Elt F)),
    binary main_v54 main_v53 main_v55 (addf : (⟨S4, .f32⟩ : BufTy).Contents (Elt F) → (⟨S4, .f32⟩ : BufTy).Contents (Elt F) → (⟨S4, .f32⟩ : BufTy).Contents (Elt F)),
    nullary main_cst_14 (constant S_ .f32 0x3F800000#32),
    unary main_cst_14 main_v56 (broadcastInDim S4 ![] bcast_S_S4 : (⟨S_, .f32⟩ : BufTy).Contents (Elt F) → (⟨S4, .f32⟩ : BufTy).Contents (Elt F)),
    binary main_v56 main_v55 main_v57 (Host.divf : (⟨S4, .f32⟩ : BufTy).Contents (Elt F) → (⟨S4, .f32⟩ : BufTy).Contents (Elt F) → (⟨S4, .f32⟩ : BufTy).Contents (Elt F)),
    binary main_v49 main_v57 main_v58 (addf : (⟨S4, .f32⟩ : BufTy).Contents (Elt F) → (⟨S4, .f32⟩ : BufTy).Contents (Elt F) → (⟨S4, .f32⟩ : BufTy).Contents (Elt F)),
    nullary main_cst_15 (constant S_ .f32 0x00000000#32),
    binary main_v58 main_cst_15 main_v59 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_16 (constant S_ .f32 0x40800000#32),
    binary main_v59 main_cst_16 main_v60 (Host.divf : (⟨S_, .f32⟩ : BufTy).Contents (Elt F) → (⟨S_, .f32⟩ : BufTy).Contents (Elt F) → (⟨S_, .f32⟩ : BufTy).Contents (Elt F)) ]

set_option maxRecDepth 400000 in
set_option maxHeartbeats 4000000 in
/-- The two spellings are one list: each transport reduces, one operation at a time. -/
theorem ops_eq : (ops : List (HloOp τ sig (Elt F))) = ops' := rfl

end Cert.ReferenceIdeal.ValueP

end
-- ==== Proof.Frames2.lean ====
/-
  The frame claim of the reference program: it runs, from every memory (the precondition is not needed), to a final
  memory holding its three results and its five arguments as launched; the frame claim keeps the arguments' half.
-/
import proofs.«409812_j58909771432349_3_alg».proof.Defs
import proofs.«409812_j58909771432349_3_alg».proof.Proof.RefRun
import proofs.«409812_j58909771432349_3_alg».proof.Proof.Gen.ReferenceIdeal
import proofs.«409812_j58909771432349_3_alg».proof.Proof.Gen.Pre_finite_inputs

noncomputable section

namespace Cert.Proof

open Idealize.ShloMosaic Idealize.SL.Sem

/-- The idealized reference program runs and its argument arrays end unchanged. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2.2) (Cert.ReferenceIdeal.ValueP.run (F := Ideal) m ρ)

end Cert.Proof

end
-- ==== Proof.Spec.lean ====
/-
  The mathematics both programs are compared through, stated once over extended reals and independent of either
  program: a token's logits are the rows of x against the rows of w; its log-probability at a label is the logit
  there less the row's log-sum-exp (shifted by the row's maximum); a sequence's score is the mean of those over the
  tokens whose label is not the ignore value −100.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![8, 512, 4096]⟩
abbrev SW : Shape := ⟨2, ![32000, 4096]⟩
abbrev SY : Shape := ⟨2, ![8, 512]⟩

/-- The ignore label −100 as a 32-bit word. -/
abbrev ignoreW : BitVec 32 := 4294967196#32

/-- The logit of token (b, t) at vocabulary entry v: row (b, t) of x against row v of w. -/
def logit (X : SX.Idx → EReal) (W : SW.Idx → EReal) (b : Fin 8) (t : Fin 512) (v : Fin 32000) : EReal :=
  ∑ h : Fin 4096, X (ix3 b t h) * W (ix2 v h)

/-- A row's largest entry: the fold of max from −∞. -/
def rowMax (z : Fin 32000 → EReal) : EReal := (Finset.univ : Finset (Fin 32000)).fold max ⊥ z

/-- log Σ exp of a row, shifted by its maximum. -/
def lse (z : Fin 32000 → EReal) : EReal :=
  rowMax z + Ideal.log (∑ v : Fin 32000, Ideal.exp (z v - rowMax z))

/-- The row's entry at the label word, and 0 when the word is no vocabulary index. -/
def gold (z : Fin 32000 → EReal) (y : BitVec 32) : EReal :=
  if h : y.toNat < 32000 then z ⟨y.toNat, h⟩ else 0

/-- Token (b, t)'s log-probability at label word y. -/
def tokLp (X : SX.Idx → EReal) (W : SW.Idx → EReal) (y : BitVec 32) (b : Fin 8) (t : Fin 512) : EReal :=
  gold (logit X W b t) y - lse (logit X W b t)

/-- 1 on a kept label, 0 on the ignore value. -/
def keep (y : BitVec 32) : EReal := if y = ignoreW then 0 else 1

/-- How many labels of sequence b are kept. -/
def count (Y : SY.Idx → BitVec 32) (b : Fin 8) : ℕ :=
  (Finset.univ.filter fun t : Fin 512 => Y (ix2 b t) ≠ ignoreW).card

/-- Sequence b's mean log-probability over its kept tokens. -/
def avgLp (X : SX.Idx → EReal) (W : SW.Idx → EReal) (Y : SY.Idx → BitVec 32) (b : Fin 8) : EReal :=
  Ideal.div (∑ t : Fin 512, tokLp X W (Y (ix2 b t)) b t * keep (Y (ix2 b t))) (((count Y b : ℕ) : ℝ) : EReal)

/-- Every entry is a real number. -/
def FinV {S : Shape} (A : S.Idx → EReal) : Prop := ∀ i, ∃ r : ℝ, A i = (r : EReal)
/-- Every label is the ignore value or a vocabulary index. -/
def LabelOk (Y : SY.Idx → BitVec 32) : Prop := ∀ i, Y i = ignoreW ∨ (Y i).toNat < 32000
/-- Every sequence keeps a label. -/
def RowOk (Y : SY.Idx → BitVec 32) : Prop := ∀ b : Fin 8, 0 < count Y b

end Cert.Spec

end
-- ==== Proof.KI.Pay0.lean ====
/-
  The payloads of Pallas call 0 read at an index. The block product at (p, j) is the row p of the x block against the
  row j of the w block; the three columns start at −∞, 0, 0; one point's update takes the larger of the old maximum and
  the block row's largest logit, rescales the old sum by exp (old maximum − new maximum) and adds the block row's
  exponentials shifted by the new maximum, and adds to the picked logit the block row's entry whose vocabulary number is
  the label; the stored column is picked − (maximum + log sum).
-/
import proofs.«409812_j58909771432349_3_alg».proof.Proof.KI.Acc0
import proofs.«409812_j58909771432349_3_alg».proof.Proof.Gen.KernelIdeal.Skeleton
import proofs.«409812_j58909771432349_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Hand

open Cert.KernelIdeal Cert.KernelIdeal.Gen
open Idealize.ShloMosaic Idealize.ShloMosaic.TcCoe
open Idealize.SL Idealize.SL.Sem
open Idealize.ShloMosaic.ValueIdx

/-- Row p of the x block against row j of the w block. -/
def blkLogit (x : Vec Ideal S2048x4096 .bf16) (w : Vec Ideal S256x4096 .f32) (p : Fin 2048) (j : Fin 256) : EReal :=
  ∑ h : Fin 4096, x (ix2 p h) * w (ix2 j h)

theorem dot0_lhs_0 (i : S2048x256.Idx) (q : dot_S2048x4096_S256x4096_S2048x256_1_1_0_0_n_n.contr.Idx) :
    (dot_S2048x4096_S256x4096_S2048x256_1_1_0_0_n_n.lhsIdx i q 0).val = (i 0).val := by
  unfold DotDims.lhsIdx
  rw [dif_neg (show ¬(0 : Fin S2048x4096.rank) ∈ dot_S2048x4096_S256x4096_S2048x256_1_1_0_0_n_n.lhsBatch by decide), dif_pos (show (0 : Fin S2048x4096.rank) ∈ dot_S2048x4096_S256x4096_S2048x256_1_1_0_0_n_n.lhsNonContracting by decide)]
  rfl
theorem dot0_lhs_1 (i : S2048x256.Idx) (q : dot_S2048x4096_S256x4096_S2048x256_1_1_0_0_n_n.contr.Idx) :
    (dot_S2048x4096_S256x4096_S2048x256_1_1_0_0_n_n.lhsIdx i q 1).val = (q ⟨0, by decide⟩).val :=
  dot_S2048x4096_S256x4096_S2048x256_1_1_0_0_n_n.lhsIdx_val_of_single rfl i q
theorem dot0_rhs_0 (i : S2048x256.Idx) (q : dot_S2048x4096_S256x4096_S2048x256_1_1_0_0_n_n.contr.Idx) :
    (dot_S2048x4096_S256x4096_S2048x256_1_1_0_0_n_n.rhsIdx i q 0).val = (i 1).val := by
  unfold DotDims.rhsIdx
  rw [dif_neg (show ¬(0 : Fin S256x4096.rank) ∈ dot_S2048x4096_S256x4096_S2048x256_1_1_0_0_n_n.rhsBatch by decide), dif_pos (show (0 : Fin S256x4096.rank) ∈ dot_S2048x4096_S256x4096_S2048x256_1_1_0_0_n_n.rhsNonContracting by decide)]
  rfl
theorem dot0_rhs_1 (i : S2048x256.Idx) (q : dot_S2048x4096_S256x4096_S2048x256_1_1_0_0_n_n.contr.Idx) :
    (dot_S2048x4096_S256x4096_S2048x256_1_1_0_0_n_n.rhsIdx i q 1).val = (q ⟨0, by decide⟩).val :=
  dot_S2048x4096_S256x4096_S2048x256_1_1_0_0_n_n.rhsIdx_val_of_single rfl i q

/-- The block product at (p, j): the contraction over the shared axis of length 4096. -/
theorem pay6_apply (x : Vec Ideal S2048x4096 .bf16) (w : Vec Ideal S256x4096 .f32) (p : Fin 2048) (j : Fin 256) :
    k0_pay6 (F := Ideal) x w (ix2 p j) = blkLogit x w p j := by
  unfold k0_pay6 blkLogit
  refine (Ideal.matmul_constant_zero_apply dot_S2048x4096_S256x4096_S2048x256_1_1_0_0_n_n none _ _ (ix2 p j)).trans ?_
  rw [← Equiv.sum_comp (contrEquiv1 dot_S2048x4096_S256x4096_S2048x256_1_1_0_0_n_n 4096 rfl rfl).symm]
  refine Finset.sum_congr rfl fun k _ => ?_
  have hk := contrEquiv1_symm_val dot_S2048x4096_S256x4096_S2048x256_1_1_0_0_n_n 4096 rfl rfl k
  have el : dot_S2048x4096_S256x4096_S2048x256_1_1_0_0_n_n.lhsIdx (ix2 p j) ((contrEquiv1 dot_S2048x4096_S256x4096_S2048x256_1_1_0_0_n_n 4096 rfl rfl).symm k) = ix2 p k := funext fun a => Fin.ext (by
    match a with
    | ⟨0, _⟩ => exact dot0_lhs_0 _ _
    | ⟨1, _⟩ => exact (dot0_lhs_1 _ _).trans hk)
  have er : dot_S2048x4096_S256x4096_S2048x256_1_1_0_0_n_n.rhsIdx (ix2 p j) ((contrEquiv1 dot_S2048x4096_S256x4096_S2048x256_1_1_0_0_n_n 4096 rfl rfl).symm k) = ix2 j k := funext fun a => Fin.ext (by
    match a with
    | ⟨0, _⟩ => exact dot0_rhs_0 _ _
    | ⟨1, _⟩ => exact (dot0_rhs_1 _ _).trans hk)
  rw [el, er, shapeCast_self]
  rfl

theorem ofBits_ninf_f32 : Ideal.ofBits .f32 0xFF800000#32 = ⊥ := by simp [Ideal.ofBits, Ideal.ieee]

/-- The columns a row tile starts from: −∞, 0, 0. -/
theorem reset_apply (p : Fin 2048) :
    (colsReset0 (F := Ideal)).1 (ix2 p 0) = ⊥ ∧ (colsReset0 (F := Ideal)).2.1 (ix2 p 0) = 0
      ∧ (colsReset0 (F := Ideal)).2.2 (ix2 p 0) = 0 :=
  ⟨ofBits_ninf_f32, Ideal.ofBits_zero_f32, Ideal.ofBits_zero_f32⟩

/-- A vector of 2048 entries viewed as a column reads entry p at (p, 0). -/
theorem cast_col {α : Type} (v : S2048.Idx → α) (h : S2048.ShapeCasts S2048x1) (p : Fin 2048) :
    shapeCast S2048x1 v h (ix2 p 0) = v (ix1 p) :=
  shapeCast_apply v h (ix2 p 0) (ix1 p) (by rw [Shape.rowMajor_val_one, Shape.rowMajor_val_two]; simp)

/-- A column broadcast along the rows reads (p, 0) at (p, j). -/
theorem bcast_col {α : Type} (v : S2048x1.Idx → α) (h : S2048x1.Broadcasts S2048x256) (p : Fin 2048) (j : Fin 256) :
    broadcastTo S2048x256 v h (ix2 p j) = v (ix2 p 0) :=
  broadcastTo_apply v h (ix2 p j) (ix2 p 0) (fun a => by
    match a with
    | ⟨0, _⟩ => rfl
    | ⟨1, _⟩ => rfl)

/-- The index over row p whose coordinate on the reduced axis is j. -/
theorem lift_col (p : Fin 2048) (j : Fin 256) : reduces_S2048x256_S2048.lift (ix1 p) j = ix2 p j :=
  funext fun a => Fin.ext (by
    match a with
    | ⟨0, _⟩ => rfl
    | ⟨1, _⟩ => rfl)

/-- The new maximum: the larger of the old one and the block row's largest logit. -/
theorem pay7_apply (x : Vec Ideal S2048x4096 .bf16) (w : Vec Ideal S256x4096 .f32) (m : Vec Ideal S2048x1 .f32) (p : Fin 2048) :
    k0_pay7 (F := Ideal) x w m (ix2 p 0)
      = max (m (ix2 p 0)) ((Finset.univ : Finset (Fin 256)).fold max ⊥ (fun j => blkLogit x w p j)) := by
  unfold k0_pay7
  refine congrArg (max (m (ix2 p 0))) ?_
  refine (cast_col _ _ p).trans ?_
  refine (Ideal.multiReduction_maximumf_single _ _ _ _ _ _).trans ?_
  refine congrArg₂ (fun a f => (Finset.univ : Finset (Fin 256)).fold max a f) ofBits_ninf_f32 ?_
  funext j
  exact (congrArg (k0_pay6 (F := Ideal) x w) (lift_col p j)).trans (pay6_apply x w p j)

theorem step_max (i : grid0.Coords) (x : Vec Ideal S2048x4096 .bf16) (w : Vec Ideal S256x4096 .f32) (y : Vec Ideal S2048x1 .i32)
    (s : Cols0 Ideal) (p : Fin 2048) :
    (colsStep0 (F := Ideal) i x w y s).1 (ix2 p 0)
      = max (s.1 (ix2 p 0)) ((Finset.univ : Finset (Fin 256)).fold max ⊥ (fun j => blkLogit x w p j)) := by
  show k0_pay9 (F := Ideal) x w s.1 (ix2 p 0) = _
  unfold k0_pay9
  rw [shapeCast_self]
  exact pay7_apply x w s.1 p

/-- The new sum: the old one rescaled to the new maximum, plus the block row's exponentials shifted by it. -/
theorem pay8_apply (x : Vec Ideal S2048x4096 .bf16) (w : Vec Ideal S256x4096 .f32) (m m2 l : Vec Ideal S2048x1 .f32) (p : Fin 2048) :
    k0_pay8 (F := Ideal) x w m m2 l (ix2 p 0)
      = l (ix2 p 0) * Ideal.exp (m2 (ix2 p 0) - k0_pay7 (F := Ideal) x w m (ix2 p 0))
        + ∑ j : Fin 256, Ideal.exp (blkLogit x w p j - k0_pay7 (F := Ideal) x w m (ix2 p 0)) := by
  unfold k0_pay8
  rw [shapeCast_self]
  refine congrArg₂ (· + ·) rfl ?_
  refine (cast_col _ _ p).trans ?_
  refine (Ideal.multiReduction_add_single _ _ _ _ _ _).trans ?_
  refine Finset.sum_congr rfl fun j _ => ?_
  have e : reduces_S2048x256_S2048.lift (ix1 p) j = ix2 p j := lift_col p j
  rw [e]
  exact congrArg Ideal.exp (congrArg₂ (· - ·) (pay6_apply x w p j) (bcast_col _ _ p j))

theorem step_sum (i : grid0.Coords) (x : Vec Ideal S2048x4096 .bf16) (w : Vec Ideal S256x4096 .f32) (y : Vec Ideal S2048x1 .i32)
    (s : Cols0 Ideal) (p : Fin 2048) :
    (colsStep0 (F := Ideal) i x w y s).2.1 (ix2 p 0)
      = s.2.1 (ix2 p 0) * Ideal.exp (s.1 (ix2 p 0)
            - max (s.1 (ix2 p 0)) ((Finset.univ : Finset (Fin 256)).fold max ⊥ (fun j => blkLogit x w p j)))
        + ∑ j : Fin 256, Ideal.exp (blkLogit x w p j
            - max (s.1 (ix2 p 0)) ((Finset.univ : Finset (Fin 256)).fold max ⊥ (fun j => blkLogit x w p j))) := by
  show k0_pay8 (F := Ideal) x w s.1 s.1 s.2.1 (ix2 p 0) = _
  rw [pay8_apply, pay7_apply]

/-- The vocabulary number of column j of tile (i 1): 256 · tile + j, as a word. -/
theorem pay10_apply (i : grid0.Coords) (p : Fin 2048) (j : Fin 256) :
    k0_pay10 i (ix2 p j) = BitVec.ofNat 32 (256 * (i 1).val + j.val) := by
  unfold k0_pay10
  show BitVec.ofNat 32 (i 1).val * 256#32 + iota .tc S2048x256 32 [1] iota_S2048x256_d1_w32 (ix2 p j) = _
  rw [iota_single_apply]
  show BitVec.ofNat 32 (i 1).val * BitVec.ofNat 32 256 + BitVec.ofNat 32 j.val = _
  rw [← BitVec.ofNat_mul, ← BitVec.ofNat_add, Nat.mul_comm]

/-- A select on the equality bit of two words is the `if` on their equality. -/
theorem select_cmpi_eq {α : Type} (a b : BitVec 32) (A B : α) :
    Scalar.select (IntOp.cmpi .eq a b) A B = if a = b then A else B := by
  unfold Scalar.select IntOp.cmpi
  by_cases h : a = b
  · subst h; simp
  · have hb : (a == b) = false := by simpa using h
    simp [hb, h]

/-- The picked logit: the old one plus the block row's entry whose vocabulary number is the label. -/
theorem pay1_apply (v7 : FVec Ideal S2048x256 .f32) (v32 : IVec S2048x256 32) (y : Vec Ideal S2048x1 .i32)
    (g : Vec Ideal S2048x1 .f32) (p : Fin 2048) :
    k0_pay1 (F := Ideal) v7 v32 y g (ix2 p 0)
      = g (ix2 p 0) + ∑ j : Fin 256, (if v32 (ix2 p j) = y (ix2 p 0) then v7 (ix2 p j) else 0) := by
  unfold k0_pay1
  simp only [shapeCast_self]
  refine congrArg₂ (· + ·) rfl ?_
  refine (cast_col _ _ p).trans ?_
  refine (Ideal.multiReduction_add_single _ _ _ _ _ _).trans ?_
  refine Finset.sum_congr rfl fun j _ => ?_
  change Fin 256 at j
  rw [lift_col]
  refine (select_cmpi_eq (v32 (ix2 p j)) (broadcastTo S2048x256 y broadcasts_S2048x1_S2048x256 (ix2 p j)) (v7 (ix2 p j))
    (Ideal.ofBits .f32 0x00000000#32)).trans ?_
  rw [bcast_col, Ideal.ofBits_zero_f32]

theorem step_gold (i : grid0.Coords) (x : Vec Ideal S2048x4096 .bf16) (w : Vec Ideal S256x4096 .f32) (y : Vec Ideal S2048x1 .i32)
    (s : Cols0 Ideal) (p : Fin 2048) :
    (colsStep0 (F := Ideal) i x w y s).2.2 (ix2 p 0)
      = s.2.2 (ix2 p 0)
        + ∑ j : Fin 256, (if BitVec.ofNat 32 (256 * (i 1).val + j.val) = y (ix2 p 0) then blkLogit x w p j else 0) := by
  show k0_pay1 (F := Ideal) (k0_pay6 x w) (k0_pay10 i) y s.2.2 (ix2 p 0) = _
  rw [pay1_apply]
  refine congrArg₂ (· + ·) rfl (Finset.sum_congr rfl fun j _ => ?_)
  rw [pay10_apply, pay6_apply]

/-- The stored column: picked − (maximum + log sum). -/
theorem pay2_apply (g m l : Vec Ideal S2048x1 .f32) (p : Fin 2048) :
    k0_pay2 (F := Ideal) g m l (ix2 p 0) = g (ix2 p 0) - (m (ix2 p 0) + Ideal.log (l (ix2 p 0))) := rfl

end Cert.KernelIdeal.Hand

end
-- ==== Proof.LseMath.lean ====
/-
  The online log-sum-exp. A row of 32000 logits is read in 125 tiles of 256; after each tile one keeps the largest
  logit so far M, the sum L of exp (logit − M) over the logits so far — rescaled by exp (M_old − M_new) whenever the
  maximum moves — and the logit G met at the label. After the last tile G − (M + log L) is the label's logit less the
  row's log-sum-exp: exp (a − M_old) · exp (M_old − M_new) = exp (a − M_new) on finite logits.
-/
import Idealize.ShloMosaic.PureOps.Ideal
import proofs.«409812_j58909771432349_3_alg».proof.Proof.Spec
import Mathlib.Analysis.SpecialFunctions.Exp
import Mathlib.Analysis.SpecialFunctions.Log.Basic
import Mathlib.Data.EReal.Basic
import Mathlib.Data.EReal.Operations
import Mathlib.Data.Finset.Fold
import Mathlib.Data.Finset.Max
import Mathlib.Algebra.BigOperators.Fin
import Mathlib.Algebra.BigOperators.Group.Finset.Piecewise
import Mathlib.Algebra.Order.BigOperators.Group.Finset

noncomputable section

open scoped BigOperators

namespace Cert.LseMath

open Cert.Spec Idealize.ShloMosaic

variable (z : Fin 32000 → EReal)

/-- The row continued by 0 past the vocabulary. -/
def zN (v : ℕ) : EReal := if h : v < 32000 then z ⟨v, h⟩ else 0

/-- The largest logit over the first `n` tiles (−∞ before any). -/
def onM : ℕ → EReal
  | 0 => ⊥
  | n + 1 => max (onM n) ((Finset.univ : Finset (Fin 256)).fold max ⊥ (fun j => zN z (256 * n + j.val)))

/-- The shifted sum of exponentials over the first `n` tiles. -/
def onL : ℕ → EReal
  | 0 => 0
  | n + 1 => onL n * Ideal.exp (onM z n - onM z (n + 1)) + ∑ j : Fin 256, Ideal.exp (zN z (256 * n + j.val) - onM z (n + 1))

/-- The logit met at label word `y` over the first `n` tiles. -/
def onG (y : BitVec 32) : ℕ → EReal
  | 0 => 0
  | n + 1 => onG y n + ∑ j : Fin 256, (if BitVec.ofNat 32 (256 * n + j.val) = y then zN z (256 * n + j.val) else 0)

/-- A finite sum of real numbers, read in the extended reals, is the real sum. -/
theorem coe_sum {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The fold of max from −∞ over a nonempty finite family of reals is a real number, an upper bound of the family,
    and one of its members. -/
theorem fold_max_real {ι : Type*} (s : Finset ι) (hs : s.Nonempty) (g : ι → EReal) (r : ι → ℝ)
    (hg : ∀ i ∈ s, g i = ((r i : ℝ) : EReal)) :
    ∃ m : ℝ, s.fold max ⊥ g = (m : EReal) ∧ (∀ i ∈ s, r i ≤ m) ∧ ∃ i ∈ s, r i = m := by
  obtain ⟨x, hx, hmax⟩ := Finset.exists_max_image s r hs
  refine ⟨r x, le_antisymm ?_ ?_, hmax, x, hx, rfl⟩
  · rw [Finset.fold_max_le]
    exact ⟨bot_le, fun i hi => by rw [hg i hi]; exact EReal.coe_le_coe_iff.2 (hmax i hi)⟩
  · rw [Finset.le_fold_max]
    exact Or.inr ⟨x, hx, by rw [hg x hx]⟩

/-- The continued row as real numbers. -/
def zR (v : ℕ) : ℝ := (zN z v).toReal

theorem zN_eq (hz : ∀ v, ∃ r : ℝ, z v = (r : EReal)) (v : ℕ) : zN z v = ((zR z v : ℝ) : EReal) := by
  unfold zR zN
  split_ifs with h
  · obtain ⟨r, hr⟩ := hz ⟨v, h⟩
    rw [hr, EReal.toReal_coe]
  · simp

theorem z_eq (hz : ∀ v, ∃ r : ℝ, z v = (r : EReal)) (v : Fin 32000) : z v = ((zR z v.val : ℝ) : EReal) := by
  rw [← zN_eq z hz]
  unfold zN
  rw [dif_pos v.isLt]

/-- A tile's maximum is real, bounds the tile, and is met in the tile. -/
theorem tile_max (hz : ∀ v, ∃ r : ℝ, z v = (r : EReal)) (n : ℕ) :
    ∃ t : ℝ, (Finset.univ : Finset (Fin 256)).fold max ⊥ (fun j => zN z (256 * n + j.val)) = (t : EReal)
      ∧ (∀ j : Fin 256, zR z (256 * n + j.val) ≤ t) ∧ ∃ j : Fin 256, zR z (256 * n + j.val) = t := by
  obtain ⟨t, ht, hub, j, _, hj⟩ := fold_max_real (Finset.univ : Finset (Fin 256)) Finset.univ_nonempty
    (fun j => zN z (256 * n + j.val)) (fun j => zR z (256 * n + j.val)) (fun j _ => zN_eq z hz _)
  exact ⟨t, ht, fun j => hub j (Finset.mem_univ j), j, hj⟩

/-- A tile's shifted exponentials sum to a real number. -/
theorem tile_sum (hz : ∀ v, ∃ r : ℝ, z v = (r : EReal)) (n : ℕ) (m : ℝ) :
    (∑ j : Fin 256, Ideal.exp (zN z (256 * n + j.val) - (m : EReal)))
      = ((∑ j ∈ Finset.range 256, Real.exp (zR z (256 * n + j) - m) : ℝ) : EReal) := by
  have h : ∀ j : Fin 256, Ideal.exp (zN z (256 * n + j.val) - (m : EReal))
      = ((Real.exp (zR z (256 * n + j.val) - m) : ℝ) : EReal) := by
    intro j
    rw [zN_eq z hz, ← EReal.coe_sub, Ideal.exp_coe]
  rw [Finset.sum_congr rfl (fun j _ => h j), coe_sum, Finset.sum_range (fun j => Real.exp (zR z (256 * n + j) - m))]

/-- What holds after `n ≥ 1` tiles: M is the real maximum of the first 256·n logits and L the sum of their
    exponentials shifted by M. -/
def Inv (n : ℕ) : Prop :=
  ∃ m : ℝ, onM z n = (m : EReal) ∧ (∀ v, v < 256 * n → zR z v ≤ m) ∧ (∃ v, v < 256 * n ∧ zR z v = m)
    ∧ onL z n = ((∑ v ∈ Finset.range (256 * n), Real.exp (zR z v - m) : ℝ) : EReal)

/-- The first tile: from M = −∞ and L = 0 the rescaled old sum is 0 · exp (−∞) = 0. -/
theorem inv_one (hz : ∀ v, ∃ r : ℝ, z v = (r : EReal)) : Inv z (0 + 1) := by
  obtain ⟨t, ht, hub, j0, hj0⟩ := tile_max z hz 0
  have hM : onM z (0 + 1) = (t : EReal) := by
    rw [onM, onM, ht]
    exact max_eq_right bot_le
  refine ⟨t, hM, ?_, ?_, ?_⟩
  · intro v hv
    have := hub ⟨v, by omega⟩
    simpa using this
  · exact ⟨256 * 0 + j0.val, by have := j0.isLt; omega, hj0⟩
  · rw [onL, hM, onL, zero_mul, zero_add, tile_sum z hz 0 t]
    congr 1

/-- A later tile: exp (a − M_old) · exp (M_old − M_new) = exp (a − M_new). -/
theorem inv_step (hz : ∀ v, ∃ r : ℝ, z v = (r : EReal)) (n : ℕ) (h : Inv z n) : Inv z (n + 1) := by
  obtain ⟨m, hM, hub, ⟨v0, hv0, hv0m⟩, hL⟩ := h
  obtain ⟨t, ht, htub, j0, hj0⟩ := tile_max z hz n
  have hM' : onM z (n + 1) = ((max m t : ℝ) : EReal) := by
    rw [onM, hM, ht]
    exact (EReal.coe_strictMono.monotone.map_max).symm
  refine ⟨max m t, hM', ?_, ?_, ?_⟩
  · intro v hv
    by_cases hlt : v < 256 * n
    · exact le_trans (hub v hlt) (le_max_left _ _)
    · have hj : v - 256 * n < 256 := by omega
      have h1 := htub ⟨v - 256 * n, hj⟩
      have e : 256 * n + (v - 256 * n) = v := by omega
      simp only [e] at h1
      exact le_trans h1 (le_max_right _ _)
  · rcases le_total m t with hmt | htm
    · refine ⟨256 * n + j0.val, by have := j0.isLt; omega, ?_⟩
      rw [hj0, max_eq_right hmt]
    · refine ⟨v0, by omega, ?_⟩
      rw [hv0m, max_eq_left htm]
  · rw [onL, hL, hM', hM, tile_sum z hz n (max m t), ← EReal.coe_sub, Ideal.exp_coe, ← EReal.coe_mul,
      ← EReal.coe_add]
    congr 1
    rw [show 256 * (n + 1) = 256 * n + 256 by ring, Finset.sum_range_add, Finset.sum_mul]
    congr 1
    apply Finset.sum_congr rfl
    intro v _
    rw [← Real.exp_add]
    congr 1
    ring

theorem inv_all (hz : ∀ v, ∃ r : ℝ, z v = (r : EReal)) : ∀ n, Inv z (n + 1)
  | 0 => inv_one z hz
  | n + 1 => inv_step z hz (n + 1) (inv_all hz n)

/-- The row's maximum is real; with it the shifted exponentials sum to a positive real. -/
theorem row_facts (hz : ∀ v, ∃ r : ℝ, z v = (r : EReal)) :
    ∃ m : ℝ, rowMax z = (m : EReal) ∧ (∀ v : Fin 32000, zR z v.val ≤ m) ∧ (∃ v : Fin 32000, zR z v.val = m)
      ∧ (∑ v : Fin 32000, Ideal.exp (z v - rowMax z))
          = ((∑ v : Fin 32000, Real.exp (zR z v.val - m) : ℝ) : EReal)
      ∧ 0 < ∑ v : Fin 32000, Real.exp (zR z v.val - m) := by
  obtain ⟨m, hm, hub, i0, _, hi0⟩ := fold_max_real (Finset.univ : Finset (Fin 32000)) Finset.univ_nonempty z
    (fun v => zR z v.val) (fun i _ => z_eq z hz i)
  have hR : rowMax z = (m : EReal) := hm
  refine ⟨m, hR, fun v => hub v (Finset.mem_univ v), ⟨i0, hi0⟩, ?_, ?_⟩
  · have h : ∀ v : Fin 32000, Ideal.exp (z v - rowMax z) = ((Real.exp (zR z v.val - m) : ℝ) : EReal) := by
      intro v
      rw [hR, z_eq z hz v, ← EReal.coe_sub, Ideal.exp_coe]
    rw [Finset.sum_congr rfl (fun v _ => h v), coe_sum]
  · exact Finset.sum_pos (fun v _ => Real.exp_pos _) Finset.univ_nonempty

/-- After the 125 tiles M is the row's maximum and L the row's shifted sum of exponentials. -/
theorem onML_final (hz : ∀ v, ∃ r : ℝ, z v = (r : EReal)) :
    onM z 125 = rowMax z ∧ onL z 125 = ∑ v : Fin 32000, Ideal.exp (z v - rowMax z) := by
  have h125 : Inv z 125 := inv_all z hz 124
  obtain ⟨m, hM, hub, ⟨v0, hv0, hv0m⟩, hL⟩ := h125
  obtain ⟨m', hR, hub', ⟨i0, hi0⟩, hS, _⟩ := row_facts z hz
  have hmm : m = m' := by
    apply le_antisymm
    · rw [← hv0m]
      exact hub' ⟨v0, by omega⟩
    · rw [← hi0]
      exact hub i0.val (by have := i0.isLt; omega)
  subst hmm
  refine ⟨by rw [hR]; exact hM, ?_⟩
  rw [hL, hS, show 256 * 125 = 32000 by norm_num, Finset.sum_range (fun v => Real.exp (zR z v - m))]

/-- G after `n` tiles: the sum over the first 256·n entries of those whose index word is the label. -/
theorem onG_closed (y : BitVec 32) (n : ℕ) :
    onG z y n = ∑ k ∈ Finset.range (256 * n), (if BitVec.ofNat 32 k = y then zN z k else 0) := by
  induction n with
  | zero => simp [onG]
  | succ n ih =>
    rw [onG, ih, show 256 * (n + 1) = 256 * n + 256 by ring, Finset.sum_range_add,
      Finset.sum_range (fun j => if BitVec.ofNat 32 (256 * n + j) = y then zN z (256 * n + j) else 0)]

/-- Below 2^32 an index has the label's word exactly when it is the label's value. -/
theorem ofNat_eq_iff (y : BitVec 32) (k : ℕ) (hk : k < 32000) : BitVec.ofNat 32 k = y ↔ k = y.toNat := by
  constructor
  · intro h
    rw [← h, BitVec.toNat_ofNat, Nat.mod_eq_of_lt (by omega)]
  · intro h
    apply BitVec.eq_of_toNat_eq
    rw [BitVec.toNat_ofNat, h, Nat.mod_eq_of_lt y.isLt]

/-- After the 125 tiles G is the row's entry at the label, 0 when the label is no vocabulary index. -/
theorem onG_final (y : BitVec 32) : onG z y 125 = gold z y := by
  rw [onG_closed, show 256 * 125 = 32000 by norm_num]
  have h : ∀ k ∈ Finset.range 32000, (if BitVec.ofNat 32 k = y then zN z k else 0)
      = (if k = y.toNat then zN z k else 0) := by
    intro k hk
    rw [Finset.mem_range] at hk
    simp only [ofNat_eq_iff y k hk]
  rw [Finset.sum_congr rfl h, Finset.sum_ite_eq' (Finset.range 32000) y.toNat (fun k => zN z k)]
  unfold gold zN
  by_cases hy : y.toNat < 32000
  · rw [if_pos (Finset.mem_range.2 hy), dif_pos hy]
  · rw [if_neg (fun hc => hy (Finset.mem_range.1 hc)), dif_neg hy]

/-- The row's log-sum-exp as maximum plus the real logarithm of a positive real. -/
theorem lse_eq (hz : ∀ v, ∃ r : ℝ, z v = (r : EReal)) :
    ∃ m S : ℝ, rowMax z = (m : EReal) ∧ 0 < S
      ∧ Ideal.log (∑ v : Fin 32000, Ideal.exp (z v - rowMax z)) = ((Real.log S : ℝ) : EReal)
      ∧ lse z = ((m + Real.log S : ℝ) : EReal) := by
  obtain ⟨m, hR, _, _, hS, hpos⟩ := row_facts z hz
  have hlog : Ideal.log (∑ v : Fin 32000, Ideal.exp (z v - rowMax z))
      = ((Real.log (∑ v : Fin 32000, Real.exp (zR z v.val - m)) : ℝ) : EReal) := by
    rw [hS, Ideal.log_coe, if_neg (not_le.2 hpos)]
  refine ⟨m, _, hR, hpos, hlog, ?_⟩
  unfold lse
  rw [hlog, hR, ← EReal.coe_add]

/-- After the 125 tiles: the online quantities give the label's logit less the row's log-sum-exp. -/
theorem online_final (hz : ∀ v, ∃ r : ℝ, z v = (r : EReal)) (y : BitVec 32) :
    onG z y 125 - (onM z 125 + Ideal.log (onL z 125)) = gold z y - lse z := by
  rw [(onML_final z hz).1, (onML_final z hz).2, onG_final z y]
  rfl

/-- The two-step form (logit − maximum) − log Σ exp (· − maximum) is the same number. -/
theorem ref_form (hz : ∀ v, ∃ r : ℝ, z v = (r : EReal)) (y : BitVec 32) (hy : y.toNat < 32000) :
    (z ⟨y.toNat, hy⟩ - rowMax z) - Ideal.log (∑ v : Fin 32000, Ideal.exp (z v - rowMax z)) = gold z y - lse z := by
  obtain ⟨m, S, hR, _, hlog, hlse⟩ := lse_eq z hz
  obtain ⟨a, ha⟩ := hz ⟨y.toNat, hy⟩
  have hg : gold z y = (a : EReal) := by
    unfold gold
    rw [dif_pos hy, ha]
  rw [hg, hlse, hlog, hR, ha, ← EReal.coe_sub, ← EReal.coe_sub, ← EReal.coe_sub, sub_sub]

theorem rowMax_real (hz : ∀ v, ∃ r : ℝ, z v = (r : EReal)) : ∃ r : ℝ, rowMax z = (r : EReal) := by
  obtain ⟨m, hR, _⟩ := row_facts z hz
  exact ⟨m, hR⟩

theorem lse_real (hz : ∀ v, ∃ r : ℝ, z v = (r : EReal)) : ∃ r : ℝ, lse z = (r : EReal) := by
  obtain ⟨m, S, _, _, _, hlse⟩ := lse_eq z hz
  exact ⟨_, hlse⟩

/-- A token's log-probability is a real number whatever the label word. -/
theorem tok_real (hz : ∀ v, ∃ r : ℝ, z v = (r : EReal)) (y : BitVec 32) : ∃ r : ℝ, gold z y - lse z = (r : EReal) := by
  obtain ⟨l, hl⟩ := lse_real z hz
  have hg : ∃ a : ℝ, gold z y = (a : EReal) := by
    unfold gold
    by_cases hy : y.toNat < 32000
    · rw [dif_pos hy]
      exact hz _
    · rw [dif_neg hy]
      exact ⟨0, rfl⟩
  obtain ⟨a, ha⟩ := hg
  exact ⟨a - l, by rw [ha, hl, ← EReal.coe_sub]⟩

/-- Finite inputs give finite logits. -/
theorem logit_real {X : SX.Idx → EReal} {W : SW.Idx → EReal} (hX : FinV X) (hW : FinV W) (b : Fin 8) (t : Fin 512) (v : Fin 32000) :
    ∃ r : ℝ, logit X W b t v = (r : EReal) := by
  have hX' : ∀ i, ∃ r : ℝ, X i = (r : EReal) := hX
  have hW' : ∀ i, ∃ r : ℝ, W i = (r : EReal) := hW
  choose xr hxr using hX'
  choose wr hwr using hW'
  refine ⟨∑ h : Fin 4096, xr (ValueIdx.ix3 b t h) * wr (ValueIdx.ix2 v h), ?_⟩
  unfold logit
  rw [← coe_sum]
  apply Finset.sum_congr rfl
  intro h _
  rw [hxr, hwr, EReal.coe_mul]

end Cert.LseMath

end
-- ==== Proof.KI.Ind0.lean ====
/-
  The recursion over the 250 grid points of Pallas call 0, solved. Point 125·R + v updates the three running columns of
  row tile R from vocabulary tile v; after tile v the columns of row 2048·R + p hold the online maximum, the online
  shifted sum of exponentials and the online picked logit of that row's logits over the first v + 1 tiles. After the
  last tile the stored column is the label's logit less the row's log-sum-exp.
-/
import proofs.«409812_j58909771432349_3_alg».proof.Proof.KI.Acc0
import proofs.«409812_j58909771432349_3_alg».proof.Proof.KI.Pay0
import proofs.«409812_j58909771432349_3_alg».proof.Proof.Spec
import proofs.«409812_j58909771432349_3_alg».proof.Proof.LseMath
import Idealize.ShloMosaic.PureOps.Ideal.Laws
import Idealize.ShloMosaic.Lib.ValueIdx

noncomputable section

open scoped BigOperators

namespace Cert.KernelIdeal.Hand

open Cert.KernelIdeal Cert.KernelIdeal.Gen
open Idealize.ShloMosaic Idealize.ShloMosaic.TcCoe
open Idealize.SL Idealize.SL.Sem
open Idealize.ShloMosaic.ValueIdx

open Cert.LseMath

/-- A grid point is below 250. -/
theorem pt_lt0 (t : Fin cfg0.N) : t.val < 250 := lt_of_lt_of_eq t.isLt N_0

/-- Point 125·R + v of the grid. -/
theorem pt_lt (R : Fin 2) (v : ℕ) (hv : v < 125) : 125 * R.val + v < cfg0.N :=
  lt_of_lt_of_eq (by have := R.isLt; omega) N_0.symm

/-- The vocabulary coordinate of point t is t mod 125. -/
theorem coord1_0 : ∀ t : Fin cfg0.N, ((grid0.coords t) 1).val = t.val % 125 :=
  (by decide +kernel : ∀ t : Fin grid0.N, ((grid0.coords t) 1).val = t.val % 125)

/-- Row 2048·R + p of the flattened x and label column. -/
def row0 (R : Fin 2) (p : Fin 2048) : Fin 4096 := ⟨2048 * R.val + p.val, by have := R.isLt; have := p.isLt; omega⟩

/-- Row r of x against row v of w. -/
def rowLogit (X4 : S4096x4096.Idx → EReal) (W : S32000x4096.Idx → EReal) (r : Fin 4096) (v : Fin 32000) : EReal :=
  ∑ h : Fin 4096, X4 (ix2 r h) * W (ix2 v h)

/-- Finite inputs give finite logits. -/
theorem rowLogit_real {X4 : S4096x4096.Idx → EReal} {W : S32000x4096.Idx → EReal}
    (hfX : ∀ i, ∃ r : ℝ, X4 i = (r : EReal)) (hfW : ∀ i, ∃ r : ℝ, W i = (r : EReal)) (r : Fin 4096) (v : Fin 32000) :
    ∃ a : ℝ, rowLogit X4 W r v = (a : EReal) := by
  choose xr hxr using hfX
  choose wr hwr using hfW
  refine ⟨∑ h : Fin 4096, xr (ix2 r h) * wr (ix2 v h), ?_⟩
  unfold rowLogit
  rw [← coe_sum]
  exact Finset.sum_congr rfl fun h _ => by rw [hxr, hwr, EReal.coe_mul]

theorem onM_succ (z : Fin 32000 → EReal) (n : ℕ) :
    onM z (n + 1) = max (onM z n) ((Finset.univ : Finset (Fin 256)).fold max ⊥ (fun j => zN z (256 * n + j.val))) := rfl
theorem onL_succ (z : Fin 32000 → EReal) (n : ℕ) :
    onL z (n + 1) = onL z n * Ideal.exp (onM z n - onM z (n + 1)) + ∑ j : Fin 256, Ideal.exp (zN z (256 * n + j.val) - onM z (n + 1)) := rfl
theorem onG_succ (z : Fin 32000 → EReal) (y : BitVec 32) (n : ℕ) :
    onG z y (n + 1) = onG z y n + ∑ j : Fin 256, (if BitVec.ofNat 32 (256 * n + j.val) = y then zN z (256 * n + j.val) else 0) := rfl

/-- One point's update carries the online quantities from v tiles to v + 1. -/
theorem step_inv (z : Fin 32000 → EReal) (yw : BitVec 32) (v : ℕ) (i : grid0.Coords)
    (x : Vec Ideal S2048x4096 .bf16) (w : Vec Ideal S256x4096 .f32) (y : Vec Ideal S2048x1 .i32) (s : Cols0 Ideal) (p : Fin 2048)
    (hb : ∀ j : Fin 256, blkLogit x w p j = zN z (256 * v + j.val)) (hi : (i 1).val = v) (hyw : y (ix2 p 0) = yw)
    (h1 : s.1 (ix2 p 0) = onM z v) (h2 : s.2.1 (ix2 p 0) = onL z v) (h3 : s.2.2 (ix2 p 0) = onG z yw v) :
    (colsStep0 (F := Ideal) i x w y s).1 (ix2 p 0) = onM z (v + 1)
      ∧ (colsStep0 (F := Ideal) i x w y s).2.1 (ix2 p 0) = onL z (v + 1)
      ∧ (colsStep0 (F := Ideal) i x w y s).2.2 (ix2 p 0) = onG z yw (v + 1) := by
  have hf : (fun j : Fin 256 => blkLogit x w p j) = fun j : Fin 256 => zN z (256 * v + j.val) := funext hb
  refine ⟨?_, ?_, ?_⟩
  · rw [step_max, h1, hf, onM_succ]
  · rw [step_sum, h1, h2, hf, onL_succ, onM_succ]
    simp only [hb]
  · rw [step_gold, h3, hi, hyw, onG_succ]
    simp only [hb]

theorem colsAt0_congr {F : FTy → Type} [FloatOps F]
    (V : (c : Dev nD) → (b : Ref sig .tc) → Buf (Elt F) ((c : Thread nD τ).loc b)) (c : Dev nD)
    {n m : ℕ} (h : n = m) (hn : n < cfg0.N) (hm : m < cfg0.N) : colsAt0 V c n hn = colsAt0 V c m hm := by
  subst h; rfl

section Solved

variable (V : (c : Dev nD) → (b : Ref sig .tc) → Buf (Elt Ideal) ((c : Thread nD τ).loc b)) (c : Dev nD)
  (X4 : S4096x4096.Idx → EReal) (W : S32000x4096.Idx → EReal) (Y5 : S4096x1.Idx → BitVec 32)

/-- The block product at point 125·R + v is the logits of row 2048·R + p over vocabulary tile v. -/
theorem blk_logit
    (hx : ∀ (t : Fin cfg0.N) (p : Fin 2048) (h : Fin 4096), (iblk0 V c 0 t : Vec Ideal S2048x4096 .bf16) (ix2 p h)
      = X4 (ix2 (⟨2048 * (t.val / 125) + p.val, by have := pt_lt0 t; have := p.isLt; omega⟩ : Fin 4096) h))
    (hw : ∀ (t : Fin cfg0.N) (j : Fin 256) (h : Fin 4096), (iblk0 V c 1 t : Vec Ideal S256x4096 .f32) (ix2 j h)
      = W (ix2 (⟨256 * (t.val % 125) + j.val, by have := j.isLt; omega⟩ : Fin 32000) h))
    (R : Fin 2) (v : ℕ) (hv : v < 125) (p : Fin 2048) (j : Fin 256) :
    blkLogit (iblk0 V c 0 ⟨125 * R.val + v, pt_lt R v hv⟩) (iblk0 V c 1 ⟨125 * R.val + v, pt_lt R v hv⟩) p j
      = zN (rowLogit X4 W (row0 R p)) (256 * v + j.val) := by
  have hlt : 256 * v + j.val < 32000 := by have := j.isLt; omega
  have hR := R.isLt
  unfold zN
  rw [dif_pos hlt]
  unfold rowLogit blkLogit
  refine Finset.sum_congr rfl fun h _ => ?_
  have e1 : (⟨2048 * ((125 * R.val + v) / 125) + p.val, by have := p.isLt; omega⟩ : Fin 4096) = row0 R p :=
    Fin.ext (by show 2048 * ((125 * R.val + v) / 125) + p.val = 2048 * R.val + p.val; omega)
  have e2 : (⟨256 * ((125 * R.val + v) % 125) + j.val, by have := j.isLt; omega⟩ : Fin 32000) = ⟨256 * v + j.val, hlt⟩ :=
    Fin.ext (by show 256 * ((125 * R.val + v) % 125) + j.val = 256 * v + j.val; omega)
  exact congrArg₂ (· * ·) ((hx ⟨125 * R.val + v, pt_lt R v hv⟩ p h).trans (congrArg (fun r => X4 (ix2 r h)) e1))
    ((hw ⟨125 * R.val + v, pt_lt R v hv⟩ j h).trans (congrArg (fun r => W (ix2 r h)) e2))

/-- The label the point reads for row p of its tile is the label of row 2048·R + p. -/
theorem lbl_at
    (hy : ∀ (t : Fin cfg0.N) (p : Fin 2048), (iblk0 V c 2 t : Vec Ideal S2048x1 .i32) (ix2 p (0 : Fin 1))
      = Y5 (ix2 (⟨2048 * (t.val / 125) + p.val, by have := pt_lt0 t; have := p.isLt; omega⟩ : Fin 4096) (0 : Fin 1)))
    (R : Fin 2) (v : ℕ) (hv : v < 125) (p : Fin 2048) :
    (iblk0 V c 2 ⟨125 * R.val + v, pt_lt R v hv⟩ : Vec Ideal S2048x1 .i32) (ix2 p (0 : Fin 1)) = Y5 (ix2 (row0 R p) (0 : Fin 1)) := by
  have hR := R.isLt
  have e1 : (⟨2048 * ((125 * R.val + v) / 125) + p.val, by have := p.isLt; omega⟩ : Fin 4096) = row0 R p :=
    Fin.ext (by show 2048 * ((125 * R.val + v) / 125) + p.val = 2048 * R.val + p.val; omega)
  exact (hy ⟨125 * R.val + v, pt_lt R v hv⟩ p).trans (congrArg (fun r => Y5 (ix2 r (0 : Fin 1))) e1)

/-- Point 125·R + v carries the online quantities of row 2048·R + p from v tiles to v + 1. -/
theorem cols_step
    (hx : ∀ (t : Fin cfg0.N) (p : Fin 2048) (h : Fin 4096), (iblk0 V c 0 t : Vec Ideal S2048x4096 .bf16) (ix2 p h)
      = X4 (ix2 (⟨2048 * (t.val / 125) + p.val, by have := pt_lt0 t; have := p.isLt; omega⟩ : Fin 4096) h))
    (hw : ∀ (t : Fin cfg0.N) (j : Fin 256) (h : Fin 4096), (iblk0 V c 1 t : Vec Ideal S256x4096 .f32) (ix2 j h)
      = W (ix2 (⟨256 * (t.val % 125) + j.val, by have := j.isLt; omega⟩ : Fin 32000) h))
    (hy : ∀ (t : Fin cfg0.N) (p : Fin 2048), (iblk0 V c 2 t : Vec Ideal S2048x1 .i32) (ix2 p (0 : Fin 1))
      = Y5 (ix2 (⟨2048 * (t.val / 125) + p.val, by have := pt_lt0 t; have := p.isLt; omega⟩ : Fin 4096) (0 : Fin 1)))
    (R : Fin 2) (v : ℕ) (hv : v < 125) (p : Fin 2048)
    (h1 : (colsBefore0 V c (125 * R.val + v) (pt_lt R v hv)).1 (ix2 p 0) = onM (rowLogit X4 W (row0 R p)) v)
    (h2 : (colsBefore0 V c (125 * R.val + v) (pt_lt R v hv)).2.1 (ix2 p 0) = onL (rowLogit X4 W (row0 R p)) v)
    (h3 : (colsBefore0 V c (125 * R.val + v) (pt_lt R v hv)).2.2 (ix2 p 0)
      = onG (rowLogit X4 W (row0 R p)) (Y5 (ix2 (row0 R p) (0 : Fin 1))) v) :
    (colsAt0 V c (125 * R.val + v) (pt_lt R v hv)).1 (ix2 p 0) = onM (rowLogit X4 W (row0 R p)) (v + 1)
      ∧ (colsAt0 V c (125 * R.val + v) (pt_lt R v hv)).2.1 (ix2 p 0) = onL (rowLogit X4 W (row0 R p)) (v + 1)
      ∧ (colsAt0 V c (125 * R.val + v) (pt_lt R v hv)).2.2 (ix2 p 0)
          = onG (rowLogit X4 W (row0 R p)) (Y5 (ix2 (row0 R p) (0 : Fin 1))) (v + 1) := by
  have hstep : colsAt0 V c (125 * R.val + v) (pt_lt R v hv)
      = colsStep0 (grid0.coords ⟨125 * R.val + v, pt_lt R v hv⟩) (iblk0 V c 0 ⟨125 * R.val + v, pt_lt R v hv⟩)
          (iblk0 V c 1 ⟨125 * R.val + v, pt_lt R v hv⟩) (iblk0 V c 2 ⟨125 * R.val + v, pt_lt R v hv⟩)
          (colsBefore0 V c (125 * R.val + v) (pt_lt R v hv)) := colsAt0_eq V c ⟨125 * R.val + v, pt_lt R v hv⟩
  rw [hstep]
  have hi : ((grid0.coords ⟨125 * R.val + v, pt_lt R v hv⟩) 1).val = v := by
    rw [coord1_0]
    show (125 * R.val + v) % 125 = v
    omega
  exact step_inv _ _ v _ _ _ _ _ p (fun j => blk_logit V c X4 W hx hw R v hv p j) hi (lbl_at V c Y5 hy R v hv p) h1 h2 h3

/-- After vocabulary tile v of row tile R, the columns of row 2048·R + p hold the online quantities over v + 1 tiles. -/
theorem cols_at
    (hx : ∀ (t : Fin cfg0.N) (p : Fin 2048) (h : Fin 4096), (iblk0 V c 0 t : Vec Ideal S2048x4096 .bf16) (ix2 p h)
      = X4 (ix2 (⟨2048 * (t.val / 125) + p.val, by have := pt_lt0 t; have := p.isLt; omega⟩ : Fin 4096) h))
    (hw : ∀ (t : Fin cfg0.N) (j : Fin 256) (h : Fin 4096), (iblk0 V c 1 t : Vec Ideal S256x4096 .f32) (ix2 j h)
      = W (ix2 (⟨256 * (t.val % 125) + j.val, by have := j.isLt; omega⟩ : Fin 32000) h))
    (hy : ∀ (t : Fin cfg0.N) (p : Fin 2048), (iblk0 V c 2 t : Vec Ideal S2048x1 .i32) (ix2 p (0 : Fin 1))
      = Y5 (ix2 (⟨2048 * (t.val / 125) + p.val, by have := pt_lt0 t; have := p.isLt; omega⟩ : Fin 4096) (0 : Fin 1)))
    (R : Fin 2) (p : Fin 2048) : ∀ (v : ℕ) (hv : v < 125),
    (colsAt0 V c (125 * R.val + v) (pt_lt R v hv)).1 (ix2 p 0) = onM (rowLogit X4 W (row0 R p)) (v + 1)
      ∧ (colsAt0 V c (125 * R.val + v) (pt_lt R v hv)).2.1 (ix2 p 0) = onL (rowLogit X4 W (row0 R p)) (v + 1)
      ∧ (colsAt0 V c (125 * R.val + v) (pt_lt R v hv)).2.2 (ix2 p 0)
          = onG (rowLogit X4 W (row0 R p)) (Y5 (ix2 (row0 R p) (0 : Fin 1))) (v + 1) := by
  intro v
  induction v with
  | zero =>
    intro hv
    have hb : colsBefore0 V c (125 * R.val + 0) (pt_lt R 0 hv) = colsReset0 := by
      unfold colsBefore0
      rw [dif_pos (by omega)]
    obtain ⟨r1, r2, r3⟩ := reset_apply p
    exact cols_step V c X4 W Y5 hx hw hy R 0 hv p (by rw [hb]; exact r1) (by rw [hb]; exact r2) (by rw [hb]; exact r3)
  | succ v ih =>
    intro hv
    obtain ⟨i1, i2, i3⟩ := ih (by omega)
    have hb : colsBefore0 V c (125 * R.val + (v + 1)) (pt_lt R (v + 1) hv) = colsAt0 V c (125 * R.val + v) (pt_lt R v (by omega)) := by
      unfold colsBefore0
      rw [dif_neg (by omega)]
      exact colsAt0_congr V c (by omega) _ _
    exact cols_step V c X4 W Y5 hx hw hy R (v + 1) hv p (by rw [hb]; exact i1) (by rw [hb]; exact i2) (by rw [hb]; exact i3)

end Solved

section Final

variable (V : (c : Dev nD) → (b : Ref sig .tc) → Buf (Elt Ideal) ((c : Thread nD τ).loc b)) (c : Dev nD)
  (X4 : S4096x4096.Idx → EReal) (W : S32000x4096.Idx → EReal) (Y5 : S4096x1.Idx → BitVec 32)

/-- What the last vocabulary tile of row tile R stores for row 2048·R + p: the label's logit less the row's
    log-sum-exp. -/
theorem out_final0
    (hx : ∀ (t : Fin cfg0.N) (p : Fin 2048) (h : Fin 4096), (iblk0 V c 0 t : Vec Ideal S2048x4096 .bf16) (ix2 p h)
      = X4 (ix2 (⟨2048 * (t.val / 125) + p.val, by have := pt_lt0 t; have := p.isLt; omega⟩ : Fin 4096) h))
    (hw : ∀ (t : Fin cfg0.N) (j : Fin 256) (h : Fin 4096), (iblk0 V c 1 t : Vec Ideal S256x4096 .f32) (ix2 j h)
      = W (ix2 (⟨256 * (t.val % 125) + j.val, by have := j.isLt; omega⟩ : Fin 32000) h))
    (hy : ∀ (t : Fin cfg0.N) (p : Fin 2048), (iblk0 V c 2 t : Vec Ideal S2048x1 .i32) (ix2 p (0 : Fin 1))
      = Y5 (ix2 (⟨2048 * (t.val / 125) + p.val, by have := pt_lt0 t; have := p.isLt; omega⟩ : Fin 4096) (0 : Fin 1)))
    (hfX : ∀ i, ∃ r : ℝ, X4 i = (r : EReal)) (hfW : ∀ i, ∃ r : ℝ, W i = (r : EReal))
    (R : Fin 2) (p : Fin 2048) :
    outAt0 V c (125 * R.val + 124) (pt_lt R 124 (by omega)) (ix2 p 0)
      = Cert.Spec.gold (rowLogit X4 W (row0 R p)) (Y5 (ix2 (row0 R p) (0 : Fin 1)))
        - Cert.Spec.lse (rowLogit X4 W (row0 R p)) := by
  obtain ⟨h1, h2, h3⟩ := cols_at V c X4 W Y5 hx hw hy R p 124 (by omega)
  unfold outAt0
  rw [pay2_apply, h1, h2, h3]
  exact online_final _ (fun v => rowLogit_real hfX hfW (row0 R p) v) _

end Final

end Cert.KernelIdeal.Hand

end
-- ==== Proof.KI.Blocks0.lean ====
/-
  The blocks of pallas call 0, entry by entry. The 2 × 125 grid's point t = 125·R + v reads rows 2048·R … 2048·R + 2047
  of x and of the label column, and rows 256·v … 256·v + 255 of w: a block's coordinate on an axis is the block index
  times the block's size there plus the coordinate inside the block.
-/
import proofs.«409812_j58909771432349_3_alg».proof.Proof.KI.Acc0
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-- A point of the grid is below 250. -/
theorem t_lt0 (t : Fin cfg0.N) : t.val < 250 := lt_of_lt_of_eq t.isLt N_0

/-- Window 0's block index at point t: (t / 125, 0). -/
theorem idx0_0 : ∀ t : Fin cfg0.N, win0_0.index t (0 : Fin 2) = t.val / 125 ∧ win0_0.index t (1 : Fin 2) = 0 :=
  (by decide +kernel : ∀ t : Fin grid0.N, _)

/-- Window 1's block index at point t: (t mod 125, 0). -/
theorem idx0_1 : ∀ t : Fin cfg0.N, win0_1.index t (0 : Fin 2) = t.val % 125 ∧ win0_1.index t (1 : Fin 2) = 0 :=
  (by decide +kernel : ∀ t : Fin grid0.N, _)

/-- Window 2's block index at point t: (t / 125, 0). -/
theorem idx0_2 : ∀ t : Fin cfg0.N, win0_2.index t (0 : Fin 2) = t.val / 125 ∧ win0_2.index t (1 : Fin 2) = 0 :=
  (by decide +kernel : ∀ t : Fin grid0.N, _)

/-- Window 3's block index at point t: (t / 125, 0). -/
theorem idx0_3 : ∀ t : Fin cfg0.N, win0_3.index t (0 : Fin 2) = t.val / 125 ∧ win0_3.index t (1 : Fin 2) = 0 :=
  (by decide +kernel : ∀ t : Fin grid0.N, _)

/-- Entry (p, h) of the x block at point t is entry (2048·(t / 125) + p, h) of x. -/
theorem blk0_0 (c : Dev nD) (t : Fin cfg0.N) (p : Fin 2048) (h : Fin 4096) :
    (iblk0 V c 0 t : Vec F S2048x4096 .bf16) (ix2 p h)
      = (V c (Pipeline.arrRef spec0 0) : S4096x4096.Idx → Elt F .bf16)
          (ix2 (⟨2048 * (t.val / 125) + p.val, by have := t_lt0 t; have := p.isLt; omega⟩ : Fin 4096) h) := by
  obtain ⟨e0, e1⟩ := idx0_0 t
  unfold iblk0
  rw [View.read_apply]
  refine congrArg (V c (Pipeline.arrRef spec0 0) : S4096x4096.Idx → Elt F .bf16) ?_
  funext a
  apply Fin.ext
  match a with
  | ⟨0, _⟩ => show win0_0.index t (0 : Fin 2) * 2048 + 1 * p.val = 2048 * (t.val / 125) + p.val; rw [e0]; omega
  | ⟨1, _⟩ => show win0_0.index t (1 : Fin 2) * 4096 + 1 * h.val = h.val; rw [e1]; omega

/-- Entry (j, h) of the w block at point t is entry (256·(t mod 125) + j, h) of w. -/
theorem blk0_1 (c : Dev nD) (t : Fin cfg0.N) (j : Fin 256) (h : Fin 4096) :
    (iblk0 V c 1 t : Vec F S256x4096 .f32) (ix2 j h)
      = (V c (Pipeline.arrRef spec0 1) : S32000x4096.Idx → Elt F .f32)
          (ix2 (⟨256 * (t.val % 125) + j.val, by have := j.isLt; omega⟩ : Fin 32000) h) := by
  obtain ⟨e0, e1⟩ := idx0_1 t
  unfold iblk0
  rw [View.read_apply]
  refine congrArg (V c (Pipeline.arrRef spec0 1) : S32000x4096.Idx → Elt F .f32) ?_
  funext a
  apply Fin.ext
  match a with
  | ⟨0, _⟩ => show win0_1.index t (0 : Fin 2) * 256 + 1 * j.val = 256 * (t.val % 125) + j.val; rw [e0]; omega
  | ⟨1, _⟩ => show win0_1.index t (1 : Fin 2) * 4096 + 1 * h.val = h.val; rw [e1]; omega

/-- Entry p of the label block at point t is entry 2048·(t / 125) + p of the label column. -/
theorem blk0_2 (c : Dev nD) (t : Fin cfg0.N) (p : Fin 2048) :
    (iblk0 V c 2 t : Vec F S2048x1 .i32) (ix2 p (0 : Fin 1))
      = (V c (Pipeline.arrRef spec0 2) : S4096x1.Idx → Elt F .i32)
          (ix2 (⟨2048 * (t.val / 125) + p.val, by have := t_lt0 t; have := p.isLt; omega⟩ : Fin 4096) (0 : Fin 1)) := by
  obtain ⟨e0, e1⟩ := idx0_2 t
  unfold iblk0
  rw [View.read_apply]
  refine congrArg (V c (Pipeline.arrRef spec0 2) : S4096x1.Idx → Elt F .i32) ?_
  funext a
  apply Fin.ext
  match a with
  | ⟨0, _⟩ => show win0_2.index t (0 : Fin 2) * 2048 + 1 * p.val = 2048 * (t.val / 125) + p.val; rw [e0]; omega
  | ⟨1, _⟩ => show win0_2.index t (1 : Fin 2) * 1 + 1 * 0 = 0; rw [e1]

end Cert.KernelIdeal.Hand

end
-- ==== Proof.KI.Prefix.lean ====
/-
  What the two pallas calls are handed by the host program around them. The activations x (and ref_x) are flattened
  from [8, 512, 4096] to [4096, 4096], row r being token (r / 512, r % 512); the labels are flattened likewise to a
  column [4096, 1], the ignore value −100 first replaced by −1 (so that it matches no vocabulary index); the vocabulary
  matrices are passed as they are. At the ideal values the narrowing of x to bf16 is the identity.
-/
import proofs.«409812_j58909771432349_3_alg».proof.Proof.Gen.KernelIdeal.Regions
import proofs.«409812_j58909771432349_3_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate
import Idealize.ShloMosaic.Lib.IdealHost

noncomputable section

namespace Cert.KernelIdeal.Hand

open Cert.KernelIdeal Cert.KernelIdeal.Gen
open Idealize.ShloMosaic Idealize.ShloMosaic.TcCoe Idealize.ShloMosaic.ValueIdx
open Cert.Spec
open scoped BigOperators

variable (m : (ℓ : Loc nD τ sig) → Buf (Elt Ideal) ℓ) (outs : Outs (F := Ideal)) (c : Dev nD)

/-- The launch contents of the five arguments on core `c`: the policy's and the reference model's activations, the labels, and the
    two vocabulary matrices. -/
abbrev aX : SX.Idx → EReal := m ((c.tc : Thread nD τ).loc main_arg0)
abbrev aRX : SX.Idx → EReal := m ((c.tc : Thread nD τ).loc main_arg1)
abbrev aY : SY.Idx → BitVec 32 := m ((c.tc : Thread nD τ).loc main_arg2)
abbrev aW : SW.Idx → EReal := m ((c.tc : Thread nD τ).loc main_arg3)
abbrev aRW : SW.Idx → EReal := m ((c.tc : Thread nD τ).loc main_arg4)

/-- The bit "the label is not −100". -/
theorem ne_bit (y : BitVec 32) : IntOp.cmpi .ne y ignoreW = if y = ignoreW then 0#1 else 1#1 := by
  by_cases h : y = ignoreW
  · rw [if_pos h, h]; rfl
  · rw [if_neg h]
    have hb : (y != ignoreW) = true := by simpa [bne_iff_ne] using h
    show BitVec.ofBool (y != ignoreW) = 1#1
    rw [hb]; rfl

/-- A label with −100 replaced by −1: the select on the bit above. -/
theorem where_word (y : BitVec 32) :
    Scalar.select (IntOp.cmpi .ne y ignoreW) y 4294967295#32 = if y = ignoreW then 4294967295#32 else y := by
  rw [ne_bit]
  by_cases h : y = ignoreW
  · rw [if_pos h, if_pos h]; exact select_zero _ _
  · rw [if_neg h, if_neg h]; exact select_one _ _

/-- Row r of the flattened token axis is token (r / 512, r % 512): positions in [8, 512, 4096] and [4096, 4096] agree. -/
theorem pos3 (r h : Fin 4096) (hb : r.val / 512 < 8) (ht : r.val % 512 < 512) :
    (SX.rowMajor (ix3 (⟨r.val / 512, hb⟩ : Fin 8) (⟨r.val % 512, ht⟩ : Fin 512) h)).val = (S4096x4096.rowMajor (ix2 r h)).val := by
  rw [Shape.rowMajor_val_three, Shape.rowMajor_val_two]
  show (r.val / 512 * 512 + r.val % 512) * 4096 + h.val = r.val * 4096 + h.val
  omega

/-- The same for the labels: positions in [8, 512] and [4096, 1] agree. -/
theorem pos2 (r : Fin 4096) (hb : r.val / 512 < 8) (ht : r.val % 512 < 512) :
    (SY.rowMajor (ix2 (⟨r.val / 512, hb⟩ : Fin 8) (⟨r.val % 512, ht⟩ : Fin 512))).val = (S4096x1.rowMajor (ix2 r (0 : Fin 1))).val := by
  rw [Shape.rowMajor_val_two, Shape.rowMajor_val_two]
  show r.val / 512 * 512 + r.val % 512 = r.val * 1 + 0
  omega

/-! ## What the first call is handed -/

/-- The first call's activations: row r of the [4096, 4096] array is token (r / 512, r % 512) of x. -/
theorem v4_apply (r : Fin 4096) (h : Fin 4096) :
    (V3 m c main_v4 : S4096x4096.Idx → EReal) (ix2 r h)
      = aX m c (ix3 (⟨r.val / 512, by omega⟩ : Fin 8) (⟨r.val % 512, by omega⟩ : Fin 512) h) := by
  dsimp only [V3, V2, V1, V0, hostOps0_2]
  after_results
  exact (shapeCast_apply (s := S8x512x4096) (t := S4096x4096) _ _ (ix2 r h) _ (pos3 r h (by omega) (by omega))).trans rfl

/-- The first call's label column: row r holds token (r / 512, r % 512)'s label, −100 replaced by −1. -/
theorem v5_apply (r : Fin 4096) :
    (V3 m c main_v5 : S4096x1.Idx → BitVec 32) (ix2 r (0 : Fin 1))
      = (if aY m c (ix2 (⟨r.val / 512, by omega⟩ : Fin 8) (⟨r.val % 512, by omega⟩ : Fin 512)) = ignoreW then 4294967295#32
         else aY m c (ix2 (⟨r.val / 512, by omega⟩ : Fin 8) (⟨r.val % 512, by omega⟩ : Fin 512))) := by
  dsimp only [V3, V2, V1, V0, hostOps0_2, hostOps0_1, hostOps0]
  after_results
  refine (shapeCast_apply (s := S8x512) (t := S4096x1) _ _ (ix2 r (0 : Fin 1)) _ (pos2 r (by omega) (by omega))).trans ?_
  exact where_word _

/-- The first call's vocabulary matrix is w as launched. -/
theorem v3_arg3 : V3 m c main_arg3 = aW m c := by
  rw [V3_of m c main_arg3 (by decide), V2_of m c main_arg3 (by decide), V1_of m c main_arg3 (by decide)]

/-! ## What the second call is handed -/

/-- An argument no item up to the first call writes is, after it, as launched. -/
theorem v4_arg (r : Ref sig .tc) (h3 : r ∉ ([main_v6] : List (Ref sig .tc)))
    (h4 : r ∉ hostOps0_2_W) (h5 : r ∉ hostOps0_1_W) (h6 : r ∉ hostOps0_W) :
    V4 m outs c r = m ((c.tc : Thread nD τ).loc r) := by
  rw [V4_of m outs c r h3, V3_of m c r h4, V2_of m c r h5, V1_of m c r h6]

/-- The second call's activations: row r of the [4096, 4096] array is token (r / 512, r % 512) of ref_x. -/
theorem v20_apply (r : Fin 4096) (h : Fin 4096) :
    (V7 m outs c main_v20 : S4096x4096.Idx → EReal) (ix2 r h)
      = aRX m c (ix3 (⟨r.val / 512, by omega⟩ : Fin 8) (⟨r.val % 512, by omega⟩ : Fin 512) h) := by
  dsimp only [V7, hostOps1_2]
  after_results
  rw [v4_arg m outs c main_arg1 (by decide) (by decide) (by decide) (by decide)]
  exact (shapeCast_apply (s := S8x512x4096) (t := S4096x4096) _ _ (ix2 r h) _ (pos3 r h (by omega) (by omega))).trans rfl

/-- The second call's label column: the same column as the first call's. -/
theorem v21_apply (r : Fin 4096) :
    (V7 m outs c main_v21 : S4096x1.Idx → BitVec 32) (ix2 r (0 : Fin 1))
      = (if aY m c (ix2 (⟨r.val / 512, by omega⟩ : Fin 8) (⟨r.val % 512, by omega⟩ : Fin 512)) = ignoreW then 4294967295#32
         else aY m c (ix2 (⟨r.val / 512, by omega⟩ : Fin 8) (⟨r.val % 512, by omega⟩ : Fin 512))) := by
  dsimp only [V7, V6, V5, hostOps1_2, hostOps1_1, hostOps1]
  after_results
  rw [v4_arg m outs c main_arg2 (by decide) (by decide) (by decide) (by decide)]
  refine (shapeCast_apply (s := S8x512) (t := S4096x1) _ _ (ix2 r (0 : Fin 1)) _ (pos2 r (by omega) (by omega))).trans ?_
  exact where_word _

/-- The second call's vocabulary matrix is ref_w as launched. -/
theorem v7_arg4 : V7 m outs c main_arg4 = aRW m c := by
  rw [V7_of m outs c main_arg4 (by decide), V6_of m outs c main_arg4 (by decide), V5_of m outs c main_arg4 (by decide)]
  exact v4_arg m outs c main_arg4 (by decide) (by decide) (by decide) (by decide)

end Cert.KernelIdeal.Hand
end
-- ==== Proof.KI.Cover0.lean ====
/-
  The output column after the whole grid. The output window's block is written back only at the last vocabulary tile of
  a row tile: point 124 writes rows 0 … 2047 and point 249 rows 2048 … 4095. So row r of the output array ends holding
  entry r mod 2048 of the column computed at point 125·(r / 2048) + 124; the input arrays end as they began.
-/
import proofs.«409812_j58909771432349_3_alg».proof.Proof.KI.Frame0
import proofs.«409812_j58909771432349_3_alg».proof.Proof.KI.Blocks0
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-- The last point of the row tile holding row r is a point of the grid. -/
theorem lastPt_lt0 (r : ℕ) (hr : r < 4096) : 125 * (r / 2048) + 124 < cfg0.N := by
  rw [show cfg0.N = 250 from N_0]; omega

/-- The output column of a point depends on the point's number only, and an entry on the entry's row only. -/
theorem outAt0_apply_congr (c : Dev nD) {n n' : ℕ} (hn : n < cfg0.N) (hn' : n' < cfg0.N) {m : ℕ} (hm : m < 2048)
    (p : Fin 2048) (e : n = n') (em : m = p.val) :
    (outAt0 V c n hn : Vec F S2048x1 .f32) (ix2 (⟨m, hm⟩ : Fin 2048) (0 : Fin 1))
      = (outAt0 V c n' hn' : Vec F S2048x1 .f32) (ix2 p (0 : Fin 1)) := by
  subst e; subst em; rfl

/-- The whole output column: row r holds entry r mod 2048 of the column of point 125·(r / 2048) + 124. -/
def outCol0 (c : Dev nD) : S4096x1.Idx → Elt F .f32 := fun i =>
  (outAt0 V c (125 * ((i 0).val / 2048) + 124) (lastPt_lt0 _ (i 0).isLt) : Vec F S2048x1 .f32)
    (ix2 (⟨(i 0).val % 2048, Nat.mod_lt _ (by norm_num)⟩ : Fin 2048) (0 : Fin 1))

/-- At a row 2048·(t / 125) + p of a point t that is a last vocabulary tile, the whole column is point t's entry p. -/
theorem outCol0_apply_of (c : Dev nD) (i : S4096x1.Idx) (t : Fin cfg0.N) (p : Fin 2048)
    (h0 : (i 0).val = 2048 * (t.val / 125) + p.val) (h124 : t.val % 125 = 124) :
    outCol0 V c i = (outAt0 V c t.val t.isLt : Vec F S2048x1 .f32) (ix2 p (0 : Fin 1)) := by
  have hp : p.val < 2048 := p.isLt
  unfold outCol0
  exact outAt0_apply_congr V c _ _ _ p (by rw [h0]; omega) (by rw [h0]; omega)

/-- What a last vocabulary tile's point writes back is its block of the whole column. -/
theorem flushed0_3 (c : Dev nD) (t : Fin cfg0.N) (hf : (cfg0.win 3).flush t = true) :
    (dat0 V c).flushed 3 t = ((cfg0.win 3).blk t).view.read (Elt F) (outCol0 V c) := by
  have h124 : t.val % 125 = 124 := (flush0_3 t).1 hf
  obtain ⟨e0, e1⟩ := idx0_3 t
  show (cfg0.win 3).cut (grid0.coords t) ((dat0 V c).after 3 t) = _
  rw [after0_3]
  funext j
  have hj0 : (j 0).val < 2048 := (j 0).isLt
  have hj1 : (j 1).val < 1 := (j 1).isLt
  have hx : (cfg0.win 3).xinj (grid0.coords t) j = ix2 (⟨(j 0).val, hj0⟩ : Fin 2048) (0 : Fin 1) := by
    funext a
    match a with
    | ⟨0, _⟩ => rfl
    | ⟨1, _⟩ => exact Fin.ext (show (j 1).val = 0 by omega)
  have hemb : ((((cfg0.win 3).blk t).view.emb j) 0).val = 2048 * (t.val / 125) + (j 0).val := by
    show win0_3.index t (0 : Fin 2) * 2048 + 1 * (j 0).val = _
    rw [e0]; omega
  show (outAt0 V c t.val t.isLt : Vec F S2048x1 .f32) ((cfg0.win 3).xinj (grid0.coords t) j)
    = outCol0 V c (((cfg0.win 3).blk t).view.emb j)
  rw [hx]
  exact (outCol0_apply_of V c _ t ⟨(j 0).val, hj0⟩ hemb h124).symm

/-- An index of the output column is in point t's block iff each coordinate is in the block's range on its axis. -/
theorem mem_blk0_3 (t : Fin cfg0.N) (i : S4096x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v6).slice (win0_3.rect t)).set ↔ _
  rw [View.set_slice_whole, Rect.mem_set_unit]
  exact Iff.rfl

/-- Every row of the output column lies in the block written back at the last point of its row tile. -/
theorem cover0_3 (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 250 := N_0
  let t : Fin cfg0.N := ⟨125 * ((i 0).val / 2048) + 124, by rw [hN]; omega⟩
  have htv : t.val = 125 * ((i 0).val / 2048) + 124 := rfl
  obtain ⟨e0, e1⟩ := idx0_3 t
  refine ⟨t, (flush0_3 t).2 (by rw [htv]; omega), ?_⟩
  rw [mem_blk0_3]
  intro a
  match a with
  | ⟨0, _⟩ => show win0_3.index t (0 : Fin 2) * 2048 ≤ (i 0).val ∧ (i 0).val < win0_3.index t (0 : Fin 2) * 2048 + 2048; rw [e0, htv]; omega
  | ⟨1, _⟩ => show win0_3.index t (1 : Fin 2) * 1 ≤ (i 1).val ∧ (i 1).val < win0_3.index t (1 : Fin 2) * 1 + 1; rw [e1]; omega

/-- After the whole grid the output array is the whole column. -/
theorem arrAt0_3 (c : Dev nD) : (dat0 V c).arrAt 3 cfg0.N = outCol0 V c :=
  (dat0 V c).arrAt_eq_of_cover 3 (outCol0 V c) (fun t hf => flushed0_3 V c t hf) cover0_3

/-- Row by row: row r of the output array is entry r mod 2048 of the column of point 125·(r / 2048) + 124. -/
theorem arr_final0 (c : Dev nD) (r : Fin 4096) :
    ((dat0 V c).arrAt 3 cfg0.N : S4096x1.Idx → Elt F .f32) (ix2 r (0 : Fin 1))
      = (outAt0 V c (125 * (r.val / 2048) + 124) (lastPt_lt0 r.val r.isLt) : Vec F S2048x1 .f32)
          (ix2 (⟨r.val % 2048, Nat.mod_lt _ (by norm_num)⟩ : Fin 2048) (0 : Fin 1)) := by
  rw [arrAt0_3]
  rfl

/-- The input arrays end as they began. -/
theorem arr_in0_0 (c : Dev nD) : (dat0 V c).arrAt 0 cfg0.N = (dat0 V c).A 0 := (dat0 V c).arrAt_in 0 rfl _
theorem arr_in0_1 (c : Dev nD) : (dat0 V c).arrAt 1 cfg0.N = (dat0 V c).A 1 := (dat0 V c).arrAt_in 1 rfl _
theorem arr_in0_2 (c : Dev nD) : (dat0 V c).arrAt 2 cfg0.N = (dat0 V c).A 2 := (dat0 V c).arrAt_in 2 rfl _

end Cert.KernelIdeal.Hand

end
-- ==== Proof.KI.Tok0.lean ====
/-
  The first pallas call's output column, token by token. Row 512·b + t of the flattened activations and labels is token
  (b, t); after the whole grid the output column holds there the token's log-probability at its label: the label's
  logit less the row's log-sum-exp, the ignore value picking no logit.
-/
import proofs.«409812_j58909771432349_3_alg».proof.Proof.KI.Ind0
import proofs.«409812_j58909771432349_3_alg».proof.Proof.KI.Acc0
import proofs.«409812_j58909771432349_3_alg».proof.Proof.KI.Pay0
import proofs.«409812_j58909771432349_3_alg».proof.Proof.KI.Blocks0
import proofs.«409812_j58909771432349_3_alg».proof.Proof.KI.Prefix
import proofs.«409812_j58909771432349_3_alg».proof.Proof.KI.Cover0
import proofs.«409812_j58909771432349_3_alg».proof.Proof.Spec
import proofs.«409812_j58909771432349_3_alg».proof.Proof.LseMath
import Idealize.ShloMosaic.PureOps.Ideal.Laws
import Idealize.ShloMosaic.Lib.ValueIdx

noncomputable section

open scoped BigOperators

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window BodyObligation cellOf)
open Idealize.ShloMosaic.ValueIdx

open Cert.Spec

/-- The label column's word picks the same logit as the label: −100 and its replacement −1 are both no vocabulary
    index. -/
theorem gold_where (z : Fin 32000 → EReal) (y : BitVec 32) :
    gold z (if y = ignoreW then 4294967295#32 else y) = gold z y := by
  by_cases h : y = ignoreW
  · rw [if_pos h, h]
    unfold gold
    rw [dif_neg (by decide), dif_neg (by decide)]
  · rw [if_neg h]

section Token

variable (V : (c : Dev nD) → (b : Ref sig .tc) → Buf (Elt Ideal) ((c : Thread nD τ).loc b)) (c : Dev nD)
  (X4 : S4096x4096.Idx → EReal) (W : S32000x4096.Idx → EReal) (Y5 : S4096x1.Idx → BitVec 32)

/-- Row 512·b + t of the flattened arrays is token (b, t): what the last vocabulary tile stores there is the token's
    log-probability at its label. -/
theorem tok_core
    (hx : ∀ (t : Fin cfg0.N) (p : Fin 2048) (h : Fin 4096), (iblk0 V c 0 t : Vec Ideal S2048x4096 .bf16) (ix2 p h)
      = X4 (ix2 (⟨2048 * (t.val / 125) + p.val, by have := pt_lt0 t; have := p.isLt; omega⟩ : Fin 4096) h))
    (hw : ∀ (t : Fin cfg0.N) (j : Fin 256) (h : Fin 4096), (iblk0 V c 1 t : Vec Ideal S256x4096 .f32) (ix2 j h)
      = W (ix2 (⟨256 * (t.val % 125) + j.val, by have := j.isLt; omega⟩ : Fin 32000) h))
    (hy : ∀ (t : Fin cfg0.N) (p : Fin 2048), (iblk0 V c 2 t : Vec Ideal S2048x1 .i32) (ix2 p (0 : Fin 1))
      = Y5 (ix2 (⟨2048 * (t.val / 125) + p.val, by have := pt_lt0 t; have := p.isLt; omega⟩ : Fin 4096) (0 : Fin 1)))
    (aX : SX.Idx → EReal) (aW : SW.Idx → EReal) (aY : SY.Idx → BitVec 32) (hfX : FinV aX) (hfW : FinV aW)
    (hX4 : ∀ (r h : Fin 4096), X4 (ix2 r h)
      = aX (ix3 (⟨r.val / 512, by omega⟩ : Fin 8) (⟨r.val % 512, by omega⟩ : Fin 512) h))
    (hWeq : W = aW)
    (hY5 : ∀ r : Fin 4096, Y5 (ix2 r (0 : Fin 1))
      = (if aY (ix2 (⟨r.val / 512, by omega⟩ : Fin 8) (⟨r.val % 512, by omega⟩ : Fin 512)) = ignoreW then 4294967295#32
         else aY (ix2 (⟨r.val / 512, by omega⟩ : Fin 8) (⟨r.val % 512, by omega⟩ : Fin 512))))
    (b : Fin 8) (t : Fin 512)
    (hlt : 125 * ((512 * b.val + t.val) / 2048) + 124 < cfg0.N) (hmod : (512 * b.val + t.val) % 2048 < 2048) :
    (outAt0 V c (125 * ((512 * b.val + t.val) / 2048) + 124) hlt : Vec Ideal S2048x1 .f32)
        (ix2 (⟨(512 * b.val + t.val) % 2048, hmod⟩ : Fin 2048) (0 : Fin 1))
      = tokLp aX aW (aY (ix2 b t)) b t := by
  have hb := b.isLt
  have ht := t.isLt
  have hfX4 : ∀ i, ∃ a : ℝ, X4 i = (a : EReal) := fun i => by
    obtain ⟨p, q, rfl⟩ : ∃ p q, i = ix2 p q := ⟨i 0, i 1, eq_ix2 i⟩
    rw [hX4]
    exact hfX _
  have hfW' : ∀ i, ∃ a : ℝ, W i = (a : EReal) := fun i => by rw [hWeq]; exact hfW i
  have hfin := out_final0 V c X4 W Y5 hx hw hy hfX4 hfW' (⟨(512 * b.val + t.val) / 2048, by omega⟩ : Fin 2)
    (⟨(512 * b.val + t.val) % 2048, hmod⟩ : Fin 2048)
  have hrow : row0 (⟨(512 * b.val + t.val) / 2048, by omega⟩ : Fin 2) (⟨(512 * b.val + t.val) % 2048, hmod⟩ : Fin 2048)
      = (⟨512 * b.val + t.val, by omega⟩ : Fin 4096) :=
    Fin.ext (by show 2048 * ((512 * b.val + t.val) / 2048) + (512 * b.val + t.val) % 2048 = 512 * b.val + t.val; omega)
  have eb : (⟨(512 * b.val + t.val) / 512, by omega⟩ : Fin 8) = b := Fin.ext (by show (512 * b.val + t.val) / 512 = b.val; omega)
  have et : (⟨(512 * b.val + t.val) % 512, by omega⟩ : Fin 512) = t := Fin.ext (by show (512 * b.val + t.val) % 512 = t.val; omega)
  have hz : rowLogit X4 W (⟨512 * b.val + t.val, by omega⟩ : Fin 4096) = logit aX aW b t := by
    funext v
    unfold rowLogit logit
    refine Finset.sum_congr rfl fun h _ => ?_
    rw [hX4, hWeq]
    exact congrArg (fun u => u * aW (ix2 v h)) (congrArg₂ (fun b' t' => aX (ix3 b' t' h)) eb et)
  have hyw : Y5 (ix2 (⟨512 * b.val + t.val, by omega⟩ : Fin 4096) (0 : Fin 1))
      = (if aY (ix2 b t) = ignoreW then 4294967295#32 else aY (ix2 b t)) := by
    rw [hY5]
    exact congrArg₂ (fun b' t' => if aY (ix2 b' t') = ignoreW then 4294967295#32 else aY (ix2 b' t')) eb et
  rw [hrow, hz, hyw, gold_where] at hfin
  exact hfin

end Token

/-- After the first pallas call, row 512·b + t of its output column is token (b, t)'s log-probability at its label. -/
theorem tok_final0 (m : (ℓ : Loc nD τ sig) → Buf (Elt Ideal) ℓ) (outs : Outs (F := Ideal)) (c : Dev nD)
    (hX : Cert.Spec.FinV (aX m c)) (hW : Cert.Spec.FinV (aW m c)) (b : Fin 8) (t : Fin 512) :
    ((dat0 (fun c b => V3 m c b) c).arrAt 3 cfg0.N : S4096x1.Idx → EReal)
        (ix2 (⟨512 * b.val + t.val, by have := b.isLt; have := t.isLt; omega⟩ : Fin 4096) (0 : Fin 1))
      = Cert.Spec.tokLp (aX m c) (aW m c) (aY m c (ix2 b t)) b t := by
  have hb := b.isLt
  have ht := t.isLt
  refine (arr_final0 (fun c b => V3 m c b) c (⟨512 * b.val + t.val, by omega⟩ : Fin 4096)).trans ?_
  exact tok_core (fun c b => V3 m c b) c (V3 m c main_v4) (V3 m c main_arg3) (V3 m c main_v5)
    (blk0_0 (fun c b => V3 m c b) c) (blk0_1 (fun c b => V3 m c b) c) (blk0_2 (fun c b => V3 m c b) c)
    (aX m c) (aW m c) (aY m c) hX hW (v4_apply m c) (v3_arg3 m c) (v5_apply m c) b t _ _

end Cert.KernelIdeal.Hand

end
-- ==== Proof.KI.Pay1.lean ====
/-
  The payloads of Pallas call 1 read at an index. The block product at (p, j) is the row p of the x block against the
  row j of the w block; the three columns start at −∞, 0, 0; one point's update takes the larger of the old maximum and
  the block row's largest logit, rescales the old sum by exp (old maximum − new maximum) and adds the block row's
  exponentials shifted by the new maximum, and adds to the picked logit the block row's entry whose vocabulary number is
  the label; the stored column is picked − (maximum + log sum).
-/
import proofs.«409812_j58909771432349_3_alg».proof.Proof.KI.Acc1
import proofs.«409812_j58909771432349_3_alg».proof.Proof.Gen.KernelIdeal.Skeleton
import proofs.«409812_j58909771432349_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.HandB

open Cert.KernelIdeal Cert.KernelIdeal.Gen
open Idealize.ShloMosaic Idealize.ShloMosaic.TcCoe
open Idealize.SL Idealize.SL.Sem
open Idealize.ShloMosaic.ValueIdx

/-- Row p of the x block against row j of the w block. -/
def blkLogit (x : Vec Ideal S2048x4096 .bf16) (w : Vec Ideal S256x4096 .f32) (p : Fin 2048) (j : Fin 256) : EReal :=
  ∑ h : Fin 4096, x (ix2 p h) * w (ix2 j h)

theorem dot0_lhs_0 (i : S2048x256.Idx) (q : dot_S2048x4096_S256x4096_S2048x256_1_1_0_0_n_n.contr.Idx) :
    (dot_S2048x4096_S256x4096_S2048x256_1_1_0_0_n_n.lhsIdx i q 0).val = (i 0).val := by
  unfold DotDims.lhsIdx
  rw [dif_neg (show ¬(0 : Fin S2048x4096.rank) ∈ dot_S2048x4096_S256x4096_S2048x256_1_1_0_0_n_n.lhsBatch by decide), dif_pos (show (0 : Fin S2048x4096.rank) ∈ dot_S2048x4096_S256x4096_S2048x256_1_1_0_0_n_n.lhsNonContracting by decide)]
  rfl
theorem dot0_lhs_1 (i : S2048x256.Idx) (q : dot_S2048x4096_S256x4096_S2048x256_1_1_0_0_n_n.contr.Idx) :
    (dot_S2048x4096_S256x4096_S2048x256_1_1_0_0_n_n.lhsIdx i q 1).val = (q ⟨0, by decide⟩).val :=
  dot_S2048x4096_S256x4096_S2048x256_1_1_0_0_n_n.lhsIdx_val_of_single rfl i q
theorem dot0_rhs_0 (i : S2048x256.Idx) (q : dot_S2048x4096_S256x4096_S2048x256_1_1_0_0_n_n.contr.Idx) :
    (dot_S2048x4096_S256x4096_S2048x256_1_1_0_0_n_n.rhsIdx i q 0).val = (i 1).val := by
  unfold DotDims.rhsIdx
  rw [dif_neg (show ¬(0 : Fin S256x4096.rank) ∈ dot_S2048x4096_S256x4096_S2048x256_1_1_0_0_n_n.rhsBatch by decide), dif_pos (show (0 : Fin S256x4096.rank) ∈ dot_S2048x4096_S256x4096_S2048x256_1_1_0_0_n_n.rhsNonContracting by decide)]
  rfl
theorem dot0_rhs_1 (i : S2048x256.Idx) (q : dot_S2048x4096_S256x4096_S2048x256_1_1_0_0_n_n.contr.Idx) :
    (dot_S2048x4096_S256x4096_S2048x256_1_1_0_0_n_n.rhsIdx i q 1).val = (q ⟨0, by decide⟩).val :=
  dot_S2048x4096_S256x4096_S2048x256_1_1_0_0_n_n.rhsIdx_val_of_single rfl i q

/-- The block product at (p, j): the contraction over the shared axis of length 4096. -/
theorem pay6_apply (x : Vec Ideal S2048x4096 .bf16) (w : Vec Ideal S256x4096 .f32) (p : Fin 2048) (j : Fin 256) :
    k1_pay6 (F := Ideal) x w (ix2 p j) = blkLogit x w p j := by
  unfold k1_pay6 blkLogit
  refine (Ideal.matmul_constant_zero_apply dot_S2048x4096_S256x4096_S2048x256_1_1_0_0_n_n none _ _ (ix2 p j)).trans ?_
  rw [← Equiv.sum_comp (contrEquiv1 dot_S2048x4096_S256x4096_S2048x256_1_1_0_0_n_n 4096 rfl rfl).symm]
  refine Finset.sum_congr rfl fun k _ => ?_
  have hk := contrEquiv1_symm_val dot_S2048x4096_S256x4096_S2048x256_1_1_0_0_n_n 4096 rfl rfl k
  have el : dot_S2048x4096_S256x4096_S2048x256_1_1_0_0_n_n.lhsIdx (ix2 p j) ((contrEquiv1 dot_S2048x4096_S256x4096_S2048x256_1_1_0_0_n_n 4096 rfl rfl).symm k) = ix2 p k := funext fun a => Fin.ext (by
    match a with
    | ⟨0, _⟩ => exact dot0_lhs_0 _ _
    | ⟨1, _⟩ => exact (dot0_lhs_1 _ _).trans hk)
  have er : dot_S2048x4096_S256x4096_S2048x256_1_1_0_0_n_n.rhsIdx (ix2 p j) ((contrEquiv1 dot_S2048x4096_S256x4096_S2048x256_1_1_0_0_n_n 4096 rfl rfl).symm k) = ix2 j k := funext fun a => Fin.ext (by
    match a with
    | ⟨0, _⟩ => exact dot0_rhs_0 _ _
    | ⟨1, _⟩ => exact (dot0_rhs_1 _ _).trans hk)
  rw [el, er, shapeCast_self]
  rfl

theorem ofBits_ninf_f32 : Ideal.ofBits .f32 0xFF800000#32 = ⊥ := by simp [Ideal.ofBits, Ideal.ieee]

/-- The columns a row tile starts from: −∞, 0, 0. -/
theorem reset_apply (p : Fin 2048) :
    (colsReset1 (F := Ideal)).1 (ix2 p 0) = ⊥ ∧ (colsReset1 (F := Ideal)).2.1 (ix2 p 0) = 0
      ∧ (colsReset1 (F := Ideal)).2.2 (ix2 p 0) = 0 :=
  ⟨ofBits_ninf_f32, Ideal.ofBits_zero_f32, Ideal.ofBits_zero_f32⟩

/-- A vector of 2048 entries viewed as a column reads entry p at (p, 0). -/
theorem cast_col {α : Type} (v : S2048.Idx → α) (h : S2048.ShapeCasts S2048x1) (p : Fin 2048) :
    shapeCast S2048x1 v h (ix2 p 0) = v (ix1 p) :=
  shapeCast_apply v h (ix2 p 0) (ix1 p) (by rw [Shape.rowMajor_val_one, Shape.rowMajor_val_two]; simp)

/-- A column broadcast along the rows reads (p, 0) at (p, j). -/
theorem bcast_col {α : Type} (v : S2048x1.Idx → α) (h : S2048x1.Broadcasts S2048x256) (p : Fin 2048) (j : Fin 256) :
    broadcastTo S2048x256 v h (ix2 p j) = v (ix2 p 0) :=
  broadcastTo_apply v h (ix2 p j) (ix2 p 0) (fun a => by
    match a with
    | ⟨0, _⟩ => rfl
    | ⟨1, _⟩ => rfl)

/-- The index over row p whose coordinate on the reduced axis is j. -/
theorem lift_col (p : Fin 2048) (j : Fin 256) : reduces_S2048x256_S2048.lift (ix1 p) j = ix2 p j :=
  funext fun a => Fin.ext (by
    match a with
    | ⟨0, _⟩ => rfl
    | ⟨1, _⟩ => rfl)

/-- The new maximum: the larger of the old one and the block row's largest logit. -/
theorem pay7_apply (x : Vec Ideal S2048x4096 .bf16) (w : Vec Ideal S256x4096 .f32) (m : Vec Ideal S2048x1 .f32) (p : Fin 2048) :
    k1_pay7 (F := Ideal) x w m (ix2 p 0)
      = max (m (ix2 p 0)) ((Finset.univ : Finset (Fin 256)).fold max ⊥ (fun j => blkLogit x w p j)) := by
  unfold k1_pay7
  refine congrArg (max (m (ix2 p 0))) ?_
  refine (cast_col _ _ p).trans ?_
  refine (Ideal.multiReduction_maximumf_single _ _ _ _ _ _).trans ?_
  refine congrArg₂ (fun a f => (Finset.univ : Finset (Fin 256)).fold max a f) ofBits_ninf_f32 ?_
  funext j
  exact (congrArg (k1_pay6 (F := Ideal) x w) (lift_col p j)).trans (pay6_apply x w p j)

theorem step_max (i : grid1.Coords) (x : Vec Ideal S2048x4096 .bf16) (w : Vec Ideal S256x4096 .f32) (y : Vec Ideal S2048x1 .i32)
    (s : Cols1 Ideal) (p : Fin 2048) :
    (colsStep1 (F := Ideal) i x w y s).1 (ix2 p 0)
      = max (s.1 (ix2 p 0)) ((Finset.univ : Finset (Fin 256)).fold max ⊥ (fun j => blkLogit x w p j)) := by
  show k1_pay9 (F := Ideal) x w s.1 (ix2 p 0) = _
  unfold k1_pay9
  rw [shapeCast_self]
  exact pay7_apply x w s.1 p

/-- The new sum: the old one rescaled to the new maximum, plus the block row's exponentials shifted by it. -/
theorem pay8_apply (x : Vec Ideal S2048x4096 .bf16) (w : Vec Ideal S256x4096 .f32) (m m2 l : Vec Ideal S2048x1 .f32) (p : Fin 2048) :
    k1_pay8 (F := Ideal) x w m m2 l (ix2 p 0)
      = l (ix2 p 0) * Ideal.exp (m2 (ix2 p 0) - k1_pay7 (F := Ideal) x w m (ix2 p 0))
        + ∑ j : Fin 256, Ideal.exp (blkLogit x w p j - k1_pay7 (F := Ideal) x w m (ix2 p 0)) := by
  unfold k1_pay8
  rw [shapeCast_self]
  refine congrArg₂ (· + ·) rfl ?_
  refine (cast_col _ _ p).trans ?_
  refine (Ideal.multiReduction_add_single _ _ _ _ _ _).trans ?_
  refine Finset.sum_congr rfl fun j _ => ?_
  have e : reduces_S2048x256_S2048.lift (ix1 p) j = ix2 p j := lift_col p j
  rw [e]
  exact congrArg Ideal.exp (congrArg₂ (· - ·) (pay6_apply x w p j) (bcast_col _ _ p j))

theorem step_sum (i : grid1.Coords) (x : Vec Ideal S2048x4096 .bf16) (w : Vec Ideal S256x4096 .f32) (y : Vec Ideal S2048x1 .i32)
    (s : Cols1 Ideal) (p : Fin 2048) :
    (colsStep1 (F := Ideal) i x w y s).2.1 (ix2 p 0)
      = s.2.1 (ix2 p 0) * Ideal.exp (s.1 (ix2 p 0)
            - max (s.1 (ix2 p 0)) ((Finset.univ : Finset (Fin 256)).fold max ⊥ (fun j => blkLogit x w p j)))
        + ∑ j : Fin 256, Ideal.exp (blkLogit x w p j
            - max (s.1 (ix2 p 0)) ((Finset.univ : Finset (Fin 256)).fold max ⊥ (fun j => blkLogit x w p j))) := by
  show k1_pay8 (F := Ideal) x w s.1 s.1 s.2.1 (ix2 p 0) = _
  rw [pay8_apply, pay7_apply]

/-- The vocabulary number of column j of tile (i 1): 256 · tile + j, as a word. -/
theorem pay10_apply (i : grid1.Coords) (p : Fin 2048) (j : Fin 256) :
    k1_pay10 i (ix2 p j) = BitVec.ofNat 32 (256 * (i 1).val + j.val) := by
  unfold k1_pay10
  show BitVec.ofNat 32 (i 1).val * 256#32 + iota .tc S2048x256 32 [1] iota_S2048x256_d1_w32 (ix2 p j) = _
  rw [iota_single_apply]
  show BitVec.ofNat 32 (i 1).val * BitVec.ofNat 32 256 + BitVec.ofNat 32 j.val = _
  rw [← BitVec.ofNat_mul, ← BitVec.ofNat_add, Nat.mul_comm]

/-- A select on the equality bit of two words is the `if` on their equality. -/
theorem select_cmpi_eq {α : Type} (a b : BitVec 32) (A B : α) :
    Scalar.select (IntOp.cmpi .eq a b) A B = if a = b then A else B := by
  unfold Scalar.select IntOp.cmpi
  by_cases h : a = b
  · subst h; simp
  · have hb : (a == b) = false := by simpa using h
    simp [hb, h]

/-- The picked logit: the old one plus the block row's entry whose vocabulary number is the label. -/
theorem pay1_apply (v7 : FVec Ideal S2048x256 .f32) (v32 : IVec S2048x256 32) (y : Vec Ideal S2048x1 .i32)
    (g : Vec Ideal S2048x1 .f32) (p : Fin 2048) :
    k1_pay1 (F := Ideal) v7 v32 y g (ix2 p 0)
      = g (ix2 p 0) + ∑ j : Fin 256, (if v32 (ix2 p j) = y (ix2 p 0) then v7 (ix2 p j) else 0) := by
  unfold k1_pay1
  simp only [shapeCast_self]
  refine congrArg₂ (· + ·) rfl ?_
  refine (cast_col _ _ p).trans ?_
  refine (Ideal.multiReduction_add_single _ _ _ _ _ _).trans ?_
  refine Finset.sum_congr rfl fun j _ => ?_
  change Fin 256 at j
  rw [lift_col]
  refine (select_cmpi_eq (v32 (ix2 p j)) (broadcastTo S2048x256 y broadcasts_S2048x1_S2048x256 (ix2 p j)) (v7 (ix2 p j))
    (Ideal.ofBits .f32 0x00000000#32)).trans ?_
  rw [bcast_col, Ideal.ofBits_zero_f32]

theorem step_gold (i : grid1.Coords) (x : Vec Ideal S2048x4096 .bf16) (w : Vec Ideal S256x4096 .f32) (y : Vec Ideal S2048x1 .i32)
    (s : Cols1 Ideal) (p : Fin 2048) :
    (colsStep1 (F := Ideal) i x w y s).2.2 (ix2 p 0)
      = s.2.2 (ix2 p 0)
        + ∑ j : Fin 256, (if BitVec.ofNat 32 (256 * (i 1).val + j.val) = y (ix2 p 0) then blkLogit x w p j else 0) := by
  show k1_pay1 (F := Ideal) (k1_pay6 x w) (k1_pay10 i) y s.2.2 (ix2 p 0) = _
  rw [pay1_apply]
  refine congrArg₂ (· + ·) rfl (Finset.sum_congr rfl fun j _ => ?_)
  rw [pay10_apply, pay6_apply]

/-- The stored column: picked − (maximum + log sum). -/
theorem pay2_apply (g m l : Vec Ideal S2048x1 .f32) (p : Fin 2048) :
    k1_pay2 (F := Ideal) g m l (ix2 p 0) = g (ix2 p 0) - (m (ix2 p 0) + Ideal.log (l (ix2 p 0))) := rfl

end Cert.KernelIdeal.HandB

end
-- ==== Proof.KI.Ind1.lean ====
/-
  The recursion over the 250 grid points of Pallas call 1, solved. Point 125·R + v updates the three running columns of
  row tile R from vocabulary tile v; after tile v the columns of row 2048·R + p hold the online maximum, the online
  shifted sum of exponentials and the online picked logit of that row's logits over the first v + 1 tiles. After the
  last tile the stored column is the label's logit less the row's log-sum-exp.
-/
import proofs.«409812_j58909771432349_3_alg».proof.Proof.KI.Acc1
import proofs.«409812_j58909771432349_3_alg».proof.Proof.KI.Pay1
import proofs.«409812_j58909771432349_3_alg».proof.Proof.Spec
import proofs.«409812_j58909771432349_3_alg».proof.Proof.LseMath
import Idealize.ShloMosaic.PureOps.Ideal.Laws
import Idealize.ShloMosaic.Lib.ValueIdx

noncomputable section

open scoped BigOperators

namespace Cert.KernelIdeal.HandB

open Cert.KernelIdeal Cert.KernelIdeal.Gen
open Idealize.ShloMosaic Idealize.ShloMosaic.TcCoe
open Idealize.SL Idealize.SL.Sem
open Idealize.ShloMosaic.ValueIdx

open Cert.LseMath

/-- A grid point is below 250. -/
theorem pt_lt0 (t : Fin cfg1.N) : t.val < 250 := lt_of_lt_of_eq t.isLt N_1

/-- Point 125·R + v of the grid. -/
theorem pt_lt (R : Fin 2) (v : ℕ) (hv : v < 125) : 125 * R.val + v < cfg1.N :=
  lt_of_lt_of_eq (by have := R.isLt; omega) N_1.symm

/-- The vocabulary coordinate of point t is t mod 125. -/
theorem coord1_0 : ∀ t : Fin cfg1.N, ((grid1.coords t) 1).val = t.val % 125 :=
  (by decide +kernel : ∀ t : Fin grid1.N, ((grid1.coords t) 1).val = t.val % 125)

/-- Row 2048·R + p of the flattened x and label column. -/
def row0 (R : Fin 2) (p : Fin 2048) : Fin 4096 := ⟨2048 * R.val + p.val, by have := R.isLt; have := p.isLt; omega⟩

/-- Row r of x against row v of w. -/
def rowLogit (X4 : S4096x4096.Idx → EReal) (W : S32000x4096.Idx → EReal) (r : Fin 4096) (v : Fin 32000) : EReal :=
  ∑ h : Fin 4096, X4 (ix2 r h) * W (ix2 v h)

/-- Finite inputs give finite logits. -/
theorem rowLogit_real {X4 : S4096x4096.Idx → EReal} {W : S32000x4096.Idx → EReal}
    (hfX : ∀ i, ∃ r : ℝ, X4 i = (r : EReal)) (hfW : ∀ i, ∃ r : ℝ, W i = (r : EReal)) (r : Fin 4096) (v : Fin 32000) :
    ∃ a : ℝ, rowLogit X4 W r v = (a : EReal) := by
  choose xr hxr using hfX
  choose wr hwr using hfW
  refine ⟨∑ h : Fin 4096, xr (ix2 r h) * wr (ix2 v h), ?_⟩
  unfold rowLogit
  rw [← coe_sum]
  exact Finset.sum_congr rfl fun h _ => by rw [hxr, hwr, EReal.coe_mul]

theorem onM_succ (z : Fin 32000 → EReal) (n : ℕ) :
    onM z (n + 1) = max (onM z n) ((Finset.univ : Finset (Fin 256)).fold max ⊥ (fun j => zN z (256 * n + j.val))) := rfl
theorem onL_succ (z : Fin 32000 → EReal) (n : ℕ) :
    onL z (n + 1) = onL z n * Ideal.exp (onM z n - onM z (n + 1)) + ∑ j : Fin 256, Ideal.exp (zN z (256 * n + j.val) - onM z (n + 1)) := rfl
theorem onG_succ (z : Fin 32000 → EReal) (y : BitVec 32) (n : ℕ) :
    onG z y (n + 1) = onG z y n + ∑ j : Fin 256, (if BitVec.ofNat 32 (256 * n + j.val) = y then zN z (256 * n + j.val) else 0) := rfl

/-- One point's update carries the online quantities from v tiles to v + 1. -/
theorem step_inv (z : Fin 32000 → EReal) (yw : BitVec 32) (v : ℕ) (i : grid1.Coords)
    (x : Vec Ideal S2048x4096 .bf16) (w : Vec Ideal S256x4096 .f32) (y : Vec Ideal S2048x1 .i32) (s : Cols1 Ideal) (p : Fin 2048)
    (hb : ∀ j : Fin 256, blkLogit x w p j = zN z (256 * v + j.val)) (hi : (i 1).val = v) (hyw : y (ix2 p 0) = yw)
    (h1 : s.1 (ix2 p 0) = onM z v) (h2 : s.2.1 (ix2 p 0) = onL z v) (h3 : s.2.2 (ix2 p 0) = onG z yw v) :
    (colsStep1 (F := Ideal) i x w y s).1 (ix2 p 0) = onM z (v + 1)
      ∧ (colsStep1 (F := Ideal) i x w y s).2.1 (ix2 p 0) = onL z (v + 1)
      ∧ (colsStep1 (F := Ideal) i x w y s).2.2 (ix2 p 0) = onG z yw (v + 1) := by
  have hf : (fun j : Fin 256 => blkLogit x w p j) = fun j : Fin 256 => zN z (256 * v + j.val) := funext hb
  refine ⟨?_, ?_, ?_⟩
  · rw [step_max, h1, hf, onM_succ]
  · rw [step_sum, h1, h2, hf, onL_succ, onM_succ]
    simp only [hb]
  · rw [step_gold, h3, hi, hyw, onG_succ]
    simp only [hb]

theorem colsAt1_congr {F : FTy → Type} [FloatOps F]
    (V : (c : Dev nD) → (b : Ref sig .tc) → Buf (Elt F) ((c : Thread nD τ).loc b)) (c : Dev nD)
    {n m : ℕ} (h : n = m) (hn : n < cfg1.N) (hm : m < cfg1.N) : colsAt1 V c n hn = colsAt1 V c m hm := by
  subst h; rfl

section Solved

variable (V : (c : Dev nD) → (b : Ref sig .tc) → Buf (Elt Ideal) ((c : Thread nD τ).loc b)) (c : Dev nD)
  (X4 : S4096x4096.Idx → EReal) (W : S32000x4096.Idx → EReal) (Y5 : S4096x1.Idx → BitVec 32)

/-- The block product at point 125·R + v is the logits of row 2048·R + p over vocabulary tile v. -/
theorem blk_logit
    (hx : ∀ (t : Fin cfg1.N) (p : Fin 2048) (h : Fin 4096), (iblk1 V c 0 t : Vec Ideal S2048x4096 .bf16) (ix2 p h)
      = X4 (ix2 (⟨2048 * (t.val / 125) + p.val, by have := pt_lt0 t; have := p.isLt; omega⟩ : Fin 4096) h))
    (hw : ∀ (t : Fin cfg1.N) (j : Fin 256) (h : Fin 4096), (iblk1 V c 1 t : Vec Ideal S256x4096 .f32) (ix2 j h)
      = W (ix2 (⟨256 * (t.val % 125) + j.val, by have := j.isLt; omega⟩ : Fin 32000) h))
    (R : Fin 2) (v : ℕ) (hv : v < 125) (p : Fin 2048) (j : Fin 256) :
    blkLogit (iblk1 V c 0 ⟨125 * R.val + v, pt_lt R v hv⟩) (iblk1 V c 1 ⟨125 * R.val + v, pt_lt R v hv⟩) p j
      = zN (rowLogit X4 W (row0 R p)) (256 * v + j.val) := by
  have hlt : 256 * v + j.val < 32000 := by have := j.isLt; omega
  have hR := R.isLt
  unfold zN
  rw [dif_pos hlt]
  unfold rowLogit blkLogit
  refine Finset.sum_congr rfl fun h _ => ?_
  have e1 : (⟨2048 * ((125 * R.val + v) / 125) + p.val, by have := p.isLt; omega⟩ : Fin 4096) = row0 R p :=
    Fin.ext (by show 2048 * ((125 * R.val + v) / 125) + p.val = 2048 * R.val + p.val; omega)
  have e2 : (⟨256 * ((125 * R.val + v) % 125) + j.val, by have := j.isLt; omega⟩ : Fin 32000) = ⟨256 * v + j.val, hlt⟩ :=
    Fin.ext (by show 256 * ((125 * R.val + v) % 125) + j.val = 256 * v + j.val; omega)
  exact congrArg₂ (· * ·) ((hx ⟨125 * R.val + v, pt_lt R v hv⟩ p h).trans (congrArg (fun r => X4 (ix2 r h)) e1))
    ((hw ⟨125 * R.val + v, pt_lt R v hv⟩ j h).trans (congrArg (fun r => W (ix2 r h)) e2))

/-- The label the point reads for row p of its tile is the label of row 2048·R + p. -/
theorem lbl_at
    (hy : ∀ (t : Fin cfg1.N) (p : Fin 2048), (iblk1 V c 2 t : Vec Ideal S2048x1 .i32) (ix2 p (0 : Fin 1))
      = Y5 (ix2 (⟨2048 * (t.val / 125) + p.val, by have := pt_lt0 t; have := p.isLt; omega⟩ : Fin 4096) (0 : Fin 1)))
    (R : Fin 2) (v : ℕ) (hv : v < 125) (p : Fin 2048) :
    (iblk1 V c 2 ⟨125 * R.val + v, pt_lt R v hv⟩ : Vec Ideal S2048x1 .i32) (ix2 p (0 : Fin 1)) = Y5 (ix2 (row0 R p) (0 : Fin 1)) := by
  have hR := R.isLt
  have e1 : (⟨2048 * ((125 * R.val + v) / 125) + p.val, by have := p.isLt; omega⟩ : Fin 4096) = row0 R p :=
    Fin.ext (by show 2048 * ((125 * R.val + v) / 125) + p.val = 2048 * R.val + p.val; omega)
  exact (hy ⟨125 * R.val + v, pt_lt R v hv⟩ p).trans (congrArg (fun r => Y5 (ix2 r (0 : Fin 1))) e1)

/-- Point 125·R + v carries the online quantities of row 2048·R + p from v tiles to v + 1. -/
theorem cols_step
    (hx : ∀ (t : Fin cfg1.N) (p : Fin 2048) (h : Fin 4096), (iblk1 V c 0 t : Vec Ideal S2048x4096 .bf16) (ix2 p h)
      = X4 (ix2 (⟨2048 * (t.val / 125) + p.val, by have := pt_lt0 t; have := p.isLt; omega⟩ : Fin 4096) h))
    (hw : ∀ (t : Fin cfg1.N) (j : Fin 256) (h : Fin 4096), (iblk1 V c 1 t : Vec Ideal S256x4096 .f32) (ix2 j h)
      = W (ix2 (⟨256 * (t.val % 125) + j.val, by have := j.isLt; omega⟩ : Fin 32000) h))
    (hy : ∀ (t : Fin cfg1.N) (p : Fin 2048), (iblk1 V c 2 t : Vec Ideal S2048x1 .i32) (ix2 p (0 : Fin 1))
      = Y5 (ix2 (⟨2048 * (t.val / 125) + p.val, by have := pt_lt0 t; have := p.isLt; omega⟩ : Fin 4096) (0 : Fin 1)))
    (R : Fin 2) (v : ℕ) (hv : v < 125) (p : Fin 2048)
    (h1 : (colsBefore1 V c (125 * R.val + v) (pt_lt R v hv)).1 (ix2 p 0) = onM (rowLogit X4 W (row0 R p)) v)
    (h2 : (colsBefore1 V c (125 * R.val + v) (pt_lt R v hv)).2.1 (ix2 p 0) = onL (rowLogit X4 W (row0 R p)) v)
    (h3 : (colsBefore1 V c (125 * R.val + v) (pt_lt R v hv)).2.2 (ix2 p 0)
      = onG (rowLogit X4 W (row0 R p)) (Y5 (ix2 (row0 R p) (0 : Fin 1))) v) :
    (colsAt1 V c (125 * R.val + v) (pt_lt R v hv)).1 (ix2 p 0) = onM (rowLogit X4 W (row0 R p)) (v + 1)
      ∧ (colsAt1 V c (125 * R.val + v) (pt_lt R v hv)).2.1 (ix2 p 0) = onL (rowLogit X4 W (row0 R p)) (v + 1)
      ∧ (colsAt1 V c (125 * R.val + v) (pt_lt R v hv)).2.2 (ix2 p 0)
          = onG (rowLogit X4 W (row0 R p)) (Y5 (ix2 (row0 R p) (0 : Fin 1))) (v + 1) := by
  have hstep : colsAt1 V c (125 * R.val + v) (pt_lt R v hv)
      = colsStep1 (grid1.coords ⟨125 * R.val + v, pt_lt R v hv⟩) (iblk1 V c 0 ⟨125 * R.val + v, pt_lt R v hv⟩)
          (iblk1 V c 1 ⟨125 * R.val + v, pt_lt R v hv⟩) (iblk1 V c 2 ⟨125 * R.val + v, pt_lt R v hv⟩)
          (colsBefore1 V c (125 * R.val + v) (pt_lt R v hv)) := colsAt1_eq V c ⟨125 * R.val + v, pt_lt R v hv⟩
  rw [hstep]
  have hi : ((grid1.coords ⟨125 * R.val + v, pt_lt R v hv⟩) 1).val = v := by
    rw [coord1_0]
    show (125 * R.val + v) % 125 = v
    omega
  exact step_inv _ _ v _ _ _ _ _ p (fun j => blk_logit V c X4 W hx hw R v hv p j) hi (lbl_at V c Y5 hy R v hv p) h1 h2 h3

/-- After vocabulary tile v of row tile R, the columns of row 2048·R + p hold the online quantities over v + 1 tiles. -/
theorem cols_at
    (hx : ∀ (t : Fin cfg1.N) (p : Fin 2048) (h : Fin 4096), (iblk1 V c 0 t : Vec Ideal S2048x4096 .bf16) (ix2 p h)
      = X4 (ix2 (⟨2048 * (t.val / 125) + p.val, by have := pt_lt0 t; have := p.isLt; omega⟩ : Fin 4096) h))
    (hw : ∀ (t : Fin cfg1.N) (j : Fin 256) (h : Fin 4096), (iblk1 V c 1 t : Vec Ideal S256x4096 .f32) (ix2 j h)
      = W (ix2 (⟨256 * (t.val % 125) + j.val, by have := j.isLt; omega⟩ : Fin 32000) h))
    (hy : ∀ (t : Fin cfg1.N) (p : Fin 2048), (iblk1 V c 2 t : Vec Ideal S2048x1 .i32) (ix2 p (0 : Fin 1))
      = Y5 (ix2 (⟨2048 * (t.val / 125) + p.val, by have := pt_lt0 t; have := p.isLt; omega⟩ : Fin 4096) (0 : Fin 1)))
    (R : Fin 2) (p : Fin 2048) : ∀ (v : ℕ) (hv : v < 125),
    (colsAt1 V c (125 * R.val + v) (pt_lt R v hv)).1 (ix2 p 0) = onM (rowLogit X4 W (row0 R p)) (v + 1)
      ∧ (colsAt1 V c (125 * R.val + v) (pt_lt R v hv)).2.1 (ix2 p 0) = onL (rowLogit X4 W (row0 R p)) (v + 1)
      ∧ (colsAt1 V c (125 * R.val + v) (pt_lt R v hv)).2.2 (ix2 p 0)
          = onG (rowLogit X4 W (row0 R p)) (Y5 (ix2 (row0 R p) (0 : Fin 1))) (v + 1) := by
  intro v
  induction v with
  | zero =>
    intro hv
    have hb : colsBefore1 V c (125 * R.val + 0) (pt_lt R 0 hv) = colsReset1 := by
      unfold colsBefore1
      rw [dif_pos (by omega)]
    obtain ⟨r1, r2, r3⟩ := reset_apply p
    exact cols_step V c X4 W Y5 hx hw hy R 0 hv p (by rw [hb]; exact r1) (by rw [hb]; exact r2) (by rw [hb]; exact r3)
  | succ v ih =>
    intro hv
    obtain ⟨i1, i2, i3⟩ := ih (by omega)
    have hb : colsBefore1 V c (125 * R.val + (v + 1)) (pt_lt R (v + 1) hv) = colsAt1 V c (125 * R.val + v) (pt_lt R v (by omega)) := by
      unfold colsBefore1
      rw [dif_neg (by omega)]
      exact colsAt1_congr V c (by omega) _ _
    exact cols_step V c X4 W Y5 hx hw hy R (v + 1) hv p (by rw [hb]; exact i1) (by rw [hb]; exact i2) (by rw [hb]; exact i3)

end Solved

section Final

variable (V : (c : Dev nD) → (b : Ref sig .tc) → Buf (Elt Ideal) ((c : Thread nD τ).loc b)) (c : Dev nD)
  (X4 : S4096x4096.Idx → EReal) (W : S32000x4096.Idx → EReal) (Y5 : S4096x1.Idx → BitVec 32)

/-- What the last vocabulary tile of row tile R stores for row 2048·R + p: the label's logit less the row's
    log-sum-exp. -/
theorem out_final1
    (hx : ∀ (t : Fin cfg1.N) (p : Fin 2048) (h : Fin 4096), (iblk1 V c 0 t : Vec Ideal S2048x4096 .bf16) (ix2 p h)
      = X4 (ix2 (⟨2048 * (t.val / 125) + p.val, by have := pt_lt0 t; have := p.isLt; omega⟩ : Fin 4096) h))
    (hw : ∀ (t : Fin cfg1.N) (j : Fin 256) (h : Fin 4096), (iblk1 V c 1 t : Vec Ideal S256x4096 .f32) (ix2 j h)
      = W (ix2 (⟨256 * (t.val % 125) + j.val, by have := j.isLt; omega⟩ : Fin 32000) h))
    (hy : ∀ (t : Fin cfg1.N) (p : Fin 2048), (iblk1 V c 2 t : Vec Ideal S2048x1 .i32) (ix2 p (0 : Fin 1))
      = Y5 (ix2 (⟨2048 * (t.val / 125) + p.val, by have := pt_lt0 t; have := p.isLt; omega⟩ : Fin 4096) (0 : Fin 1)))
    (hfX : ∀ i, ∃ r : ℝ, X4 i = (r : EReal)) (hfW : ∀ i, ∃ r : ℝ, W i = (r : EReal))
    (R : Fin 2) (p : Fin 2048) :
    outAt1 V c (125 * R.val + 124) (pt_lt R 124 (by omega)) (ix2 p 0)
      = Cert.Spec.gold (rowLogit X4 W (row0 R p)) (Y5 (ix2 (row0 R p) (0 : Fin 1)))
        - Cert.Spec.lse (rowLogit X4 W (row0 R p)) := by
  obtain ⟨h1, h2, h3⟩ := cols_at V c X4 W Y5 hx hw hy R p 124 (by omega)
  unfold outAt1
  rw [pay2_apply, h1, h2, h3]
  exact online_final _ (fun v => rowLogit_real hfX hfW (row0 R p) v) _

end Final

end Cert.KernelIdeal.HandB

end
-- ==== Proof.KI.Blocks1.lean ====
/-
  The blocks of pallas call 1, entry by entry. The 2 × 125 grid's point t = 125·R + v reads rows 2048·R … 2048·R + 2047
  of x and of the label column, and rows 256·v … 256·v + 255 of w: a block's coordinate on an axis is the block index
  times the block's size there plus the coordinate inside the block.
-/
import proofs.«409812_j58909771432349_3_alg».proof.Proof.KI.Acc1
import Idealize.ShloMosaic.Lib.ValueIdx
import Idealize.ShloMosaic.Lib.Pipeline.Value

noncomputable section

namespace Cert.KernelIdeal.HandB

open Cert.KernelIdeal Cert.KernelIdeal.Gen
open Idealize.ShloMosaic Idealize.ShloMosaic.TcCoe
open Idealize.SL Idealize.SL.Sem
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-- A point of the grid is below 250. -/
theorem t_lt0 (t : Fin cfg1.N) : t.val < 250 := lt_of_lt_of_eq t.isLt N_1

/-- Window 0's block index at point t: (t / 125, 0). -/
theorem idx0_0 : ∀ t : Fin cfg1.N, win1_0.index t (0 : Fin 2) = t.val / 125 ∧ win1_0.index t (1 : Fin 2) = 0 :=
  (by decide +kernel : ∀ t : Fin grid1.N, _)

/-- Window 1's block index at point t: (t mod 125, 0). -/
theorem idx0_1 : ∀ t : Fin cfg1.N, win1_1.index t (0 : Fin 2) = t.val % 125 ∧ win1_1.index t (1 : Fin 2) = 0 :=
  (by decide +kernel : ∀ t : Fin grid1.N, _)

/-- Window 2's block index at point t: (t / 125, 0). -/
theorem idx0_2 : ∀ t : Fin cfg1.N, win1_2.index t (0 : Fin 2) = t.val / 125 ∧ win1_2.index t (1 : Fin 2) = 0 :=
  (by decide +kernel : ∀ t : Fin grid1.N, _)

/-- Window 3's block index at point t: (t / 125, 0). -/
theorem idx0_3 : ∀ t : Fin cfg1.N, win1_3.index t (0 : Fin 2) = t.val / 125 ∧ win1_3.index t (1 : Fin 2) = 0 :=
  (by decide +kernel : ∀ t : Fin grid1.N, _)

/-- Entry (p, h) of the x block at point t is entry (2048·(t / 125) + p, h) of x. -/
theorem blk1_0 (c : Dev nD) (t : Fin cfg1.N) (p : Fin 2048) (h : Fin 4096) :
    (iblk1 V c 0 t : Vec F S2048x4096 .bf16) (ix2 p h)
      = (V c (Pipeline.arrRef spec1 0) : S4096x4096.Idx → Elt F .bf16)
          (ix2 (⟨2048 * (t.val / 125) + p.val, by have := t_lt0 t; have := p.isLt; omega⟩ : Fin 4096) h) := by
  obtain ⟨e0, e1⟩ := idx0_0 t
  unfold iblk1
  rw [View.read_apply]
  refine congrArg (V c (Pipeline.arrRef spec1 0) : S4096x4096.Idx → Elt F .bf16) ?_
  funext a
  apply Fin.ext
  match a with
  | ⟨0, _⟩ => show win1_0.index t (0 : Fin 2) * 2048 + 1 * p.val = 2048 * (t.val / 125) + p.val; rw [e0]; omega
  | ⟨1, _⟩ => show win1_0.index t (1 : Fin 2) * 4096 + 1 * h.val = h.val; rw [e1]; omega

/-- Entry (j, h) of the w block at point t is entry (256·(t mod 125) + j, h) of w. -/
theorem blk1_1 (c : Dev nD) (t : Fin cfg1.N) (j : Fin 256) (h : Fin 4096) :
    (iblk1 V c 1 t : Vec F S256x4096 .f32) (ix2 j h)
      = (V c (Pipeline.arrRef spec1 1) : S32000x4096.Idx → Elt F .f32)
          (ix2 (⟨256 * (t.val % 125) + j.val, by have := j.isLt; omega⟩ : Fin 32000) h) := by
  obtain ⟨e0, e1⟩ := idx0_1 t
  unfold iblk1
  rw [View.read_apply]
  refine congrArg (V c (Pipeline.arrRef spec1 1) : S32000x4096.Idx → Elt F .f32) ?_
  funext a
  apply Fin.ext
  match a with
  | ⟨0, _⟩ => show win1_1.index t (0 : Fin 2) * 256 + 1 * j.val = 256 * (t.val % 125) + j.val; rw [e0]; omega
  | ⟨1, _⟩ => show win1_1.index t (1 : Fin 2) * 4096 + 1 * h.val = h.val; rw [e1]; omega

/-- Entry p of the label block at point t is entry 2048·(t / 125) + p of the label column. -/
theorem blk1_2 (c : Dev nD) (t : Fin cfg1.N) (p : Fin 2048) :
    (iblk1 V c 2 t : Vec F S2048x1 .i32) (ix2 p (0 : Fin 1))
      = (V c (Pipeline.arrRef spec1 2) : S4096x1.Idx → Elt F .i32)
          (ix2 (⟨2048 * (t.val / 125) + p.val, by have := t_lt0 t; have := p.isLt; omega⟩ : Fin 4096) (0 : Fin 1)) := by
  obtain ⟨e0, e1⟩ := idx0_2 t
  unfold iblk1
  rw [View.read_apply]
  refine congrArg (V c (Pipeline.arrRef spec1 2) : S4096x1.Idx → Elt F .i32) ?_
  funext a
  apply Fin.ext
  match a with
  | ⟨0, _⟩ => show win1_2.index t (0 : Fin 2) * 2048 + 1 * p.val = 2048 * (t.val / 125) + p.val; rw [e0]; omega
  | ⟨1, _⟩ => show win1_2.index t (1 : Fin 2) * 1 + 1 * 0 = 0; rw [e1]

end Cert.KernelIdeal.HandB

end
-- ==== Proof.KI.Cover1.lean ====
/-
  The output column after the whole grid. The output window's block is written back only at the last vocabulary tile of
  a row tile: point 124 writes rows 0 … 2047 and point 249 rows 2048 … 4095. So row r of the output array ends holding
  entry r mod 2048 of the column computed at point 125·(r / 2048) + 124; the input arrays end as they began.
-/
import proofs.«409812_j58909771432349_3_alg».proof.Proof.KI.Frame1
import proofs.«409812_j58909771432349_3_alg».proof.Proof.KI.Blocks1
import Idealize.ShloMosaic.Lib.ValueIdx
import Idealize.ShloMosaic.Lib.Pipeline.Value

noncomputable section

namespace Cert.KernelIdeal.HandB

open Cert.KernelIdeal Cert.KernelIdeal.Gen
open Idealize.ShloMosaic Idealize.ShloMosaic.TcCoe
open Idealize.SL Idealize.SL.Sem
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-- The last point of the row tile holding row r is a point of the grid. -/
theorem lastPt_lt0 (r : ℕ) (hr : r < 4096) : 125 * (r / 2048) + 124 < cfg1.N := by
  rw [show cfg1.N = 250 from N_1]; omega

/-- The output column of a point depends on the point's number only, and an entry on the entry's row only. -/
theorem outAt0_apply_congr (c : Dev nD) {n n' : ℕ} (hn : n < cfg1.N) (hn' : n' < cfg1.N) {m : ℕ} (hm : m < 2048)
    (p : Fin 2048) (e : n = n') (em : m = p.val) :
    (outAt1 V c n hn : Vec F S2048x1 .f32) (ix2 (⟨m, hm⟩ : Fin 2048) (0 : Fin 1))
      = (outAt1 V c n' hn' : Vec F S2048x1 .f32) (ix2 p (0 : Fin 1)) := by
  subst e; subst em; rfl

/-- The whole output column: row r holds entry r mod 2048 of the column of point 125·(r / 2048) + 124. -/
def outCol0 (c : Dev nD) : S4096x1.Idx → Elt F .f32 := fun i =>
  (outAt1 V c (125 * ((i 0).val / 2048) + 124) (lastPt_lt0 _ (i 0).isLt) : Vec F S2048x1 .f32)
    (ix2 (⟨(i 0).val % 2048, Nat.mod_lt _ (by norm_num)⟩ : Fin 2048) (0 : Fin 1))

/-- At a row 2048·(t / 125) + p of a point t that is a last vocabulary tile, the whole column is point t's entry p. -/
theorem outCol0_apply_of (c : Dev nD) (i : S4096x1.Idx) (t : Fin cfg1.N) (p : Fin 2048)
    (h0 : (i 0).val = 2048 * (t.val / 125) + p.val) (h124 : t.val % 125 = 124) :
    outCol0 V c i = (outAt1 V c t.val t.isLt : Vec F S2048x1 .f32) (ix2 p (0 : Fin 1)) := by
  have hp : p.val < 2048 := p.isLt
  unfold outCol0
  exact outAt0_apply_congr V c _ _ _ p (by rw [h0]; omega) (by rw [h0]; omega)

/-- What a last vocabulary tile's point writes back is its block of the whole column. -/
theorem flushed0_3 (c : Dev nD) (t : Fin cfg1.N) (hf : (cfg1.win 3).flush t = true) :
    (dat1 V c).flushed 3 t = ((cfg1.win 3).blk t).view.read (Elt F) (outCol0 V c) := by
  have h124 : t.val % 125 = 124 := (flush1_3 t).1 hf
  obtain ⟨e0, e1⟩ := idx0_3 t
  show (cfg1.win 3).cut (grid1.coords t) ((dat1 V c).after 3 t) = _
  rw [after1_3]
  funext j
  have hj0 : (j 0).val < 2048 := (j 0).isLt
  have hj1 : (j 1).val < 1 := (j 1).isLt
  have hx : (cfg1.win 3).xinj (grid1.coords t) j = ix2 (⟨(j 0).val, hj0⟩ : Fin 2048) (0 : Fin 1) := by
    funext a
    match a with
    | ⟨0, _⟩ => rfl
    | ⟨1, _⟩ => exact Fin.ext (show (j 1).val = 0 by omega)
  have hemb : ((((cfg1.win 3).blk t).view.emb j) 0).val = 2048 * (t.val / 125) + (j 0).val := by
    show win1_3.index t (0 : Fin 2) * 2048 + 1 * (j 0).val = _
    rw [e0]; omega
  show (outAt1 V c t.val t.isLt : Vec F S2048x1 .f32) ((cfg1.win 3).xinj (grid1.coords t) j)
    = outCol0 V c (((cfg1.win 3).blk t).view.emb j)
  rw [hx]
  exact (outCol0_apply_of V c _ t ⟨(j 0).val, hj0⟩ hemb h124).symm

/-- An index of the output column is in point t's block iff each coordinate is in the block's range on its axis. -/
theorem mem_blk0_3 (t : Fin cfg1.N) (i : S4096x1.Idx) :
    i ∈ ((cfg1.win 3).blk t).view.set ↔ ∀ a : Fin 2, win1_3.index t a * S2048x1.size a ≤ (i a).val ∧ (i a).val < win1_3.index t a * S2048x1.size a + S2048x1.size a := by
  show i ∈ ((View.whole main_v6).slice (win1_3.rect t)).set ↔ _
  rw [View.set_slice_whole, Rect.mem_set_unit]
  exact Iff.rfl

/-- Every row of the output column lies in the block written back at the last point of its row tile. -/
theorem cover0_3 (i : S4096x1.Idx) :
    ∃ t : Fin cfg1.N, (cfg1.win 3).flush t = true ∧ i ∈ ((cfg1.win 3).blk t).view.set := by
  have hi0 : (i 0).val < 4096 := (i 0).isLt
  have hi1 : (i 1).val < 1 := (i 1).isLt
  have hN : cfg1.N = 250 := N_1
  let t : Fin cfg1.N := ⟨125 * ((i 0).val / 2048) + 124, by rw [hN]; omega⟩
  have htv : t.val = 125 * ((i 0).val / 2048) + 124 := rfl
  obtain ⟨e0, e1⟩ := idx0_3 t
  refine ⟨t, (flush1_3 t).2 (by rw [htv]; omega), ?_⟩
  rw [mem_blk0_3]
  intro a
  match a with
  | ⟨0, _⟩ => show win1_3.index t (0 : Fin 2) * 2048 ≤ (i 0).val ∧ (i 0).val < win1_3.index t (0 : Fin 2) * 2048 + 2048; rw [e0, htv]; omega
  | ⟨1, _⟩ => show win1_3.index t (1 : Fin 2) * 1 ≤ (i 1).val ∧ (i 1).val < win1_3.index t (1 : Fin 2) * 1 + 1; rw [e1]; omega

/-- After the whole grid the output array is the whole column. -/
theorem arrAt0_3 (c : Dev nD) : (dat1 V c).arrAt 3 cfg1.N = outCol0 V c :=
  (dat1 V c).arrAt_eq_of_cover 3 (outCol0 V c) (fun t hf => flushed0_3 V c t hf) cover0_3

/-- Row by row: row r of the output array is entry r mod 2048 of the column of point 125·(r / 2048) + 124. -/
theorem arr_final1 (c : Dev nD) (r : Fin 4096) :
    ((dat1 V c).arrAt 3 cfg1.N : S4096x1.Idx → Elt F .f32) (ix2 r (0 : Fin 1))
      = (outAt1 V c (125 * (r.val / 2048) + 124) (lastPt_lt0 r.val r.isLt) : Vec F S2048x1 .f32)
          (ix2 (⟨r.val % 2048, Nat.mod_lt _ (by norm_num)⟩ : Fin 2048) (0 : Fin 1)) := by
  rw [arrAt0_3]
  rfl

/-- The input arrays end as they began. -/
theorem arr_in0_0 (c : Dev nD) : (dat1 V c).arrAt 0 cfg1.N = (dat1 V c).A 0 := (dat1 V c).arrAt_in 0 rfl _
theorem arr_in0_1 (c : Dev nD) : (dat1 V c).arrAt 1 cfg1.N = (dat1 V c).A 1 := (dat1 V c).arrAt_in 1 rfl _
theorem arr_in0_2 (c : Dev nD) : (dat1 V c).arrAt 2 cfg1.N = (dat1 V c).A 2 := (dat1 V c).arrAt_in 2 rfl _

end Cert.KernelIdeal.HandB

end
-- ==== Proof.KI.Tok1.lean ====
/-
  The second pallas call's output column, token by token. Row 512·b + t of the flattened activations and labels is token
  (b, t); after the whole grid the output column holds there the token's log-probability at its label: the label's
  logit less the row's log-sum-exp, the ignore value picking no logit.
-/
import proofs.«409812_j58909771432349_3_alg».proof.Proof.KI.Ind1
import proofs.«409812_j58909771432349_3_alg».proof.Proof.KI.Acc1
import proofs.«409812_j58909771432349_3_alg».proof.Proof.KI.Pay1
import proofs.«409812_j58909771432349_3_alg».proof.Proof.KI.Blocks1
import proofs.«409812_j58909771432349_3_alg».proof.Proof.KI.Prefix
import proofs.«409812_j58909771432349_3_alg».proof.Proof.KI.Cover1
import proofs.«409812_j58909771432349_3_alg».proof.Proof.Spec
import proofs.«409812_j58909771432349_3_alg».proof.Proof.LseMath
import Idealize.ShloMosaic.PureOps.Ideal.Laws
import Idealize.ShloMosaic.Lib.ValueIdx

noncomputable section

open scoped BigOperators

namespace Cert.KernelIdeal.HandB

open Cert.KernelIdeal.Hand (aRX aRW aY v20_apply v21_apply v7_arg4)

open Cert.KernelIdeal Cert.KernelIdeal.Gen
open Idealize.ShloMosaic Idealize.ShloMosaic.TcCoe
open Idealize.SL Idealize.SL.Sem
open Idealize.ShloMosaic.Pipeline (Dat Cfg Window BodyObligation cellOf)
open Idealize.ShloMosaic.ValueIdx

open Cert.Spec

/-- The label column's word picks the same logit as the label: −100 and its replacement −1 are both no vocabulary
    index. -/
theorem gold_where (z : Fin 32000 → EReal) (y : BitVec 32) :
    gold z (if y = ignoreW then 4294967295#32 else y) = gold z y := by
  by_cases h : y = ignoreW
  · rw [if_pos h, h]
    unfold gold
    rw [dif_neg (by decide), dif_neg (by decide)]
  · rw [if_neg h]

section Token

variable (V : (c : Dev nD) → (b : Ref sig .tc) → Buf (Elt Ideal) ((c : Thread nD τ).loc b)) (c : Dev nD)
  (X4 : S4096x4096.Idx → EReal) (W : S32000x4096.Idx → EReal) (Y5 : S4096x1.Idx → BitVec 32)

/-- Row 512·b + t of the flattened arrays is token (b, t): what the last vocabulary tile stores there is the token's
    log-probability at its label. -/
theorem tok_core
    (hx : ∀ (t : Fin cfg1.N) (p : Fin 2048) (h : Fin 4096), (iblk1 V c 0 t : Vec Ideal S2048x4096 .bf16) (ix2 p h)
      = X4 (ix2 (⟨2048 * (t.val / 125) + p.val, by have := pt_lt0 t; have := p.isLt; omega⟩ : Fin 4096) h))
    (hw : ∀ (t : Fin cfg1.N) (j : Fin 256) (h : Fin 4096), (iblk1 V c 1 t : Vec Ideal S256x4096 .f32) (ix2 j h)
      = W (ix2 (⟨256 * (t.val % 125) + j.val, by have := j.isLt; omega⟩ : Fin 32000) h))
    (hy : ∀ (t : Fin cfg1.N) (p : Fin 2048), (iblk1 V c 2 t : Vec Ideal S2048x1 .i32) (ix2 p (0 : Fin 1))
      = Y5 (ix2 (⟨2048 * (t.val / 125) + p.val, by have := pt_lt0 t; have := p.isLt; omega⟩ : Fin 4096) (0 : Fin 1)))
    (aX : SX.Idx → EReal) (aW : SW.Idx → EReal) (aY : SY.Idx → BitVec 32) (hfX : FinV aX) (hfW : FinV aW)
    (hX4 : ∀ (r h : Fin 4096), X4 (ix2 r h)
      = aX (ix3 (⟨r.val / 512, by omega⟩ : Fin 8) (⟨r.val % 512, by omega⟩ : Fin 512) h))
    (hWeq : W = aW)
    (hY5 : ∀ r : Fin 4096, Y5 (ix2 r (0 : Fin 1))
      = (if aY (ix2 (⟨r.val / 512, by omega⟩ : Fin 8) (⟨r.val % 512, by omega⟩ : Fin 512)) = ignoreW then 4294967295#32
         else aY (ix2 (⟨r.val / 512, by omega⟩ : Fin 8) (⟨r.val % 512, by omega⟩ : Fin 512))))
    (b : Fin 8) (t : Fin 512)
    (hlt : 125 * ((512 * b.val + t.val) / 2048) + 124 < cfg1.N) (hmod : (512 * b.val + t.val) % 2048 < 2048) :
    (outAt1 V c (125 * ((512 * b.val + t.val) / 2048) + 124) hlt : Vec Ideal S2048x1 .f32)
        (ix2 (⟨(512 * b.val + t.val) % 2048, hmod⟩ : Fin 2048) (0 : Fin 1))
      = tokLp aX aW (aY (ix2 b t)) b t := by
  have hb := b.isLt
  have ht := t.isLt
  have hfX4 : ∀ i, ∃ a : ℝ, X4 i = (a : EReal) := fun i => by
    obtain ⟨p, q, rfl⟩ : ∃ p q, i = ix2 p q := ⟨i 0, i 1, eq_ix2 i⟩
    rw [hX4]
    exact hfX _
  have hfW' : ∀ i, ∃ a : ℝ, W i = (a : EReal) := fun i => by rw [hWeq]; exact hfW i
  have hfin := out_final1 V c X4 W Y5 hx hw hy hfX4 hfW' (⟨(512 * b.val + t.val) / 2048, by omega⟩ : Fin 2)
    (⟨(512 * b.val + t.val) % 2048, hmod⟩ : Fin 2048)
  have hrow : row0 (⟨(512 * b.val + t.val) / 2048, by omega⟩ : Fin 2) (⟨(512 * b.val + t.val) % 2048, hmod⟩ : Fin 2048)
      = (⟨512 * b.val + t.val, by omega⟩ : Fin 4096) :=
    Fin.ext (by show 2048 * ((512 * b.val + t.val) / 2048) + (512 * b.val + t.val) % 2048 = 512 * b.val + t.val; omega)
  have eb : (⟨(512 * b.val + t.val) / 512, by omega⟩ : Fin 8) = b := Fin.ext (by show (512 * b.val + t.val) / 512 = b.val; omega)
  have et : (⟨(512 * b.val + t.val) % 512, by omega⟩ : Fin 512) = t := Fin.ext (by show (512 * b.val + t.val) % 512 = t.val; omega)
  have hz : rowLogit X4 W (⟨512 * b.val + t.val, by omega⟩ : Fin 4096) = logit aX aW b t := by
    funext v
    unfold rowLogit logit
    refine Finset.sum_congr rfl fun h _ => ?_
    rw [hX4, hWeq]
    exact congrArg (fun u => u * aW (ix2 v h)) (congrArg₂ (fun b' t' => aX (ix3 b' t' h)) eb et)
  have hyw : Y5 (ix2 (⟨512 * b.val + t.val, by omega⟩ : Fin 4096) (0 : Fin 1))
      = (if aY (ix2 b t) = ignoreW then 4294967295#32 else aY (ix2 b t)) := by
    rw [hY5]
    exact congrArg₂ (fun b' t' => if aY (ix2 b' t') = ignoreW then 4294967295#32 else aY (ix2 b' t')) eb et
  rw [hrow, hz, hyw, gold_where] at hfin
  exact hfin

end Token

/-- After the second pallas call, row 512·b + t of its output column is token (b, t)'s log-probability at its label. -/
theorem tok_final1 (m : (ℓ : Loc nD τ sig) → Buf (Elt Ideal) ℓ) (outs : Outs (F := Ideal)) (c : Dev nD)
    (hX : Cert.Spec.FinV (aRX m c)) (hW : Cert.Spec.FinV (aRW m c)) (b : Fin 8) (t : Fin 512) :
    ((dat1 (fun c b => V7 m outs c b) c).arrAt 3 cfg1.N : S4096x1.Idx → EReal)
        (ix2 (⟨512 * b.val + t.val, by have := b.isLt; have := t.isLt; omega⟩ : Fin 4096) (0 : Fin 1))
      = Cert.Spec.tokLp (aRX m c) (aRW m c) (aY m c (ix2 b t)) b t := by
  have hb := b.isLt
  have ht := t.isLt
  refine (arr_final1 (fun c b => V7 m outs c b) c (⟨512 * b.val + t.val, by omega⟩ : Fin 4096)).trans ?_
  exact tok_core (fun c b => V7 m outs c b) c (V7 m outs c main_v20) (V7 m outs c main_arg4) (V7 m outs c main_v21)
    (blk1_0 (fun c b => V7 m outs c b) c) (blk1_1 (fun c b => V7 m outs c b) c) (blk1_2 (fun c b => V7 m outs c b) c)
    (aRX m c) (aRW m c) (aY m c) hX hW (v20_apply m outs c) (v7_arg4 m outs c) (v21_apply m outs c) b t _ _

end Cert.KernelIdeal.HandB

end
-- ==== Proof.KI.Tail.lean ====
/-
  The three results, from the two pallas calls' output columns. Each call leaves one log-probability per token in a
  column [4096, 1]; the host program reshapes it to [8, 512], masks it with the kept labels, sums along each sequence
  and divides by the number of kept labels (at least one per sequence): sequence b's mean log-probability. From the
  policy's and the reference model's means a and b the tail computes, on the first and the second four sequences,
  the scaled differences β (a − b) and a mean of logistic terms in them.
-/
import proofs.«409812_j58909771432349_3_alg».proof.Proof.Gen.KernelIdeal.Regions
import proofs.«409812_j58909771432349_3_alg».proof.Proof.Spec
import proofs.«409812_j58909771432349_3_alg».proof.Proof.KI.Prefix
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate
import Idealize.ShloMosaic.Lib.IdealHost
import Mathlib.Algebra.BigOperators.Ring.Finset

noncomputable section

namespace Cert.KernelIdeal.Hand

open Cert.KernelIdeal Cert.KernelIdeal.Gen
open Idealize.ShloMosaic Idealize.ShloMosaic.TcCoe Idealize.ShloMosaic.ValueIdx
open Cert.Spec
open scoped BigOperators

variable (m : (ℓ : Loc nD τ sig) → Buf (Elt Ideal) ℓ) (outs : Outs (F := Ideal)) (c : Dev nD)

/-! ## A sequence's mean, from the call's output column -/

/-- The compare bit, converted to a float, is 1 on a kept label and 0 on the ignore value. -/
theorem keep_bit (y : BitVec 32) : FloatOps.uitofp (F := Ideal) .f32 (IntOp.cmpi .ne y ignoreW) = keep y := by
  rw [ne_bit]; unfold keep
  by_cases h : y = ignoreW
  · rw [if_pos h, if_pos h]
    show (((0#1 : BitVec 1).toNat : ℝ) : EReal) = 0
    simp
  · rw [if_neg h, if_neg h]
    show (((1#1 : BitVec 1).toNat : ℝ) : EReal) = 1
    simp

/-- A finite sum of reals, taken among the extended reals. -/
theorem coe_sum' {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The kept labels of a sequence, summed as 0/1, are their number. -/
theorem sum_keep (Y : SY.Idx → BitVec 32) (b : Fin 8) :
    ∑ t : Fin 512, keep (Y (ix2 b t)) = (((count Y b : ℕ) : ℝ) : EReal) := by
  have e : ∀ t : Fin 512, keep (Y (ix2 b t)) = (((if Y (ix2 b t) ≠ ignoreW then (1 : ℝ) else 0 : ℝ)) : EReal) := by
    intro t
    unfold keep
    by_cases h : Y (ix2 b t) = ignoreW
    · rw [if_pos h, if_neg (not_not.mpr h)]; rfl
    · rw [if_neg h, if_pos h]; rfl
  rw [Finset.sum_congr rfl (fun t _ => e t), coe_sum', Finset.sum_boole]
  rfl

/-- Summing a [8, 512] array along a sequence. -/
theorem red81 : S8x512.Reduces [1] S8 := ⟨reducesTo_S8x512_S8_d1.1, Nat.one_pos, reducesTo_S8x512_S8_d1.2⟩

theorem lift81 (p : Fin 8) (k : Fin (S8x512.size 1)) : red81.lift (ix1 p) k = ix2 p (⟨k.val, k.isLt⟩ : Fin 512) := by
  funext a; apply Fin.ext
  fin_cases a <;> rfl

/-- The sum along sequence p of a [8, 512] array, from a zero initial value. -/
theorem rowSum (x : FVec Ideal S8x512 .f32) (p : Fin 8) :
    Host.reduceAdd x (constant (F := Ideal) S_ .f32 0x00000000#32) reducesTo_S8x512_S8_d1 h_S_ (ix1 p)
      = ∑ t : Fin 512, x (ix2 p t) := by
  rw [hostReduceAdd_apply, Ideal.hostReduceAdd_single reducesTo_S8x512_S8_d1 red81, constant_apply, Ideal.ofBits_zero_f32, zero_add]
  exact Finset.sum_congr rfl fun k _ => congrArg x (lift81 p k)

/-- Entry (b, t) of a column [4096, 1] reshaped to [8, 512] is the column's row 512 b + t. -/
theorem unflat (P : FVec Ideal S4096x1 .f32) (b : Fin 8) (t : Fin 512) :
    shapeCast S8x512 (shapeCast S4096 P shapeCasts_S4096x1_S4096) shapeCasts_S4096_S8x512 (ix2 b t)
      = P (ix2 (⟨512 * b.val + t.val, by omega⟩ : Fin 4096) (0 : Fin 1)) := by
  rw [shapeCast_apply (s := S4096) (t := S8x512) _ _ (ix2 b t) (ix1 (⟨512 * b.val + t.val, by omega⟩ : Fin 4096))
    (by rw [Shape.rowMajor_val_one, Shape.rowMajor_val_two]; show 512 * b.val + t.val = b.val * 512 + t.val; omega)]
  exact shapeCast_apply (s := S4096x1) (t := S4096) _ _ _ (ix2 (⟨512 * b.val + t.val, by omega⟩ : Fin 4096) (0 : Fin 1))
    (by rw [Shape.rowMajor_val_one, Shape.rowMajor_val_two]; show (512 * b.val + t.val) * 1 + 0 = 512 * b.val + t.val; omega)

/-- THE MEAN. From a column of per-token log-probabilities and the kept-label bits, the host's masked sum along each
    sequence divided by the larger of the number of kept labels and 1 is the sequence's mean log-probability. -/
theorem avg_eq (X : SX.Idx → EReal) (W : SW.Idx → EReal) (Y : SY.Idx → BitVec 32) (hrow : RowOk Y)
    (P : FVec Ideal S4096x1 .f32) (K : IVec S8x512 1)
    (hP : ∀ (b : Fin 8) (t : Fin 512), P (ix2 (⟨512 * b.val + t.val, by omega⟩ : Fin 4096) (0 : Fin 1)) = tokLp X W (Y (ix2 b t)) b t)
    (hK : ∀ (b : Fin 8) (t : Fin 512), K (ix2 b t) = IntOp.cmpi .ne (Y (ix2 b t)) ignoreW) :
    Host.divf (F := Ideal)
        (Host.reduceAdd (mulf (shapeCast S8x512 (shapeCast S4096 P shapeCasts_S4096x1_S4096) shapeCasts_S4096_S8x512) (uitofp (F := Ideal) .f32 K))
          (constant (F := Ideal) S_ .f32 0x00000000#32) reducesTo_S8x512_S8_d1 h_S_)
        (maximumf (Host.reduceAdd (uitofp (F := Ideal) .f32 K) (constant (F := Ideal) S_ .f32 0x00000000#32) reducesTo_S8x512_S8_d1 h_S_)
          (broadcastInDim S8 ![] bcast_S_S8 (constant (F := Ideal) S_ .f32 0x3F800000#32)))
      = fun i => avgLp X W Y (i 0) := by
  funext i
  obtain ⟨p, rfl⟩ : ∃ p : Fin 8, i = ix1 p := ⟨i 0, eq_ix1 i⟩
  have hk : ∀ t : Fin 512, uitofp (F := Ideal) .f32 K (ix2 p t) = keep (Y (ix2 p t)) := by
    intro t
    show FloatOps.uitofp (F := Ideal) .f32 (K (ix2 p t)) = _
    rw [hK, keep_bit]
  have hcount : (1 : EReal) ≤ (((count Y p : ℕ) : ℝ) : EReal) := by
    have := hrow p
    exact_mod_cast this
  rw [hostDivf_apply, maximumf_apply, rowSum, rowSum, broadcastInDim_scalar_apply, constant_apply, Ideal.ofBits_one_f32]
  rw [Finset.sum_congr rfl (fun t _ => hk t), sum_keep, max_eq_left hcount]
  show Ideal.div _ _ = Ideal.div _ _
  congr 1
  refine Finset.sum_congr rfl fun t _ => ?_
  rw [mulf_apply, unflat, hP, hk]

/-! ## The tail as one term -/

/-- The host operations after the two sequence means `a` (policy) and `b` (reference model), composed: the first four
    and the last four sequences' differences d₀ = a − b and d₁, scaled by β; the mean over four of
    (1 − 1 / (1 + exp (−β d₀))) + 1 / (1 + exp (−β d₁)); returned as (that mean, β d₀, β d₁). -/
def tailK (a b : FVec Ideal S8 .f32) : FVec Ideal S_ .f32 × FVec Ideal S4 .f32 × FVec Ideal S4 .f32 :=
  ( Host.divf
      (Host.reduceAdd
        (addf
          (subf (broadcastInDim S4 ![] bcast_S_S4 (constant (F := Ideal) S_ .f32 0x3F800000#32))
            (Host.divf (F := Ideal) (broadcastInDim S4 ![] bcast_S_S4 (constant (F := Ideal) S_ .f32 0x3F800000#32))
              (addf (broadcastInDim S4 ![] bcast_S_S4 (constant (F := Ideal) S_ .f32 0x3F800000#32))
                (Host.exp (F := Ideal) (Host.negf (F := Ideal)
                  (mulf (broadcastInDim S4 ![] bcast_S_S4 (constant (F := Ideal) S_ .f32 0x3DCCCCCD#32))
                    (subf (extractStridedSlice S4 ![0] a slices_S8_S4_0) (extractStridedSlice S4 ![0] b slices_S8_S4_0))))))))
          (Host.divf (F := Ideal) (broadcastInDim S4 ![] bcast_S_S4 (constant (F := Ideal) S_ .f32 0x3F800000#32))
            (addf (broadcastInDim S4 ![] bcast_S_S4 (constant (F := Ideal) S_ .f32 0x3F800000#32))
              (Host.exp (F := Ideal) (Host.negf (F := Ideal)
                (mulf (broadcastInDim S4 ![] bcast_S_S4 (constant (F := Ideal) S_ .f32 0x3DCCCCCD#32))
                  (subf (extractStridedSlice S4 ![4] a slices_S8_S4_4) (extractStridedSlice S4 ![4] b slices_S8_S4_4))))))))
        (constant (F := Ideal) S_ .f32 0x00000000#32) reducesTo_S4_S_d0 h_S_)
      (constant (F := Ideal) S_ .f32 0x40800000#32),
    mulf (broadcastInDim S4 ![] bcast_S_S4 (constant (F := Ideal) S_ .f32 0x3DCCCCCD#32))
      (subf (extractStridedSlice S4 ![0] a slices_S8_S4_0) (extractStridedSlice S4 ![0] b slices_S8_S4_0)),
    mulf (broadcastInDim S4 ![] bcast_S_S4 (constant (F := Ideal) S_ .f32 0x3DCCCCCD#32))
      (subf (extractStridedSlice S4 ![4] a slices_S8_S4_4) (extractStridedSlice S4 ![4] b slices_S8_S4_4)) )

section Split
variable {F : FTy → Type} [FloatOps F]

/-- The last stretch's first twelve operations: the reference model's sequence means. -/
abbrev headOps2 : List (HloOp τ sig (Elt F)) :=
  [ StableHlo.reshape main_v22 main_v23 rfl shapeCasts_S4096x1_S4096,
    StableHlo.reshape main_v23 main_v24 rfl shapeCasts_S4096_S8x512,
    StableHlo.unary main_v17 main_v25 (uitofp .f32 : (⟨S8x512, .i1⟩ : BufTy).Contents (Elt F) → (⟨S8x512, .f32⟩ : BufTy).Contents (Elt F)),
    StableHlo.nullary main_cst_5 (constant S_ .f32 0x00000000#32),
    StableHlo.binary main_v25 main_cst_5 main_v26 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    StableHlo.nullary main_cst_6 (constant S_ .f32 0x3F800000#32),
    StableHlo.unary main_cst_6 main_v27 (broadcastInDim S8 ![] bcast_S_S8 : (⟨S_, .f32⟩ : BufTy).Contents (Elt F) → (⟨S8, .f32⟩ : BufTy).Contents (Elt F)),
    StableHlo.binary main_v26 main_v27 main_v28 (maximumf : (⟨S8, .f32⟩ : BufTy).Contents (Elt F) → (⟨S8, .f32⟩ : BufTy).Contents (Elt F) → (⟨S8, .f32⟩ : BufTy).Contents (Elt F)),
    StableHlo.binary main_v24 main_v25 main_v29 (mulf : (⟨S8x512, .f32⟩ : BufTy).Contents (Elt F) → (⟨S8x512, .f32⟩ : BufTy).Contents (Elt F) → (⟨S8x512, .f32⟩ : BufTy).Contents (Elt F)),
    StableHlo.nullary main_cst_7 (constant S_ .f32 0x00000000#32),
    StableHlo.binary main_v29 main_cst_7 main_v30 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    StableHlo.binary main_v30 main_v28 main_v31 (Host.divf : (⟨S8, .f32⟩ : BufTy).Contents (Elt F) → (⟨S8, .f32⟩ : BufTy).Contents (Elt F) → (⟨S8, .f32⟩ : BufTy).Contents (Elt F)) ]

/-- Its remaining forty-two: the tail. -/
abbrev tailOps2 : List (HloOp τ sig (Elt F)) :=
  [ StableHlo.unary main_v15 main_v32 ((extractStridedSlice S4 ![0] · slices_S8_S4_0) : (⟨S8, .f32⟩ : BufTy).Contents (Elt F) → (⟨S4, .f32⟩ : BufTy).Contents (Elt F)),
    StableHlo.unary main_v15 main_v33 ((extractStridedSlice S4 ![4] · slices_S8_S4_4) : (⟨S8, .f32⟩ : BufTy).Contents (Elt F) → (⟨S4, .f32⟩ : BufTy).Contents (Elt F)),
    StableHlo.unary main_v31 main_v34 ((extractStridedSlice S4 ![0] · slices_S8_S4_0) : (⟨S8, .f32⟩ : BufTy).Contents (Elt F) → (⟨S4, .f32⟩ : BufTy).Contents (Elt F)),
    StableHlo.unary main_v31 main_v35 ((extractStridedSlice S4 ![4] · slices_S8_S4_4) : (⟨S8, .f32⟩ : BufTy).Contents (Elt F) → (⟨S4, .f32⟩ : BufTy).Contents (Elt F)),
    StableHlo.binary main_v32 main_v34 main_v36 (subf : (⟨S4, .f32⟩ : BufTy).Contents (Elt F) → (⟨S4, .f32⟩ : BufTy).Contents (Elt F) → (⟨S4, .f32⟩ : BufTy).Contents (Elt F)),
    StableHlo.binary main_v33 main_v35 main_v37 (subf : (⟨S4, .f32⟩ : BufTy).Contents (Elt F) → (⟨S4, .f32⟩ : BufTy).Contents (Elt F) → (⟨S4, .f32⟩ : BufTy).Contents (Elt F)),
    StableHlo.nullary main_cst_8 (constant S_ .f32 0x3DCCCCCD#32),
    StableHlo.unary main_cst_8 main_v38 (broadcastInDim S4 ![] bcast_S_S4 : (⟨S_, .f32⟩ : BufTy).Contents (Elt F) → (⟨S4, .f32⟩ : BufTy).Contents (Elt F)),
    StableHlo.binary main_v38 main_v36 main_v39 (mulf : (⟨S4, .f32⟩ : BufTy).Contents (Elt F) → (⟨S4, .f32⟩ : BufTy).Contents (Elt F) → (⟨S4, .f32⟩ : BufTy).Contents (Elt F)),
    StableHlo.nullary main_cst_9 (constant S_ .f32 0x3DCCCCCD#32),
    StableHlo.unary main_cst_9 main_v40 (broadcastInDim S4 ![] bcast_S_S4 : (⟨S_, .f32⟩ : BufTy).Contents (Elt F) → (⟨S4, .f32⟩ : BufTy).Contents (Elt F)),
    StableHlo.binary main_v40 main_v37 main_v41 (mulf : (⟨S4, .f32⟩ : BufTy).Contents (Elt F) → (⟨S4, .f32⟩ : BufTy).Contents (Elt F) → (⟨S4, .f32⟩ : BufTy).Contents (Elt F)),
    StableHlo.nullary main_cst_10 (constant S_ .f32 0x3DCCCCCD#32),
    StableHlo.unary main_cst_10 main_v42 (broadcastInDim S4 ![] bcast_S_S4 : (⟨S_, .f32⟩ : BufTy).Contents (Elt F) → (⟨S4, .f32⟩ : BufTy).Contents (Elt F)),
    StableHlo.binary main_v42 main_v36 main_v43 (mulf : (⟨S4, .f32⟩ : BufTy).Contents (Elt F) → (⟨S4, .f32⟩ : BufTy).Contents (Elt F) → (⟨S4, .f32⟩ : BufTy).Contents (Elt F)),
    StableHlo.unary main_v43 main_v44 (Host.negf : (⟨S4, .f32⟩ : BufTy).Contents (Elt F) → (⟨S4, .f32⟩ : BufTy).Contents (Elt F)),
    StableHlo.unary main_v44 main_v45 (Host.exp : (⟨S4, .f32⟩ : BufTy).Contents (Elt F) → (⟨S4, .f32⟩ : BufTy).Contents (Elt F)),
    StableHlo.nullary main_cst_11 (constant S_ .f32 0x3F800000#32),
    StableHlo.unary main_cst_11 main_v46 (broadcastInDim S4 ![] bcast_S_S4 : (⟨S_, .f32⟩ : BufTy).Contents (Elt F) → (⟨S4, .f32⟩ : BufTy).Contents (Elt F)),
    StableHlo.binary main_v46 main_v45 main_v47 (addf : (⟨S4, .f32⟩ : BufTy).Contents (Elt F) → (⟨S4, .f32⟩ : BufTy).Contents (Elt F) → (⟨S4, .f32⟩ : BufTy).Contents (Elt F)),
    StableHlo.nullary main_cst_12 (constant S_ .f32 0x3F800000#32),
    StableHlo.unary main_cst_12 main_v48 (broadcastInDim S4 ![] bcast_S_S4 : (⟨S_, .f32⟩ : BufTy).Contents (Elt F) → (⟨S4, .f32⟩ : BufTy).Contents (Elt F)),
    StableHlo.binary main_v48 main_v47 main_v49 (Host.divf : (⟨S4, .f32⟩ : BufTy).Contents (Elt F) → (⟨S4, .f32⟩ : BufTy).Contents (Elt F) → (⟨S4, .f32⟩ : BufTy).Contents (Elt F)),
    StableHlo.nullary main_cst_13 (constant S_ .f32 0x3F800000#32),
    StableHlo.unary main_cst_13 main_v50 (broadcastInDim S4 ![] bcast_S_S4 : (⟨S_, .f32⟩ : BufTy).Contents (Elt F) → (⟨S4, .f32⟩ : BufTy).Contents (Elt F)),
    StableHlo.binary main_v50 main_v49 main_v51 (subf : (⟨S4, .f32⟩ : BufTy).Contents (Elt F) → (⟨S4, .f32⟩ : BufTy).Contents (Elt F) → (⟨S4, .f32⟩ : BufTy).Contents (Elt F)),
    StableHlo.nullary main_cst_14 (constant S_ .f32 0x3DCCCCCD#32),
    StableHlo.unary main_cst_14 main_v52 (broadcastInDim S4 ![] bcast_S_S4 : (⟨S_, .f32⟩ : BufTy).Contents (Elt F) → (⟨S4, .f32⟩ : BufTy).Contents (Elt F)),
    StableHlo.binary main_v52 main_v37 main_v53 (mulf : (⟨S4, .f32⟩ : BufTy).Contents (Elt F) → (⟨S4, .f32⟩ : BufTy).Contents (Elt F) → (⟨S4, .f32⟩ : BufTy).Contents (Elt F)),
    StableHlo.unary main_v53 main_v54 (Host.negf : (⟨S4, .f32⟩ : BufTy).Contents (Elt F) → (⟨S4, .f32⟩ : BufTy).Contents (Elt F)),
    StableHlo.unary main_v54 main_v55 (Host.exp : (⟨S4, .f32⟩ : BufTy).Contents (Elt F) → (⟨S4, .f32⟩ : BufTy).Contents (Elt F)),
    StableHlo.nullary main_cst_15 (constant S_ .f32 0x3F800000#32),
    StableHlo.unary main_cst_15 main_v56 (broadcastInDim S4 ![] bcast_S_S4 : (⟨S_, .f32⟩ : BufTy).Contents (Elt F) → (⟨S4, .f32⟩ : BufTy).Contents (Elt F)),
    StableHlo.binary main_v56 main_v55 main_v57 (addf : (⟨S4, .f32⟩ : BufTy).Contents (Elt F) → (⟨S4, .f32⟩ : BufTy).Contents (Elt F) → (⟨S4, .f32⟩ : BufTy).Contents (Elt F)),
    StableHlo.nullary main_cst_16 (constant S_ .f32 0x3F800000#32),
    StableHlo.unary main_cst_16 main_v58 (broadcastInDim S4 ![] bcast_S_S4 : (⟨S_, .f32⟩ : BufTy).Contents (Elt F) → (⟨S4, .f32⟩ : BufTy).Contents (Elt F)),
    StableHlo.binary main_v58 main_v57 main_v59 (Host.divf : (⟨S4, .f32⟩ : BufTy).Contents (Elt F) → (⟨S4, .f32⟩ : BufTy).Contents (Elt F) → (⟨S4, .f32⟩ : BufTy).Contents (Elt F)),
    StableHlo.binary main_v51 main_v59 main_v60 (addf : (⟨S4, .f32⟩ : BufTy).Contents (Elt F) → (⟨S4, .f32⟩ : BufTy).Contents (Elt F) → (⟨S4, .f32⟩ : BufTy).Contents (Elt F)),
    StableHlo.nullary main_cst_17 (constant S_ .f32 0x00000000#32),
    StableHlo.binary main_v60 main_cst_17 main_v61 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_18 (constant S_ .f32 0x40800000#32),
    StableHlo.binary main_v61 main_cst_18 main_v62 (Host.divf : (⟨S_, .f32⟩ : BufTy).Contents (Elt F) → (⟨S_, .f32⟩ : BufTy).Contents (Elt F) → (⟨S_, .f32⟩ : BufTy).Contents (Elt F)) ]

theorem hostOps2_split : (hostOps2 : List (HloOp τ sig (Elt F))) = headOps2 ++ tailOps2 := rfl

end Split

/-- Running two lines one after the other. -/
theorem after_append' (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- From any contents, the tail's three results are `tailK` of the two means it finds. -/
theorem tail_of (V' : Valuation τ sig (Elt Ideal)) :
    StableHlo.after (tailOps2 (F := Ideal)) V' main_v62 = (tailK (V' main_v15) (V' main_v31)).1
    ∧ StableHlo.after (tailOps2 (F := Ideal)) V' main_v39 = (tailK (V' main_v15) (V' main_v31)).2.1
    ∧ StableHlo.after (tailOps2 (F := Ideal)) V' main_v41 = (tailK (V' main_v15) (V' main_v31)).2.2 := by
  refine ⟨?_, ?_, ?_⟩
  · after_results_simp
    rfl
  · after_results_simp
    rfl
  · after_results_simp
    rfl

/-! ## The two calls' columns, averaged -/

/-- The kept-label bits the host program computes before the first call. -/
theorem v1_apply (b : Fin 8) (t : Fin 512) :
    (V4 m outs c main_v1 : S8x512.Idx → BitVec 1) (ix2 b t) = IntOp.cmpi .ne (aY m c (ix2 b t)) ignoreW := by
  rw [V4_of m outs c main_v1 (by decide), V3_of m c main_v1 (by decide), V2_of m c main_v1 (by decide)]
  dsimp only [V1, V0, hostOps0]
  after_results
  rfl

/-- And again between the calls. -/
theorem v17_apply (b : Fin 8) (t : Fin 512) :
    (V8 m outs c main_v17 : S8x512.Idx → BitVec 1) (ix2 b t) = IntOp.cmpi .ne (aY m c (ix2 b t)) ignoreW := by
  rw [V8_of m outs c main_v17 (by decide), V7_of m outs c main_v17 (by decide), V6_of m outs c main_v17 (by decide)]
  dsimp only [V5, hostOps1]
  after_results
  rw [v4_arg m outs c main_arg2 (by decide) (by decide) (by decide) (by decide)]
  rfl

/-- The policy's sequence means, from the first call's column. -/
theorem v15_eq (hrow : RowOk (aY m c))
    (hP0 : ∀ (b : Fin 8) (t : Fin 512), (outs 4 main_v6 c : S4096x1.Idx → EReal) (ix2 (⟨512 * b.val + t.val, by omega⟩ : Fin 4096) (0 : Fin 1))
      = tokLp (aX m c) (aW m c) (aY m c (ix2 b t)) b t) :
    (V5 m outs c main_v15 : S8.Idx → EReal) = fun i => avgLp (aX m c) (aW m c) (aY m c) (i 0) := by
  dsimp only [V5, hostOps1]
  after_results
  refine Eq.trans ?_ (avg_eq (aX m c) (aW m c) (aY m c) hrow (V4 m outs c main_v6) (V4 m outs c main_v1) ?_ (v1_apply m outs c))
  · rfl
  · intro b t
    rw [show V4 m outs c main_v6 = outs 4 main_v6 c from Function.update_self ..]
    exact hP0 b t

/-- The reference model's sequence means, from the second call's column. -/
theorem v31_eq (hrow : RowOk (aY m c))
    (hP1 : ∀ (b : Fin 8) (t : Fin 512), (outs 8 main_v22 c : S4096x1.Idx → EReal) (ix2 (⟨512 * b.val + t.val, by omega⟩ : Fin 4096) (0 : Fin 1))
      = tokLp (aRX m c) (aRW m c) (aY m c (ix2 b t)) b t) :
    (StableHlo.after (headOps2 (F := Ideal)) (V8 m outs c) main_v31 : S8.Idx → EReal)
      = fun i => avgLp (aRX m c) (aRW m c) (aY m c) (i 0) := by
  dsimp only [headOps2]
  after_results
  refine Eq.trans ?_ (avg_eq (aRX m c) (aRW m c) (aY m c) hrow (V8 m outs c main_v22) (V8 m outs c main_v17) ?_ (v17_apply m outs c))
  · rfl
  · intro b t
    rw [show V8 m outs c main_v22 = outs 8 main_v22 c from Function.update_self ..]
    exact hP1 b t

/-- The first twelve operations leave the policy's means as they find them. -/
theorem head_keeps (V' : Valuation τ sig (Elt Ideal)) :
    StableHlo.after (headOps2 (F := Ideal)) V' main_v15 = V' main_v15 := by
  dsimp only [headOps2]
  after_results

/-! ## The results -/

/-- THE THREE RESULTS: given each call's output column as the per-token log-probabilities, the program's results are the
    tail of the two models' sequence means. -/
theorem results (hrow : RowOk (aY m c))
    (hP0 : ∀ (b : Fin 8) (t : Fin 512), (outs 4 main_v6 c : S4096x1.Idx → EReal) (ix2 (⟨512 * b.val + t.val, by omega⟩ : Fin 4096) (0 : Fin 1))
      = tokLp (aX m c) (aW m c) (aY m c (ix2 b t)) b t)
    (hP1 : ∀ (b : Fin 8) (t : Fin 512), (outs 8 main_v22 c : S4096x1.Idx → EReal) (ix2 (⟨512 * b.val + t.val, by omega⟩ : Fin 4096) (0 : Fin 1))
      = tokLp (aRX m c) (aRW m c) (aY m c (ix2 b t)) b t) :
    V9 m outs c main_v62 = (tailK (fun i => avgLp (aX m c) (aW m c) (aY m c) (i 0)) (fun i => avgLp (aRX m c) (aRW m c) (aY m c) (i 0))).1
    ∧ V9 m outs c main_v39 = (tailK (fun i => avgLp (aX m c) (aW m c) (aY m c) (i 0)) (fun i => avgLp (aRX m c) (aRW m c) (aY m c) (i 0))).2.1
    ∧ V9 m outs c main_v41 = (tailK (fun i => avgLp (aX m c) (aW m c) (aY m c) (i 0)) (fun i => avgLp (aRX m c) (aRW m c) (aY m c) (i 0))).2.2 := by
  have key := tail_of (StableHlo.after (headOps2 (F := Ideal)) (V8 m outs c))
  rw [head_keeps, V8_of m outs c main_v15 (by decide), V7_of m outs c main_v15 (by decide), V6_of m outs c main_v15 (by decide),
    v15_eq m outs c hrow hP0, v31_eq m outs c hrow hP1] at key
  have e : V9 m outs c = StableHlo.after (tailOps2 (F := Ideal)) (StableHlo.after (headOps2 (F := Ideal)) (V8 m outs c)) := by
    show StableHlo.after hostOps2 _ = _
    rw [hostOps2_split, after_append']
  rw [e]
  exact key

end Cert.KernelIdeal.Hand
end
-- ==== Proof.PreFacts.lean ====
/-
  The precondition read back as mathematics. The printed predicate is the conjunction of: for each of the four float
  arrays, "every entry x has max x (−x) < +∞" (so x is neither −∞ nor +∞, a real number); "every label word y is −100,
  or 0 ≤ y and y < 32000 as signed numbers" (so y is the ignore word or its unsigned value is a vocabulary index);
  and "in every row, the number of labels different from −100 is at least 1". Each conjunct is a conjunction over all
  elements of an array of bits, so its being 1 gives the bit 1 at every element; the row count is the sum along a row
  of the widened bits, which is the number of set bits and at most 512, so the signed comparison with 1 is the one
  on natural numbers.
-/
import proofs.«409812_j58909771432349_3_alg».proof.Proof.Gen.Pre_finite_inputs
import proofs.«409812_j58909771432349_3_alg».proof.Proof.Spec
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx Cert.Pre_finite_inputs

instance subS_ : Subsingleton S_.Idx := ⟨fun a b => funext fun d => d.elim0⟩

/-- The f32 word 0x7F800000 denotes +∞. -/
theorem inf_bits : Ideal.ofBits .f32 0x7F800000#32 = (⊤ : EReal) := by
  simp [Ideal.ofBits, Ideal.ieee]

/-- An extended real whose absolute value max x (−x) lies strictly below +∞ is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [inf_bits] at h
  change Ideal.cmp .olt (max x (-x)) ⊤ = 1#1 at h
  simp only [Ideal.cmp, StableHlo.Predicate.ofBool_eq_one_iff, decide_eq_true_eq] at h
  induction x using EReal.rec with
  | bot => simp at h
  | top => simp at h
  | coe r => exact ⟨r, rfl⟩

/-- If the conjunction over all entries of |A| < +∞ holds, every entry of A is real. -/
theorem finV_of_all {s : Shape} {axes : List (Fin s.rank)} (A : FVec Ideal s .f32) (hb : S_.BroadcastsInDim s (![] : Fin 0 → Fin s.rank))
    (hr : s.ReducesTo axes S_) (h0 : 0 < S_.numel)
    (h : Host.reduce IntOp.andi (cmpf .olt (Host.absf A) (broadcastInDim s ![] hb (constant (F := Ideal) S_ .f32 0x7F800000#32)))
      (constantI S_ 1 1#1) hr h0 ix0 = 1#1) : Cert.Spec.FinV A := by
  intro i
  have e := Host.reduce_andi_all _ _ hr h0 ix0 h i
  exact real_of_abs_lt (A i) e

/-- A 32-bit word that is at least 0 and below 32000 as a signed number has unsigned value below 32000. -/
theorem word_in_vocab (y : BitVec 32) (h0 : IntOp.cmpi .sge y 0#32 = 1#1) (h1 : IntOp.cmpi .slt y 32000#32 = 1#1) :
    y.toNat < 32000 := by
  rw [IntOp.cmpi_sge] at h0
  rw [IntOp.cmpi_slt] at h1
  have e0 : (0#32 : BitVec 32).toInt = 0 := by decide
  have e1 : (32000#32 : BitVec 32).toInt = 32000 := by decide
  rw [e0] at h0
  rw [e1] at h1
  rw [BitVec.toInt_eq_toNat_cond] at h0 h1
  have hy := y.isLt
  split at h0 <;> split at h1 <;> omega

/-- If every label passes (y = −100) ∨ (0 ≤ y ∧ y < 32000), every label is the ignore word or a vocabulary index. -/
theorem labelOk_of_all (a2 : IVec S8x512 32) (hb : S_.BroadcastsInDim S8x512 (![] : Fin 0 → Fin S8x512.rank))
    (hr : S8x512.ReducesTo [0, 1] S_) (h0 : 0 < S_.numel)
    (h : Host.reduce IntOp.andi
          (ori (cmpi CmpIPredicate.eq a2 (broadcastInDim S8x512 ![] hb (constantI S_ 32 4294967196#32)))
            (andi (cmpi CmpIPredicate.sge a2 (broadcastInDim S8x512 ![] hb (constantI S_ 32 0#32)))
              (cmpi CmpIPredicate.slt a2 (broadcastInDim S8x512 ![] hb (constantI S_ 32 32000#32)))))
          (constantI S_ 1 1#1) hr h0 ix0 = 1#1) : Cert.Spec.LabelOk a2 := by
  intro i
  have e := Host.reduce_andi_all _ _ hr h0 ix0 h i
  change IntOp.ori (IntOp.cmpi .eq (a2 i) 4294967196#32)
    (IntOp.andi (IntOp.cmpi .sge (a2 i) 0#32) (IntOp.cmpi .slt (a2 i) 32000#32)) = 1#1 at e
  rw [IntOp.ori_eq_one, IntOp.andi_eq_one, IntOp.cmpi_eq] at e
  rcases e with e | ⟨e0, e1⟩
  · exact Or.inl e
  · exact Or.inr (word_in_vocab _ e0 e1)

/-- The two ways of writing row p, column q of a rectangle agree. -/
theorem ij_eq_ix2 {n m : Nat} (p : Fin n) (q : Fin m) : StableHlo.Predicate.ij p q = ix2 p q := by
  funext d
  match d with
  | ⟨0, _⟩ => rfl
  | ⟨1, _⟩ => rfl

/-- If in every row the number of labels different from −100 is at least 1 (signed), every row keeps a label. -/
theorem rowOk_of_all (a2 : IVec S8x512 32) (hb : S_.BroadcastsInDim S8x512 (![] : Fin 0 → Fin S8x512.rank)) (hw : 1 < 32)
    (hr1 : S8x512.ReducesTo [1] S8) (h0 : 0 < S_.numel) (hb8 : S_.BroadcastsInDim S8 (![] : Fin 0 → Fin S8.rank))
    (hr2 : S8.ReducesTo [0] S_)
    (h : Host.reduce IntOp.andi
        (cmpi CmpIPredicate.sge
          (Host.reduce IntOp.addi
            (extui 32 (cmpi CmpIPredicate.ne a2 (broadcastInDim S8x512 ![] hb (constantI S_ 32 4294967196#32))) hw)
            (constantI S_ 32 0#32) hr1 h0)
          (broadcastInDim S8 ![] hb8 (constantI S_ 32 1#32)))
        (constantI S_ 1 1#1) hr2 h0 ix0 = 1#1) : Cert.Spec.RowOk a2 := by
  intro b
  have e := Host.reduce_andi_all _ _ hr2 h0 ix0 h (ix1 b)
  change IntOp.cmpi .sge (Host.reduce IntOp.addi
            (extui 32 (cmpi CmpIPredicate.ne a2 (broadcastInDim S8x512 ![] hb (constantI S_ 32 4294967196#32))) hw)
            (constantI S_ 32 0#32) hr1 h0 (ix1 b)) 1#32 = 1#1 at e
  rw [IntOp.cmpi_sge] at e
  have hc := StableHlo.Predicate.toNat_reduce_count_cols (n := 8) (m := 512) (by decide)
    (cmpi CmpIPredicate.ne a2 (broadcastInDim S8x512 ![] hb (constantI S_ 32 4294967196#32))) hw hr1 h0 (ix1 b)
  have hcard : (Finset.univ.filter (fun q : Fin 512 =>
      cmpi CmpIPredicate.ne a2 (broadcastInDim S8x512 ![] hb (constantI S_ 32 4294967196#32))
        (StableHlo.Predicate.ij (ix1 b 0) q) = 1#1)).card = Cert.Spec.count a2 b := by
    unfold Cert.Spec.count
    refine congrArg Finset.card (Finset.filter_congr (fun q _ => ?_))
    change IntOp.cmpi .ne (a2 (StableHlo.Predicate.ij b q)) 4294967196#32 = 1#1 ↔ a2 (ix2 b q) ≠ Cert.Spec.ignoreW
    rw [IntOp.cmpi_ne, ij_eq_ix2]
  rw [hcard] at hc
  have hle : Cert.Spec.count a2 b ≤ 512 := by
    unfold Cert.Spec.count
    exact le_trans (Finset.card_filter_le _ _) (by simp)
  have e1 : (1#32 : BitVec 32).toInt = 1 := by decide
  rw [e1, BitVec.toInt_eq_toNat_cond, hc] at e
  split at e <;> omega

/-- THE PRECONDITION DECODED: all four float arrays hold real numbers, every label is −100 or a vocabulary index, and
    every row has a label that is not −100. -/
theorem of_pre [Cert.Pre_finite_inputs.Facts]
    (a0 a1 : FVec Ideal Cert.Pre_finite_inputs.S8x512x4096 .f32) (a2 : IVec Cert.Pre_finite_inputs.S8x512 32)
    (a3 a4 : FVec Ideal Cert.Pre_finite_inputs.S32000x4096 .f32)
    (h : Cert.Pre_finite_inputs.fn (F := Ideal) a0 a1 a2 a3 a4 = fun _ => 1#1) :
    Cert.Spec.FinV a0 ∧ Cert.Spec.FinV a1 ∧ Cert.Spec.FinV a3 ∧ Cert.Spec.FinV a4 ∧ Cert.Spec.LabelOk a2 ∧ Cert.Spec.RowOk a2 := by
  have e := congrFun h ix0
  unfold Cert.Pre_finite_inputs.fn Cert.Pre_finite_inputs.fn_part1 Cert.Pre_finite_inputs.fn_part2 at e
  simp only [andi, IntOp.andi_eq_one] at e
  obtain ⟨⟨⟨⟨⟨h0, h1⟩, h3⟩, h4⟩, hl⟩, hrow⟩ := e
  exact ⟨finV_of_all a0 _ _ _ h0, finV_of_all a1 _ _ _ h1, finV_of_all a3 _ _ _ h3, finV_of_all a4 _ _ _ h4,
    labelOk_of_all a2 _ _ _ hl, rowOk_of_all a2 _ _ _ _ _ _ hrow⟩

end Cert.PreFacts
end
-- ==== Proof.RefTok.lean ====
/-
  The reference's per-token part, read index by index. For token (b, t) with logits z = logit X W b t: the product of
  row (b, t) of x with the rows of w gives z; the two maxima from −∞ give rowMax z; subtracting it, exponentiating,
  summing over the vocabulary and taking the logarithm give the log-softmax (z v − rowMax z) − log Σ exp (z v' − rowMax z).
  The label with 0 in place of the ignore value is below 32000: it is not negative as a signed word, so it is not
  shifted, it lies in [0, 31999], and the take reads the log-softmax at it, which is gold z y − lse z. The mask bit
  as a number is keep y; at the ignore value both sides are a product with 0.
-/
import proofs.«409812_j58909771432349_3_alg».proof.Proof.RefRead
import proofs.«409812_j58909771432349_3_alg».proof.Proof.Spec
import proofs.«409812_j58909771432349_3_alg».proof.Proof.LseMath
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

noncomputable section

open scoped BigOperators

namespace Cert.RefSide

open Cert.Spec Idealize.ShloMosaic Idealize.ShloMosaic.ValueIdx Cert.ReferenceIdeal Cert.ReferenceIdeal.Gen Cert.ReferenceIdeal.ReadP Idealize.ShloMosaic.StableHlo

namespace Tok
/-- Dropping the vocabulary axis of [8, 512, 32000] leaves [8, 512]. -/
theorem redsV : S8x512x32000.Reduces [2] S8x512 := by decide

/-- Token (b, t) with vocabulary coordinate k put back is (b, t, k). -/
theorem liftV (b : Fin 8) (t : Fin 512) (k : Fin (S8x512x32000.size 2)) :
    redsV.lift (ix2 b t) k = ix3 b t (⟨k.val, k.isLt⟩ : Fin 32000) := by
  funext c; apply Fin.ext
  match c with
  | ⟨0, _⟩ => rfl
  | ⟨1, _⟩ => rfl
  | ⟨2, _⟩ => rfl

/-- The f32 pattern of −∞ is the bottom element. -/
theorem ofBits_negInf : Ideal.ofBits .f32 0xFF800000#32 = (⊥ : EReal) := by
  simp [Ideal.ofBits, Ideal.ieee]

/-- The reduce by maximum from −∞ over the vocabulary axis, at token (b, t), is the fold of max from −∞ over that row. -/
theorem max_read (L : (⟨S8x512x32000, .f32⟩ : BufTy).Contents (Elt Ideal)) (b : Fin 8) (t : Fin 512) :
    Host.reduce (FloatOps.maximumf (F := Ideal)) L (constant (F := Ideal) S_ .f32 0xFF800000#32) reducesTo_S8x512x32000_S8x512_d2 h_S_ (ix2 b t)
      = (Finset.univ : Finset (Fin 32000)).fold max ⊥ (fun v => L (ix3 b t v)) := by
  refine (Host.reduce_eq_fold_single (FloatOps.maximumf (F := Ideal) (φ := .f32)) L (constant (F := Ideal) S_ .f32 0xFF800000#32)
    reducesTo_S8x512x32000_S8x512_d2 redsV h_S_ (ix2 b t)).trans ?_
  have hf : (L ∘ redsV.lift (ix2 b t)) = fun k : Fin 32000 => L (ix3 b t k) := funext fun k => congrArg L (liftV b t k)
  have hi : (constant (F := Ideal) S_ .f32 0xFF800000#32) (Shape.Idx.first h_S_) = (⊥ : EReal) := ofBits_negInf
  rw [hi]
  exact congrArg (fun f => Finset.fold max (⊥ : EReal) f (Finset.univ : Finset (Fin 32000))) hf

/-- The take's dimension numbers: the vocabulary axis collapsed and indexed, the token axes batching. -/
abbrev GD := gather_S8x512x32000_S8x512x1x1_S8x512x1_n_2_01_01_2_3_111

/-- On a batching axis the operand's coordinate is the result's. -/
theorem bc0 (j : S8x512x1.Idx) : GD.batchCoord j (0 : Fin 3) = (j 0).val := by with_unfolding_all rfl
theorem bc1 (j : S8x512x1.Idx) : GD.batchCoord j (1 : Fin 3) = (j 1).val := by with_unfolding_all rfl

/-- The gather along the vocabulary axis, batched over the token axes: result (b, t, 0) is the operand at (b, t, c), c the start index
    at (b, t, 0, 0) read signed and clamped into [0, 31999]. -/
theorem gather_read {α : Type} (A : S8x512x32000.Idx → α) (I : IVec S8x512x1x1 32) (b : Fin 8) (t : Fin 512) :
    Host.gather GD A I (ix3 b t (0 : Fin 1))
      = A (ix3 b t (⟨min (I (ix4 b t (0 : Fin 1) (0 : Fin 1))).toInt.toNat 31999, by omega⟩ : Fin 32000)) := by
  have h0 : GD.start (ix3 b t (0 : Fin 1)) I (0 : Fin 3) + GD.batchCoord (ix3 b t (0 : Fin 1)) (0 : Fin 3) + GD.offCoord (ix3 b t (0 : Fin 1)) (0 : Fin 3) = b.val := by
    rw [GatherDims.start_batching _ _ _ _ (by decide), GatherDims.offCoord_eq_zero _ _ _ (by decide), Nat.zero_add, Nat.add_zero, bc0]
  have h1 : GD.start (ix3 b t (0 : Fin 1)) I (1 : Fin 3) + GD.batchCoord (ix3 b t (0 : Fin 1)) (1 : Fin 3) + GD.offCoord (ix3 b t (0 : Fin 1)) (1 : Fin 3) = t.val := by
    rw [GatherDims.start_batching _ _ _ _ (by decide), GatherDims.offCoord_eq_zero _ _ _ (by decide), Nat.zero_add, Nat.add_zero, bc1]
  have h2 : GD.start (ix3 b t (0 : Fin 1)) I (2 : Fin 3) + GD.batchCoord (ix3 b t (0 : Fin 1)) (2 : Fin 3) + GD.offCoord (ix3 b t (0 : Fin 1)) (2 : Fin 3)
      = min (I (ix4 b t (0 : Fin 1) (0 : Fin 1))).toInt.toNat 31999 := by
    rw [GatherDims.batchCoord_eq_zero _ _ _ (by decide), GatherDims.offCoord_eq_zero _ _ _ (by decide)]
    simp only [Nat.add_zero]
    unfold GatherDims.start
    rw [dif_pos (show (2 : Fin 3) ∈ GD.startIndexMap by decide)]
    have hsi : GD.siIdx (ix3 b t (0 : Fin 1)) ⟨List.idxOf (2 : Fin 3) GD.startIndexMap, List.idxOf_lt_length_iff.2 (by decide)⟩
        = ix4 b t (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl
  unfold Host.gather
  congr 1
  funext a
  refine Fin.ext ?_
  match a with
  | ⟨0, _⟩ => exact h0
  | ⟨1, _⟩ => exact h1
  | ⟨2, _⟩ => exact h2

instance andi_comm1 : Std.Commutative (IntOp.andi (w := 1)) := ⟨BitVec.and_comm⟩
instance andi_assoc1 : Std.Associative (IntOp.andi (w := 1)) := ⟨BitVec.and_assoc⟩

/-- Dropping the last axis of [8, 512, 1, 1] leaves [8, 512, 1]. -/
theorem redsU : S8x512x1x1.Reduces [3] S8x512x1 := by decide

/-- A fold over one index meets one element. -/
theorem fold_fin_one {β : Type} (op : β → β → β) [Std.Commutative op] [Std.Associative op] (b0 : β) (g : Fin 1 → β) :
    Finset.fold op b0 g Finset.univ = op (g 0) b0 := by
  rw [show (Finset.univ : Finset (Fin 1)) = {0} from rfl, Finset.fold_singleton]

/-- The reduce by "and" from 1 over a last axis of extent one is the one word it meets. -/
theorem and_read (P : IVec S8x512x1x1 1) (b : Fin 8) (t : Fin 512) :
    Host.reduce IntOp.andi P (constantI S_ 1 1#1) reducesTo_S8x512x1x1_S8x512x1_d3 h_S_ (ix3 b t (0 : Fin 1))
      = P (ix4 b t (0 : Fin 1) (0 : Fin 1)) := by
  refine (Host.reduce_eq_fold_single IntOp.andi P (constantI S_ 1 1#1) reducesTo_S8x512x1x1_S8x512x1_d3 redsU h_S_ (ix3 b t (0 : Fin 1))).trans ?_
  refine (fold_fin_one IntOp.andi _ (P ∘ redsU.lift (ix3 b t (0 : Fin 1)))).trans ?_
  have hl : redsU.lift (ix3 b t (0 : Fin 1)) (0 : Fin 1) = ix4 b t (0 : Fin 1) (0 : Fin 1) := by
    funext c; apply Fin.ext
    match c with
    | ⟨0, _⟩ => rfl
    | ⟨1, _⟩ => rfl
    | ⟨2, _⟩ => rfl
    | ⟨3, _⟩ => rfl
  show IntOp.andi (P (redsU.lift (ix3 b t (0 : Fin 1)) (0 : Fin 1))) 1#1 = _
  rw [hl]
  generalize P (ix4 b t (0 : Fin 1) (0 : Fin 1)) = p
  revert p; decide

/-- The label word the take reads through: 0 in place of the ignore value. -/
def ysafe (y : BitVec 32) : BitVec 32 := Scalar.select (IntOp.cmpi .ne y ignoreW) y 0#32

theorem ne_bit (y : BitVec 32) : IntOp.cmpi .ne y ignoreW = if y = ignoreW then 0#1 else 1#1 := by
  unfold IntOp.cmpi
  by_cases h : y = ignoreW
  · rw [if_pos h, h]; rfl
  · rw [if_neg h]
    have hb : (y != ignoreW) = true := bne_iff_ne.2 h
    show BitVec.ofBool (y != ignoreW) = 1#1
    rw [hb]; rfl

theorem ysafe_eq (y : BitVec 32) : ysafe y = if y = ignoreW then 0#32 else y := by
  unfold ysafe
  rw [ne_bit]
  by_cases h : y = ignoreW
  · rw [if_pos h, if_pos h]; exact select_zero _ _
  · rw [if_neg h, if_neg h]; exact select_one _ _

theorem ysafe_lt {y : BitVec 32} (hy : y = ignoreW ∨ y.toNat < 32000) : (ysafe y).toNat < 32000 := by
  rw [ysafe_eq]
  by_cases h : y = ignoreW
  · rw [if_pos h]; decide
  · rw [if_neg h]; exact hy.resolve_left h

/-- A word below 32000 is not negative as a signed word. -/
theorem slt_zero_small {w : BitVec 32} (hw : w.toNat < 32000) : IntOp.cmpi .slt w 0#32 = 0#1 := by
  apply eq_zero_of_ne_one
  intro h
  have := (Predicate.slt_iff_toNat (a := w) (b := 0#32) (by omega) (by decide)).1 h
  simp at this

theorem sge_zero_small {w : BitVec 32} (hw : w.toNat < 32000) : IntOp.cmpi .sge w 0#32 = 1#1 :=
  (Predicate.sge_iff_toNat (a := w) (b := 0#32) (by omega) (by decide)).2 (by simp)

theorem sle_top_small {w : BitVec 32} (hw : w.toNat < 32000) : IntOp.cmpi .sle w 31999#32 = 1#1 :=
  (Predicate.sle_iff_toNat (a := w) (b := 31999#32) (by omega) (by decide)).2 (by
    show w.toNat ≤ (31999#32 : BitVec 32).toNat
    have : (31999#32 : BitVec 32).toNat = 31999 := by decide
    omega)

theorem toInt_small {w : BitVec 32} (hw : w.toNat < 32000) : min w.toInt.toNat 31999 = w.toNat := by
  rw [BitVec.toInt_eq_toNat_cond]
  split
  · simp only [Int.toNat_natCast]; omega
  · omega

/-- A kept-label bit as a float is the keep factor. -/
theorem keep_bit (y : BitVec 32) : FloatOps.uitofp (F := Ideal) .f32 (IntOp.cmpi .ne y ignoreW) = keep y := by
  rw [ne_bit]
  unfold keep
  by_cases h : y = ignoreW
  · rw [if_pos h, if_pos h]
    show (((0#1 : BitVec 1).toNat : ℝ) : EReal) = 0
    simp
  · rw [if_neg h, if_neg h]
    show (((1#1 : BitVec 1).toNat : ℝ) : EReal) = 1
    simp

section Pol

variable (x0 : SX.Idx → EReal) (x2 : SY.Idx → BitVec 32) (x3 : SW.Idx → EReal)

/-- The product's element at (b, t, v) is the logit. -/
theorem v0_at (b : Fin 8) (t : Fin 512) (v : Fin 32000) :
    val_main_v0 (F := Ideal) x0 x3 (ix3 b t v) = logit x0 x3 b t v := by
  rw [val_main_v0_apply]
  unfold logit
  refine Finset.sum_congr rfl fun k _ => ?_
  have el : lidx_main_v0 (ix3 b t v) k = ix3 b t k := by
    funext a; match a with | ⟨0, _⟩ => rfl | ⟨1, _⟩ => rfl | ⟨2, _⟩ => rfl
  have er : ridx_main_v0 (ix3 b t v) k = ix2 v k := by
    funext a; match a with | ⟨0, _⟩ => rfl | ⟨1, _⟩ => rfl
  rw [el, er]

/-- The broadcast −∞. -/
theorem bot_at (i : S8x512.Idx) : val_main_call0_v1 (F := Ideal) i = (⊥ : EReal) := by
  rw [val_main_call0_v1_apply, val_main_call0_cst_0_apply]; exact ofBits_negInf

/-- The row's maximum. -/
theorem max_at (b : Fin 8) (t : Fin 512) :
    val_main_call0_v2 (F := Ideal) x0 x3 (ix2 b t) = rowMax (logit x0 x3 b t) := by
  rw [val_main_call0_v2_apply, bot_at]
  show max (⊥ : EReal) (val_main_call0_v0 (F := Ideal) x0 x3 (ix2 b t)) = _
  rw [max_bot_left]
  unfold val_main_call0_v0 val_main_call0_cst
  rw [max_read]
  unfold rowMax
  exact congrArg (fun f => Finset.fold max (⊥ : EReal) f Finset.univ) (funext fun v => v0_at x0 x3 b t v)

theorem max_bc_at (b : Fin 8) (t : Fin 512) (v : Fin 32000) :
    val_main_call0_v4 (F := Ideal) x0 x3 (ix3 b t v) = rowMax (logit x0 x3 b t) := by
  rw [val_main_call0_v4_apply, val_main_call0_v3_apply]
  have e : idx_main_call0_v3 (idx_main_call0_v4 (ix3 b t v)) = ix2 b t := by
    funext a; match a with | ⟨0, _⟩ => rfl | ⟨1, _⟩ => rfl
  rw [e, max_at]

/-- The shifted logit. -/
theorem shift_at (b : Fin 8) (t : Fin 512) (v : Fin 32000) :
    val_main_call0_v5 (F := Ideal) x0 x3 (ix3 b t v) = logit x0 x3 b t v - rowMax (logit x0 x3 b t) := by
  rw [val_main_call0_v5_apply, v0_at, max_bc_at, Ideal.subf_def]

/-- The sum of the exponentials of the shifted logits. -/
theorem sum_at (b : Fin 8) (t : Fin 512) :
    val_main_call0_v7 (F := Ideal) x0 x3 (ix2 b t)
      = ∑ v : Fin 32000, Ideal.exp (logit x0 x3 b t v - rowMax (logit x0 x3 b t)) := by
  rw [val_main_call0_v7_apply, val_main_call0_cst_1_apply]
  show Ideal.ofBits .f32 0x00000000#32 + _ = _
  rw [Ideal.ofBits_zero_f32, zero_add]
  refine Finset.sum_congr rfl fun k _ => ?_
  have e : idx_main_call0_v7 (ix2 b t) k = ix3 b t k := by
    funext a; match a with | ⟨0, _⟩ => rfl | ⟨1, _⟩ => rfl | ⟨2, _⟩ => rfl
  rw [e, val_main_call0_v6_apply, shift_at, Ideal.hostUnary_exp_def]

theorem log_bc_at (b : Fin 8) (t : Fin 512) (v : Fin 32000) :
    val_main_call0_v10 (F := Ideal) x0 x3 (ix3 b t v)
      = Ideal.log (∑ v' : Fin 32000, Ideal.exp (logit x0 x3 b t v' - rowMax (logit x0 x3 b t))) := by
  rw [val_main_call0_v10_apply, val_main_call0_v9_apply, val_main_call0_v8_apply]
  have e : idx_main_call0_v8 (idx_main_call0_v10 (ix3 b t v)) = ix2 b t := by
    funext a; match a with | ⟨0, _⟩ => rfl | ⟨1, _⟩ => rfl
  rw [e, sum_at, Ideal.hostUnary_log_def]

/-- The log-softmax at (b, t, v): the shifted logit less the log of the sum. -/
theorem lsm_at (b : Fin 8) (t : Fin 512) (v : Fin 32000) :
    val_main_v1 (F := Ideal) x0 x3 (ix3 b t v)
      = (logit x0 x3 b t v - rowMax (logit x0 x3 b t))
        - Ideal.log (∑ v' : Fin 32000, Ideal.exp (logit x0 x3 b t v' - rowMax (logit x0 x3 b t))) := by
  rw [val_main_v1_apply, shift_at, log_bc_at, Ideal.subf_def]

/-- The mask bit. -/
theorem mask_at (b : Fin 8) (t : Fin 512) :
    val_main_v3 (F := Ideal) x2 (ix2 b t) = IntOp.cmpi .ne (x2 (ix2 b t)) ignoreW := by
  rw [val_main_v3_apply, val_main_v2_apply, val_main_c_apply]

theorem safe_at (b : Fin 8) (t : Fin 512) : val_main_v4 (F := Ideal) x2 (ix2 b t) = ysafe (x2 (ix2 b t)) := by
  rw [val_main_v4_apply, mask_at, val_main_call1_v1_apply, val_main_call1_v0_apply, val_main_c_0_apply]; rfl

theorem safe3_at (b : Fin 8) (t : Fin 512) :
    val_main_v5 (F := Ideal) x2 (ix3 b t (0 : Fin 1)) = ysafe (x2 (ix2 b t)) := by
  rw [val_main_v5_apply]
  have e : idx_main_v5 (ix3 b t (0 : Fin 1)) = ix2 b t := by
    funext a; match a with | ⟨0, _⟩ => rfl | ⟨1, _⟩ => rfl
  rw [e, safe_at]

/-- A label below 32000 is not shifted. -/
theorem wrap_at (b : Fin 8) (t : Fin 512) (h : (ysafe (x2 (ix2 b t))).toNat < 32000) :
    val_main_call2_v4 (F := Ideal) x2 (ix3 b t (0 : Fin 1)) = ysafe (x2 (ix2 b t)) := by
  rw [val_main_call2_v4_apply, val_main_call2_v1_apply, safe3_at, val_main_call2_v0_apply, val_main_call2_c_apply,
    slt_zero_small h]
  exact select_zero _ _

theorem start_at (b : Fin 8) (t : Fin 512) (h : (ysafe (x2 (ix2 b t))).toNat < 32000) :
    val_main_call2_v5 (F := Ideal) x2 (ix4 b t (0 : Fin 1) (0 : Fin 1)) = ysafe (x2 (ix2 b t)) := by
  rw [val_main_call2_v5_apply]
  have e : idx_main_call2_v5 (ix4 b t (0 : Fin 1) (0 : Fin 1)) = ix3 b t (0 : Fin 1) := by
    funext a; apply Fin.ext
    have hb := b.isLt; have ht := t.isLt
    match a with
    | ⟨0, _⟩ => show (((b.val * 512 + t.val) * 1 + 0) * 1 + 0) / 512 = b.val; omega
    | ⟨1, _⟩ => show (((b.val * 512 + t.val) * 1 + 0) * 1 + 0) / 1 % 512 = t.val; omega
    | ⟨2, _⟩ => rfl
  rw [e, wrap_at x2 b t h]

/-- A label below 32000 is in the vocabulary's range. -/
theorem inrange_at (b : Fin 8) (t : Fin 512) (h : (ysafe (x2 (ix2 b t))).toNat < 32000) :
    val_main_call2_v12 (F := Ideal) x2 (ix3 b t (0 : Fin 1)) = 1#1 := by
  unfold val_main_call2_v12 val_main_call2_c_3
  rw [and_read, val_main_call2_v11_apply, val_main_call2_v7_apply, val_main_call2_v10_apply, start_at x2 b t h,
    val_main_call2_v6_apply, val_main_call2_c_2_apply, val_main_call2_v9_apply, val_main_call2_v8_apply,
    val_main_call2_c_1_apply, sge_zero_small h, sle_top_small h]
  rfl

/-- The take reads the log-softmax at the label. -/
theorem take_at (b : Fin 8) (t : Fin 512) (h : (ysafe (x2 (ix2 b t))).toNat < 32000) :
    val_main_call2_v13 (F := Ideal) x0 x2 x3 (ix3 b t (0 : Fin 1))
      = val_main_v1 (F := Ideal) x0 x3 (ix3 b t (⟨(ysafe (x2 (ix2 b t))).toNat, h⟩ : Fin 32000)) := by
  unfold val_main_call2_v13
  rw [gather_read]
  refine congrArg (val_main_v1 (F := Ideal) x0 x3) (congrArg (ix3 b t) (Fin.ext ?_))
  show min (val_main_call2_v5 (F := Ideal) x2 (ix4 b t (0 : Fin 1) (0 : Fin 1))).toInt.toNat 31999 = (ysafe (x2 (ix2 b t))).toNat
  rw [start_at x2 b t h]; exact toInt_small h

theorem picked_at (b : Fin 8) (t : Fin 512) (h : (ysafe (x2 (ix2 b t))).toNat < 32000) :
    val_main_v7 (F := Ideal) x0 x2 x3 (ix2 b t)
      = val_main_v1 (F := Ideal) x0 x3 (ix3 b t (⟨(ysafe (x2 (ix2 b t))).toNat, h⟩ : Fin 32000)) := by
  rw [val_main_v7_apply]
  have e : idx_main_v7 (ix2 b t) = ix3 b t (0 : Fin 1) := by
    funext a; apply Fin.ext
    have hb := b.isLt; have ht := t.isLt
    match a with
    | ⟨0, _⟩ => show (b.val * 512 + t.val) / 512 = b.val; omega
    | ⟨1, _⟩ => show (b.val * 512 + t.val) / 1 % 512 = t.val; omega
    | ⟨2, _⟩ => rfl
  rw [e, val_main_v6_apply, inrange_at x2 b t h, take_at x0 x2 x3 b t h]
  exact select_one _ _

theorem keepf_at (b : Fin 8) (t : Fin 512) : val_main_v8 (F := Ideal) x2 (ix2 b t) = keep (x2 (ix2 b t)) := by
  rw [val_main_v8_apply, mask_at]; exact keep_bit _

end Pol

end Tok

open Tok

section Pol

variable (x0 : SX.Idx → EReal) (x2 : SY.Idx → BitVec 32) (x3 : SW.Idx → EReal)

/-- The reference's masked per-token log-probability. -/
theorem tok_pol (hX : FinV x0) (hW : FinV x3) (hL : LabelOk x2) (b : Fin 8) (t : Fin 512) :
    val_main_v9 (F := Ideal) x0 x2 x3 (ix2 b t) = tokLp x0 x3 (x2 (ix2 b t)) b t * keep (x2 (ix2 b t)) := by
  have hz : ∀ v, ∃ r : ℝ, logit x0 x3 b t v = (r : EReal) := fun v => LseMath.logit_real hX hW b t v
  have hs : (ysafe (x2 (ix2 b t))).toNat < 32000 := ysafe_lt (hL (ix2 b t))
  rw [val_main_v9_apply, picked_at x0 x2 x3 b t hs, keepf_at, lsm_at]
  show (_ - _ - _) * _ = _
  rw [LseMath.ref_form (logit x0 x3 b t) hz (ysafe (x2 (ix2 b t))) hs]
  unfold tokLp
  by_cases h : x2 (ix2 b t) = ignoreW
  · have hk : keep (x2 (ix2 b t)) = 0 := by unfold keep; rw [if_pos h]
    rw [hk, mul_zero, mul_zero]
  · rw [ysafe_eq, if_neg h]

end Pol

section Ref

variable (x1 : SX.Idx → EReal) (x2 : SY.Idx → BitVec 32) (x4 : SW.Idx → EReal)

/-- The second half of the program is the first half on the other pair of arrays. -/
theorem ref_same : val_main_v24 (F := Ideal) x1 x2 x4 = val_main_v9 (F := Ideal) x1 x2 x4 := rfl

/-- The reference's masked per-token log-probability on the second pair of arrays. -/
theorem tok_ref (hX : FinV x1) (hW : FinV x4) (hL : LabelOk x2) (b : Fin 8) (t : Fin 512) :
    val_main_v24 (F := Ideal) x1 x2 x4 (ix2 b t) = tokLp x1 x4 (x2 (ix2 b t)) b t * keep (x2 (ix2 b t)) := by
  rw [ref_same]; exact tok_pol x1 x2 x4 hX hW hL b t

end Ref

end Cert.RefSide

end
-- ==== Proof.RefAvg.lean ====
/-
  The reference's last stretch: from the per-token products (a token's log-probability times its keep bit) to the
  three results. A sequence's score is the sum of its products over the number of kept labels; the loss and the two
  reward vectors are one fixed composition of the two score vectors (the policy's and the frozen model's).
-/
import proofs.«409812_j58909771432349_3_alg».proof.Proof.RefRead
import proofs.«409812_j58909771432349_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate
import Idealize.ShloMosaic.Lib.StableHlo.Run

noncomputable section

open scoped BigOperators

namespace Cert.RefSide

open Cert.Spec Idealize.ShloMosaic Idealize.ShloMosaic.ValueIdx Cert.ReferenceIdeal Cert.ReferenceIdeal.Gen Cert.ReferenceIdeal.ReadP
open Idealize.ShloMosaic.TcCoe Idealize.SL.Sem Idealize.ShloMosaic.StableHlo

/-- The compare-not-equal bit against the ignore word is set exactly on a kept label. -/
theorem ne_bit_iff (y : BitVec 32) : IntOp.cmpi .ne y ignoreW = 1#1 ↔ y ≠ ignoreW := by
  simp only [IntOp.cmpi, StableHlo.Predicate.ofBool_eq_one_iff, bne_iff_ne]

/-- Summing the widened bits of an 8 × 512 mask along its second axis counts, at row b, the set bits of row b. -/
theorem count_mask (mask : IVec S8x512 1) (b : Fin 8) :
    (Host.reduce IntOp.addi (extui 32 mask natLt_1_32) (constantI S_ 32 0#32) reducesTo_S8x512_S8_d1 h_S_ (ix1 b)).toNat
      = (Finset.univ.filter fun t : Fin 512 => mask (ix2 b t) = 1#1).card := by
  rw [StableHlo.Predicate.toNat_reduce_count_cols (n := 8) (m := 512) (by norm_num) mask natLt_1_32 reducesTo_S8x512_S8_d1 h_S_ (ix1 b)]
  refine congrArg Finset.card (Finset.filter_congr fun t _ => ?_)
  have e : StableHlo.Predicate.ij ((ix1 b : (⟨1, ![8]⟩ : Shape).Idx) 0) t = ix2 b t := by
    funext d; match d with | ⟨0, _⟩ => rfl | ⟨1, _⟩ => rfl
  exact iff_of_eq (congrArg (fun x => mask x = 1#1) e)

/-- A word whose value is a natural number below 2³¹ converts, read signed, to that number. -/
theorem sitofp_of_toNat (w : BitVec 32) (n : ℕ) (hn : w.toNat = n) (hlt : n < 2 ^ 31) :
    FloatOps.sitofp (F := Ideal) .f32 w = (((n : ℕ) : ℝ) : EReal) := by
  show (((w.toInt : ℤ) : ℝ) : EReal) = _
  rw [StableHlo.Predicate.toInt_eq_toNat_of_lt (by omega), hn]
  simp

/-- The mask's count at row b is the number of kept labels of sequence b. -/
theorem count_word (Y : IVec S8x512 32) (b : Fin 8) :
    (Host.reduce IntOp.addi (extui 32 (cmpi .ne Y (broadcastInDim S8x512 ![] bcast_S_S8x512 (constantI S_ 32 4294967196#32))) natLt_1_32)
      (constantI S_ 32 0#32) reducesTo_S8x512_S8_d1 h_S_ (ix1 b)).toNat = Cert.Spec.count Y b := by
  rw [count_mask]
  unfold Cert.Spec.count
  refine congrArg Finset.card (Finset.filter_congr fun t _ => ?_)
  have hb : (broadcastInDim S8x512 ![] bcast_S_S8x512 (constantI S_ 32 4294967196#32) : IVec S8x512 32) (ix2 b t) = ignoreW :=
    StableHlo.Predicate.bcast_scalar bcast_S_S8x512 h_S_ (constantI S_ 32 4294967196#32) (ix2 b t)
  show IntOp.cmpi .ne (Y (ix2 b t)) _ = 1#1 ↔ _
  rw [hb]
  exact ne_bit_iff _

theorem count_le (Y : SY.Idx → BitVec 32) (b : Fin 8) : Cert.Spec.count Y b ≤ 512 := by
  unfold Cert.Spec.count
  exact (Finset.card_le_univ _).trans (by simp)

/-- The float sum of an 8 × 512 block along its second axis from zero is, at row b, the sum of row b. -/
theorem rowsum (P : FVec Ideal S8x512 .f32) (b : Fin 8) :
    Host.reduceAdd (F := Ideal) P (constant (F := Ideal) S_ .f32 0x00000000#32) reducesTo_S8x512_S8_d1 h_S_ (ix1 b)
      = ∑ t : Fin 512, P (ix2 b t) := by
  simp only [Host.reduceAdd, Ideal.hostReduceAdd_def]
  rw [Ideal.hostReduceAdd_single reducesTo_S8x512_S8_d1 (by decide)]
  rw [show (constant (F := Ideal) S_ .f32 0x00000000#32) (Shape.Idx.first h_S_) = (0 : EReal) from Ideal.ofBits_zero_f32, zero_add]
  refine Finset.sum_congr rfl fun k _ => ?_
  exact congrArg P (funext fun a => Fin.ext (by match a with | ⟨0, _⟩ => rfl | ⟨1, _⟩ => rfl))

/-- The row sum of a block over the count of kept labels, at row b. -/
theorem avg_word (P : FVec Ideal S8x512 .f32) (Y : IVec S8x512 32) (b : Fin 8) :
    Host.divf (F := Ideal) (Host.reduceAdd (F := Ideal) P (constant (F := Ideal) S_ .f32 0x00000000#32) reducesTo_S8x512_S8_d1 h_S_)
      (sitofp .f32 (Host.reduce IntOp.addi (extui 32 (cmpi .ne Y (broadcastInDim S8x512 ![] bcast_S_S8x512 (constantI S_ 32 4294967196#32))) natLt_1_32)
        (constantI S_ 32 0#32) reducesTo_S8x512_S8_d1 h_S_)) (ix1 b)
      = Ideal.div (∑ t : Fin 512, P (ix2 b t)) (((Cert.Spec.count Y b : ℕ) : ℝ) : EReal) := by
  show Ideal.div (Host.reduceAdd (F := Ideal) P (constant (F := Ideal) S_ .f32 0x00000000#32) reducesTo_S8x512_S8_d1 h_S_ (ix1 b))
      (FloatOps.sitofp (F := Ideal) .f32 (Host.reduce IntOp.addi (extui 32 (cmpi .ne Y (broadcastInDim S8x512 ![] bcast_S_S8x512 (constantI S_ 32 4294967196#32))) natLt_1_32)
        (constantI S_ 32 0#32) reducesTo_S8x512_S8_d1 h_S_ (ix1 b))) = _
  rw [rowsum, sitofp_of_toNat _ _ (count_word Y b) (lt_of_le_of_lt (count_le Y b) (by norm_num))]

/-- The loss and the two reward vectors as a function of the two score vectors: with d the chosen-half difference
    a[0:4] − b[0:4] and e the rejected-half difference a[4:8] − b[4:8], the rewards are 0.1·d and 0.1·e and the loss is
    the mean over the four pairs of (1 − 1/(1 + exp(−0.1·d))) + 1/(1 + exp(−0.1·e)). -/
def tailR (a b : FVec Ideal S8 .f32) : FVec Ideal S_ .f32 × FVec Ideal S4 .f32 × FVec Ideal S4 .f32 :=
  (Host.divf (Host.reduceAdd (addf (subf (broadcastInDim S4 ![] bcast_S_S4 (constant (F := Ideal) S_ .f32 0x3F800000#32)) (Host.divf (broadcastInDim S4 ![] bcast_S_S4 (constant (F := Ideal) S_ .f32 0x3F800000#32)) (addf (broadcastInDim S4 ![] bcast_S_S4 (constant (F := Ideal) S_ .f32 0x3F800000#32)) (Host.exp (Host.negf (mulf (broadcastInDim S4 ![] bcast_S_S4 (constant (F := Ideal) S_ .f32 0x3DCCCCCD#32)) (subf (extractStridedSlice S4 ![0] a slices_S8_S4_0) (extractStridedSlice S4 ![0] b slices_S8_S4_0)))))))) (Host.divf (broadcastInDim S4 ![] bcast_S_S4 (constant (F := Ideal) S_ .f32 0x3F800000#32)) (addf (broadcastInDim S4 ![] bcast_S_S4 (constant (F := Ideal) S_ .f32 0x3F800000#32)) (Host.exp (Host.negf (mulf (broadcastInDim S4 ![] bcast_S_S4 (constant (F := Ideal) S_ .f32 0x3DCCCCCD#32)) (subf (extractStridedSlice S4 ![4] a slices_S8_S4_4) (extractStridedSlice S4 ![4] b slices_S8_S4_4)))))))) (constant (F := Ideal) S_ .f32 0x00000000#32) reducesTo_S4_S_d0 h_S_) (constant (F := Ideal) S_ .f32 0x40800000#32),
   mulf (broadcastInDim S4 ![] bcast_S_S4 (constant (F := Ideal) S_ .f32 0x3DCCCCCD#32)) (subf (extractStridedSlice S4 ![0] a slices_S8_S4_0) (extractStridedSlice S4 ![0] b slices_S8_S4_0)),
   mulf (broadcastInDim S4 ![] bcast_S_S4 (constant (F := Ideal) S_ .f32 0x3DCCCCCD#32)) (subf (extractStridedSlice S4 ![4] a slices_S8_S4_4) (extractStridedSlice S4 ![4] b slices_S8_S4_4)))

/-- The three last stages are that composition of the two score stages. -/
theorem stages_eq_tailR (x0 x1 : (⟨S8x512x4096, .f32⟩ : BufTy).Contents (Elt Ideal)) (x2 : (⟨S8x512, .i32⟩ : BufTy).Contents (Elt Ideal))
    (x3 x4 : (⟨S32000x4096, .f32⟩ : BufTy).Contents (Elt Ideal)) :
    (val_main_v60 (F := Ideal) x0 x1 x2 x3 x4, val_main_v37 (F := Ideal) x0 x1 x2 x3 x4, val_main_v39 (F := Ideal) x0 x1 x2 x3 x4)
      = tailR (val_main_v14 (F := Ideal) x0 x2 x3) (val_main_v29 (F := Ideal) x1 x2 x4) := rfl

/-- The policy's score stage at sequence b: the sum of its per-token products over its count of kept labels. -/
theorem v14_at (x0 : (⟨S8x512x4096, .f32⟩ : BufTy).Contents (Elt Ideal)) (x2 : (⟨S8x512, .i32⟩ : BufTy).Contents (Elt Ideal))
    (x3 : (⟨S32000x4096, .f32⟩ : BufTy).Contents (Elt Ideal)) (b : Fin 8) :
    val_main_v14 (F := Ideal) x0 x2 x3 (ix1 b)
      = Ideal.div (∑ t : Fin 512, val_main_v9 (F := Ideal) x0 x2 x3 (ix2 b t)) (((Cert.Spec.count x2 b : ℕ) : ℝ) : EReal) :=
  avg_word (val_main_v9 (F := Ideal) x0 x2 x3) x2 b

/-- The frozen model's score stage at sequence b, likewise. -/
theorem v29_at (x1 : (⟨S8x512x4096, .f32⟩ : BufTy).Contents (Elt Ideal)) (x2 : (⟨S8x512, .i32⟩ : BufTy).Contents (Elt Ideal))
    (x4 : (⟨S32000x4096, .f32⟩ : BufTy).Contents (Elt Ideal)) (b : Fin 8) :
    val_main_v29 (F := Ideal) x1 x2 x4 (ix1 b)
      = Ideal.div (∑ t : Fin 512, val_main_v24 (F := Ideal) x1 x2 x4 (ix2 b t)) (((Cert.Spec.count x2 b : ℕ) : ℝ) : EReal) :=
  avg_word (val_main_v24 (F := Ideal) x1 x2 x4) x2 b

/-- With the per-token products read as log-probability times keep bit, the policy's score stage is the mean
    log-probability of each sequence. -/
theorem v14_eq_avgLp (X : (⟨S8x512x4096, .f32⟩ : BufTy).Contents (Elt Ideal)) (Y : (⟨S8x512, .i32⟩ : BufTy).Contents (Elt Ideal))
    (W : (⟨S32000x4096, .f32⟩ : BufTy).Contents (Elt Ideal))
    (hT0 : ∀ (b : Fin 8) (t : Fin 512), val_main_v9 (F := Ideal) X Y W (ix2 b t) = tokLp X W (Y (ix2 b t)) b t * keep (Y (ix2 b t))) :
    val_main_v14 (F := Ideal) X Y W = fun i => avgLp X W Y (i 0) := by
  funext i
  obtain ⟨b, rfl⟩ : ∃ b : Fin 8, i = ix1 b := ⟨i 0, eq_ix1 i⟩
  rw [v14_at]
  show _ = avgLp X W Y b
  unfold avgLp
  exact congrArg (fun s => Ideal.div s _) (Finset.sum_congr rfl fun t _ => hT0 b t)

theorem v29_eq_avgLp (RX : (⟨S8x512x4096, .f32⟩ : BufTy).Contents (Elt Ideal)) (Y : (⟨S8x512, .i32⟩ : BufTy).Contents (Elt Ideal))
    (RW : (⟨S32000x4096, .f32⟩ : BufTy).Contents (Elt Ideal))
    (hT1 : ∀ (b : Fin 8) (t : Fin 512), val_main_v24 (F := Ideal) RX Y RW (ix2 b t) = tokLp RX RW (Y (ix2 b t)) b t * keep (Y (ix2 b t))) :
    val_main_v29 (F := Ideal) RX Y RW = fun i => avgLp RX RW Y (i 0) := by
  funext i
  obtain ⟨b, rfl⟩ : ∃ b : Fin 8, i = ix1 b := ⟨i 0, eq_ix1 i⟩
  rw [v29_at]
  show _ = avgLp RX RW Y b
  unfold avgLp
  exact congrArg (fun s => Ideal.div s _) (Finset.sum_congr rfl fun t _ => hT1 b t)

/-- The reference's three results are the fixed composition of the two mean-log-probability vectors. -/
theorem results (m : (ℓ : Loc nD τ sig) → Buf (Elt Ideal) ℓ) (c : Dev nD)
    (hrow : RowOk (m ((c.tc : Thread nD τ).loc main_arg2)))
    (hT0 : ∀ (b : Fin 8) (t : Fin 512),
      val_main_v9 (F := Ideal) (m ((c.tc : Thread nD τ).loc main_arg0)) (m ((c.tc : Thread nD τ).loc main_arg2)) (m ((c.tc : Thread nD τ).loc main_arg3)) (ix2 b t)
        = tokLp (m ((c.tc : Thread nD τ).loc main_arg0)) (m ((c.tc : Thread nD τ).loc main_arg3)) ((m ((c.tc : Thread nD τ).loc main_arg2)) (ix2 b t)) b t
          * keep ((m ((c.tc : Thread nD τ).loc main_arg2)) (ix2 b t)))
    (hT1 : ∀ (b : Fin 8) (t : Fin 512),
      val_main_v24 (F := Ideal) (m ((c.tc : Thread nD τ).loc main_arg1)) (m ((c.tc : Thread nD τ).loc main_arg2)) (m ((c.tc : Thread nD τ).loc main_arg4)) (ix2 b t)
        = tokLp (m ((c.tc : Thread nD τ).loc main_arg1)) (m ((c.tc : Thread nD τ).loc main_arg4)) ((m ((c.tc : Thread nD τ).loc main_arg2)) (ix2 b t)) b t
          * keep ((m ((c.tc : Thread nD τ).loc main_arg2)) (ix2 b t))) :
    Cert.ReferenceIdeal.ValueP.res_main_v60 m c
        = (tailR (fun i => avgLp (m ((c.tc : Thread nD τ).loc main_arg0)) (m ((c.tc : Thread nD τ).loc main_arg3)) (m ((c.tc : Thread nD τ).loc main_arg2)) (i 0))
            (fun i => avgLp (m ((c.tc : Thread nD τ).loc main_arg1)) (m ((c.tc : Thread nD τ).loc main_arg4)) (m ((c.tc : Thread nD τ).loc main_arg2)) (i 0))).1
      ∧ Cert.ReferenceIdeal.ValueP.res_main_v37 m c
        = (tailR (fun i => avgLp (m ((c.tc : Thread nD τ).loc main_arg0)) (m ((c.tc : Thread nD τ).loc main_arg3)) (m ((c.tc : Thread nD τ).loc main_arg2)) (i 0))
            (fun i => avgLp (m ((c.tc : Thread nD τ).loc main_arg1)) (m ((c.tc : Thread nD τ).loc main_arg4)) (m ((c.tc : Thread nD τ).loc main_arg2)) (i 0))).2.1
      ∧ Cert.ReferenceIdeal.ValueP.res_main_v39 m c
        = (tailR (fun i => avgLp (m ((c.tc : Thread nD τ).loc main_arg0)) (m ((c.tc : Thread nD τ).loc main_arg3)) (m ((c.tc : Thread nD τ).loc main_arg2)) (i 0))
            (fun i => avgLp (m ((c.tc : Thread nD τ).loc main_arg1)) (m ((c.tc : Thread nD τ).loc main_arg4)) (m ((c.tc : Thread nD τ).loc main_arg2)) (i 0))).2.2 := by
  have h := stages_eq_tailR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
  rw [v14_eq_avgLp _ _ _ hT0, v29_eq_avgLp _ _ _ hT1] at h
  exact ⟨(val_main_v60_eq m c).trans (congrArg (fun p => p.1) h), (val_main_v37_eq m c).trans (congrArg (fun p => p.2.1) h),
    (val_main_v39_eq m c).trans (congrArg (fun p => p.2.2) h)⟩

end Cert.RefSide

end
-- ==== Proof.Bridge.lean ====
/-
  The two idealized programs compute the same three numbers. On the kernel's side the two pallas calls leave, row by
  row, each token's log-probability (the online log-sum-exp of LseMath), which the host lines average over the kept
  tokens; on the reference's side the same averages come from log_softmax and take_along_axis; from the two vectors of
  eight averages on, both programs run the same forty-two operations.
-/
import proofs.«409812_j58909771432349_3_alg».proof.Defs
import proofs.«409812_j58909771432349_3_alg».proof.Proof.KI.Run
import proofs.«409812_j58909771432349_3_alg».proof.Proof.KI.Tok0
import proofs.«409812_j58909771432349_3_alg».proof.Proof.KI.Tok1
import proofs.«409812_j58909771432349_3_alg».proof.Proof.KI.Tail
import proofs.«409812_j58909771432349_3_alg».proof.Proof.PreFacts
import proofs.«409812_j58909771432349_3_alg».proof.Proof.RefTok
import proofs.«409812_j58909771432349_3_alg».proof.Proof.RefAvg

noncomputable section

namespace Cert.Bridge

open Idealize.ShloMosaic Idealize.ShloMosaic.TcCoe Idealize.SL.Sem Idealize.ShloMosaic.ValueIdx Cert.Spec

/-- From the two vectors of averages on, the kernel's host lines and the reference's are the same operations. -/
theorem tails_eq (a b : FVec Ideal Cert.KernelIdeal.S8 .f32) :
    Cert.KernelIdeal.Hand.tailK a b = Cert.RefSide.tailR a b := rfl

section Kernel
open Cert.KernelIdeal Cert.KernelIdeal.Gen Cert.KernelIdeal.Hand

variable (m : (ℓ : Loc nD τ sig) → Buf (Elt Ideal) ℓ)

/-- What the precondition says of the kernel program's argument arrays on core `c`. -/
theorem pre_facts (hpre : Cert.Pre_KernelIdeal (hPre_finite_inputs := Cert.Pre_finite_inputs.Gen.facts) m) (c : Dev nD) :
    FinV (aX m c) ∧ FinV (aRX m c) ∧ FinV (aW m c) ∧ FinV (aRW m c) ∧ LabelOk (aY m c) ∧ RowOk (aY m c) :=
  Cert.PreFacts.of_pre _ _ _ _ _ (hpre c)

/-- The kernel program's three results, as the common tail of the two averaged vectors. -/
theorem kernel_vals (hpre : Cert.Pre_KernelIdeal (hPre_finite_inputs := Cert.Pre_finite_inputs.Gen.facts) m) (c : Dev nD) :
    V9 m (outsOf m) c main_v62 = (Cert.RefSide.tailR (fun i => avgLp (aX m c) (aW m c) (aY m c) (i 0)) (fun i => avgLp (aRX m c) (aRW m c) (aY m c) (i 0))).1
    ∧ V9 m (outsOf m) c main_v39 = (Cert.RefSide.tailR (fun i => avgLp (aX m c) (aW m c) (aY m c) (i 0)) (fun i => avgLp (aRX m c) (aRW m c) (aY m c) (i 0))).2.1
    ∧ V9 m (outsOf m) c main_v41 = (Cert.RefSide.tailR (fun i => avgLp (aX m c) (aW m c) (aY m c) (i 0)) (fun i => avgLp (aRX m c) (aRW m c) (aY m c) (i 0))).2.2 := by
  obtain ⟨hX, hRX, hW, hRW, hL, hrow⟩ := pre_facts m hpre c
  have h := results m (outsOf m) c hrow
    (fun b t => by rw [outsOf_4]; exact tok_final0 m (outsOf m) c hX hW b t)
    (fun b t => by rw [outsOf_8]; exact Cert.KernelIdeal.HandB.tok_final1 m (outsOf m) c hRX hRW b t)
  obtain ⟨h1, h2, h3⟩ := h
  exact ⟨h1.trans (congrArg (fun p => p.1) (tails_eq _ _)), h2.trans (congrArg (fun p => p.2.1) (tails_eq _ _)),
    h3.trans (congrArg (fun p => p.2.2) (tails_eq _ _))⟩

end Kernel

section Reference
open Cert.ReferenceIdeal Cert.ReferenceIdeal.Gen Cert.ReferenceIdeal.ReadP

variable (m' : (ℓ : Loc nD τ sig) → Buf (Elt Ideal) ℓ)

/-- The reference program's three results, as the same tail of the same two averaged vectors of ITS argument arrays. -/
theorem ref_vals (c : Dev nD)
    (hX : FinV (m' ((c.tc : Thread nD τ).loc main_arg0))) (hRX : FinV (m' ((c.tc : Thread nD τ).loc main_arg1)))
    (hW : FinV (m' ((c.tc : Thread nD τ).loc main_arg3))) (hRW : FinV (m' ((c.tc : Thread nD τ).loc main_arg4)))
    (hL : LabelOk (m' ((c.tc : Thread nD τ).loc main_arg2))) (hrow : RowOk (m' ((c.tc : Thread nD τ).loc main_arg2))) :
    Cert.ReferenceIdeal.ValueP.res_main_v60 m' c
        = (Cert.RefSide.tailR (fun i => avgLp (m' ((c.tc : Thread nD τ).loc main_arg0)) (m' ((c.tc : Thread nD τ).loc main_arg3)) (m' ((c.tc : Thread nD τ).loc main_arg2)) (i 0))
            (fun i => avgLp (m' ((c.tc : Thread nD τ).loc main_arg1)) (m' ((c.tc : Thread nD τ).loc main_arg4)) (m' ((c.tc : Thread nD τ).loc main_arg2)) (i 0))).1
    ∧ Cert.ReferenceIdeal.ValueP.res_main_v37 m' c
        = (Cert.RefSide.tailR (fun i => avgLp (m' ((c.tc : Thread nD τ).loc main_arg0)) (m' ((c.tc : Thread nD τ).loc main_arg3)) (m' ((c.tc : Thread nD τ).loc main_arg2)) (i 0))
            (fun i => avgLp (m' ((c.tc : Thread nD τ).loc main_arg1)) (m' ((c.tc : Thread nD τ).loc main_arg4)) (m' ((c.tc : Thread nD τ).loc main_arg2)) (i 0))).2.1
    ∧ Cert.ReferenceIdeal.ValueP.res_main_v39 m' c
        = (Cert.RefSide.tailR (fun i => avgLp (m' ((c.tc : Thread nD τ).loc main_arg0)) (m' ((c.tc : Thread nD τ).loc main_arg3)) (m' ((c.tc : Thread nD τ).loc main_arg2)) (i 0))
            (fun i => avgLp (m' ((c.tc : Thread nD τ).loc main_arg1)) (m' ((c.tc : Thread nD τ).loc main_arg4)) (m' ((c.tc : Thread nD τ).loc main_arg2)) (i 0))).2.2 :=
  Cert.RefSide.results m' c hrow
    (fun b t => Cert.RefSide.tok_pol _ _ _ hX hW hL b t)
    (fun b t => Cert.RefSide.tok_ref _ _ _ hRX hRW hL b t)

end Reference

end Cert.Bridge

end
-- ==== Proof.lean ====
/-
  The certificate: the three frames, the (empty) idealization ledger, and the equality of results over the extended
  reals. Both kernel programs run by the same argument (the pipeline's launch with, per pallas call, an invariant that
  carries the online log-sum-exp columns from grid point to grid point); their frames are that run with the results
  dropped. The reference runs by its generated straight-line run. Under the precondition — finite activations and
  weights, labels in {−100} ∪ [0, 32000), every sequence keeping a label — both programs' results are the same function
  of the two vectors of mean log-probabilities (Bridge).
-/
import proofs.«409812_j58909771432349_3_alg».proof.Defs
import proofs.«409812_j58909771432349_3_alg».proof.Proof.Gen.Kernel
import proofs.«409812_j58909771432349_3_alg».proof.Proof.Gen.KernelIdeal
import proofs.«409812_j58909771432349_3_alg».proof.Proof.Gen.ReferenceIdeal
import proofs.«409812_j58909771432349_3_alg».proof.Proof.Gen.Pre_finite_inputs
import proofs.«409812_j58909771432349_3_alg».proof.Proof.Frames
import proofs.«409812_j58909771432349_3_alg».proof.Proof.Frames2
import proofs.«409812_j58909771432349_3_alg».proof.Proof.Bridge

noncomputable section

namespace Cert.Proof

open Idealize.ShloMosaic Idealize.ShloMosaic.TcCoe Idealize.SL.Sem

/-- With memories that agree on the arguments, the idealized kernel and the idealized reference end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V9 m (Cert.KernelIdeal.Hand.outsOf m) c Cert.KernelIdeal.main_v62,
    fun c => Cert.KernelIdeal.Gen.V9 m (Cert.KernelIdeal.Hand.outsOf m) c Cert.KernelIdeal.main_v39,
    fun c => Cert.KernelIdeal.Gen.V9 m (Cert.KernelIdeal.Hand.outsOf m) c Cert.KernelIdeal.main_v41,
    Cert.KernelIdeal.Hand.run_vals (F := Ideal) m ρ, ?_⟩
  refine (θ_run Cert.ReferenceIdeal.defs _ _).mono (fun _ h c => ?_) (Cert.ReferenceIdeal.ValueP.run (F := Ideal) m' ρ')
  obtain ⟨h60, h37, h39, hargs⟩ := h c
  obtain ⟨k62, k39, k41⟩ := Cert.Bridge.kernel_vals m hpre c
  obtain ⟨hX, hRX, hW, hRW, hL, hrow⟩ := Cert.Bridge.pre_facts m hpre c
  obtain ⟨e0, e1, e2, e3, e4⟩ := hagree c
  obtain ⟨r60, r37, r39⟩ := Cert.Bridge.ref_vals m' c (by rw [e0]; exact hX) (by rw [e1]; exact hRX) (by rw [e3]; exact hW)
    (by rw [e4]; exact hRW) (by rw [e2]; exact hL) (by rw [e2]; exact hrow)
  rw [e0, e1, e2, e3, e4] at r60 r37 r39
  exact ⟨h60.trans (r60.trans k62.symm), h37.trans (r37.trans k39.symm), h39.trans (r39.trans k41.symm), hargs⟩

theorem claim : Cert.Claim := ⟨Cert.Kernel.Gen.facts, Cert.KernelIdeal.Gen.facts, Cert.ReferenceIdeal.Gen.facts, Cert.Pre_finite_inputs.Gen.facts,
  Cert.Proof.frame_k, Cert.Proof.frame_ki, Cert.Proof.frame_ri, trivial, Cert.Proof.algebraic⟩

end Cert.Proof

end
